-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x80x28x28 : Shape := ⟨4, ![100, 80, 28, 28]⟩
abbrev S133x256x512 : Shape := ⟨3, ![133, 256, 512]⟩
abbrev S100x4 : Shape := ⟨2, ![100, 4]⟩
abbrev S100 : Shape := ⟨1, ![100]⟩
abbrev S_ : Shape := ⟨0, ![]⟩

class Facts : Prop where
  bcast_S_S100x80x28x28 : S_.BroadcastsInDim S100x80x28x28 (![] : Fin 0 → Fin S100x80x28x28.rank)
  reducesTo_S100x80x28x28_S_d0_1_2_3 : S100x80x28x28.ReducesTo [0, 1, 2, 3] S_
  h_S_ : 0 < S_.numel
  bcast_S_S133x256x512 : S_.BroadcastsInDim S133x256x512 (![] : Fin 0 → Fin S133x256x512.rank)
  reducesTo_S133x256x512_S_d0_1_2 : S133x256x512.ReducesTo [0, 1, 2] S_
  bcast_S_S100x4 : S_.BroadcastsInDim S100x4 (![] : Fin 0 → Fin S100x4.rank)
  reducesTo_S100x4_S_d0_1 : S100x4.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg3 : IVec S100 32) (main_v13 : IVec S_ 1) (main_v15 : IVec S100 1) (main_c_5 : IVec S_ 32) : IVec S_ 1 :=
  let main_v16 : IVec S100 32 := broadcastInDim S100 ![] bcast_S_S100 main_c_5
  let main_v17 : IVec S100 1 := cmpi .slt main_arg3 main_v16
  let main_v18 : IVec S100 1 := andi main_v15 main_v17
  let main_c_6 : IVec S_ 1 := constantI S_ 1 1#1
  let main_v19 : IVec S_ 1 := (fun x v => Host.reduce IntOp.andi x v reducesTo_S100_S_d0 h_S_) main_v18 main_c_6
  let main_v20 : IVec S_ 1 := andi main_v13 main_v19
  main_v20

def fn {F : FTy → Type} [FloatOps F] (main_arg0 : FVec F S100x80x28x28 .f32) (main_arg1 : FVec F S133x256x512 .f32) (main_arg2 : FVec F S100x4 .f32) (main_arg3 : IVec S100 32) : IVec S_ 1 :=
  let main_v0 : FVec F S100x80x28x28 .f32 := Host.absf main_arg0
  let main_cst : FVec F S_ .f32 := constant S_ .f32 0x7F800000#32
  let main_v1 : FVec F S100x80x28x28 .f32 := broadcastInDim S100x80x28x28 ![] bcast_S_S100x80x28x28 main_cst
  let main_v2 : IVec S100x80x28x28 1 := cmpf .olt main_v0 main_v1
  let main_c : IVec S_ 1 := constantI S_ 1 1#1
  let main_v3 : IVec S_ 1 := (fun x v => Host.reduce IntOp.andi x v reducesTo_S100x80x28x28_S_d0_1_2_3 h_S_) main_v2 main_c
  let main_v4 : FVec F S133x256x512 .f32 := Host.absf main_arg1
  let main_cst_0 : FVec F S_ .f32 := constant S_ .f32 0x7F800000#32
  let main_v5 : FVec F S133x256x512 .f32 := broadcastInDim S133x256x512 ![] bcast_S_S133x256x512 main_cst_0
  let main_v6 : IVec S133x256x512 1 := cmpf .olt main_v4 main_v5
  let main_c_1 : IVec S_ 1 := constantI S_ 1 1#1
  let main_v7 : IVec S_ 1 := (fun x v => Host.reduce IntOp.andi x v reducesTo_S133x256x512_S_d0_1_2 h_S_) main_v6 main_c_1
  let main_v8 : IVec S_ 1 := andi main_v3 main_v7
  let main_v9 : FVec F S100x4 .f32 := Host.absf main_arg2
  let main_cst_2 : FVec F S_ .f32 := constant S_ .f32 0x7F800000#32
  let main_v10 : FVec F S100x4 .f32 := broadcastInDim S100x4 ![] bcast_S_S100x4 main_cst_2
  let main_v11 : IVec S100x4 1 := cmpf .olt main_v9 main_v10
  let main_c_3 : IVec S_ 1 := constantI S_ 1 1#1
  let main_v12 : IVec S_ 1 := (fun x v => Host.reduce IntOp.andi x v reducesTo_S100x4_S_d0_1 h_S_) main_v11 main_c_3
  let main_v13 : IVec S_ 1 := andi main_v8 main_v12
  let main_c_4 : IVec S_ 32 := constantI S_ 32 0#32
  let main_v14 : IVec S100 32 := broadcastInDim S100 ![] bcast_S_S100 main_c_4
  let main_v15 : IVec S100 1 := cmpi .sge main_arg3 main_v14
  let main_c_5 : IVec S_ 32 := constantI S_ 32 80#32
  fn_part1 (F := F) main_arg3 main_v13 main_v15 main_c_5
-- ==== Kernel.lean ====
abbrev S100x80x28x28 : Shape := ⟨4, ![100, 80, 28, 28]⟩
abbrev S133x256x512 : Shape := ⟨3, ![133, 256, 512]⟩
abbrev S100x4 : Shape := ⟨2, ![100, 4]⟩
abbrev S100 : Shape := ⟨1, ![100]⟩
abbrev S_ : Shape := ⟨0, ![]⟩
abbrev S100x1 : Shape := ⟨2, ![100, 1]⟩
abbrev S256 : Shape := ⟨1, ![256]⟩
abbrev S512 : Shape := ⟨1, ![512]⟩
abbrev S1x256 : Shape := ⟨2, ![1, 256]⟩
abbrev S100x256 : Shape := ⟨2, ![100, 256]⟩
abbrev S1x512 : Shape := ⟨2, ![1, 512]⟩
abbrev S100x512 : Shape := ⟨2, ![100, 512]⟩
abbrev S28 : Shape := ⟨1, ![28]⟩
abbrev S1x1x28 : Shape := ⟨3, ![1, 1, 28]⟩
abbrev S100x256x1 : Shape := ⟨3, ![100, 256, 1]⟩
abbrev S100x256x28 : Shape := ⟨3, ![100, 256, 28]⟩
abbrev S1x28x1 : Shape := ⟨3, ![1, 28, 1]⟩
abbrev S100x1x512 : Shape := ⟨3, ![100, 1, 512]⟩
abbrev S100x28x512 : Shape := ⟨3, ![100, 28, 512]⟩
abbrev S153x256x512 : Shape := ⟨3, ![153, 256, 512]⟩
abbrev S1x1x28x28 : Shape := ⟨4, ![1, 1, 28, 28]⟩
abbrev S1 : Shape := ⟨1, ![1]⟩
abbrev S1x256x28 : Shape := ⟨3, ![1, 256, 28]⟩
abbrev S1x28x512 : Shape := ⟨3, ![1, 28, 512]⟩
abbrev S1x256x512 : Shape := ⟨3, ![1, 256, 512]⟩
abbrev S256x512 : Shape := ⟨2, ![256, 512]⟩
abbrev S28x28 : Shape := ⟨2, ![28, 28]⟩
abbrev S256x28 : Shape := ⟨2, ![256, 28]⟩
abbrev S28x512 : Shape := ⟨2, ![28, 512]⟩
abbrev S1x153x256x512 : Shape := ⟨4, ![1, 153, 256, 512]⟩

abbrev nBuf : Space → Nat
  | .hbm => 204
  | .vmem => 10
  | .smem => 5
  | _ => 0

abbrev hbmTy0_0 (i : Nat) : BufTy := match i % 128 with
  | 0 => ⟨S100x80x28x28, .f32⟩
  | 1 => ⟨S133x256x512, .f32⟩
  | 2 => ⟨S100x4, .f32⟩
  | 3 => ⟨S_, .f32⟩
  | 4 => ⟨S100x4, .f32⟩
  | 5 => ⟨S100x4, .f32⟩
  | 6 => ⟨S100x4, .f32⟩
  | 7 => ⟨S100x4, .i32⟩
  | 8 => ⟨S100x1, .i32⟩
  | 9 => ⟨S100, .i32⟩
  | 10 => ⟨S100x1, .i32⟩
  | 11 => ⟨S100, .i32⟩
  | 12 => ⟨S100x1, .i32⟩
  | 13 => ⟨S100, .i32⟩
  | 14 => ⟨S100x1, .i32⟩
  | 15 => ⟨S100, .i32⟩
  | 16 => ⟨S100, .i32⟩
  | 17 => ⟨S_, .i32⟩
  | 18 => ⟨S100, .i32⟩
  | 19 => ⟨S100, .i32⟩
  | 20 => ⟨S100, .f32⟩
  | 21 => ⟨S100, .i32⟩
  | 22 => ⟨S_, .i32⟩
  | 23 => ⟨S100, .i32⟩
  | 24 => ⟨S100, .i32⟩
  | 25 => ⟨S100, .f32⟩
  | 26 => ⟨S256, .i32⟩
  | 27 => ⟨S512, .i32⟩
  | 28 => ⟨S1x256, .i32⟩
  | 29 => ⟨S100x1, .i32⟩
  | 30 => ⟨S100x256, .i32⟩
  | 31 => ⟨S100x256, .i32⟩
  | 32 => ⟨S100x256, .i32⟩
  | 33 => ⟨S1x512, .i32⟩
  | 34 => ⟨S100x1, .i32⟩
  | 35 => ⟨S100x512, .i32⟩
  | 36 => ⟨S100x512, .i32⟩
  | 37 => ⟨S100x512, .i32⟩
  | 38 => ⟨S_, .i32⟩
  | 39 => ⟨S100x256, .i32⟩
  | 40 => ⟨S100x256, .i1⟩
  | 41 => ⟨S100, .i32⟩
  | 42 => ⟨S_, .i32⟩
  | 43 => ⟨S100, .i32⟩
  | 44 => ⟨S100, .i32⟩
  | 45 => ⟨S100x1, .i32⟩
  | 46 => ⟨S100x256, .i32⟩
  | 47 => ⟨S100x256, .i1⟩
  | 48 => ⟨S100x256, .i1⟩
  | 49 => ⟨S_, .i32⟩
  | 50 => ⟨S100x512, .i32⟩
  | 51 => ⟨S100x512, .i1⟩
  | 52 => ⟨S100, .i32⟩
  | 53 => ⟨S_, .i32⟩
  | 54 => ⟨S100, .i32⟩
  | 55 => ⟨S100, .i32⟩
  | 56 => ⟨S100x1, .i32⟩
  | 57 => ⟨S100x512, .i32⟩
  | 58 => ⟨S100x512, .i1⟩
  | 59 => ⟨S100x512, .i1⟩
  | 60 => ⟨S100x256, .f32⟩
  | 61 => ⟨S_, .f32⟩
  | 62 => ⟨S100x256, .f32⟩
  | 63 => ⟨S100x256, .f32⟩
  | 64 => ⟨S100x1, .f32⟩
  | 65 => ⟨S_, .f32⟩
  | 66 => ⟨S100x1, .f32⟩
  | 67 => ⟨S100x1, .f32⟩
  | 68 => ⟨S100x256, .f32⟩
  | 69 => ⟨S100x256, .f32⟩
  | 70 => ⟨S_, .f32⟩
  | 71 => ⟨S100x256, .f32⟩
  | 72 => ⟨S100x256, .f32⟩
  | 73 => ⟨S_, .f32⟩
  | 74 => ⟨S_, .f32⟩
  | 75 => ⟨S_, .f32⟩
  | 76 => ⟨S100x256, .f32⟩
  | 77 => ⟨S100x256, .f32⟩
  | 78 => ⟨S_, .f32⟩
  | 79 => ⟨S100x256, .f32⟩
  | 80 => ⟨S100x256, .f32⟩
  | 81 => ⟨S100x256, .f32⟩
  | 82 => ⟨S100x256, .i32⟩
  | 83 => ⟨S100x256, .f32⟩
  | 84 => ⟨S100x256, .f32⟩
  | 85 => ⟨S_, .i32⟩
  | 86 => ⟨S100x256, .i32⟩
  | 87 => ⟨S100x256, .i32⟩
  | 88 => ⟨S_, .i32⟩
  | 89 => ⟨S100x256, .i32⟩
  | 90 => ⟨S100x256, .i32⟩
  | 91 => ⟨S100x512, .f32⟩
  | 92 => ⟨S_, .f32⟩
  | 93 => ⟨S100x512, .f32⟩
  | 94 => ⟨S100x512, .f32⟩
  | 95 => ⟨S100x1, .f32⟩
  | 96 => ⟨S_, .f32⟩
  | 97 => ⟨S100x1, .f32⟩
  | 98 => ⟨S100x1, .f32⟩
  | 99 => ⟨S100x512, .f32⟩
  | 100 => ⟨S100x512, .f32⟩
  | 101 => ⟨S_, .f32⟩
  | 102 => ⟨S100x512, .f32⟩
  | 103 => ⟨S100x512, .f32⟩
  | 104 => ⟨S_, .f32⟩
  | 105 => ⟨S_, .f32⟩
  | 106 => ⟨S_, .f32⟩
  | 107 => ⟨S100x512, .f32⟩
  | 108 => ⟨S100x512, .f32⟩
  | 109 => ⟨S_, .f32⟩
  | 110 => ⟨S100x512, .f32⟩
  | 111 => ⟨S100x512, .f32⟩
  | 112 => ⟨S100x512, .f32⟩
  | 113 => ⟨S100x512, .i32⟩
  | 114 => ⟨S100x512, .f32⟩
  | 115 => ⟨S100x512, .f32⟩
  | 116 => ⟨S_, .i32⟩
  | 117 => ⟨S100x512, .i32⟩
  | 118 => ⟨S100x512, .i32⟩
  | 119 => ⟨S_, .i32⟩
  | 120 => ⟨S100x512, .i32⟩
  | 121 => ⟨S100x512, .i32⟩
  | 122 => ⟨S28, .i32⟩
  | 123 => ⟨S1x1x28, .i32⟩
  | 124 => ⟨S100x256x1, .i32⟩
  | 125 => ⟨S100x256x28, .i32⟩
  | 126 => ⟨S100x256x28, .i32⟩
  | 127 => ⟨S100x256x28, .i1⟩
  | _ => ⟨S100x80x28x28, .f32⟩

abbrev hbmTy0_1 (i : Nat) : BufTy := match i % 128 with
  | 0 => ⟨S_, .f32⟩
  | 1 => ⟨S100x256, .f32⟩
  | 2 => ⟨S100x256, .f32⟩
  | 3 => ⟨S100x256x1, .f32⟩
  | 4 => ⟨S_, .f32⟩
  | 5 => ⟨S_, .f32⟩
  | 6 => ⟨S100x256x28, .f32⟩
  | 7 => ⟨S100x256x28, .f32⟩
  | 8 => ⟨S100x256x28, .f32⟩
  | 9 => ⟨S1x1x28, .i32⟩
  | 10 => ⟨S100x256x1, .i32⟩
  | 11 => ⟨S100x256x28, .i32⟩
  | 12 => ⟨S100x256x28, .i32⟩
  | 13 => ⟨S100x256x28, .i1⟩
  | 14 => ⟨S100x256x1, .f32⟩
  | 15 => ⟨S_, .f32⟩
  | 16 => ⟨S_, .f32⟩
  | 17 => ⟨S100x256x28, .f32⟩
  | 18 => ⟨S100x256x28, .f32⟩
  | 19 => ⟨S100x256x28, .f32⟩
  | 20 => ⟨S100x256x28, .f32⟩
  | 21 => ⟨S100x256x1, .i1⟩
  | 22 => ⟨S100x256x1, .f32⟩
  | 23 => ⟨S100x256x28, .f32⟩
  | 24 => ⟨S100x256x28, .f32⟩
  | 25 => ⟨S1x28x1, .i32⟩
  | 26 => ⟨S100x1x512, .i32⟩
  | 27 => ⟨S100x28x512, .i32⟩
  | 28 => ⟨S100x28x512, .i32⟩
  | 29 => ⟨S100x28x512, .i1⟩
  | 30 => ⟨S_, .f32⟩
  | 31 => ⟨S100x512, .f32⟩
  | 32 => ⟨S100x512, .f32⟩
  | 33 => ⟨S100x1x512, .f32⟩
  | 34 => ⟨S_, .f32⟩
  | 35 => ⟨S_, .f32⟩
  | 36 => ⟨S100x28x512, .f32⟩
  | 37 => ⟨S100x28x512, .f32⟩
  | 38 => ⟨S100x28x512, .f32⟩
  | 39 => ⟨S1x28x1, .i32⟩
  | 40 => ⟨S100x1x512, .i32⟩
  | 41 => ⟨S100x28x512, .i32⟩
  | 42 => ⟨S100x28x512, .i32⟩
  | 43 => ⟨S100x28x512, .i1⟩
  | 44 => ⟨S100x1x512, .f32⟩
  | 45 => ⟨S_, .f32⟩
  | 46 => ⟨S_, .f32⟩
  | 47 => ⟨S100x28x512, .f32⟩
  | 48 => ⟨S100x28x512, .f32⟩
  | 49 => ⟨S100x28x512, .f32⟩
  | 50 => ⟨S100x28x512, .f32⟩
  | 51 => ⟨S100x1x512, .i1⟩
  | 52 => ⟨S100x1x512, .f32⟩
  | 53 => ⟨S100x28x512, .f32⟩
  | 54 => ⟨S100x28x512, .f32⟩
  | 55 => ⟨S_, .f32⟩
  | 56 => ⟨S100x4, .f32⟩
  | 57 => ⟨S100x4, .f32⟩
  | 58 => ⟨S100x1, .f32⟩
  | 59 => ⟨S100, .f32⟩
  | 60 => ⟨S100x1, .f32⟩
  | 61 => ⟨S100, .f32⟩
  | 62 => ⟨S100x1, .f32⟩
  | 63 => ⟨S100, .f32⟩
  | 64 => ⟨S100, .f32⟩
  | 65 => ⟨S100, .i32⟩
  | 66 => ⟨S_, .i32⟩
  | 67 => ⟨S100, .i32⟩
  | 68 => ⟨S100x1, .f32⟩
  | 69 => ⟨S100, .f32⟩
  | 70 => ⟨S100, .f32⟩
  | 71 => ⟨S100, .i32⟩
  | 72 => ⟨S_, .i32⟩
  | 73 => ⟨S100, .i32⟩
  | 74 => ⟨S153x256x512, .f32⟩
  | 75 => ⟨S1x153x256x512, .f32⟩
  | _ => ⟨S100x80x28x28, .f32⟩

abbrev hbmTy (i : Nat) : BufTy := match i / 128 with
  | 0 => hbmTy0_0 i
  | 1 => hbmTy0_1 i
  | _ => ⟨S100x80x28x28, .f32⟩

abbrev bufTy : (tb : Table) → Fin (tcTables nBuf tb) → BufTy
  | .hbm, ⟨i, _⟩ => hbmTy i
  | .local _ .vmem, ⟨0, _⟩ => ⟨S1x1x28x28, .f32⟩
  | .local _ .vmem, ⟨1, _⟩ => ⟨S1x1x28x28, .f32⟩
  | .local _ .vmem, ⟨2, _⟩ => ⟨S1x256x28, .f32⟩
  | .local _ .vmem, ⟨3, _⟩ => ⟨S1x256x28, .f32⟩
  | .local _ .vmem, ⟨4, _⟩ => ⟨S1x28x512, .f32⟩
  | .local _ .vmem, ⟨5, _⟩ => ⟨S1x28x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .smem, ⟨0, _⟩ => ⟨S100, .i32⟩
  | .local _ .smem, ⟨1, _⟩ => ⟨S100, .i32⟩
  | .local _ .smem, ⟨2, _⟩ => ⟨S100, .i32⟩
  | .local _ .smem, ⟨3, _⟩ => ⟨S100, .i32⟩
  | .local _ .smem, ⟨4, _⟩ => ⟨S100, .i32⟩
  | _, _ => ⟨S100x80x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_cst_9 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_10 : Ref sig .tc := ⟨.hbm, 85, rfl⟩
abbrev main_v65 : Ref sig .tc := ⟨.hbm, 86, rfl⟩
abbrev main_v66 : Ref sig .tc := ⟨.hbm, 87, rfl⟩
abbrev main_c_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_cst_16 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_23 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_24 : Ref sig .tc := ⟨.hbm, 173, rfl⟩
abbrev main_call5_v0 : Ref sig .tc := ⟨.hbm, 174, rfl⟩
abbrev main_call5_v1 : Ref sig .tc := ⟨.hbm, 175, rfl⟩
abbrev main_call5_v2 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_25 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v136 : Ref sig .tc := ⟨.hbm, 188, rfl⟩
abbrev main_v137 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_26 : Ref sig .tc := ⟨.hbm, 194, rfl⟩
abbrev main_v143 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_27 : Ref sig .tc := ⟨.hbm, 200, rfl⟩
abbrev main_v149 : Ref sig .tc := ⟨.hbm, 201, rfl⟩
abbrev main_v151 : Ref sig .tc := ⟨.hbm, 202, rfl⟩
abbrev main_v152 : Ref sig .tc := ⟨.hbm, 203, rfl⟩
abbrev main_arg3 : Ref sig .tc := ⟨.smem, 0, rfl⟩
abbrev main_v135 : Ref sig .tc := ⟨.smem, 1, rfl⟩
abbrev main_v138 : Ref sig .tc := ⟨.smem, 2, rfl⟩
abbrev main_v144 : Ref sig .tc := ⟨.smem, 3, rfl⟩
abbrev main_v150 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![153], ![false]⟩

abbrev pre0 : Pipeline.Prefetch sig := ⟨5, ![main_arg3.idx, main_v135.idx, main_v138.idx, main_v144.idx, main_v150.idx], fun | 0 => main_arg3.names | 1 => main_v135.names | 2 => main_v138.names | 3 => main_v144.names | 4 => main_v150.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let c53_i32 : BitVec 32 := 53#32
  let v0 : BitVec 32 := Scalar.subi arg0 c53_i32
  let c0_i32 : BitVec 32 := 0#32
  let v1 : BitVec 32 := Scalar.maxsi v0 c0_i32
  let v2 : Index := Scalar.indexCast v1
  ![v2.toNat]
def k0_cond2 (i : grid0.Coords) : BitVec 1 :=
  let arg0 : BitVec 32 := BitVec.ofNat 32 (i 0).val
  let c53_i32 : BitVec 32 := 53#32
  let v0 : BitVec 1 := Scalar.cmpi .slt arg0 c53_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_off2 (i : grid0.Coords) : Fin 1 → Nat :=
  let arg0 : BitVec 32 := BitVec.ofNat 32 (i 0).val
  let c53_i32_1 : BitVec 32 := 53#32
  let v6 : BitVec 32 := Scalar.subi arg0 c53_i32_1
  let v7 : Index := Scalar.indexCast v6
  ![v7.toNat]
def k0_cond1 (i : grid0.Coords) : BitVec 1 :=
  let arg0 : BitVec 32 := BitVec.ofNat 32 (i 0).val
  let c53_i32 : BitVec 32 := 53#32
  let v0 : BitVec 1 := Scalar.cmpi .slt arg0 c53_i32
  let v1 : BitVec 32 := Scalar.extui v0
  let c0_i32 : BitVec 32 := 0#32
  let v2 : BitVec 1 := Scalar.cmpi .ne v1 c0_i32
  v2

def cc0_transform_0 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let c53_i32 : BitVec 32 := 53#32
  let v0 : BitVec 32 := Scalar.subi arg0 c53_i32
  let c0_i32 : BitVec 32 := 0#32
  let v1 : BitVec 32 := Scalar.maxsi v0 c0_i32
  let v2 : Index := Scalar.indexCast v1
  let v3 : BitVec 32 := pf.at 0 (Rect.unit (s := S100) ![v2.toNat] S1.size (k0_off1_inb i)) numel1_S1
  let c0_i32_0 : BitVec 32 := 0#32
  let c0_i32_1 : BitVec 32 := 0#32
  let c0_i32_2 : BitVec 32 := 0#32
  ![v1.toNat, v3.toNat, c0_i32_0.toNat, c0_i32_1.toNat]

def cc0_transform_1 (i : grid0.Coords) : Fin 3 → Nat :=
  let arg0 : BitVec 32 := BitVec.ofNat 32 (i 0).val
  let c53_i32 : BitVec 32 := 53#32
  let v0 : BitVec 32 := Scalar.subi arg0 c53_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c53_i32 : BitVec 32 := 53#32
  let v0 : BitVec 32 := Scalar.subi arg0 c53_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (k0_off1_inb : ∀ i : grid0.Coords, ∀ a, (k0_off1 i) a + S1.size a ≤ S100.size a) (numel1_S1 : S1.numel = 1) (pf : pre0.Contents (Elt F)) (i : grid0.Coords) : Fin 3 → Nat :=
  let arg0 : BitVec 32 := BitVec.ofNat 32 (i 0).val
  let c53_i32 : BitVec 32 := 53#32
  let v0 : BitVec 32 := Scalar.subi arg0 c53_i32
  let c0_i32 : BitVec 32 := 0#32
  let v1 : BitVec 32 := Scalar.maxsi v0 c0_i32
  let v2 : Index := Scalar.indexCast v1
  let v3 : BitVec 32 := pf.at 0 (Rect.unit (s := S100) ![v2.toNat] S1.size (k0_off1_inb i)) numel1_S1
  let c53_i32_0 : BitVec 32 := 53#32
  let v4 : BitVec 32 := Scalar.addi c53_i32_0 v3
  let c53_i32_1 : BitVec 32 := 53#32
  let v5 : BitVec 1 := Scalar.cmpi .slt arg0 c53_i32_1
  let v6 : BitVec 32 := Scalar.select v5 arg0 v4
  let c0_i32_2 : BitVec 32 := 0#32
  let c0_i32_3 : BitVec 32 := 0#32
  let c0_i32_4 : BitVec 32 := 0#32
  ![v6.toNat, c0_i32_2.toNat, c0_i32_3.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x28x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100x4 : S_.BroadcastsInDim S100x4 (![] : Fin 0 → Fin S100x4.rank)
  slices_S100x4_S100x1_0_0 : S100x4.Slices ![0, 0] S100x1
  shapeCasts_S100x1_S100 : S100x1.ShapeCasts S100
  slices_S100x4_S100x1_0_1 : S100x4.Slices ![0, 1] S100x1
  slices_S100x4_S100x1_0_2 : S100x4.Slices ![0, 2] S100x1
  slices_S100x4_S100x1_0_3 : S100x4.Slices ![0, 3] S100x1
  bcast_S_S100 : S_.BroadcastsInDim S100 (![] : Fin 0 → Fin S100.rank)
  bcast_S256_S1x256_1 : S256.BroadcastsInDim S1x256 (![1] : Fin 1 → Fin S1x256.rank)
  bcast_S100_S100x1_0 : S100.BroadcastsInDim S100x1 (![0] : Fin 1 → Fin S100x1.rank)
  bcast_S1x256_S100x256_0_1 : S1x256.BroadcastsInDim S100x256 (![0, 1] : Fin 2 → Fin S100x256.rank)
  bcast_S100x1_S100x256_0_1 : S100x1.BroadcastsInDim S100x256 (![0, 1] : Fin 2 → Fin S100x256.rank)
  bcast_S512_S1x512_1 : S512.BroadcastsInDim S1x512 (![1] : Fin 1 → Fin S1x512.rank)
  bcast_S1x512_S100x512_0_1 : S1x512.BroadcastsInDim S100x512 (![0, 1] : Fin 2 → Fin S100x512.rank)
  bcast_S100x1_S100x512_0_1 : S100x1.BroadcastsInDim S100x512 (![0, 1] : Fin 2 → Fin S100x512.rank)
  bcast_S_S100x256 : S_.BroadcastsInDim S100x256 (![] : Fin 0 → Fin S100x256.rank)
  bcast_S_S100x512 : S_.BroadcastsInDim S100x512 (![] : Fin 0 → Fin S100x512.rank)
  bcast_S_S100x1 : S_.BroadcastsInDim S100x1 (![] : Fin 0 → Fin S100x1.rank)
  bcast_S28_S1x1x28_2 : S28.BroadcastsInDim S1x1x28 (![2] : Fin 1 → Fin S1x1x28.rank)
  bcast_S100x256_S100x256x1_0_1 : S100x256.BroadcastsInDim S100x256x1 (![0, 1] : Fin 2 → Fin S100x256x1.rank)
  bcast_S1x1x28_S100x256x28_0_1_2 : S1x1x28.BroadcastsInDim S100x256x28 (![0, 1, 2] : Fin 3 → Fin S100x256x28.rank)
  bcast_S100x256x1_S100x256x28_0_1_2 : S100x256x1.BroadcastsInDim S100x256x28 (![0, 1, 2] : Fin 3 → Fin S100x256x28.rank)
  bcast_S_S100x256x28 : S_.BroadcastsInDim S100x256x28 (![] : Fin 0 → Fin S100x256x28.rank)
  bcast_S28_S1x28x1_1 : S28.BroadcastsInDim S1x28x1 (![1] : Fin 1 → Fin S1x28x1.rank)
  bcast_S100x512_S100x1x512_0_2 : S100x512.BroadcastsInDim S100x1x512 (![0, 2] : Fin 2 → Fin S100x1x512.rank)
  bcast_S1x28x1_S100x28x512_0_1_2 : S1x28x1.BroadcastsInDim S100x28x512 (![0, 1, 2] : Fin 3 → Fin S100x28x512.rank)
  bcast_S100x1x512_S100x28x512_0_1_2 : S100x1x512.BroadcastsInDim S100x28x512 (![0, 1, 2] : Fin 3 → Fin S100x28x512.rank)
  bcast_S_S100x28x512 : S_.BroadcastsInDim S100x28x512 (![] : Fin 0 → Fin S100x28x512.rank)
  numel1_S1 : S1.numel = 1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  inb_S1x1x28x28_S1x1x28x28_0_0_0_0 : ∀ a, (![0, 0, 0, 0] : Fin 4 → Nat) a + S1x1x28x28.size a ≤ S1x1x28x28.size a
  h_S1x1x28x28 : 0 < S1x1x28x28.numel
  shapeCasts_S1x1x28x28_S28x28 : S1x1x28x28.ShapeCasts S28x28
  inb_S1x256x28_S1x256x28_0_0_0 : ∀ a, (![0, 0, 0] : Fin 3 → Nat) a + S1x256x28.size a ≤ S1x256x28.size a
  h_S1x256x28 : 0 < S1x256x28.numel
  shapeCasts_S1x256x28_S256x28 : S1x256x28.ShapeCasts S256x28
  inb_S1x28x512_S1x28x512_0_0_0 : ∀ a, (![0, 0, 0] : Fin 3 → Nat) a + S1x28x512.size a ≤ S1x28x512.size a
  h_S1x28x512 : 0 < S1x28x512.numel
  shapeCasts_S1x28x512_S28x512 : S1x28x512.ShapeCasts S28x512
  iota_S256x512_d0_w32 : S256x512.Iotas .tc 32 [0]
  iota_S256x512_d1_w32 : S256x512.Iotas .tc 32 [1]
  bcast_S153x256x512_S1x153x256x512_1_2_3 : S153x256x512.BroadcastsInDim S1x153x256x512 (![1, 2, 3] : Fin 3 → Fin S1x153x256x512.rank)
  dot_S256x28_S28x28_S256x28_1_0_0_1_n_n_wf : DotDims.WF S256x28 S28x28 S256x28 [1] [0] [0] [1] [] []
  dot_S256x28_S28x512_S256x512_1_0_0_1_n_n_wf : DotDims.WF S256x28 S28x512 S256x512 [1] [0] [0] [1] [] []
  hrank0 : 0 < grid0.rank
  k0_off1_inb : ∀ i : grid0.Coords, ∀ a, (k0_off1 i) a + S1.size a ≤ S100.size a
  k0_off2_inb : ∀ i : grid0.Coords, ∀ (k0_h2 : k0_cond2 i = 1#1), ∀ a, (k0_off2 i) a + S1.size a ≤ S100.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x28.size a ≤ S100x256x28.size a
  hwx0_1 : ∀ i : grid0.Coords, EltTy.bits .f32 = 32 ∨ (Rect.block (s := S100x256x28) S1x256x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x28x512.size a ≤ S100x28x512.size a
  hwx0_2 : ∀ i : grid0.Coords, EltTy.bits .f32 = 32 ∨ (Rect.block (s := S100x28x512) S1x28x512.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S153x256x512.size a
  hwx0_4 : ∀ i : grid0.Coords, EltTy.bits .f32 = 32 ∨ (Rect.block (s := S153x256x512) S1x256x512.size (cc0_transform_4 i) (hinb0_4 i)).WholeWords (EltTy.packing .f32)

variable [Facts₀]

def dot_S256x28_S28x28_S256x28_1_0_0_1_n_n : DotDims S256x28 S28x28 S256x28 where
  lhsContracting := [1]
  rhsContracting := [0]
  lhsNonContracting := [0]
  rhsNonContracting := [1]
  lhsBatch := []
  rhsBatch := []
  wf := dot_S256x28_S28x28_S256x28_1_0_0_1_n_n_wf
def dot_S256x28_S28x512_S256x512_1_0_0_1_n_n : DotDims S256x28 S28x512 S256x512 where
  lhsContracting := [1]
  rhsContracting := [0]
  lhsNonContracting := [0]
  rhsNonContracting := [1]
  lhsBatch := []
  rhsBatch := []
  wf := dot_S256x28_S28x512_S256x512_1_0_0_1_n_n_wf

abbrev spec0_0 : Pipeline.WinSpec sig grid0.rank :=
  Pipeline.WinSpec.ofSpec (Memref.whole main_arg0) S1x1x28x28.size reads0_0 false false 2 stage0_0 sem0_0 nbuf0_0 hstage0_0

abbrev spec0_1 : Pipeline.WinSpec sig grid0.rank :=
  Pipeline.WinSpec.ofSpec (Memref.whole main_v109) S1x256x28.size reads0_1 false false 2 stage0_1 sem0_1 nbuf0_1 hstage0_1

abbrev spec0_2 : Pipeline.WinSpec sig grid0.rank :=
  Pipeline.WinSpec.ofSpec (Memref.whole main_v130) S1x28x512.size reads0_2 false false 2 stage0_2 sem0_2 nbuf0_2 hstage0_2

abbrev spec0_3 : Pipeline.WinSpec sig grid0.rank :=
  Pipeline.WinSpec.ofSpec (Memref.whole main_arg1) S1x256x512.size reads0_3 false false 2 stage0_3 sem0_3 nbuf0_3 hstage0_3

abbrev spec0_4 : Pipeline.WinSpec sig grid0.rank :=
  Pipeline.WinSpec.ofSpec (Memref.whole main_v151) S1x256x512.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 | 2 => cc0_transform_2 | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x28x28.size a ≤ S100x80x28x28.size a), EltTy.bits .f32 = 32 ∨ (Rect.block (s := S100x80x28x28) S1x1x28x28.size (cc0_transform_0 k0_off1_inb numel1_S1 pf i) h).WholeWords (EltTy.packing .f32)) ∧
  (∀ i : grid0.Coords, ∃ h : (∀ a, (cc0_transform_3 k0_off1_inb numel1_S1 pf i a + 1) * S1x256x512.size a ≤ S133x256x512.size a), EltTy.bits .f32 = 32 ∨ (Rect.block (s := S133x256x512) S1x256x512.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => hinb0_1 | 2 => hinb0_2 | 3 => fun i a => (hok.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => hwx0_1 | 2 => hwx0_2 | 3 => fun i => (hok.2 i).elim fun _ h => h | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S100x80x28x28 : Shape := ⟨4, ![100, 80, 28, 28]⟩
abbrev S133x256x512 : Shape := ⟨3, ![133, 256, 512]⟩
abbrev S100x4 : Shape := ⟨2, ![100, 4]⟩
abbrev S100 : Shape := ⟨1, ![100]⟩
abbrev S53x256x512 : Shape := ⟨3, ![53, 256, 512]⟩
abbrev S80x256x512 : Shape := ⟨3, ![80, 256, 512]⟩
abbrev S_ : Shape := ⟨0, ![]⟩
abbrev S100x1 : Shape := ⟨2, ![100, 1]⟩
abbrev S100x2 : Shape := ⟨2, ![100, 2]⟩
abbrev S100x28x28 : Shape := ⟨3, ![100, 28, 28]⟩
abbrev S256 : Shape := ⟨1, ![256]⟩
abbrev S512 : Shape := ⟨1, ![512]⟩
abbrev S1x256 : Shape := ⟨2, ![1, 256]⟩
abbrev S100x256 : Shape := ⟨2, ![100, 256]⟩
abbrev S1x512 : Shape := ⟨2, ![1, 512]⟩
abbrev S100x512 : Shape := ⟨2, ![100, 512]⟩
abbrev S100x256x1 : Shape := ⟨3, ![100, 256, 1]⟩
abbrev S100x1x512 : Shape := ⟨3, ![100, 1, 512]⟩
abbrev S100x256x512 : Shape := ⟨3, ![100, 256, 512]⟩
abbrev S100x256x512x1 : Shape := ⟨4, ![100, 256, 512, 1]⟩
abbrev S100x256x512x2 : Shape := ⟨4, ![100, 256, 512, 2]⟩
abbrev S1x53x256x512 : Shape := ⟨4, ![1, 53, 256, 512]⟩
abbrev S1x100x256x512 : Shape := ⟨4, ![1, 100, 256, 512]⟩
abbrev S1x153x256x512 : Shape := ⟨4, ![1, 153, 256, 512]⟩

abbrev nBuf : Space → Nat
  | .hbm => 338
  | .vmem => 0
  | .smem => 0
  | _ => 0

abbrev hbmTy0_0 (i : Nat) : BufTy := match i % 128 with
  | 0 => ⟨S100x80x28x28, .f32⟩
  | 1 => ⟨S133x256x512, .f32⟩
  | 2 => ⟨S100x4, .f32⟩
  | 3 => ⟨S100, .i32⟩
  | 4 => ⟨S53x256x512, .f32⟩
  | 5 => ⟨S80x256x512, .f32⟩
  | 6 => ⟨S100, .i32⟩
  | 7 => ⟨S_, .i32⟩
  | 8 => ⟨S100, .i32⟩
  | 9 => ⟨S100, .i1⟩
  | 10 => ⟨S_, .i32⟩
  | 11 => ⟨S100, .i32⟩
  | 12 => ⟨S100, .i32⟩
  | 13 => ⟨S100, .i32⟩
  | 14 => ⟨S_, .i32⟩
  | 15 => ⟨S100, .i32⟩
  | 16 => ⟨S100, .i1⟩
  | 17 => ⟨S_, .i32⟩
  | 18 => ⟨S100, .i32⟩
  | 19 => ⟨S100, .i32⟩
  | 20 => ⟨S100, .i32⟩
  | 21 => ⟨S100x1, .i32⟩
  | 22 => ⟨S100x1, .i32⟩
  | 23 => ⟨S100x2, .i32⟩
  | 24 => ⟨S100x28x28, .f32⟩
  | 25 => ⟨S_, .f32⟩
  | 26 => ⟨S100x4, .f32⟩
  | 27 => ⟨S100x4, .f32⟩
  | 28 => ⟨S100x4, .f32⟩
  | 29 => ⟨S100x4, .i32⟩
  | 30 => ⟨S100x1, .i32⟩
  | 31 => ⟨S100, .i32⟩
  | 32 => ⟨S100x1, .i32⟩
  | 33 => ⟨S100, .i32⟩
  | 34 => ⟨S100x1, .i32⟩
  | 35 => ⟨S100, .i32⟩
  | 36 => ⟨S100x1, .i32⟩
  | 37 => ⟨S100, .i32⟩
  | 38 => ⟨S100, .i32⟩
  | 39 => ⟨S_, .i32⟩
  | 40 => ⟨S100, .i32⟩
  | 41 => ⟨S100, .i32⟩
  | 42 => ⟨S100, .f32⟩
  | 43 => ⟨S100, .i32⟩
  | 44 => ⟨S_, .i32⟩
  | 45 => ⟨S100, .i32⟩
  | 46 => ⟨S100, .i32⟩
  | 47 => ⟨S100, .f32⟩
  | 48 => ⟨S256, .i32⟩
  | 49 => ⟨S512, .i32⟩
  | 50 => ⟨S1x256, .i32⟩
  | 51 => ⟨S100x1, .i32⟩
  | 52 => ⟨S100x256, .i32⟩
  | 53 => ⟨S100x256, .i32⟩
  | 54 => ⟨S100x256, .i32⟩
  | 55 => ⟨S1x512, .i32⟩
  | 56 => ⟨S100x1, .i32⟩
  | 57 => ⟨S100x512, .i32⟩
  | 58 => ⟨S100x512, .i32⟩
  | 59 => ⟨S100x512, .i32⟩
  | 60 => ⟨S_, .i32⟩
  | 61 => ⟨S100x256, .i32⟩
  | 62 => ⟨S100x256, .i1⟩
  | 63 => ⟨S100, .i32⟩
  | 64 => ⟨S_, .i32⟩
  | 65 => ⟨S100, .i32⟩
  | 66 => ⟨S100, .i32⟩
  | 67 => ⟨S100x1, .i32⟩
  | 68 => ⟨S100x256, .i32⟩
  | 69 => ⟨S100x256, .i1⟩
  | 70 => ⟨S100x256, .i1⟩
  | 71 => ⟨S_, .i32⟩
  | 72 => ⟨S100x512, .i32⟩
  | 73 => ⟨S100x512, .i1⟩
  | 74 => ⟨S100, .i32⟩
  | 75 => ⟨S_, .i32⟩
  | 76 => ⟨S100, .i32⟩
  | 77 => ⟨S100, .i32⟩
  | 78 => ⟨S100x1, .i32⟩
  | 79 => ⟨S100x512, .i32⟩
  | 80 => ⟨S100x512, .i1⟩
  | 81 => ⟨S100x512, .i1⟩
  | 82 => ⟨S100x256, .f32⟩
  | 83 => ⟨S_, .f32⟩
  | 84 => ⟨S100x256, .f32⟩
  | 85 => ⟨S100x256, .f32⟩
  | 86 => ⟨S100x1, .f32⟩
  | 87 => ⟨S_, .f32⟩
  | 88 => ⟨S100x1, .f32⟩
  | 89 => ⟨S100x1, .f32⟩
  | 90 => ⟨S100x256, .f32⟩
  | 91 => ⟨S100x256, .f32⟩
  | 92 => ⟨S_, .f32⟩
  | 93 => ⟨S100x256, .f32⟩
  | 94 => ⟨S100x256, .f32⟩
  | 95 => ⟨S_, .f32⟩
  | 96 => ⟨S_, .f32⟩
  | 97 => ⟨S_, .f32⟩
  | 98 => ⟨S100x256, .f32⟩
  | 99 => ⟨S100x256, .f32⟩
  | 100 => ⟨S_, .f32⟩
  | 101 => ⟨S100x256, .f32⟩
  | 102 => ⟨S100x256, .f32⟩
  | 103 => ⟨S100x256, .f32⟩
  | 104 => ⟨S100x256, .i32⟩
  | 105 => ⟨S100x256, .f32⟩
  | 106 => ⟨S100x256, .f32⟩
  | 107 => ⟨S_, .i32⟩
  | 108 => ⟨S100x256, .i32⟩
  | 109 => ⟨S100x256, .i32⟩
  | 110 => ⟨S_, .i32⟩
  | 111 => ⟨S100x256, .i32⟩
  | 112 => ⟨S100x256, .i32⟩
  | 113 => ⟨S100x512, .f32⟩
  | 114 => ⟨S_, .f32⟩
  | 115 => ⟨S100x512, .f32⟩
  | 116 => ⟨S100x512, .f32⟩
  | 117 => ⟨S100x1, .f32⟩
  | 118 => ⟨S_, .f32⟩
  | 119 => ⟨S100x1, .f32⟩
  | 120 => ⟨S100x1, .f32⟩
  | 121 => ⟨S100x512, .f32⟩
  | 122 => ⟨S100x512, .f32⟩
  | 123 => ⟨S_, .f32⟩
  | 124 => ⟨S100x512, .f32⟩
  | 125 => ⟨S100x512, .f32⟩
  | 126 => ⟨S_, .f32⟩
  | 127 => ⟨S_, .f32⟩
  | _ => ⟨S100x80x28x28, .f32⟩

abbrev hbmTy0_1 (i : Nat) : BufTy := match i % 128 with
  | 0 => ⟨S_, .f32⟩
  | 1 => ⟨S100x512, .f32⟩
  | 2 => ⟨S100x512, .f32⟩
  | 3 => ⟨S_, .f32⟩
  | 4 => ⟨S100x512, .f32⟩
  | 5 => ⟨S100x512, .f32⟩
  | 6 => ⟨S100x512, .f32⟩
  | 7 => ⟨S100x512, .i32⟩
  | 8 => ⟨S100x512, .f32⟩
  | 9 => ⟨S100x512, .f32⟩
  | 10 => ⟨S_, .i32⟩
  | 11 => ⟨S100x512, .i32⟩
  | 12 => ⟨S100x512, .i32⟩
  | 13 => ⟨S_, .i32⟩
  | 14 => ⟨S100x512, .i32⟩
  | 15 => ⟨S100x512, .i32⟩
  | 16 => ⟨S100x256x1, .i32⟩
  | 17 => ⟨S100x1x512, .i32⟩
  | 18 => ⟨S_, .i32⟩
  | 19 => ⟨S100x256x1, .i32⟩
  | 20 => ⟨S100x256x1, .i1⟩
  | 21 => ⟨S_, .i32⟩
  | 22 => ⟨S100x256x1, .i32⟩
  | 23 => ⟨S100x256x1, .i32⟩
  | 24 => ⟨S100x256x1, .i32⟩
  | 25 => ⟨S_, .i32⟩
  | 26 => ⟨S100x1x512, .i32⟩
  | 27 => ⟨S100x1x512, .i1⟩
  | 28 => ⟨S_, .i32⟩
  | 29 => ⟨S100x1x512, .i32⟩
  | 30 => ⟨S100x1x512, .i32⟩
  | 31 => ⟨S100x1x512, .i32⟩
  | 32 => ⟨S100x256x512, .i32⟩
  | 33 => ⟨S100x256x512, .i32⟩
  | 34 => ⟨S100x256x512x1, .i32⟩
  | 35 => ⟨S100x256x512x1, .i32⟩
  | 36 => ⟨S100x256x512x2, .i32⟩
  | 37 => ⟨S100x256x512, .f32⟩
  | 38 => ⟨S100x256x1, .i32⟩
  | 39 => ⟨S100x1x512, .i32⟩
  | 40 => ⟨S_, .i32⟩
  | 41 => ⟨S100x256x1, .i32⟩
  | 42 => ⟨S100x256x1, .i1⟩
  | 43 => ⟨S_, .i32⟩
  | 44 => ⟨S100x256x1, .i32⟩
  | 45 => ⟨S100x256x1, .i32⟩
  | 46 => ⟨S100x256x1, .i32⟩
  | 47 => ⟨S_, .i32⟩
  | 48 => ⟨S100x1x512, .i32⟩
  | 49 => ⟨S100x1x512, .i1⟩
  | 50 => ⟨S_, .i32⟩
  | 51 => ⟨S100x1x512, .i32⟩
  | 52 => ⟨S100x1x512, .i32⟩
  | 53 => ⟨S100x1x512, .i32⟩
  | 54 => ⟨S100x256x512, .i32⟩
  | 55 => ⟨S100x256x512, .i32⟩
  | 56 => ⟨S100x256x512x1, .i32⟩
  | 57 => ⟨S100x256x512x1, .i32⟩
  | 58 => ⟨S100x256x512x2, .i32⟩
  | 59 => ⟨S100x256x512, .f32⟩
  | 60 => ⟨S100x256x1, .i32⟩
  | 61 => ⟨S100x1x512, .i32⟩
  | 62 => ⟨S_, .i32⟩
  | 63 => ⟨S100x256x1, .i32⟩
  | 64 => ⟨S100x256x1, .i1⟩
  | 65 => ⟨S_, .i32⟩
  | 66 => ⟨S100x256x1, .i32⟩
  | 67 => ⟨S100x256x1, .i32⟩
  | 68 => ⟨S100x256x1, .i32⟩
  | 69 => ⟨S_, .i32⟩
  | 70 => ⟨S100x1x512, .i32⟩
  | 71 => ⟨S100x1x512, .i1⟩
  | 72 => ⟨S_, .i32⟩
  | 73 => ⟨S100x1x512, .i32⟩
  | 74 => ⟨S100x1x512, .i32⟩
  | 75 => ⟨S100x1x512, .i32⟩
  | 76 => ⟨S100x256x512, .i32⟩
  | 77 => ⟨S100x256x512, .i32⟩
  | 78 => ⟨S100x256x512x1, .i32⟩
  | 79 => ⟨S100x256x512x1, .i32⟩
  | 80 => ⟨S100x256x512x2, .i32⟩
  | 81 => ⟨S100x256x512, .f32⟩
  | 82 => ⟨S100x256x1, .i32⟩
  | 83 => ⟨S100x1x512, .i32⟩
  | 84 => ⟨S_, .i32⟩
  | 85 => ⟨S100x256x1, .i32⟩
  | 86 => ⟨S100x256x1, .i1⟩
  | 87 => ⟨S_, .i32⟩
  | 88 => ⟨S100x256x1, .i32⟩
  | 89 => ⟨S100x256x1, .i32⟩
  | 90 => ⟨S100x256x1, .i32⟩
  | 91 => ⟨S_, .i32⟩
  | 92 => ⟨S100x1x512, .i32⟩
  | 93 => ⟨S100x1x512, .i1⟩
  | 94 => ⟨S_, .i32⟩
  | 95 => ⟨S100x1x512, .i32⟩
  | 96 => ⟨S100x1x512, .i32⟩
  | 97 => ⟨S100x1x512, .i32⟩
  | 98 => ⟨S100x256x512, .i32⟩
  | 99 => ⟨S100x256x512, .i32⟩
  | 100 => ⟨S100x256x512x1, .i32⟩
  | 101 => ⟨S100x256x512x1, .i32⟩
  | 102 => ⟨S100x256x512x2, .i32⟩
  | 103 => ⟨S100x256x512, .f32⟩
  | 104 => ⟨S_, .f32⟩
  | 105 => ⟨S100x512, .f32⟩
  | 106 => ⟨S100x512, .f32⟩
  | 107 => ⟨S100x1x512, .f32⟩
  | 108 => ⟨S100x256x512, .f32⟩
  | 109 => ⟨S100x256x512, .f32⟩
  | 110 => ⟨S100x1x512, .f32⟩
  | 111 => ⟨S100x256x512, .f32⟩
  | 112 => ⟨S100x256x512, .f32⟩
  | 113 => ⟨S100x256x512, .f32⟩
  | 114 => ⟨S_, .f32⟩
  | 115 => ⟨S100x512, .f32⟩
  | 116 => ⟨S100x512, .f32⟩
  | 117 => ⟨S100x1x512, .f32⟩
  | 118 => ⟨S100x256x512, .f32⟩
  | 119 => ⟨S100x256x512, .f32⟩
  | 120 => ⟨S100x1x512, .f32⟩
  | 121 => ⟨S100x256x512, .f32⟩
  | 122 => ⟨S100x256x512, .f32⟩
  | 123 => ⟨S100x256x512, .f32⟩
  | 124 => ⟨S_, .f32⟩
  | 125 => ⟨S100x256, .f32⟩
  | 126 => ⟨S100x256, .f32⟩
  | 127 => ⟨S100x256x1, .f32⟩
  | _ => ⟨S100x80x28x28, .f32⟩

abbrev hbmTy0_2 (i : Nat) : BufTy := match i % 128 with
  | 0 => ⟨S100x256x512, .f32⟩
  | 1 => ⟨S100x256x512, .f32⟩
  | 2 => ⟨S100x256x1, .f32⟩
  | 3 => ⟨S100x256x512, .f32⟩
  | 4 => ⟨S100x256x512, .f32⟩
  | 5 => ⟨S100x256x512, .f32⟩
  | 6 => ⟨S100x256x1, .i1⟩
  | 7 => ⟨S100x1x512, .i1⟩
  | 8 => ⟨S100x256x512, .i1⟩
  | 9 => ⟨S100x256x512, .i1⟩
  | 10 => ⟨S100x256x512, .i1⟩
  | 11 => ⟨S_, .f32⟩
  | 12 => ⟨S_, .f32⟩
  | 13 => ⟨S100x256x512, .f32⟩
  | 14 => ⟨S100x256x512, .f32⟩
  | 15 => ⟨S_, .f32⟩
  | 16 => ⟨S100x4, .f32⟩
  | 17 => ⟨S100x4, .f32⟩
  | 18 => ⟨S100x1, .f32⟩
  | 19 => ⟨S100, .f32⟩
  | 20 => ⟨S100, .i32⟩
  | 21 => ⟨S100x1, .f32⟩
  | 22 => ⟨S100, .f32⟩
  | 23 => ⟨S100, .i32⟩
  | 24 => ⟨S100x1, .f32⟩
  | 25 => ⟨S100, .f32⟩
  | 26 => ⟨S100, .f32⟩
  | 27 => ⟨S100, .i32⟩
  | 28 => ⟨S_, .i32⟩
  | 29 => ⟨S100, .i32⟩
  | 30 => ⟨S100, .i32⟩
  | 31 => ⟨S100x1, .f32⟩
  | 32 => ⟨S100, .f32⟩
  | 33 => ⟨S100, .f32⟩
  | 34 => ⟨S100, .i32⟩
  | 35 => ⟨S_, .i32⟩
  | 36 => ⟨S100, .i32⟩
  | 37 => ⟨S100, .i32⟩
  | 38 => ⟨S1x256, .i32⟩
  | 39 => ⟨S100x1, .i32⟩
  | 40 => ⟨S100x256, .i32⟩
  | 41 => ⟨S100x256, .i32⟩
  | 42 => ⟨S100x256, .i1⟩
  | 43 => ⟨S1x256, .i32⟩
  | 44 => ⟨S100x1, .i32⟩
  | 45 => ⟨S100x256, .i32⟩
  | 46 => ⟨S100x256, .i32⟩
  | 47 => ⟨S100x256, .i1⟩
  | 48 => ⟨S100x256, .i1⟩
  | 49 => ⟨S1x512, .i32⟩
  | 50 => ⟨S100x1, .i32⟩
  | 51 => ⟨S100x512, .i32⟩
  | 52 => ⟨S100x512, .i32⟩
  | 53 => ⟨S100x512, .i1⟩
  | 54 => ⟨S1x512, .i32⟩
  | 55 => ⟨S100x1, .i32⟩
  | 56 => ⟨S100x512, .i32⟩
  | 57 => ⟨S100x512, .i32⟩
  | 58 => ⟨S100x512, .i1⟩
  | 59 => ⟨S100x512, .i1⟩
  | 60 => ⟨S_, .i32⟩
  | 61 => ⟨S100, .i32⟩
  | 62 => ⟨S100, .i1⟩
  | 63 => ⟨S_, .i32⟩
  | 64 => ⟨S100, .i32⟩
  | 65 => ⟨S100, .i32⟩
  | 66 => ⟨S100, .i32⟩
  | 67 => ⟨S100x1, .i32⟩
  | 68 => ⟨S100x256x512, .f32⟩
  | 69 => ⟨S100x256x1, .i1⟩
  | 70 => ⟨S100x1x512, .i1⟩
  | 71 => ⟨S100x256x512, .i1⟩
  | 72 => ⟨S100x256x512, .i1⟩
  | 73 => ⟨S100x256x512, .i1⟩
  | 74 => ⟨S_, .f32⟩
  | 75 => ⟨S_, .f32⟩
  | 76 => ⟨S100x256x512, .f32⟩
  | 77 => ⟨S100x256x512, .f32⟩
  | 78 => ⟨S100x256x512, .f32⟩
  | 79 => ⟨S1x53x256x512, .f32⟩
  | 80 => ⟨S1x100x256x512, .f32⟩
  | 81 => ⟨S1x153x256x512, .f32⟩
  | _ => ⟨S100x80x28x28, .f32⟩

abbrev hbmTy (i : Nat) : BufTy := match i / 128 with
  | 0 => hbmTy0_0 i
  | 1 => hbmTy0_1 i
  | 2 => hbmTy0_2 i
  | _ => ⟨S100x80x28x28, .f32⟩

abbrev bufTy : (tb : Table) → Fin (tcTables nBuf tb) → BufTy
  | .hbm, ⟨i, _⟩ => hbmTy i
  | _, _ => ⟨S100x80x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_cst_13 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_14 : Ref sig .tc := ⟨.hbm, 107, rfl⟩
abbrev main_v82 : Ref sig .tc := ⟨.hbm, 108, rfl⟩
abbrev main_v83 : Ref sig .tc := ⟨.hbm, 109, rfl⟩
abbrev main_c_15 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_cst_20 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_21 : Ref sig .tc := ⟨.hbm, 138, rfl⟩
abbrev main_v101 : Ref sig .tc := ⟨.hbm, 139, rfl⟩
abbrev main_v102 : Ref sig .tc := ⟨.hbm, 140, rfl⟩
abbrev main_c_22 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_23 : Ref sig .tc := ⟨.hbm, 146, rfl⟩
abbrev main_v107 : Ref sig .tc := ⟨.hbm, 147, rfl⟩
abbrev main_v108 : Ref sig .tc := ⟨.hbm, 148, rfl⟩
abbrev main_c_24 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_25 : Ref sig .tc := ⟨.hbm, 153, rfl⟩
abbrev main_v112 : Ref sig .tc := ⟨.hbm, 154, rfl⟩
abbrev main_v113 : Ref sig .tc := ⟨.hbm, 155, rfl⟩
abbrev main_c_26 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_27 : Ref sig .tc := ⟨.hbm, 168, rfl⟩
abbrev main_v125 : Ref sig .tc := ⟨.hbm, 169, rfl⟩
abbrev main_v126 : Ref sig .tc := ⟨.hbm, 170, rfl⟩
abbrev main_c_28 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_29 : Ref sig .tc := ⟨.hbm, 175, rfl⟩
abbrev main_v130 : Ref sig .tc := ⟨.hbm, 176, rfl⟩
abbrev main_v131 : Ref sig .tc := ⟨.hbm, 177, rfl⟩
abbrev main_c_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_31 : Ref sig .tc := ⟨.hbm, 190, rfl⟩
abbrev main_v143 : Ref sig .tc := ⟨.hbm, 191, rfl⟩
abbrev main_v144 : Ref sig .tc := ⟨.hbm, 192, rfl⟩
abbrev main_c_32 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_33 : Ref sig .tc := ⟨.hbm, 197, rfl⟩
abbrev main_v148 : Ref sig .tc := ⟨.hbm, 198, rfl⟩
abbrev main_v149 : Ref sig .tc := ⟨.hbm, 199, rfl⟩
abbrev main_c_34 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_35 : Ref sig .tc := ⟨.hbm, 212, rfl⟩
abbrev main_v161 : Ref sig .tc := ⟨.hbm, 213, rfl⟩
abbrev main_v162 : Ref sig .tc := ⟨.hbm, 214, rfl⟩
abbrev main_c_36 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_37 : Ref sig .tc := ⟨.hbm, 219, rfl⟩
abbrev main_v166 : Ref sig .tc := ⟨.hbm, 220, rfl⟩
abbrev main_v167 : Ref sig .tc := ⟨.hbm, 221, rfl⟩
abbrev main_c_38 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_39 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_40 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_41 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_42 : Ref sig .tc := ⟨.hbm, 267, rfl⟩
abbrev main_call2_v0 : Ref sig .tc := ⟨.hbm, 268, rfl⟩
abbrev main_call2_v1 : Ref sig .tc := ⟨.hbm, 269, rfl⟩
abbrev main_v209 : Ref sig .tc := ⟨.hbm, 270, rfl⟩
abbrev main_cst_43 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_c_44 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_45 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_c_46 : Ref sig .tc := ⟨.hbm, 316, rfl⟩
abbrev main_v252 : Ref sig .tc := ⟨.hbm, 317, rfl⟩
abbrev main_v253 : Ref sig .tc := ⟨.hbm, 318, rfl⟩
abbrev main_c_47 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_cst_48 : Ref sig .tc := ⟨.hbm, 330, rfl⟩
abbrev main_call5_v0 : Ref sig .tc := ⟨.hbm, 331, rfl⟩
abbrev main_call5_v1 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩

abbrev nD : Nat := 1
abbrev τ : Topo := Topo.v7x

variable {F : FTy → Type} [FloatOps F]

class Facts₀ : Prop where
  slices_S133x256x512_S53x256x512_0_0_0 : S133x256x512.Slices ![0, 0, 0] S53x256x512
  slices_S133x256x512_S80x256x512_53_0_0 : S133x256x512.Slices ![53, 0, 0] S80x256x512
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  bcast_S_S100x4 : S_.BroadcastsInDim S100x4 (![] : Fin 0 → Fin S100x4.rank)
  slices_S100x4_S100x1_0_0 : S100x4.Slices ![0, 0] S100x1
  shapeCasts_S100x1_S100 : S100x1.ShapeCasts S100
  slices_S100x4_S100x1_0_1 : S100x4.Slices ![0, 1] S100x1
  slices_S100x4_S100x1_0_2 : S100x4.Slices ![0, 2] S100x1
  slices_S100x4_S100x1_0_3 : S100x4.Slices ![0, 3] S100x1
  bcast_S256_S1x256_1 : S256.BroadcastsInDim S1x256 (![1] : Fin 1 → Fin S1x256.rank)
  bcast_S1x256_S100x256_0_1 : S1x256.BroadcastsInDim S100x256 (![0, 1] : Fin 2 → Fin S100x256.rank)
  bcast_S100x1_S100x256_0_1 : S100x1.BroadcastsInDim S100x256 (![0, 1] : Fin 2 → Fin S100x256.rank)
  bcast_S512_S1x512_1 : S512.BroadcastsInDim S1x512 (![1] : Fin 1 → Fin S1x512.rank)
  bcast_S1x512_S100x512_0_1 : S1x512.BroadcastsInDim S100x512 (![0, 1] : Fin 2 → Fin S100x512.rank)
  bcast_S100x1_S100x512_0_1 : S100x1.BroadcastsInDim S100x512 (![0, 1] : Fin 2 → Fin S100x512.rank)
  bcast_S_S100x256 : S_.BroadcastsInDim S100x256 (![] : Fin 0 → Fin S100x256.rank)
  bcast_S_S100x512 : S_.BroadcastsInDim S100x512 (![] : Fin 0 → Fin S100x512.rank)
  bcast_S_S100x1 : S_.BroadcastsInDim S100x1 (![] : Fin 0 → Fin S100x1.rank)
  bcast_S100x256_S100x256x1_0_1 : S100x256.BroadcastsInDim S100x256x1 (![0, 1] : Fin 2 → Fin S100x256x1.rank)
  bcast_S100x512_S100x1x512_0_2 : S100x512.BroadcastsInDim S100x1x512 (![0, 2] : Fin 2 → Fin S100x1x512.rank)
  bcast_S_S100x256x1 : S_.BroadcastsInDim S100x256x1 (![] : Fin 0 → Fin S100x256x1.rank)
  bcast_S_S100x1x512 : S_.BroadcastsInDim S100x1x512 (![] : Fin 0 → Fin S100x1x512.rank)
  bcast_S100x256x1_S100x256x512_0_1_2 : S100x256x1.BroadcastsInDim S100x256x512 (![0, 1, 2] : Fin 3 → Fin S100x256x512.rank)
  bcast_S100x1x512_S100x256x512_0_1_2 : S100x1x512.BroadcastsInDim S100x256x512 (![0, 1, 2] : Fin 3 → Fin S100x256x512.rank)
  bcast_S100x256x512_S100x256x512x1_0_1_2 : S100x256x512.BroadcastsInDim S100x256x512x1 (![0, 1, 2] : Fin 3 → Fin S100x256x512x1.rank)
  concatenates_S100x256x512x1_S100x256x512x1_S100x256x512x2_d3 : Shape.Concatenates [S100x256x512x1, S100x256x512x1] S100x256x512x2 3
  bcast_S_S100x256x512 : S_.BroadcastsInDim S100x256x512 (![] : Fin 0 → Fin S100x256x512.rank)
  bcast_S53x256x512_S1x53x256x512_1_2_3 : S53x256x512.BroadcastsInDim S1x53x256x512 (![1, 2, 3] : Fin 3 → Fin S1x53x256x512.rank)
  bcast_S100x256x512_S1x100x256x512_1_2_3 : S100x256x512.BroadcastsInDim S1x100x256x512 (![1, 2, 3] : Fin 3 → Fin S1x100x256x512.rank)
  concatenates_S1x53x256x512_S1x100x256x512_S1x153x256x512_d1 : Shape.Concatenates [S1x53x256x512, S1x100x256x512] S1x153x256x512 1
  gather_S100x80x28x28_S100x2_S100x28x28_12_01_n_n_01_1_112828_wf : GatherDims.WF S100x80x28x28 S100x2 S100x28x28 [1, 2] [0, 1] [] [0, 1] [] 1 ![1, 1, 28, 28]
  gather_S100x28x28_S100x256x512x2_S100x256x512_n_12_0_0_12_3_111_wf : GatherDims.WF S100x28x28 S100x256x512x2 S100x256x512 [] [1, 2] [0] [1, 2] [0] 3 ![1, 1, 1]
  gather_S80x256x512_S100x1_S100x256x512_12_0_n_n_0_1_1256512_wf : GatherDims.WF S80x256x512 S100x1 S100x256x512 [1, 2] [0] [] [0] [] 1 ![1, 256, 512]

variable [Facts₀]

def gather_S100x80x28x28_S100x2_S100x28x28_12_01_n_n_01_1_112828 : GatherDims S100x80x28x28 S100x2 S100x28x28 where
  offsetDims := [1, 2]
  collapsedSliceDims := [0, 1]
  operandBatchingDims := []
  startIndicesBatchingDims := []
  startIndexMap := [0, 1]
  indexVectorDim := 1
  sliceSizes := ![1, 1, 28, 28]
  wf := gather_S100x80x28x28_S100x2_S100x28x28_12_01_n_n_01_1_112828_wf
def gather_S100x28x28_S100x256x512x2_S100x256x512_n_12_0_0_12_3_111 : GatherDims S100x28x28 S100x256x512x2 S100x256x512 where
  offsetDims := []
  collapsedSliceDims := [1, 2]
  operandBatchingDims := [0]
  startIndicesBatchingDims := [0]
  startIndexMap := [1, 2]
  indexVectorDim := 3
  sliceSizes := ![1, 1, 1]
  wf := gather_S100x28x28_S100x256x512x2_S100x256x512_n_12_0_0_12_3_111_wf
def gather_S80x256x512_S100x1_S100x256x512_12_0_n_n_0_1_1256512 : GatherDims S80x256x512 S100x1 S100x256x512 where
  offsetDims := [1, 2]
  collapsedSliceDims := [0]
  operandBatchingDims := []
  startIndicesBatchingDims := []
  startIndexMap := [0]
  indexVectorDim := 1
  sliceSizes := ![1, 256, 512]
  wf := gather_S80x256x512_S100x1_S100x256x512_12_0_n_n_0_1_1256512_wf

class Facts : Prop extends Facts₀ where

variable [Facts]
-- ==== Proof.PreFacts.lean ====
import proofs.«418239_j16415365005582_2_alg».proof.Pre_finite_inputs
import proofs.«418239_j16415365005582_2_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

/-!
  What the precondition says about the inputs.

  The precondition is the conjunction, over every element, of "the element's absolute value is below +∞" for the three
  float arrays and of "0 ≤ c < 80" for every class word c. Read at one index it gives the two facts used later: a class
  word, read as a natural number, is below 80; and an element of the mask array is a real number, not an infinity.
-/

noncomputable section

namespace Cert.Paste

open Idealize.ShloMosaic

/-- The shape of rank 0 has exactly one index. -/
instance subsingleton_scalar_idx : Subsingleton Cert.Pre_finite_inputs.S_.Idx := ⟨fun a b => funext fun d => d.elim0⟩

/-- A 32-bit word that, read as a signed integer, is at least 0 and below 80 is below 80 read as a natural number. -/
theorem toNat_lt_of_signed (w : BitVec 32) (h0 : IntOp.cmpi .sge w 0#32 = 1#1) (h1 : IntOp.cmpi .slt w 80#32 = 1#1) :
    w.toNat < 80 := by
  rw [IntOp.cmpi_sge] at h0
  rw [IntOp.cmpi_slt] at h1
  have e0 : (0#32 : BitVec 32).toInt = 0 := by decide
  have e80 : (80#32 : BitVec 32).toInt = 80 := by decide
  rw [e0] at h0
  rw [e80] at h1
  rw [BitVec.toInt_eq_toNat_cond] at h0 h1
  have hw := w.isLt
  split at h1 <;> omega

/-- An extended real whose absolute value max(x, -x) is below +∞ is a real number. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The bit pattern 0x7F800000 denotes +∞. -/
theorem ofBits_inf : Ideal.ofBits .f32 0x7F800000#32 = (⊤ : EReal) := by simp [Ideal.ofBits, Ideal.ieee]

/-- The precondition's ordered comparison |x| < +∞, when it answers 1, says x is a real number. -/
theorem real_of_cmp (x : EReal) (h : Ideal.cmp .olt (max x (-x)) (Ideal.ofBits .f32 0x7F800000#32) = 1#1) :
    ∃ r : ℝ, x = ((r : ℝ) : EReal) := by
  rw [ofBits_inf] at h
  unfold Ideal.cmp at h
  rw [StableHlo.Predicate.ofBool_eq_one_iff] at h
  exact real_of_abs_lt_top x (of_decide_eq_true h)

/-- Under the precondition every class word, read as a natural number, is below 80. -/
theorem classes_lt {F : FTy → Type} [FloatOps F] [Cert.Pre_finite_inputs.Facts]
    (a0 : FVec F Cert.Pre_finite_inputs.S100x80x28x28 .f32) (a1 : FVec F Cert.Pre_finite_inputs.S133x256x512 .f32)
    (a2 : FVec F Cert.Pre_finite_inputs.S100x4 .f32) (cls : IVec Cert.Pre_finite_inputs.S100 32)
    (h : Cert.Pre_finite_inputs.fn (F := F) a0 a1 a2 cls = fun _ => 1#1) (n : Fin 100) :
    (cls (ValueIdx.ix1 n)).toNat < 80 := by
  have e := congrFun h ValueIdx.ix0
  dsimp only [Cert.Pre_finite_inputs.fn, Cert.Pre_finite_inputs.fn_part1] at e
  simp only [andi, IntOp.andi_eq_one] at e
  have hc := Host.reduce_andi_all _ _ _ _ ValueIdx.ix0 e.2 (ValueIdx.ix1 n)
  simp only [andi, cmpi, IntOp.andi_eq_one] at hc
  exact toNat_lt_of_signed _ hc.1 hc.2

/-- Under the precondition every element of the mask array is a real number. -/
theorem mask_real [Cert.Pre_finite_inputs.Facts]
    (a0 : FVec Ideal Cert.Pre_finite_inputs.S100x80x28x28 .f32) (a1 : FVec Ideal Cert.Pre_finite_inputs.S133x256x512 .f32)
    (a2 : FVec Ideal Cert.Pre_finite_inputs.S100x4 .f32) (cls : IVec Cert.Pre_finite_inputs.S100 32)
    (h : Cert.Pre_finite_inputs.fn (F := Ideal) a0 a1 a2 cls = fun _ => 1#1) (i : Cert.Pre_finite_inputs.S100x80x28x28.Idx) :
    ∃ r : ℝ, a0 i = ((r : ℝ) : EReal) := by
  have e := congrFun h ValueIdx.ix0
  dsimp only [Cert.Pre_finite_inputs.fn, Cert.Pre_finite_inputs.fn_part1] at e
  simp only [andi, IntOp.andi_eq_one] at e
  have hc := Host.reduce_andi_all _ _ _ _ ValueIdx.ix0 e.1.1.1 i
  exact real_of_cmp (a0 i) hc

end Cert.Paste

end
-- ==== Proof.OkKernel.lean ====
import proofs.«418239_j16415365005582_2_alg».proof.Proof.GenP.Kernel.Frame.Runs
import Idealize.ShloMosaic.Lib.ValueIdx
import Idealize.ShloMosaic.Lib.Affine

/-!
  The blocks a grid point reads lie inside their arrays.

  Grid point n of 153 reads the mask of instance max (n - 53) 0 at that instance's class, and the plane n below 53 or
  53 + class from 53 on. With every class word below 80, the instance is below 100, the class below 80 and the plane
  below 133; the arithmetic is on signed 32-bit words, where n - 53 wraps below 53 and the signed maximum undoes it.
-/

set_option maxRecDepth 16384

noncomputable section

namespace Cert.Kernel.Paste

open Cert.Kernel Cert.Kernel.Gen Cert.Kernel.GenP
open Idealize.ShloMosaic Idealize.ShloMosaic.TcCoe Idealize.SL.Sem

/-- The 32-bit word n - 53 for a grid coordinate n below 153, read unsigned: n - 53 itself from 53 on; below 53 the
    subtraction wraps around 2 ^ 32. -/
theorem toNat_sub53 (n : Nat) (hn : n < 153) :
    (BitVec.ofNat 32 n - 53#32).toNat = if 53 ≤ n then n - 53 else 2 ^ 32 + n - 53 := by
  simp only [BitVec.toNat_sub, BitVec.toNat_ofNat]
  split <;> omega

/-- The same word read signed is the integer n - 53: the wrapped word below 53 has its top bit set. -/
theorem toInt_sub53 (n : Nat) (hn : n < 153) : (BitVec.ofNat 32 n - 53#32).toInt = (n : Int) - 53 := by
  have hs := toNat_sub53 n hn
  rw [BitVec.toInt_eq_toNat_cond]
  by_cases hc : 53 ≤ n
  · rw [if_pos hc] at hs; rw [hs]; split <;> omega
  · rw [if_neg hc] at hs; rw [hs]; split <;> omega

/-- max(n - 53, 0) in signed 32-bit words, for a grid coordinate n below 153, is the truncated difference n - 53. -/
theorem toNat_row (n : Nat) (hn : n < 153) :
    (Scalar.maxsi (Scalar.subi (BitVec.ofNat 32 n) 53#32) 0#32).toNat = n - 53 := by
  have hi := toInt_sub53 n hn
  have hs := toNat_sub53 n hn
  have e0 : (0#32 : BitVec 32).toInt = 0 := by decide
  have z : (0#32 : BitVec 32).toNat = 0 := by decide
  unfold Scalar.maxsi Scalar.subi IntOp.maxsi IntOp.subi
  split
  · rename_i h
    rw [BitVec.slt_iff_toInt_lt, e0, hi] at h
    rw [hs, if_pos (by omega)]
  · rename_i h
    rw [BitVec.slt_iff_toInt_lt, e0, hi] at h
    rw [z]; omega

/-- The plane a grid point reads: n itself below 53, and 53 + c from 53 on, for a class word c below 80; either way a
    plane below 133. -/
theorem toNat_plane (n : Nat) (hn : n < 153) (c : BitVec 32) (hc : c.toNat < 80) :
    (Scalar.select (Scalar.cmpi .slt (BitVec.ofNat 32 n) 53#32) (BitVec.ofNat 32 n) (Scalar.addi 53#32 c)).toNat < 133 := by
  have hn' : (BitVec.ofNat 32 n).toNat = n := by rw [BitVec.toNat_ofNat]; omega
  unfold Scalar.select
  split
  · rename_i h
    have h' : Scalar.cmpi .slt (BitVec.ofNat 32 n) 53#32 = 1#1 := h
    rw [Scalar.cmpi, IntOp.cmpi_slt, BitVec.toInt_eq_toNat_cond, hn', show (53#32 : BitVec 32).toInt = 53 from by decide] at h'
    rw [hn']
    split at h' <;> omega
  · show (53#32 + c).toNat < 133
    rw [BitVec.toNat_add, show (53#32 : BitVec 32).toNat = 53 from by decide]
    omega

variable {F : FTy → Type} [FloatOps F]

/-- With every class word of the first table below 80, each grid point's blocks of the mask array and of the plane array
    lie inside their arrays. -/
theorem ok_of_table (pf : pre0.Contents (Elt F)) (hpf : ∀ x, (pf 0 x).toNat < 80) : ok0 (F := F) pf := by
  refine ⟨fun i => ?_, fun i => ?_⟩
  · obtain ⟨c, hc, e⟩ : ∃ c : BitVec 32, c.toNat < 80 ∧ cc0_transform_0 Facts₀.k0_off1_inb Facts₀.numel1_S1 pf i
        = ![(Scalar.maxsi (Scalar.subi (BitVec.ofNat 32 (i 0).val) 53#32) 0#32).toNat, c.toNat, 0, 0] := ⟨_, hpf _, rfl⟩
    have hr := toNat_row (i 0).val (i 0).isLt
    have hi : (i 0).val < 153 := (i 0).isLt
    refine ⟨fun a => ?_, Or.inl rfl⟩
    rw [e, hr]
    fin_cases a <;> simp [S1x1x28x28, S100x80x28x28] <;> omega
  · obtain ⟨c, hc, e⟩ : ∃ c : BitVec 32, c.toNat < 80 ∧ cc0_transform_3 Facts₀.k0_off1_inb Facts₀.numel1_S1 pf i
        = ![(Scalar.select (Scalar.cmpi .slt (BitVec.ofNat 32 (i 0).val) 53#32) (BitVec.ofNat 32 (i 0).val)
              (Scalar.addi 53#32 c)).toNat, 0, 0] := ⟨_, hpf _, rfl⟩
    have hp := toNat_plane (i 0).val (i 0).isLt c hc
    refine ⟨fun a => ?_, Or.inl rfl⟩
    rw [e]
    fin_cases a <;> simp [S1x256x512, S133x256x512] <;> omega

/-- With every class word of the launched class array below 80, the blocks the index maps name through the class table
    lie inside their arrays at every grid point: no host operation before the region writes the class array, so the
    table the region reads is the launched array. -/
theorem ok_of_classes (m : (ℓ : Loc nD τ sig) → Buf (Elt F) ℓ)
    (h : ∀ n : Fin 100, ((m (((0 : Dev nD).tc : Thread nD τ).loc main_arg3)) (ValueIdx.ix1 n)).toNat < 80) : GenP.Ok m := by
  refine ok_of_table (tbl m) ?_
  intro (x : S100.Idx)
  obtain ⟨k, rfl⟩ : ∃ k : Fin 100, x = ValueIdx.ix1 k := ⟨x 0, ValueIdx.eq_ix1 x⟩
  show ((V m (0 : Dev nD) main_arg3) (ValueIdx.ix1 k)).toNat < 80
  rw [V_main_arg3]
  exact h k

end Cert.Kernel.Paste

end
-- ==== Proof.OkKernelIdeal.lean ====
import proofs.«418239_j16415365005582_2_alg».proof.Proof.GenP.KernelIdeal.Frame.Runs
import Idealize.ShloMosaic.Lib.ValueIdx
import Idealize.ShloMosaic.Lib.Affine

/-!
  The blocks a grid point reads lie inside their arrays.

  Grid point n of 153 reads the mask of instance max (n - 53) 0 at that instance's class, and the plane n below 53 or
  53 + class from 53 on. With every class word below 80, the instance is below 100, the class below 80 and the plane
  below 133; the arithmetic is on signed 32-bit words, where n - 53 wraps below 53 and the signed maximum undoes it.
-/

set_option maxRecDepth 16384

noncomputable section

namespace Cert.KernelIdeal.Paste

open Cert.KernelIdeal Cert.KernelIdeal.Gen Cert.KernelIdeal.GenP
open Idealize.ShloMosaic Idealize.ShloMosaic.TcCoe Idealize.SL.Sem

/-- The 32-bit word n - 53 for a grid coordinate n below 153, read unsigned: n - 53 itself from 53 on; below 53 the
    subtraction wraps around 2 ^ 32. -/
theorem toNat_sub53 (n : Nat) (hn : n < 153) :
    (BitVec.ofNat 32 n - 53#32).toNat = if 53 ≤ n then n - 53 else 2 ^ 32 + n - 53 := by
  simp only [BitVec.toNat_sub, BitVec.toNat_ofNat]
  split <;> omega

/-- The same word read signed is the integer n - 53: the wrapped word below 53 has its top bit set. -/
theorem toInt_sub53 (n : Nat) (hn : n < 153) : (BitVec.ofNat 32 n - 53#32).toInt = (n : Int) - 53 := by
  have hs := toNat_sub53 n hn
  rw [BitVec.toInt_eq_toNat_cond]
  by_cases hc : 53 ≤ n
  · rw [if_pos hc] at hs; rw [hs]; split <;> omega
  · rw [if_neg hc] at hs; rw [hs]; split <;> omega

/-- max(n - 53, 0) in signed 32-bit words, for a grid coordinate n below 153, is the truncated difference n - 53. -/
theorem toNat_row (n : Nat) (hn : n < 153) :
    (Scalar.maxsi (Scalar.subi (BitVec.ofNat 32 n) 53#32) 0#32).toNat = n - 53 := by
  have hi := toInt_sub53 n hn
  have hs := toNat_sub53 n hn
  have e0 : (0#32 : BitVec 32).toInt = 0 := by decide
  have z : (0#32 : BitVec 32).toNat = 0 := by decide
  unfold Scalar.maxsi Scalar.subi IntOp.maxsi IntOp.subi
  split
  · rename_i h
    rw [BitVec.slt_iff_toInt_lt, e0, hi] at h
    rw [hs, if_pos (by omega)]
  · rename_i h
    rw [BitVec.slt_iff_toInt_lt, e0, hi] at h
    rw [z]; omega

/-- The plane a grid point reads: n itself below 53, and 53 + c from 53 on, for a class word c below 80; either way a
    plane below 133. -/
theorem toNat_plane (n : Nat) (hn : n < 153) (c : BitVec 32) (hc : c.toNat < 80) :
    (Scalar.select (Scalar.cmpi .slt (BitVec.ofNat 32 n) 53#32) (BitVec.ofNat 32 n) (Scalar.addi 53#32 c)).toNat < 133 := by
  have hn' : (BitVec.ofNat 32 n).toNat = n := by rw [BitVec.toNat_ofNat]; omega
  unfold Scalar.select
  split
  · rename_i h
    have h' : Scalar.cmpi .slt (BitVec.ofNat 32 n) 53#32 = 1#1 := h
    rw [Scalar.cmpi, IntOp.cmpi_slt, BitVec.toInt_eq_toNat_cond, hn', show (53#32 : BitVec 32).toInt = 53 from by decide] at h'
    rw [hn']
    split at h' <;> omega
  · show (53#32 + c).toNat < 133
    rw [BitVec.toNat_add, show (53#32 : BitVec 32).toNat = 53 from by decide]
    omega

variable {F : FTy → Type} [FloatOps F]

/-- With every class word of the first table below 80, each grid point's blocks of the mask array and of the plane array
    lie inside their arrays. -/
theorem ok_of_table (pf : pre0.Contents (Elt F)) (hpf : ∀ x, (pf 0 x).toNat < 80) : ok0 (F := F) pf := by
  refine ⟨fun i => ?_, fun i => ?_⟩
  · obtain ⟨c, hc, e⟩ : ∃ c : BitVec 32, c.toNat < 80 ∧ cc0_transform_0 Facts₀.k0_off1_inb Facts₀.numel1_S1 pf i
        = ![(Scalar.maxsi (Scalar.subi (BitVec.ofNat 32 (i 0).val) 53#32) 0#32).toNat, c.toNat, 0, 0] := ⟨_, hpf _, rfl⟩
    have hr := toNat_row (i 0).val (i 0).isLt
    have hi : (i 0).val < 153 := (i 0).isLt
    refine ⟨fun a => ?_, Or.inl rfl⟩
    rw [e, hr]
    fin_cases a <;> simp [S1x1x28x28, S100x80x28x28] <;> omega
  · obtain ⟨c, hc, e⟩ : ∃ c : BitVec 32, c.toNat < 80 ∧ cc0_transform_3 Facts₀.k0_off1_inb Facts₀.numel1_S1 pf i
        = ![(Scalar.select (Scalar.cmpi .slt (BitVec.ofNat 32 (i 0).val) 53#32) (BitVec.ofNat 32 (i 0).val)
              (Scalar.addi 53#32 c)).toNat, 0, 0] := ⟨_, hpf _, rfl⟩
    have hp := toNat_plane (i 0).val (i 0).isLt c hc
    refine ⟨fun a => ?_, Or.inl rfl⟩
    rw [e]
    fin_cases a <;> simp [S1x256x512, S133x256x512] <;> omega

/-- With every class word of the launched class array below 80, the blocks the index maps name through the class table
    lie inside their arrays at every grid point: no host operation before the region writes the class array, so the
    table the region reads is the launched array. -/
theorem ok_of_classes (m : (ℓ : Loc nD τ sig) → Buf (Elt F) ℓ)
    (h : ∀ n : Fin 100, ((m (((0 : Dev nD).tc : Thread nD τ).loc main_arg3)) (ValueIdx.ix1 n)).toNat < 80) : GenP.Ok m := by
  refine ok_of_table (tbl m) ?_
  intro (x : S100.Idx)
  obtain ⟨k, rfl⟩ : ∃ k : Fin 100, x = ValueIdx.ix1 k := ⟨x 0, ValueIdx.eq_ix1 x⟩
  show ((V m (0 : Dev nD) main_arg3) (ValueIdx.ix1 k)).toNat < 80
  rw [V_main_arg3]
  exact h k

end Cert.KernelIdeal.Paste

end
-- ==== Proof.RefRunDefs.lean ====
import proofs.«418239_j16415365005582_2_alg».proof.Proof.GenP.ReferenceIdeal.Run
import proofs.«418239_j16415365005582_2_alg».proof.Proof.GenP.ReferenceIdeal.Read
import Idealize.ShloMosaic.Lib.StableHlo.Run

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The reference program's run, read back stage by stage.

The program is a straight line of 334 host operations, each writing one buffer that no other operation writes. The
line is cut into 10 consecutive stretches. Between two stretches the buffers that a later operation still reads
hold the stage values `ReadP.val_…` of the four argument arrays (`Inv k`); one stretch carries `Inv k` to
`Inv (k+1)` (`step k`), because each operation's result is its function of its operands' contents and every other
buffer keeps what it held. Composing the stretches gives the value of the result buffer after the whole line, and
that the four argument buffers are unchanged. -/

/-- The contents of a device's buffers after two lines run one after the other. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- What the buffers still to be read hold at launch: the stage values of the arguments. -/
structure Inv0 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3

/-- What the buffers still to be read hold after the first 19 operations: the stage values of the arguments. -/
structure Inv1 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v13 : W (Proc.devRef .tc main_v13) = ReadP.val_main_v13 (F := F)
  h_main_v14 : W (Proc.devRef .tc main_v14) = ReadP.val_main_v14 (F := F) x3

/-- What the buffers still to be read hold after the first 65 operations: the stage values of the arguments. -/
structure Inv2 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v22 : W (Proc.devRef .tc main_v22) = ReadP.val_main_v22 (F := F) x2
  h_main_v26 : W (Proc.devRef .tc main_v26) = ReadP.val_main_v26 (F := F) x2
  h_main_v32 : W (Proc.devRef .tc main_v32) = ReadP.val_main_v32 (F := F) x2
  h_main_v36 : W (Proc.devRef .tc main_v36) = ReadP.val_main_v36 (F := F) x2
  h_main_v37 : W (Proc.devRef .tc main_v37) = ReadP.val_main_v37 (F := F)
  h_main_v38 : W (Proc.devRef .tc main_v38) = ReadP.val_main_v38 (F := F)
  h_main_v43 : W (Proc.devRef .tc main_v43) = ReadP.val_main_v43 (F := F) x2
  h_main_v48 : W (Proc.devRef .tc main_v48) = ReadP.val_main_v48 (F := F) x2
  h_main_v50 : W (Proc.devRef .tc main_v50) = ReadP.val_main_v50 (F := F) x2
  h_main_v55 : W (Proc.devRef .tc main_v55) = ReadP.val_main_v55 (F := F) x2

/-- What the buffers still to be read hold after the first 112 operations: the stage values of the arguments. -/
structure Inv3 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v36 : W (Proc.devRef .tc main_v36) = ReadP.val_main_v36 (F := F) x2
  h_main_v37 : W (Proc.devRef .tc main_v37) = ReadP.val_main_v37 (F := F)
  h_main_v38 : W (Proc.devRef .tc main_v38) = ReadP.val_main_v38 (F := F)
  h_main_v57 : W (Proc.devRef .tc main_v57) = ReadP.val_main_v57 (F := F) x2
  h_main_v66 : W (Proc.devRef .tc main_v66) = ReadP.val_main_v66 (F := F) x2
  h_main_v79 : W (Proc.devRef .tc main_v79) = ReadP.val_main_v79 (F := F) x2
  h_main_v81 : W (Proc.devRef .tc main_v81) = ReadP.val_main_v81 (F := F) x2
  h_main_v85 : W (Proc.devRef .tc main_v85) = ReadP.val_main_v85 (F := F) x2
  h_main_v86 : W (Proc.devRef .tc main_v86) = ReadP.val_main_v86 (F := F) x2
  h_main_v87 : W (Proc.devRef .tc main_v87) = ReadP.val_main_v87 (F := F)

/-- What the buffers still to be read hold after the first 160 operations: the stage values of the arguments. -/
structure Inv4 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v37 : W (Proc.devRef .tc main_v37) = ReadP.val_main_v37 (F := F)
  h_main_v38 : W (Proc.devRef .tc main_v38) = ReadP.val_main_v38 (F := F)
  h_main_v57 : W (Proc.devRef .tc main_v57) = ReadP.val_main_v57 (F := F) x2
  h_main_v66 : W (Proc.devRef .tc main_v66) = ReadP.val_main_v66 (F := F) x2
  h_main_v79 : W (Proc.devRef .tc main_v79) = ReadP.val_main_v79 (F := F) x2
  h_main_v81 : W (Proc.devRef .tc main_v81) = ReadP.val_main_v81 (F := F) x2
  h_main_v85 : W (Proc.devRef .tc main_v85) = ReadP.val_main_v85 (F := F) x2
  h_main_v98 : W (Proc.devRef .tc main_v98) = ReadP.val_main_v98 (F := F) x2
  h_main_v100 : W (Proc.devRef .tc main_v100) = ReadP.val_main_v100 (F := F) x2
  h_main_v104 : W (Proc.devRef .tc main_v104) = ReadP.val_main_v104 (F := F) x2
  h_main_v119 : W (Proc.devRef .tc main_v119) = ReadP.val_main_v119 (F := F) x2
  h_main_v120 : W (Proc.devRef .tc main_v120) = ReadP.val_main_v120 (F := F) x2

/-- What the buffers still to be read hold after the first 182 operations: the stage values of the arguments. -/
structure Inv5 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v37 : W (Proc.devRef .tc main_v37) = ReadP.val_main_v37 (F := F)
  h_main_v38 : W (Proc.devRef .tc main_v38) = ReadP.val_main_v38 (F := F)
  h_main_v57 : W (Proc.devRef .tc main_v57) = ReadP.val_main_v57 (F := F) x2
  h_main_v66 : W (Proc.devRef .tc main_v66) = ReadP.val_main_v66 (F := F) x2
  h_main_v81 : W (Proc.devRef .tc main_v81) = ReadP.val_main_v81 (F := F) x2
  h_main_v85 : W (Proc.devRef .tc main_v85) = ReadP.val_main_v85 (F := F) x2
  h_main_v98 : W (Proc.devRef .tc main_v98) = ReadP.val_main_v98 (F := F) x2
  h_main_v100 : W (Proc.devRef .tc main_v100) = ReadP.val_main_v100 (F := F) x2
  h_main_v104 : W (Proc.devRef .tc main_v104) = ReadP.val_main_v104 (F := F) x2
  h_main_v122 : W (Proc.devRef .tc main_v122) = ReadP.val_main_v122 (F := F) x0 x2 x3
  h_main_v137 : W (Proc.devRef .tc main_v137) = ReadP.val_main_v137 (F := F) x2
  h_main_v138 : W (Proc.devRef .tc main_v138) = ReadP.val_main_v138 (F := F) x2

/-- What the buffers still to be read hold after the first 204 operations: the stage values of the arguments. -/
structure Inv6 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v37 : W (Proc.devRef .tc main_v37) = ReadP.val_main_v37 (F := F)
  h_main_v38 : W (Proc.devRef .tc main_v38) = ReadP.val_main_v38 (F := F)
  h_main_v57 : W (Proc.devRef .tc main_v57) = ReadP.val_main_v57 (F := F) x2
  h_main_v66 : W (Proc.devRef .tc main_v66) = ReadP.val_main_v66 (F := F) x2
  h_main_v81 : W (Proc.devRef .tc main_v81) = ReadP.val_main_v81 (F := F) x2
  h_main_v85 : W (Proc.devRef .tc main_v85) = ReadP.val_main_v85 (F := F) x2
  h_main_v100 : W (Proc.devRef .tc main_v100) = ReadP.val_main_v100 (F := F) x2
  h_main_v104 : W (Proc.devRef .tc main_v104) = ReadP.val_main_v104 (F := F) x2
  h_main_v122 : W (Proc.devRef .tc main_v122) = ReadP.val_main_v122 (F := F) x0 x2 x3
  h_main_v140 : W (Proc.devRef .tc main_v140) = ReadP.val_main_v140 (F := F) x0 x2 x3
  h_main_v155 : W (Proc.devRef .tc main_v155) = ReadP.val_main_v155 (F := F) x2
  h_main_v156 : W (Proc.devRef .tc main_v156) = ReadP.val_main_v156 (F := F) x2

/-- What the buffers still to be read hold after the first 226 operations: the stage values of the arguments. -/
structure Inv7 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v16 : W (Proc.devRef .tc main_v16) = ReadP.val_main_v16 (F := F) x0 x3
  h_main_v37 : W (Proc.devRef .tc main_v37) = ReadP.val_main_v37 (F := F)
  h_main_v38 : W (Proc.devRef .tc main_v38) = ReadP.val_main_v38 (F := F)
  h_main_v57 : W (Proc.devRef .tc main_v57) = ReadP.val_main_v57 (F := F) x2
  h_main_v66 : W (Proc.devRef .tc main_v66) = ReadP.val_main_v66 (F := F) x2
  h_main_v81 : W (Proc.devRef .tc main_v81) = ReadP.val_main_v81 (F := F) x2
  h_main_v100 : W (Proc.devRef .tc main_v100) = ReadP.val_main_v100 (F := F) x2
  h_main_v122 : W (Proc.devRef .tc main_v122) = ReadP.val_main_v122 (F := F) x0 x2 x3
  h_main_v140 : W (Proc.devRef .tc main_v140) = ReadP.val_main_v140 (F := F) x0 x2 x3
  h_main_v158 : W (Proc.devRef .tc main_v158) = ReadP.val_main_v158 (F := F) x0 x2 x3
  h_main_v173 : W (Proc.devRef .tc main_v173) = ReadP.val_main_v173 (F := F) x2
  h_main_v174 : W (Proc.devRef .tc main_v174) = ReadP.val_main_v174 (F := F) x2

/-- What the buffers still to be read hold after the first 280 operations: the stage values of the arguments. -/
structure Inv8 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v0 : W (Proc.devRef .tc main_v0) = ReadP.val_main_v0 (F := F) x1
  h_main_v1 : W (Proc.devRef .tc main_v1) = ReadP.val_main_v1 (F := F) x1
  h_main_v37 : W (Proc.devRef .tc main_v37) = ReadP.val_main_v37 (F := F)
  h_main_v38 : W (Proc.devRef .tc main_v38) = ReadP.val_main_v38 (F := F)
  h_main_v209 : W (Proc.devRef .tc main_v209) = ReadP.val_main_v209 (F := F) x0 x2 x3
  h_main_v211 : W (Proc.devRef .tc main_v211) = ReadP.val_main_v211 (F := F) x2
  h_main_v214 : W (Proc.devRef .tc main_v214) = ReadP.val_main_v214 (F := F) x2
  h_main_v217 : W (Proc.devRef .tc main_v217) = ReadP.val_main_v217 (F := F) x2
  h_main_v221 : W (Proc.devRef .tc main_v221) = ReadP.val_main_v221 (F := F) x2

/-- What the buffers still to be read hold after the first 333 operations: the stage values of the arguments. -/
structure Inv9 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v266 : W (Proc.devRef .tc main_v266) = ReadP.val_main_v266 (F := F) x1
  h_main_v267 : W (Proc.devRef .tc main_v267) = ReadP.val_main_v267 (F := F) x0 x1 x2 x3

/-- What the buffers still to be read hold after the whole line: the stage values of the arguments. -/
structure Inv10 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F)) : Prop where
  h_main_arg0 : W (Proc.devRef .tc main_arg0) = x0
  h_main_arg1 : W (Proc.devRef .tc main_arg1) = x1
  h_main_arg2 : W (Proc.devRef .tc main_arg2) = x2
  h_main_arg3 : W (Proc.devRef .tc main_arg3) = x3
  h_main_v268 : W (Proc.devRef .tc main_v268) = ReadP.val_main_v268 (F := F) x0 x1 x2 x3

/-- Operations 0 to 18 of the line. -/
def ops0 : List (HloOp τ sig (Elt F)) :=
  [ unary main_arg1 main_v0 ((extractStridedSlice S53x256x512 ![0, 0, 0] · slices_S133x256x512_S53x256x512_0_0_0) : (⟨S133x256x512, .f32⟩ : BufTy).Contents (Elt F) → (⟨S53x256x512, .f32⟩ : BufTy).Contents (Elt F)),
    unary main_arg1 main_v1 ((extractStridedSlice S80x256x512 ![53, 0, 0] · slices_S133x256x512_S80x256x512_53_0_0) : (⟨S133x256x512, .f32⟩ : BufTy).Contents (Elt F) → (⟨S80x256x512, .f32⟩ : BufTy).Contents (Elt F)),
    nullary main_v2 (iotaInDim S100 32 0),
    nullary main_c (constantI S_ 32 0#32),
    unary main_c main_v3 (broadcastInDim S100 ![] bcast_S_S100 : (⟨S_, .i32⟩ : BufTy).Contents (Elt F) → (⟨S100, .i32⟩ : BufTy).Contents (Elt F)),
    binary main_v2 main_v3 main_v4 (cmpi .slt : (⟨S100, .i32⟩ : BufTy).Contents (Elt F) → (⟨S100, .i32⟩ : BufTy).Contents (Elt F) → (⟨S100, .i1⟩ : BufTy).Contents (Elt F)),
    nullary main_c_0 (constantI S_ 32 100#32),
    unary main_c_0 main_v5 (broadcastInDim S100 ![] bcast_S_S100 : (⟨S_, .i32⟩ : BufTy).Contents (Elt F) → (⟨S100, .i32⟩ : BufTy).Contents (Elt F)),
    binary main_v2 main_v5 main_v6 (addi : (⟨S100, .i32⟩ : BufTy).Contents (Elt F) → (⟨S100, .i32⟩ : BufTy).Contents (Elt F) → (⟨S100, .i32⟩ : BufTy).Contents (Elt F)),
    ternary main_v4 main_v6 main_v2 main_v7 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    nullary main_c_1 (constantI S_ 32 0#32),
    unary main_c_1 main_v8 (broadcastInDim S100 ![] bcast_S_S100 : (⟨S_, .i32⟩ : BufTy).Contents (Elt F) → (⟨S100, .i32⟩ : BufTy).Contents (Elt F)),
    binary main_arg3 main_v8 main_v9 (cmpi .slt : (⟨S100, .i32⟩ : BufTy).Contents (Elt F) → (⟨S100, .i32⟩ : BufTy).Contents (Elt F) → (⟨S100, .i1⟩ : BufTy).Contents (Elt F)),
    nullary main_c_2 (constantI S_ 32 80#32),
    unary main_c_2 main_v10 (broadcastInDim S100 ![] bcast_S_S100 : (⟨S_, .i32⟩ : BufTy).Contents (Elt F) → (⟨S100, .i32⟩ : BufTy).Contents (Elt F)),
    binary main_arg3 main_v10 main_v11 (addi : (⟨S100, .i32⟩ : BufTy).Contents (Elt F) → (⟨S100, .i32⟩ : BufTy).Contents (Elt F) → (⟨S100, .i32⟩ : BufTy).Contents (Elt F)),
    ternary main_v9 main_v11 main_arg3 main_v12 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v7 main_v13 (broadcastInDim S100x1 ![0] bcast_S100_S100x1_0 : (⟨S100, .i32⟩ : BufTy).Contents (Elt F) → (⟨S100x1, .i32⟩ : BufTy).Contents (Elt F)),
    unary main_v12 main_v14 (broadcastInDim S100x1 ![0] bcast_S100_S100x1_0 : (⟨S100, .i32⟩ : BufTy).Contents (Elt F) → (⟨S100x1, .i32⟩ : BufTy).Contents (Elt F)) ]

/-- Operations 19 to 64 of the line. -/
def ops1 : List (HloOp τ sig (Elt F)) :=
  [ binary main_v13 main_v14 main_v15 ((fun a b => concatenate S100x2 1 [⟨S100x1, a⟩, ⟨S100x1, b⟩] concatenates_S100x1_S100x1_S100x2_d1) : (⟨S100x1, .i32⟩ : BufTy).Contents (Elt F) → (⟨S100x1, .i32⟩ : BufTy).Contents (Elt F) → (⟨S100x2, .i32⟩ : BufTy).Contents (Elt F)),
    binary main_arg0 main_v15 main_v16 ((fun x i => Host.gather gather_S100x80x28x28_S100x2_S100x28x28_12_01_n_n_01_1_112828 x i) : (⟨S100x80x28x28, .f32⟩ : BufTy).Contents (Elt F) → (⟨S100x2, .i32⟩ : BufTy).Contents (Elt F) → (⟨S100x28x28, .f32⟩ : BufTy).Contents (Elt F)),
    nullary main_cst (constant S_ .f32 0x40800000#32),
    unary main_cst main_v17 (broadcastInDim S100x4 ![] bcast_S_S100x4 : (⟨S_, .f32⟩ : BufTy).Contents (Elt F) → (⟨S100x4, .f32⟩ : BufTy).Contents (Elt F)),
    binary main_arg2 main_v17 main_v18 (Host.divf : (⟨S100x4, .f32⟩ : BufTy).Contents (Elt F) → (⟨S100x4, .f32⟩ : BufTy).Contents (Elt F) → (⟨S100x4, .f32⟩ : BufTy).Contents (Elt F)),
    unary main_v18 main_v19 (Host.floor : (⟨S100x4, .f32⟩ : BufTy).Contents (Elt F) → (⟨S100x4, .f32⟩ : BufTy).Contents (Elt F)),
    unary main_v19 main_v20 (fptosi 32 : (⟨S100x4, .f32⟩ : BufTy).Contents (Elt F) → (⟨S100x4, .i32⟩ : BufTy).Contents (Elt F)),
    unary main_v20 main_v21 ((extractStridedSlice S100x1 ![0, 0] · slices_S100x4_S100x1_0_0) : (⟨S100x4, .i32⟩ : BufTy).Contents (Elt F) → (⟨S100x1, .i32⟩ : BufTy).Contents (Elt F)),
    reshape main_v21 main_v22 rfl shapeCasts_S100x1_S100,
    unary main_v20 main_v23 ((extractStridedSlice S100x1 ![0, 1] · slices_S100x4_S100x1_0_1) : (⟨S100x4, .i32⟩ : BufTy).Contents (Elt F) → (⟨S100x1, .i32⟩ : BufTy).Contents (Elt F)),
    reshape main_v23 main_v24 rfl shapeCasts_S100x1_S100,
    unary main_v20 main_v25 ((extractStridedSlice S100x1 ![0, 2] · slices_S100x4_S100x1_0_2) : (⟨S100x4, .i32⟩ : BufTy).Contents (Elt F) → (⟨S100x1, .i32⟩ : BufTy).Contents (Elt F)),
    reshape main_v25 main_v26 rfl shapeCasts_S100x1_S100,
    unary main_v20 main_v27 ((extractStridedSlice S100x1 ![0, 3] · slices_S100x4_S100x1_0_3) : (⟨S100x4, .i32⟩ : BufTy).Contents (Elt F) → (⟨S100x1, .i32⟩ : BufTy).Contents (Elt F)),
    reshape main_v27 main_v28 rfl shapeCasts_S100x1_S100,
    binary main_v28 main_v24 main_v29 (subi : (⟨S100, .i32⟩ : BufTy).Contents (Elt F) → (⟨S100, .i32⟩ : BufTy).Contents (Elt F) → (⟨S100, .i32⟩ : BufTy).Contents (Elt F)),
    nullary main_c_3 (constantI S_ 32 1#32),
    unary main_c_3 main_v30 (broadcastInDim S100 ![] bcast_S_S100 : (⟨S_, .i32⟩ : BufTy).Contents (Elt F) → (⟨S100, .i32⟩ : BufTy).Contents (Elt F)),
    binary main_v29 main_v30 main_v31 (addi : (⟨S100, .i32⟩ : BufTy).Contents (Elt F) → (⟨S100, .i32⟩ : BufTy).Contents (Elt F) → (⟨S100, .i32⟩ : BufTy).Contents (Elt F)),
    unary main_v31 main_v32 (sitofp (F := F) .f32 : (⟨S100, .i32⟩ : BufTy).Contents (Elt F) → (⟨S100, .f32⟩ : BufTy).Contents (Elt F)),
    binary main_v26 main_v22 main_v33 (subi : (⟨S100, .i32⟩ : BufTy).Contents (Elt F) → (⟨S100, .i32⟩ : BufTy).Contents (Elt F) → (⟨S100, .i32⟩ : BufTy).Contents (Elt F)),
    nullary main_c_4 (constantI S_ 32 1#32),
    unary main_c_4 main_v34 (broadcastInDim S100 ![] bcast_S_S100 : (⟨S_, .i32⟩ : BufTy).Contents (Elt F) → (⟨S100, .i32⟩ : BufTy).Contents (Elt F)),
    binary main_v33 main_v34 main_v35 (addi : (⟨S100, .i32⟩ : BufTy).Contents (Elt F) → (⟨S100, .i32⟩ : BufTy).Contents (Elt F) → (⟨S100, .i32⟩ : BufTy).Contents (Elt F)),
    unary main_v35 main_v36 (sitofp (F := F) .f32 : (⟨S100, .i32⟩ : BufTy).Contents (Elt F) → (⟨S100, .f32⟩ : BufTy).Contents (Elt F)),
    nullary main_v37 (iotaInDim S256 32 0),
    nullary main_v38 (iotaInDim S512 32 0),
    unary main_v37 main_v39 (broadcastInDim S1x256 ![1] bcast_S256_S1x256_1 : (⟨S256, .i32⟩ : BufTy).Contents (Elt F) → (⟨S1x256, .i32⟩ : BufTy).Contents (Elt F)),
    unary main_v24 main_v40 (broadcastInDim S100x1 ![0] bcast_S100_S100x1_0 : (⟨S100, .i32⟩ : BufTy).Contents (Elt F) → (⟨S100x1, .i32⟩ : BufTy).Contents (Elt F)),
    unary main_v39 main_v41 (broadcastInDim S100x256 ![0, 1] bcast_S1x256_S100x256_0_1 : (⟨S1x256, .i32⟩ : BufTy).Contents (Elt F) → (⟨S100x256, .i32⟩ : BufTy).Contents (Elt F)),
    unary main_v40 main_v42 (broadcastInDim S100x256 ![0, 1] bcast_S100x1_S100x256_0_1 : (⟨S100x1, .i32⟩ : BufTy).Contents (Elt F) → (⟨S100x256, .i32⟩ : BufTy).Contents (Elt F)),
    binary main_v41 main_v42 main_v43 (subi : (⟨S100x256, .i32⟩ : BufTy).Contents (Elt F) → (⟨S100x256, .i32⟩ : BufTy).Contents (Elt F) → (⟨S100x256, .i32⟩ : BufTy).Contents (Elt F)),
    unary main_v38 main_v44 (broadcastInDim S1x512 ![1] bcast_S512_S1x512_1 : (⟨S512, .i32⟩ : BufTy).Contents (Elt F) → (⟨S1x512, .i32⟩ : BufTy).Contents (Elt F)),
    unary main_v22 main_v45 (broadcastInDim S100x1 ![0] bcast_S100_S100x1_0 : (⟨S100, .i32⟩ : BufTy).Contents (Elt F) → (⟨S100x1, .i32⟩ : BufTy).Contents (Elt F)),
    unary main_v44 main_v46 (broadcastInDim S100x512 ![0, 1] bcast_S1x512_S100x512_0_1 : (⟨S1x512, .i32⟩ : BufTy).Contents (Elt F) → (⟨S100x512, .i32⟩ : BufTy).Contents (Elt F)),
    unary main_v45 main_v47 (broadcastInDim S100x512 ![0, 1] bcast_S100x1_S100x512_0_1 : (⟨S100x1, .i32⟩ : BufTy).Contents (Elt F) → (⟨S100x512, .i32⟩ : BufTy).Contents (Elt F)),
    binary main_v46 main_v47 main_v48 (subi : (⟨S100x512, .i32⟩ : BufTy).Contents (Elt F) → (⟨S100x512, .i32⟩ : BufTy).Contents (Elt F) → (⟨S100x512, .i32⟩ : BufTy).Contents (Elt F)),
    nullary main_c_5 (constantI S_ 32 0#32),
    unary main_c_5 main_v49 (broadcastInDim S100x256 ![] bcast_S_S100x256 : (⟨S_, .i32⟩ : BufTy).Contents (Elt F) → (⟨S100x256, .i32⟩ : BufTy).Contents (Elt F)),
    binary main_v43 main_v49 main_v50 (cmpi .sge : (⟨S100x256, .i32⟩ : BufTy).Contents (Elt F) → (⟨S100x256, .i32⟩ : BufTy).Contents (Elt F) → (⟨S100x256, .i1⟩ : BufTy).Contents (Elt F)),
    binary main_v28 main_v24 main_v51 (subi : (⟨S100, .i32⟩ : BufTy).Contents (Elt F) → (⟨S100, .i32⟩ : BufTy).Contents (Elt F) → (⟨S100, .i32⟩ : BufTy).Contents (Elt F)),
    nullary main_c_6 (constantI S_ 32 1#32),
    unary main_c_6 main_v52 (broadcastInDim S100 ![] bcast_S_S100 : (⟨S_, .i32⟩ : BufTy).Contents (Elt F) → (⟨S100, .i32⟩ : BufTy).Contents (Elt F)),
    binary main_v51 main_v52 main_v53 (addi : (⟨S100, .i32⟩ : BufTy).Contents (Elt F) → (⟨S100, .i32⟩ : BufTy).Contents (Elt F) → (⟨S100, .i32⟩ : BufTy).Contents (Elt F)),
    unary main_v53 main_v54 (broadcastInDim S100x1 ![0] bcast_S100_S100x1_0 : (⟨S100, .i32⟩ : BufTy).Contents (Elt F) → (⟨S100x1, .i32⟩ : BufTy).Contents (Elt F)),
    unary main_v54 main_v55 (broadcastInDim S100x256 ![0, 1] bcast_S100x1_S100x256_0_1 : (⟨S100x1, .i32⟩ : BufTy).Contents (Elt F) → (⟨S100x256, .i32⟩ : BufTy).Contents (Elt F)) ]

/-- Operations 65 to 111 of the line. -/
def ops2 : List (HloOp τ sig (Elt F)) :=
  [ binary main_v43 main_v55 main_v56 (cmpi .slt : (⟨S100x256, .i32⟩ : BufTy).Contents (Elt F) → (⟨S100x256, .i32⟩ : BufTy).Contents (Elt F) → (⟨S100x256, .i1⟩ : BufTy).Contents (Elt F)),
    binary main_v50 main_v56 main_v57 (andi : (⟨S100x256, .i1⟩ : BufTy).Contents (Elt F) → (⟨S100x256, .i1⟩ : BufTy).Contents (Elt F) → (⟨S100x256, .i1⟩ : BufTy).Contents (Elt F)),
    nullary main_c_7 (constantI S_ 32 0#32),
    unary main_c_7 main_v58 (broadcastInDim S100x512 ![] bcast_S_S100x512 : (⟨S_, .i32⟩ : BufTy).Contents (Elt F) → (⟨S100x512, .i32⟩ : BufTy).Contents (Elt F)),
    binary main_v48 main_v58 main_v59 (cmpi .sge : (⟨S100x512, .i32⟩ : BufTy).Contents (Elt F) → (⟨S100x512, .i32⟩ : BufTy).Contents (Elt F) → (⟨S100x512, .i1⟩ : BufTy).Contents (Elt F)),
    binary main_v26 main_v22 main_v60 (subi : (⟨S100, .i32⟩ : BufTy).Contents (Elt F) → (⟨S100, .i32⟩ : BufTy).Contents (Elt F) → (⟨S100, .i32⟩ : BufTy).Contents (Elt F)),
    nullary main_c_8 (constantI S_ 32 1#32),
    unary main_c_8 main_v61 (broadcastInDim S100 ![] bcast_S_S100 : (⟨S_, .i32⟩ : BufTy).Contents (Elt F) → (⟨S100, .i32⟩ : BufTy).Contents (Elt F)),
    binary main_v60 main_v61 main_v62 (addi : (⟨S100, .i32⟩ : BufTy).Contents (Elt F) → (⟨S100, .i32⟩ : BufTy).Contents (Elt F) → (⟨S100, .i32⟩ : BufTy).Contents (Elt F)),
    unary main_v62 main_v63 (broadcastInDim S100x1 ![0] bcast_S100_S100x1_0 : (⟨S100, .i32⟩ : BufTy).Contents (Elt F) → (⟨S100x1, .i32⟩ : BufTy).Contents (Elt F)),
    unary main_v63 main_v64 (broadcastInDim S100x512 ![0, 1] bcast_S100x1_S100x512_0_1 : (⟨S100x1, .i32⟩ : BufTy).Contents (Elt F) → (⟨S100x512, .i32⟩ : BufTy).Contents (Elt F)),
    binary main_v48 main_v64 main_v65 (cmpi .slt : (⟨S100x512, .i32⟩ : BufTy).Contents (Elt F) → (⟨S100x512, .i32⟩ : BufTy).Contents (Elt F) → (⟨S100x512, .i1⟩ : BufTy).Contents (Elt F)),
    binary main_v59 main_v65 main_v66 (andi : (⟨S100x512, .i1⟩ : BufTy).Contents (Elt F) → (⟨S100x512, .i1⟩ : BufTy).Contents (Elt F) → (⟨S100x512, .i1⟩ : BufTy).Contents (Elt F)),
    unary main_v43 main_v67 (sitofp (F := F) .f32 : (⟨S100x256, .i32⟩ : BufTy).Contents (Elt F) → (⟨S100x256, .f32⟩ : BufTy).Contents (Elt F)),
    nullary main_cst_9 (constant S_ .f32 0x3F000000#32),
    unary main_cst_9 main_v68 (broadcastInDim S100x256 ![] bcast_S_S100x256 : (⟨S_, .f32⟩ : BufTy).Contents (Elt F) → (⟨S100x256, .f32⟩ : BufTy).Contents (Elt F)),
    binary main_v67 main_v68 main_v69 (addf : (⟨S100x256, .f32⟩ : BufTy).Contents (Elt F) → (⟨S100x256, .f32⟩ : BufTy).Contents (Elt F) → (⟨S100x256, .f32⟩ : BufTy).Contents (Elt F)),
    unary main_v32 main_v70 (broadcastInDim S100x1 ![0] bcast_S100_S100x1_0 : (⟨S100, .f32⟩ : BufTy).Contents (Elt F) → (⟨S100x1, .f32⟩ : BufTy).Contents (Elt F)),
    nullary main_cst_10 (constant S_ .f32 0x41E00000#32),
    unary main_cst_10 main_v71 (broadcastInDim S100x1 ![] bcast_S_S100x1 : (⟨S_, .f32⟩ : BufTy).Contents (Elt F) → (⟨S100x1, .f32⟩ : BufTy).Contents (Elt F)),
    binary main_v71 main_v70 main_v72 (Host.divf : (⟨S100x1, .f32⟩ : BufTy).Contents (Elt F) → (⟨S100x1, .f32⟩ : BufTy).Contents (Elt F) → (⟨S100x1, .f32⟩ : BufTy).Contents (Elt F)),
    unary main_v72 main_v73 (broadcastInDim S100x256 ![0, 1] bcast_S100x1_S100x256_0_1 : (⟨S100x1, .f32⟩ : BufTy).Contents (Elt F) → (⟨S100x256, .f32⟩ : BufTy).Contents (Elt F)),
    binary main_v69 main_v73 main_v74 (mulf : (⟨S100x256, .f32⟩ : BufTy).Contents (Elt F) → (⟨S100x256, .f32⟩ : BufTy).Contents (Elt F) → (⟨S100x256, .f32⟩ : BufTy).Contents (Elt F)),
    nullary main_cst_11 (constant S_ .f32 0x3F000000#32),
    unary main_cst_11 main_v75 (broadcastInDim S100x256 ![] bcast_S_S100x256 : (⟨S_, .f32⟩ : BufTy).Contents (Elt F) → (⟨S100x256, .f32⟩ : BufTy).Contents (Elt F)),
    binary main_v74 main_v75 main_v76 (subf : (⟨S100x256, .f32⟩ : BufTy).Contents (Elt F) → (⟨S100x256, .f32⟩ : BufTy).Contents (Elt F) → (⟨S100x256, .f32⟩ : BufTy).Contents (Elt F)),
    nullary main_cst_12 (constant S_ .f32 0x00000000#32),
    nullary main_cst_13 (constant S_ .f32 0x41D80000#32),
    TRef.unary (TRef.of (T := ⟨S_, .f32⟩) main_cst_12) (TRef.of (T := ⟨S_, .f32⟩) main_call0_v0) id,
    TRef.unary (TRef.of (T := ⟨S_, .f32⟩) main_call0_v0) (TRef.of (T := ⟨S100x256, .f32⟩) main_call0_v1) (broadcastInDim S100x256 ![] bcast_S_S100x256),
    TRef.binary (TRef.of (T := ⟨S100x256, .f32⟩) main_call0_v1) (TRef.of (T := ⟨S100x256, .f32⟩) main_v76) (TRef.of (T := ⟨S100x256, .f32⟩) main_call0_v2) maximumf,
    TRef.unary (TRef.of (T := ⟨S_, .f32⟩) main_cst_13) (TRef.of (T := ⟨S_, .f32⟩) main_call0_v3) id,
    TRef.unary (TRef.of (T := ⟨S_, .f32⟩) main_call0_v3) (TRef.of (T := ⟨S100x256, .f32⟩) main_call0_v4) (broadcastInDim S100x256 ![] bcast_S_S100x256),
    TRef.binary (TRef.of (T := ⟨S100x256, .f32⟩) main_call0_v4) (TRef.of (T := ⟨S100x256, .f32⟩) main_call0_v2) (TRef.of (T := ⟨S100x256, .f32⟩) main_v77) minimumf,
    unary main_v77 main_v78 (Host.floor : (⟨S100x256, .f32⟩ : BufTy).Contents (Elt F) → (⟨S100x256, .f32⟩ : BufTy).Contents (Elt F)),
    unary main_v78 main_v79 (fptosi 32 : (⟨S100x256, .f32⟩ : BufTy).Contents (Elt F) → (⟨S100x256, .i32⟩ : BufTy).Contents (Elt F)),
    unary main_v79 main_v80 (sitofp (F := F) .f32 : (⟨S100x256, .i32⟩ : BufTy).Contents (Elt F) → (⟨S100x256, .f32⟩ : BufTy).Contents (Elt F)),
    binary main_v77 main_v80 main_v81 (subf : (⟨S100x256, .f32⟩ : BufTy).Contents (Elt F) → (⟨S100x256, .f32⟩ : BufTy).Contents (Elt F) → (⟨S100x256, .f32⟩ : BufTy).Contents (Elt F)),
    nullary main_c_14 (constantI S_ 32 1#32),
    unary main_c_14 main_v82 (broadcastInDim S100x256 ![] bcast_S_S100x256 : (⟨S_, .i32⟩ : BufTy).Contents (Elt F) → (⟨S100x256, .i32⟩ : BufTy).Contents (Elt F)),
    binary main_v79 main_v82 main_v83 (addi : (⟨S100x256, .i32⟩ : BufTy).Contents (Elt F) → (⟨S100x256, .i32⟩ : BufTy).Contents (Elt F) → (⟨S100x256, .i32⟩ : BufTy).Contents (Elt F)),
    nullary main_c_15 (constantI S_ 32 27#32),
    unary main_c_15 main_v84 (broadcastInDim S100x256 ![] bcast_S_S100x256 : (⟨S_, .i32⟩ : BufTy).Contents (Elt F) → (⟨S100x256, .i32⟩ : BufTy).Contents (Elt F)),
    binary main_v83 main_v84 main_v85 (minsi : (⟨S100x256, .i32⟩ : BufTy).Contents (Elt F) → (⟨S100x256, .i32⟩ : BufTy).Contents (Elt F) → (⟨S100x256, .i32⟩ : BufTy).Contents (Elt F)),
    unary main_v48 main_v86 (sitofp (F := F) .f32 : (⟨S100x512, .i32⟩ : BufTy).Contents (Elt F) → (⟨S100x512, .f32⟩ : BufTy).Contents (Elt F)),
    nullary main_cst_16 (constant S_ .f32 0x3F000000#32),
    unary main_cst_16 main_v87 (broadcastInDim S100x512 ![] bcast_S_S100x512 : (⟨S_, .f32⟩ : BufTy).Contents (Elt F) → (⟨S100x512, .f32⟩ : BufTy).Contents (Elt F)) ]

/-- Operations 112 to 159 of the line. -/
def ops3 : List (HloOp τ sig (Elt F)) :=
  [ binary main_v86 main_v87 main_v88 (addf : (⟨S100x512, .f32⟩ : BufTy).Contents (Elt F) → (⟨S100x512, .f32⟩ : BufTy).Contents (Elt F) → (⟨S100x512, .f32⟩ : BufTy).Contents (Elt F)),
    unary main_v36 main_v89 (broadcastInDim S100x1 ![0] bcast_S100_S100x1_0 : (⟨S100, .f32⟩ : BufTy).Contents (Elt F) → (⟨S100x1, .f32⟩ : BufTy).Contents (Elt F)),
    nullary main_cst_17 (constant S_ .f32 0x41E00000#32),
    unary main_cst_17 main_v90 (broadcastInDim S100x1 ![] bcast_S_S100x1 : (⟨S_, .f32⟩ : BufTy).Contents (Elt F) → (⟨S100x1, .f32⟩ : BufTy).Contents (Elt F)),
    binary main_v90 main_v89 main_v91 (Host.divf : (⟨S100x1, .f32⟩ : BufTy).Contents (Elt F) → (⟨S100x1, .f32⟩ : BufTy).Contents (Elt F) → (⟨S100x1, .f32⟩ : BufTy).Contents (Elt F)),
    unary main_v91 main_v92 (broadcastInDim S100x512 ![0, 1] bcast_S100x1_S100x512_0_1 : (⟨S100x1, .f32⟩ : BufTy).Contents (Elt F) → (⟨S100x512, .f32⟩ : BufTy).Contents (Elt F)),
    binary main_v88 main_v92 main_v93 (mulf : (⟨S100x512, .f32⟩ : BufTy).Contents (Elt F) → (⟨S100x512, .f32⟩ : BufTy).Contents (Elt F) → (⟨S100x512, .f32⟩ : BufTy).Contents (Elt F)),
    nullary main_cst_18 (constant S_ .f32 0x3F000000#32),
    unary main_cst_18 main_v94 (broadcastInDim S100x512 ![] bcast_S_S100x512 : (⟨S_, .f32⟩ : BufTy).Contents (Elt F) → (⟨S100x512, .f32⟩ : BufTy).Contents (Elt F)),
    binary main_v93 main_v94 main_v95 (subf : (⟨S100x512, .f32⟩ : BufTy).Contents (Elt F) → (⟨S100x512, .f32⟩ : BufTy).Contents (Elt F) → (⟨S100x512, .f32⟩ : BufTy).Contents (Elt F)),
    nullary main_cst_19 (constant S_ .f32 0x00000000#32),
    nullary main_cst_20 (constant S_ .f32 0x41D80000#32),
    TRef.unary (TRef.of (T := ⟨S_, .f32⟩) main_cst_19) (TRef.of (T := ⟨S_, .f32⟩) main_call1_v0) id,
    TRef.unary (TRef.of (T := ⟨S_, .f32⟩) main_call1_v0) (TRef.of (T := ⟨S100x512, .f32⟩) main_call1_v1) (broadcastInDim S100x512 ![] bcast_S_S100x512),
    TRef.binary (TRef.of (T := ⟨S100x512, .f32⟩) main_call1_v1) (TRef.of (T := ⟨S100x512, .f32⟩) main_v95) (TRef.of (T := ⟨S100x512, .f32⟩) main_call1_v2) maximumf,
    TRef.unary (TRef.of (T := ⟨S_, .f32⟩) main_cst_20) (TRef.of (T := ⟨S_, .f32⟩) main_call1_v3) id,
    TRef.unary (TRef.of (T := ⟨S_, .f32⟩) main_call1_v3) (TRef.of (T := ⟨S100x512, .f32⟩) main_call1_v4) (broadcastInDim S100x512 ![] bcast_S_S100x512),
    TRef.binary (TRef.of (T := ⟨S100x512, .f32⟩) main_call1_v4) (TRef.of (T := ⟨S100x512, .f32⟩) main_call1_v2) (TRef.of (T := ⟨S100x512, .f32⟩) main_v96) minimumf,
    unary main_v96 main_v97 (Host.floor : (⟨S100x512, .f32⟩ : BufTy).Contents (Elt F) → (⟨S100x512, .f32⟩ : BufTy).Contents (Elt F)),
    unary main_v97 main_v98 (fptosi 32 : (⟨S100x512, .f32⟩ : BufTy).Contents (Elt F) → (⟨S100x512, .i32⟩ : BufTy).Contents (Elt F)),
    unary main_v98 main_v99 (sitofp (F := F) .f32 : (⟨S100x512, .i32⟩ : BufTy).Contents (Elt F) → (⟨S100x512, .f32⟩ : BufTy).Contents (Elt F)),
    binary main_v96 main_v99 main_v100 (subf : (⟨S100x512, .f32⟩ : BufTy).Contents (Elt F) → (⟨S100x512, .f32⟩ : BufTy).Contents (Elt F) → (⟨S100x512, .f32⟩ : BufTy).Contents (Elt F)),
    nullary main_c_21 (constantI S_ 32 1#32),
    unary main_c_21 main_v101 (broadcastInDim S100x512 ![] bcast_S_S100x512 : (⟨S_, .i32⟩ : BufTy).Contents (Elt F) → (⟨S100x512, .i32⟩ : BufTy).Contents (Elt F)),
    binary main_v98 main_v101 main_v102 (addi : (⟨S100x512, .i32⟩ : BufTy).Contents (Elt F) → (⟨S100x512, .i32⟩ : BufTy).Contents (Elt F) → (⟨S100x512, .i32⟩ : BufTy).Contents (Elt F)),
    nullary main_c_22 (constantI S_ 32 27#32),
    unary main_c_22 main_v103 (broadcastInDim S100x512 ![] bcast_S_S100x512 : (⟨S_, .i32⟩ : BufTy).Contents (Elt F) → (⟨S100x512, .i32⟩ : BufTy).Contents (Elt F)),
    binary main_v102 main_v103 main_v104 (minsi : (⟨S100x512, .i32⟩ : BufTy).Contents (Elt F) → (⟨S100x512, .i32⟩ : BufTy).Contents (Elt F) → (⟨S100x512, .i32⟩ : BufTy).Contents (Elt F)),
    unary main_v79 main_v105 (broadcastInDim S100x256x1 ![0, 1] bcast_S100x256_S100x256x1_0_1 : (⟨S100x256, .i32⟩ : BufTy).Contents (Elt F) → (⟨S100x256x1, .i32⟩ : BufTy).Contents (Elt F)),
    unary main_v98 main_v106 (broadcastInDim S100x1x512 ![0, 2] bcast_S100x512_S100x1x512_0_2 : (⟨S100x512, .i32⟩ : BufTy).Contents (Elt F) → (⟨S100x1x512, .i32⟩ : BufTy).Contents (Elt F)),
    nullary main_c_23 (constantI S_ 32 0#32),
    unary main_c_23 main_v107 (broadcastInDim S100x256x1 ![] bcast_S_S100x256x1 : (⟨S_, .i32⟩ : BufTy).Contents (Elt F) → (⟨S100x256x1, .i32⟩ : BufTy).Contents (Elt F)),
    binary main_v105 main_v107 main_v108 (cmpi .slt : (⟨S100x256x1, .i32⟩ : BufTy).Contents (Elt F) → (⟨S100x256x1, .i32⟩ : BufTy).Contents (Elt F) → (⟨S100x256x1, .i1⟩ : BufTy).Contents (Elt F)),
    nullary main_c_24 (constantI S_ 32 28#32),
    unary main_c_24 main_v109 (broadcastInDim S100x256x1 ![] bcast_S_S100x256x1 : (⟨S_, .i32⟩ : BufTy).Contents (Elt F) → (⟨S100x256x1, .i32⟩ : BufTy).Contents (Elt F)),
    binary main_v105 main_v109 main_v110 (addi : (⟨S100x256x1, .i32⟩ : BufTy).Contents (Elt F) → (⟨S100x256x1, .i32⟩ : BufTy).Contents (Elt F) → (⟨S100x256x1, .i32⟩ : BufTy).Contents (Elt F)),
    ternary main_v108 main_v110 main_v105 main_v111 (select : (⟨S100x256x1, .i1⟩ : BufTy).Contents (Elt F) → (⟨S100x256x1, .i32⟩ : BufTy).Contents (Elt F) → (⟨S100x256x1, .i32⟩ : BufTy).Contents (Elt F) → (⟨S100x256x1, .i32⟩ : BufTy).Contents (Elt F)),
    nullary main_c_25 (constantI S_ 32 0#32),
    unary main_c_25 main_v112 (broadcastInDim S100x1x512 ![] bcast_S_S100x1x512 : (⟨S_, .i32⟩ : BufTy).Contents (Elt F) → (⟨S100x1x512, .i32⟩ : BufTy).Contents (Elt F)),
    binary main_v106 main_v112 main_v113 (cmpi .slt : (⟨S100x1x512, .i32⟩ : BufTy).Contents (Elt F) → (⟨S100x1x512, .i32⟩ : BufTy).Contents (Elt F) → (⟨S100x1x512, .i1⟩ : BufTy).Contents (Elt F)),
    nullary main_c_26 (constantI S_ 32 28#32),
    unary main_c_26 main_v114 (broadcastInDim S100x1x512 ![] bcast_S_S100x1x512 : (⟨S_, .i32⟩ : BufTy).Contents (Elt F) → (⟨S100x1x512, .i32⟩ : BufTy).Contents (Elt F)),
    binary main_v106 main_v114 main_v115 (addi : (⟨S100x1x512, .i32⟩ : BufTy).Contents (Elt F) → (⟨S100x1x512, .i32⟩ : BufTy).Contents (Elt F) → (⟨S100x1x512, .i32⟩ : BufTy).Contents (Elt F)),
    ternary main_v113 main_v115 main_v106 main_v116 (select : (⟨S100x1x512, .i1⟩ : BufTy).Contents (Elt F) → (⟨S100x1x512, .i32⟩ : BufTy).Contents (Elt F) → (⟨S100x1x512, .i32⟩ : BufTy).Contents (Elt F) → (⟨S100x1x512, .i32⟩ : BufTy).Contents (Elt F)),
    unary main_v111 main_v117 (broadcastInDim S100x256x512 ![0, 1, 2] bcast_S100x256x1_S100x256x512_0_1_2 : (⟨S100x256x1, .i32⟩ : BufTy).Contents (Elt F) → (⟨S100x256x512, .i32⟩ : BufTy).Contents (Elt F)),
    unary main_v116 main_v118 (broadcastInDim S100x256x512 ![0, 1, 2] bcast_S100x1x512_S100x256x512_0_1_2 : (⟨S100x1x512, .i32⟩ : BufTy).Contents (Elt F) → (⟨S100x256x512, .i32⟩ : BufTy).Contents (Elt F)),
    unary main_v117 main_v119 (broadcastInDim S100x256x512x1 ![0, 1, 2] bcast_S100x256x512_S100x256x512x1_0_1_2 : (⟨S100x256x512, .i32⟩ : BufTy).Contents (Elt F) → (⟨S100x256x512x1, .i32⟩ : BufTy).Contents (Elt F)),
    unary main_v118 main_v120 (broadcastInDim S100x256x512x1 ![0, 1, 2] bcast_S100x256x512_S100x256x512x1_0_1_2 : (⟨S100x256x512, .i32⟩ : BufTy).Contents (Elt F) → (⟨S100x256x512x1, .i32⟩ : BufTy).Contents (Elt F)) ]

/-- Operations 160 to 181 of the line. -/
def ops4 : List (HloOp τ sig (Elt F)) :=
  [ binary main_v119 main_v120 main_v121 ((fun a b => concatenate S100x256x512x2 3 [⟨S100x256x512x1, a⟩, ⟨S100x256x512x1, b⟩] concatenates_S100x256x512x1_S100x256x512x1_S100x256x512x2_d3) : (⟨S100x256x512x1, .i32⟩ : BufTy).Contents (Elt F) → (⟨S100x256x512x1, .i32⟩ : BufTy).Contents (Elt F) → (⟨S100x256x512x2, .i32⟩ : BufTy).Contents (Elt F)),
    binary main_v16 main_v121 main_v122 ((fun x i => Host.gather gather_S100x28x28_S100x256x512x2_S100x256x512_n_12_0_0_12_3_111 x i) : (⟨S100x28x28, .f32⟩ : BufTy).Contents (Elt F) → (⟨S100x256x512x2, .i32⟩ : BufTy).Contents (Elt F) → (⟨S100x256x512, .f32⟩ : BufTy).Contents (Elt F)),
    unary main_v79 main_v123 (broadcastInDim S100x256x1 ![0, 1] bcast_S100x256_S100x256x1_0_1 : (⟨S100x256, .i32⟩ : BufTy).Contents (Elt F) → (⟨S100x256x1, .i32⟩ : BufTy).Contents (Elt F)),
    unary main_v104 main_v124 (broadcastInDim S100x1x512 ![0, 2] bcast_S100x512_S100x1x512_0_2 : (⟨S100x512, .i32⟩ : BufTy).Contents (Elt F) → (⟨S100x1x512, .i32⟩ : BufTy).Contents (Elt F)),
    nullary main_c_27 (constantI S_ 32 0#32),
    unary main_c_27 main_v125 (broadcastInDim S100x256x1 ![] bcast_S_S100x256x1 : (⟨S_, .i32⟩ : BufTy).Contents (Elt F) → (⟨S100x256x1, .i32⟩ : BufTy).Contents (Elt F)),
    binary main_v123 main_v125 main_v126 (cmpi .slt : (⟨S100x256x1, .i32⟩ : BufTy).Contents (Elt F) → (⟨S100x256x1, .i32⟩ : BufTy).Contents (Elt F) → (⟨S100x256x1, .i1⟩ : BufTy).Contents (Elt F)),
    nullary main_c_28 (constantI S_ 32 28#32),
    unary main_c_28 main_v127 (broadcastInDim S100x256x1 ![] bcast_S_S100x256x1 : (⟨S_, .i32⟩ : BufTy).Contents (Elt F) → (⟨S100x256x1, .i32⟩ : BufTy).Contents (Elt F)),
    binary main_v123 main_v127 main_v128 (addi : (⟨S100x256x1, .i32⟩ : BufTy).Contents (Elt F) → (⟨S100x256x1, .i32⟩ : BufTy).Contents (Elt F) → (⟨S100x256x1, .i32⟩ : BufTy).Contents (Elt F)),
    ternary main_v126 main_v128 main_v123 main_v129 (select : (⟨S100x256x1, .i1⟩ : BufTy).Contents (Elt F) → (⟨S100x256x1, .i32⟩ : BufTy).Contents (Elt F) → (⟨S100x256x1, .i32⟩ : BufTy).Contents (Elt F) → (⟨S100x256x1, .i32⟩ : BufTy).Contents (Elt F)),
    nullary main_c_29 (constantI S_ 32 0#32),
    unary main_c_29 main_v130 (broadcastInDim S100x1x512 ![] bcast_S_S100x1x512 : (⟨S_, .i32⟩ : BufTy).Contents (Elt F) → (⟨S100x1x512, .i32⟩ : BufTy).Contents (Elt F)),
    binary main_v124 main_v130 main_v131 (cmpi .slt : (⟨S100x1x512, .i32⟩ : BufTy).Contents (Elt F) → (⟨S100x1x512, .i32⟩ : BufTy).Contents (Elt F) → (⟨S100x1x512, .i1⟩ : BufTy).Contents (Elt F)),
    nullary main_c_30 (constantI S_ 32 28#32),
    unary main_c_30 main_v132 (broadcastInDim S100x1x512 ![] bcast_S_S100x1x512 : (⟨S_, .i32⟩ : BufTy).Contents (Elt F) → (⟨S100x1x512, .i32⟩ : BufTy).Contents (Elt F)),
    binary main_v124 main_v132 main_v133 (addi : (⟨S100x1x512, .i32⟩ : BufTy).Contents (Elt F) → (⟨S100x1x512, .i32⟩ : BufTy).Contents (Elt F) → (⟨S100x1x512, .i32⟩ : BufTy).Contents (Elt F)),
    ternary main_v131 main_v133 main_v124 main_v134 (select : (⟨S100x1x512, .i1⟩ : BufTy).Contents (Elt F) → (⟨S100x1x512, .i32⟩ : BufTy).Contents (Elt F) → (⟨S100x1x512, .i32⟩ : BufTy).Contents (Elt F) → (⟨S100x1x512, .i32⟩ : BufTy).Contents (Elt F)),
    unary main_v129 main_v135 (broadcastInDim S100x256x512 ![0, 1, 2] bcast_S100x256x1_S100x256x512_0_1_2 : (⟨S100x256x1, .i32⟩ : BufTy).Contents (Elt F) → (⟨S100x256x512, .i32⟩ : BufTy).Contents (Elt F)),
    unary main_v134 main_v136 (broadcastInDim S100x256x512 ![0, 1, 2] bcast_S100x1x512_S100x256x512_0_1_2 : (⟨S100x1x512, .i32⟩ : BufTy).Contents (Elt F) → (⟨S100x256x512, .i32⟩ : BufTy).Contents (Elt F)),
    unary main_v135 main_v137 (broadcastInDim S100x256x512x1 ![0, 1, 2] bcast_S100x256x512_S100x256x512x1_0_1_2 : (⟨S100x256x512, .i32⟩ : BufTy).Contents (Elt F) → (⟨S100x256x512x1, .i32⟩ : BufTy).Contents (Elt F)),
    unary main_v136 main_v138 (broadcastInDim S100x256x512x1 ![0, 1, 2] bcast_S100x256x512_S100x256x512x1_0_1_2 : (⟨S100x256x512, .i32⟩ : BufTy).Contents (Elt F) → (⟨S100x256x512x1, .i32⟩ : BufTy).Contents (Elt F)) ]

/-- Operations 182 to 203 of the line. -/
def ops5 : List (HloOp τ sig (Elt F)) :=
  [ binary main_v137 main_v138 main_v139 ((fun a b => concatenate S100x256x512x2 3 [⟨S100x256x512x1, a⟩, ⟨S100x256x512x1, b⟩] concatenates_S100x256x512x1_S100x256x512x1_S100x256x512x2_d3) : (⟨S100x256x512x1, .i32⟩ : BufTy).Contents (Elt F) → (⟨S100x256x512x1, .i32⟩ : BufTy).Contents (Elt F) → (⟨S100x256x512x2, .i32⟩ : BufTy).Contents (Elt F)),
    binary main_v16 main_v139 main_v140 ((fun x i => Host.gather gather_S100x28x28_S100x256x512x2_S100x256x512_n_12_0_0_12_3_111 x i) : (⟨S100x28x28, .f32⟩ : BufTy).Contents (Elt F) → (⟨S100x256x512x2, .i32⟩ : BufTy).Contents (Elt F) → (⟨S100x256x512, .f32⟩ : BufTy).Contents (Elt F)),
    unary main_v85 main_v141 (broadcastInDim S100x256x1 ![0, 1] bcast_S100x256_S100x256x1_0_1 : (⟨S100x256, .i32⟩ : BufTy).Contents (Elt F) → (⟨S100x256x1, .i32⟩ : BufTy).Contents (Elt F)),
    unary main_v98 main_v142 (broadcastInDim S100x1x512 ![0, 2] bcast_S100x512_S100x1x512_0_2 : (⟨S100x512, .i32⟩ : BufTy).Contents (Elt F) → (⟨S100x1x512, .i32⟩ : BufTy).Contents (Elt F)),
    nullary main_c_31 (constantI S_ 32 0#32),
    unary main_c_31 main_v143 (broadcastInDim S100x256x1 ![] bcast_S_S100x256x1 : (⟨S_, .i32⟩ : BufTy).Contents (Elt F) → (⟨S100x256x1, .i32⟩ : BufTy).Contents (Elt F)),
    binary main_v141 main_v143 main_v144 (cmpi .slt : (⟨S100x256x1, .i32⟩ : BufTy).Contents (Elt F) → (⟨S100x256x1, .i32⟩ : BufTy).Contents (Elt F) → (⟨S100x256x1, .i1⟩ : BufTy).Contents (Elt F)),
    nullary main_c_32 (constantI S_ 32 28#32),
    unary main_c_32 main_v145 (broadcastInDim S100x256x1 ![] bcast_S_S100x256x1 : (⟨S_, .i32⟩ : BufTy).Contents (Elt F) → (⟨S100x256x1, .i32⟩ : BufTy).Contents (Elt F)),
    binary main_v141 main_v145 main_v146 (addi : (⟨S100x256x1, .i32⟩ : BufTy).Contents (Elt F) → (⟨S100x256x1, .i32⟩ : BufTy).Contents (Elt F) → (⟨S100x256x1, .i32⟩ : BufTy).Contents (Elt F)),
    ternary main_v144 main_v146 main_v141 main_v147 (select : (⟨S100x256x1, .i1⟩ : BufTy).Contents (Elt F) → (⟨S100x256x1, .i32⟩ : BufTy).Contents (Elt F) → (⟨S100x256x1, .i32⟩ : BufTy).Contents (Elt F) → (⟨S100x256x1, .i32⟩ : BufTy).Contents (Elt F)),
    nullary main_c_33 (constantI S_ 32 0#32),
    unary main_c_33 main_v148 (broadcastInDim S100x1x512 ![] bcast_S_S100x1x512 : (⟨S_, .i32⟩ : BufTy).Contents (Elt F) → (⟨S100x1x512, .i32⟩ : BufTy).Contents (Elt F)),
    binary main_v142 main_v148 main_v149 (cmpi .slt : (⟨S100x1x512, .i32⟩ : BufTy).Contents (Elt F) → (⟨S100x1x512, .i32⟩ : BufTy).Contents (Elt F) → (⟨S100x1x512, .i1⟩ : BufTy).Contents (Elt F)),
    nullary main_c_34 (constantI S_ 32 28#32),
    unary main_c_34 main_v150 (broadcastInDim S100x1x512 ![] bcast_S_S100x1x512 : (⟨S_, .i32⟩ : BufTy).Contents (Elt F) → (⟨S100x1x512, .i32⟩ : BufTy).Contents (Elt F)),
    binary main_v142 main_v150 main_v151 (addi : (⟨S100x1x512, .i32⟩ : BufTy).Contents (Elt F) → (⟨S100x1x512, .i32⟩ : BufTy).Contents (Elt F) → (⟨S100x1x512, .i32⟩ : BufTy).Contents (Elt F)),
    ternary main_v149 main_v151 main_v142 main_v152 (select : (⟨S100x1x512, .i1⟩ : BufTy).Contents (Elt F) → (⟨S100x1x512, .i32⟩ : BufTy).Contents (Elt F) → (⟨S100x1x512, .i32⟩ : BufTy).Contents (Elt F) → (⟨S100x1x512, .i32⟩ : BufTy).Contents (Elt F)),
    unary main_v147 main_v153 (broadcastInDim S100x256x512 ![0, 1, 2] bcast_S100x256x1_S100x256x512_0_1_2 : (⟨S100x256x1, .i32⟩ : BufTy).Contents (Elt F) → (⟨S100x256x512, .i32⟩ : BufTy).Contents (Elt F)),
    unary main_v152 main_v154 (broadcastInDim S100x256x512 ![0, 1, 2] bcast_S100x1x512_S100x256x512_0_1_2 : (⟨S100x1x512, .i32⟩ : BufTy).Contents (Elt F) → (⟨S100x256x512, .i32⟩ : BufTy).Contents (Elt F)),
    unary main_v153 main_v155 (broadcastInDim S100x256x512x1 ![0, 1, 2] bcast_S100x256x512_S100x256x512x1_0_1_2 : (⟨S100x256x512, .i32⟩ : BufTy).Contents (Elt F) → (⟨S100x256x512x1, .i32⟩ : BufTy).Contents (Elt F)),
    unary main_v154 main_v156 (broadcastInDim S100x256x512x1 ![0, 1, 2] bcast_S100x256x512_S100x256x512x1_0_1_2 : (⟨S100x256x512, .i32⟩ : BufTy).Contents (Elt F) → (⟨S100x256x512x1, .i32⟩ : BufTy).Contents (Elt F)) ]

/-- Operations 204 to 225 of the line. -/
def ops6 : List (HloOp τ sig (Elt F)) :=
  [ binary main_v155 main_v156 main_v157 ((fun a b => concatenate S100x256x512x2 3 [⟨S100x256x512x1, a⟩, ⟨S100x256x512x1, b⟩] concatenates_S100x256x512x1_S100x256x512x1_S100x256x512x2_d3) : (⟨S100x256x512x1, .i32⟩ : BufTy).Contents (Elt F) → (⟨S100x256x512x1, .i32⟩ : BufTy).Contents (Elt F) → (⟨S100x256x512x2, .i32⟩ : BufTy).Contents (Elt F)),
    binary main_v16 main_v157 main_v158 ((fun x i => Host.gather gather_S100x28x28_S100x256x512x2_S100x256x512_n_12_0_0_12_3_111 x i) : (⟨S100x28x28, .f32⟩ : BufTy).Contents (Elt F) → (⟨S100x256x512x2, .i32⟩ : BufTy).Contents (Elt F) → (⟨S100x256x512, .f32⟩ : BufTy).Contents (Elt F)),
    unary main_v85 main_v159 (broadcastInDim S100x256x1 ![0, 1] bcast_S100x256_S100x256x1_0_1 : (⟨S100x256, .i32⟩ : BufTy).Contents (Elt F) → (⟨S100x256x1, .i32⟩ : BufTy).Contents (Elt F)),
    unary main_v104 main_v160 (broadcastInDim S100x1x512 ![0, 2] bcast_S100x512_S100x1x512_0_2 : (⟨S100x512, .i32⟩ : BufTy).Contents (Elt F) → (⟨S100x1x512, .i32⟩ : BufTy).Contents (Elt F)),
    nullary main_c_35 (constantI S_ 32 0#32),
    unary main_c_35 main_v161 (broadcastInDim S100x256x1 ![] bcast_S_S100x256x1 : (⟨S_, .i32⟩ : BufTy).Contents (Elt F) → (⟨S100x256x1, .i32⟩ : BufTy).Contents (Elt F)),
    binary main_v159 main_v161 main_v162 (cmpi .slt : (⟨S100x256x1, .i32⟩ : BufTy).Contents (Elt F) → (⟨S100x256x1, .i32⟩ : BufTy).Contents (Elt F) → (⟨S100x256x1, .i1⟩ : BufTy).Contents (Elt F)),
    nullary main_c_36 (constantI S_ 32 28#32),
    unary main_c_36 main_v163 (broadcastInDim S100x256x1 ![] bcast_S_S100x256x1 : (⟨S_, .i32⟩ : BufTy).Contents (Elt F) → (⟨S100x256x1, .i32⟩ : BufTy).Contents (Elt F)),
    binary main_v159 main_v163 main_v164 (addi : (⟨S100x256x1, .i32⟩ : BufTy).Contents (Elt F) → (⟨S100x256x1, .i32⟩ : BufTy).Contents (Elt F) → (⟨S100x256x1, .i32⟩ : BufTy).Contents (Elt F)),
    ternary main_v162 main_v164 main_v159 main_v165 (select : (⟨S100x256x1, .i1⟩ : BufTy).Contents (Elt F) → (⟨S100x256x1, .i32⟩ : BufTy).Contents (Elt F) → (⟨S100x256x1, .i32⟩ : BufTy).Contents (Elt F) → (⟨S100x256x1, .i32⟩ : BufTy).Contents (Elt F)),
    nullary main_c_37 (constantI S_ 32 0#32),
    unary main_c_37 main_v166 (broadcastInDim S100x1x512 ![] bcast_S_S100x1x512 : (⟨S_, .i32⟩ : BufTy).Contents (Elt F) → (⟨S100x1x512, .i32⟩ : BufTy).Contents (Elt F)),
    binary main_v160 main_v166 main_v167 (cmpi .slt : (⟨S100x1x512, .i32⟩ : BufTy).Contents (Elt F) → (⟨S100x1x512, .i32⟩ : BufTy).Contents (Elt F) → (⟨S100x1x512, .i1⟩ : BufTy).Contents (Elt F)),
    nullary main_c_38 (constantI S_ 32 28#32),
    unary main_c_38 main_v168 (broadcastInDim S100x1x512 ![] bcast_S_S100x1x512 : (⟨S_, .i32⟩ : BufTy).Contents (Elt F) → (⟨S100x1x512, .i32⟩ : BufTy).Contents (Elt F)),
    binary main_v160 main_v168 main_v169 (addi : (⟨S100x1x512, .i32⟩ : BufTy).Contents (Elt F) → (⟨S100x1x512, .i32⟩ : BufTy).Contents (Elt F) → (⟨S100x1x512, .i32⟩ : BufTy).Contents (Elt F)),
    ternary main_v167 main_v169 main_v160 main_v170 (select : (⟨S100x1x512, .i1⟩ : BufTy).Contents (Elt F) → (⟨S100x1x512, .i32⟩ : BufTy).Contents (Elt F) → (⟨S100x1x512, .i32⟩ : BufTy).Contents (Elt F) → (⟨S100x1x512, .i32⟩ : BufTy).Contents (Elt F)),
    unary main_v165 main_v171 (broadcastInDim S100x256x512 ![0, 1, 2] bcast_S100x256x1_S100x256x512_0_1_2 : (⟨S100x256x1, .i32⟩ : BufTy).Contents (Elt F) → (⟨S100x256x512, .i32⟩ : BufTy).Contents (Elt F)),
    unary main_v170 main_v172 (broadcastInDim S100x256x512 ![0, 1, 2] bcast_S100x1x512_S100x256x512_0_1_2 : (⟨S100x1x512, .i32⟩ : BufTy).Contents (Elt F) → (⟨S100x256x512, .i32⟩ : BufTy).Contents (Elt F)),
    unary main_v171 main_v173 (broadcastInDim S100x256x512x1 ![0, 1, 2] bcast_S100x256x512_S100x256x512x1_0_1_2 : (⟨S100x256x512, .i32⟩ : BufTy).Contents (Elt F) → (⟨S100x256x512x1, .i32⟩ : BufTy).Contents (Elt F)),
    unary main_v172 main_v174 (broadcastInDim S100x256x512x1 ![0, 1, 2] bcast_S100x256x512_S100x256x512x1_0_1_2 : (⟨S100x256x512, .i32⟩ : BufTy).Contents (Elt F) → (⟨S100x256x512x1, .i32⟩ : BufTy).Contents (Elt F)) ]

/-- Operations 226 to 279 of the line. -/
def ops7 : List (HloOp τ sig (Elt F)) :=
  [ binary main_v173 main_v174 main_v175 ((fun a b => concatenate S100x256x512x2 3 [⟨S100x256x512x1, a⟩, ⟨S100x256x512x1, b⟩] concatenates_S100x256x512x1_S100x256x512x1_S100x256x512x2_d3) : (⟨S100x256x512x1, .i32⟩ : BufTy).Contents (Elt F) → (⟨S100x256x512x1, .i32⟩ : BufTy).Contents (Elt F) → (⟨S100x256x512x2, .i32⟩ : BufTy).Contents (Elt F)),
    binary main_v16 main_v175 main_v176 ((fun x i => Host.gather gather_S100x28x28_S100x256x512x2_S100x256x512_n_12_0_0_12_3_111 x i) : (⟨S100x28x28, .f32⟩ : BufTy).Contents (Elt F) → (⟨S100x256x512x2, .i32⟩ : BufTy).Contents (Elt F) → (⟨S100x256x512, .f32⟩ : BufTy).Contents (Elt F)),
    nullary main_cst_39 (constant S_ .f32 0x3F800000#32),
    unary main_cst_39 main_v177 (broadcastInDim S100x512 ![] bcast_S_S100x512 : (⟨S_, .f32⟩ : BufTy).Contents (Elt F) → (⟨S100x512, .f32⟩ : BufTy).Contents (Elt F)),
    binary main_v177 main_v100 main_v178 (subf : (⟨S100x512, .f32⟩ : BufTy).Contents (Elt F) → (⟨S100x512, .f32⟩ : BufTy).Contents (Elt F) → (⟨S100x512, .f32⟩ : BufTy).Contents (Elt F)),
    unary main_v178 main_v179 (broadcastInDim S100x1x512 ![0, 2] bcast_S100x512_S100x1x512_0_2 : (⟨S100x512, .f32⟩ : BufTy).Contents (Elt F) → (⟨S100x1x512, .f32⟩ : BufTy).Contents (Elt F)),
    unary main_v179 main_v180 (broadcastInDim S100x256x512 ![0, 1, 2] bcast_S100x1x512_S100x256x512_0_1_2 : (⟨S100x1x512, .f32⟩ : BufTy).Contents (Elt F) → (⟨S100x256x512, .f32⟩ : BufTy).Contents (Elt F)),
    binary main_v180 main_v122 main_v181 (mulf : (⟨S100x256x512, .f32⟩ : BufTy).Contents (Elt F) → (⟨S100x256x512, .f32⟩ : BufTy).Contents (Elt F) → (⟨S100x256x512, .f32⟩ : BufTy).Contents (Elt F)),
    unary main_v100 main_v182 (broadcastInDim S100x1x512 ![0, 2] bcast_S100x512_S100x1x512_0_2 : (⟨S100x512, .f32⟩ : BufTy).Contents (Elt F) → (⟨S100x1x512, .f32⟩ : BufTy).Contents (Elt F)),
    unary main_v182 main_v183 (broadcastInDim S100x256x512 ![0, 1, 2] bcast_S100x1x512_S100x256x512_0_1_2 : (⟨S100x1x512, .f32⟩ : BufTy).Contents (Elt F) → (⟨S100x256x512, .f32⟩ : BufTy).Contents (Elt F)),
    binary main_v183 main_v140 main_v184 (mulf : (⟨S100x256x512, .f32⟩ : BufTy).Contents (Elt F) → (⟨S100x256x512, .f32⟩ : BufTy).Contents (Elt F) → (⟨S100x256x512, .f32⟩ : BufTy).Contents (Elt F)),
    binary main_v181 main_v184 main_v185 (addf : (⟨S100x256x512, .f32⟩ : BufTy).Contents (Elt F) → (⟨S100x256x512, .f32⟩ : BufTy).Contents (Elt F) → (⟨S100x256x512, .f32⟩ : BufTy).Contents (Elt F)),
    nullary main_cst_40 (constant S_ .f32 0x3F800000#32),
    unary main_cst_40 main_v186 (broadcastInDim S100x512 ![] bcast_S_S100x512 : (⟨S_, .f32⟩ : BufTy).Contents (Elt F) → (⟨S100x512, .f32⟩ : BufTy).Contents (Elt F)),
    binary main_v186 main_v100 main_v187 (subf : (⟨S100x512, .f32⟩ : BufTy).Contents (Elt F) → (⟨S100x512, .f32⟩ : BufTy).Contents (Elt F) → (⟨S100x512, .f32⟩ : BufTy).Contents (Elt F)),
    unary main_v187 main_v188 (broadcastInDim S100x1x512 ![0, 2] bcast_S100x512_S100x1x512_0_2 : (⟨S100x512, .f32⟩ : BufTy).Contents (Elt F) → (⟨S100x1x512, .f32⟩ : BufTy).Contents (Elt F)),
    unary main_v188 main_v189 (broadcastInDim S100x256x512 ![0, 1, 2] bcast_S100x1x512_S100x256x512_0_1_2 : (⟨S100x1x512, .f32⟩ : BufTy).Contents (Elt F) → (⟨S100x256x512, .f32⟩ : BufTy).Contents (Elt F)),
    binary main_v189 main_v158 main_v190 (mulf : (⟨S100x256x512, .f32⟩ : BufTy).Contents (Elt F) → (⟨S100x256x512, .f32⟩ : BufTy).Contents (Elt F) → (⟨S100x256x512, .f32⟩ : BufTy).Contents (Elt F)),
    unary main_v100 main_v191 (broadcastInDim S100x1x512 ![0, 2] bcast_S100x512_S100x1x512_0_2 : (⟨S100x512, .f32⟩ : BufTy).Contents (Elt F) → (⟨S100x1x512, .f32⟩ : BufTy).Contents (Elt F)),
    unary main_v191 main_v192 (broadcastInDim S100x256x512 ![0, 1, 2] bcast_S100x1x512_S100x256x512_0_1_2 : (⟨S100x1x512, .f32⟩ : BufTy).Contents (Elt F) → (⟨S100x256x512, .f32⟩ : BufTy).Contents (Elt F)),
    binary main_v192 main_v176 main_v193 (mulf : (⟨S100x256x512, .f32⟩ : BufTy).Contents (Elt F) → (⟨S100x256x512, .f32⟩ : BufTy).Contents (Elt F) → (⟨S100x256x512, .f32⟩ : BufTy).Contents (Elt F)),
    binary main_v190 main_v193 main_v194 (addf : (⟨S100x256x512, .f32⟩ : BufTy).Contents (Elt F) → (⟨S100x256x512, .f32⟩ : BufTy).Contents (Elt F) → (⟨S100x256x512, .f32⟩ : BufTy).Contents (Elt F)),
    nullary main_cst_41 (constant S_ .f32 0x3F800000#32),
    unary main_cst_41 main_v195 (broadcastInDim S100x256 ![] bcast_S_S100x256 : (⟨S_, .f32⟩ : BufTy).Contents (Elt F) → (⟨S100x256, .f32⟩ : BufTy).Contents (Elt F)),
    binary main_v195 main_v81 main_v196 (subf : (⟨S100x256, .f32⟩ : BufTy).Contents (Elt F) → (⟨S100x256, .f32⟩ : BufTy).Contents (Elt F) → (⟨S100x256, .f32⟩ : BufTy).Contents (Elt F)),
    unary main_v196 main_v197 (broadcastInDim S100x256x1 ![0, 1] bcast_S100x256_S100x256x1_0_1 : (⟨S100x256, .f32⟩ : BufTy).Contents (Elt F) → (⟨S100x256x1, .f32⟩ : BufTy).Contents (Elt F)),
    unary main_v197 main_v198 (broadcastInDim S100x256x512 ![0, 1, 2] bcast_S100x256x1_S100x256x512_0_1_2 : (⟨S100x256x1, .f32⟩ : BufTy).Contents (Elt F) → (⟨S100x256x512, .f32⟩ : BufTy).Contents (Elt F)),
    binary main_v198 main_v185 main_v199 (mulf : (⟨S100x256x512, .f32⟩ : BufTy).Contents (Elt F) → (⟨S100x256x512, .f32⟩ : BufTy).Contents (Elt F) → (⟨S100x256x512, .f32⟩ : BufTy).Contents (Elt F)),
    unary main_v81 main_v200 (broadcastInDim S100x256x1 ![0, 1] bcast_S100x256_S100x256x1_0_1 : (⟨S100x256, .f32⟩ : BufTy).Contents (Elt F) → (⟨S100x256x1, .f32⟩ : BufTy).Contents (Elt F)),
    unary main_v200 main_v201 (broadcastInDim S100x256x512 ![0, 1, 2] bcast_S100x256x1_S100x256x512_0_1_2 : (⟨S100x256x1, .f32⟩ : BufTy).Contents (Elt F) → (⟨S100x256x512, .f32⟩ : BufTy).Contents (Elt F)),
    binary main_v201 main_v194 main_v202 (mulf : (⟨S100x256x512, .f32⟩ : BufTy).Contents (Elt F) → (⟨S100x256x512, .f32⟩ : BufTy).Contents (Elt F) → (⟨S100x256x512, .f32⟩ : BufTy).Contents (Elt F)),
    binary main_v199 main_v202 main_v203 (addf : (⟨S100x256x512, .f32⟩ : BufTy).Contents (Elt F) → (⟨S100x256x512, .f32⟩ : BufTy).Contents (Elt F) → (⟨S100x256x512, .f32⟩ : BufTy).Contents (Elt F)),
    unary main_v57 main_v204 (broadcastInDim S100x256x1 ![0, 1] bcast_S100x256_S100x256x1_0_1 : (⟨S100x256, .i1⟩ : BufTy).Contents (Elt F) → (⟨S100x256x1, .i1⟩ : BufTy).Contents (Elt F)),
    unary main_v66 main_v205 (broadcastInDim S100x1x512 ![0, 2] bcast_S100x512_S100x1x512_0_2 : (⟨S100x512, .i1⟩ : BufTy).Contents (Elt F) → (⟨S100x1x512, .i1⟩ : BufTy).Contents (Elt F)),
    unary main_v204 main_v206 (broadcastInDim S100x256x512 ![0, 1, 2] bcast_S100x256x1_S100x256x512_0_1_2 : (⟨S100x256x1, .i1⟩ : BufTy).Contents (Elt F) → (⟨S100x256x512, .i1⟩ : BufTy).Contents (Elt F)),
    unary main_v205 main_v207 (broadcastInDim S100x256x512 ![0, 1, 2] bcast_S100x1x512_S100x256x512_0_1_2 : (⟨S100x1x512, .i1⟩ : BufTy).Contents (Elt F) → (⟨S100x256x512, .i1⟩ : BufTy).Contents (Elt F)),
    binary main_v206 main_v207 main_v208 (andi : (⟨S100x256x512, .i1⟩ : BufTy).Contents (Elt F) → (⟨S100x256x512, .i1⟩ : BufTy).Contents (Elt F) → (⟨S100x256x512, .i1⟩ : BufTy).Contents (Elt F)),
    nullary main_cst_42 (constant S_ .f32 0x00000000#32),
    TRef.unary (TRef.of (T := ⟨S_, .f32⟩) main_cst_42) (TRef.of (T := ⟨S_, .f32⟩) main_call2_v0) id,
    TRef.unary (TRef.of (T := ⟨S_, .f32⟩) main_call2_v0) (TRef.of (T := ⟨S100x256x512, .f32⟩) main_call2_v1) (broadcastInDim S100x256x512 ![] bcast_S_S100x256x512),
    TRef.ternary (TRef.of (T := ⟨S100x256x512, .i1⟩) main_v208) (TRef.of (T := ⟨S100x256x512, .f32⟩) main_v203) (TRef.of (T := ⟨S100x256x512, .f32⟩) main_call2_v1) (TRef.of (T := ⟨S100x256x512, .f32⟩) main_v209) select,
    nullary main_cst_43 (constant S_ .f32 0x40800000#32),
    unary main_cst_43 main_v210 (broadcastInDim S100x4 ![] bcast_S_S100x4 : (⟨S_, .f32⟩ : BufTy).Contents (Elt F) → (⟨S100x4, .f32⟩ : BufTy).Contents (Elt F)),
    binary main_arg2 main_v210 main_v211 (Host.divf : (⟨S100x4, .f32⟩ : BufTy).Contents (Elt F) → (⟨S100x4, .f32⟩ : BufTy).Contents (Elt F) → (⟨S100x4, .f32⟩ : BufTy).Contents (Elt F)),
    unary main_v211 main_v212 ((extractStridedSlice S100x1 ![0, 0] · slices_S100x4_S100x1_0_0) : (⟨S100x4, .f32⟩ : BufTy).Contents (Elt F) → (⟨S100x1, .f32⟩ : BufTy).Contents (Elt F)),
    reshape main_v212 main_v213 rfl shapeCasts_S100x1_S100,
    unary main_v213 main_v214 (fptosi 32 : (⟨S100, .f32⟩ : BufTy).Contents (Elt F) → (⟨S100, .i32⟩ : BufTy).Contents (Elt F)),
    unary main_v211 main_v215 ((extractStridedSlice S100x1 ![0, 1] · slices_S100x4_S100x1_0_1) : (⟨S100x4, .f32⟩ : BufTy).Contents (Elt F) → (⟨S100x1, .f32⟩ : BufTy).Contents (Elt F)),
    reshape main_v215 main_v216 rfl shapeCasts_S100x1_S100,
    unary main_v216 main_v217 (fptosi 32 : (⟨S100, .f32⟩ : BufTy).Contents (Elt F) → (⟨S100, .i32⟩ : BufTy).Contents (Elt F)),
    unary main_v211 main_v218 ((extractStridedSlice S100x1 ![0, 2] · slices_S100x4_S100x1_0_2) : (⟨S100x4, .f32⟩ : BufTy).Contents (Elt F) → (⟨S100x1, .f32⟩ : BufTy).Contents (Elt F)),
    reshape main_v218 main_v219 rfl shapeCasts_S100x1_S100,
    TRef.unary (TRef.of (T := ⟨S100, .f32⟩) main_v219) (TRef.of (T := ⟨S100, .f32⟩) main_v220) Host.roundeven,
    unary main_v220 main_v221 (fptosi 32 : (⟨S100, .f32⟩ : BufTy).Contents (Elt F) → (⟨S100, .i32⟩ : BufTy).Contents (Elt F)) ]

/-- Operations 280 to 332 of the line. -/
def ops8 : List (HloOp τ sig (Elt F)) :=
  [ nullary main_c_44 (constantI S_ 32 1#32),
    unary main_c_44 main_v222 (broadcastInDim S100 ![] bcast_S_S100 : (⟨S_, .i32⟩ : BufTy).Contents (Elt F) → (⟨S100, .i32⟩ : BufTy).Contents (Elt F)),
    binary main_v221 main_v222 main_v223 (addi : (⟨S100, .i32⟩ : BufTy).Contents (Elt F) → (⟨S100, .i32⟩ : BufTy).Contents (Elt F) → (⟨S100, .i32⟩ : BufTy).Contents (Elt F)),
    unary main_v211 main_v224 ((extractStridedSlice S100x1 ![0, 3] · slices_S100x4_S100x1_0_3) : (⟨S100x4, .f32⟩ : BufTy).Contents (Elt F) → (⟨S100x1, .f32⟩ : BufTy).Contents (Elt F)),
    reshape main_v224 main_v225 rfl shapeCasts_S100x1_S100,
    TRef.unary (TRef.of (T := ⟨S100, .f32⟩) main_v225) (TRef.of (T := ⟨S100, .f32⟩) main_v226) Host.roundeven,
    unary main_v226 main_v227 (fptosi 32 : (⟨S100, .f32⟩ : BufTy).Contents (Elt F) → (⟨S100, .i32⟩ : BufTy).Contents (Elt F)),
    nullary main_c_45 (constantI S_ 32 1#32),
    unary main_c_45 main_v228 (broadcastInDim S100 ![] bcast_S_S100 : (⟨S_, .i32⟩ : BufTy).Contents (Elt F) → (⟨S100, .i32⟩ : BufTy).Contents (Elt F)),
    binary main_v227 main_v228 main_v229 (addi : (⟨S100, .i32⟩ : BufTy).Contents (Elt F) → (⟨S100, .i32⟩ : BufTy).Contents (Elt F) → (⟨S100, .i32⟩ : BufTy).Contents (Elt F)),
    unary main_v37 main_v230 (broadcastInDim S1x256 ![1] bcast_S256_S1x256_1 : (⟨S256, .i32⟩ : BufTy).Contents (Elt F) → (⟨S1x256, .i32⟩ : BufTy).Contents (Elt F)),
    unary main_v217 main_v231 (broadcastInDim S100x1 ![0] bcast_S100_S100x1_0 : (⟨S100, .i32⟩ : BufTy).Contents (Elt F) → (⟨S100x1, .i32⟩ : BufTy).Contents (Elt F)),
    unary main_v230 main_v232 (broadcastInDim S100x256 ![0, 1] bcast_S1x256_S100x256_0_1 : (⟨S1x256, .i32⟩ : BufTy).Contents (Elt F) → (⟨S100x256, .i32⟩ : BufTy).Contents (Elt F)),
    unary main_v231 main_v233 (broadcastInDim S100x256 ![0, 1] bcast_S100x1_S100x256_0_1 : (⟨S100x1, .i32⟩ : BufTy).Contents (Elt F) → (⟨S100x256, .i32⟩ : BufTy).Contents (Elt F)),
    binary main_v232 main_v233 main_v234 (cmpi .sge : (⟨S100x256, .i32⟩ : BufTy).Contents (Elt F) → (⟨S100x256, .i32⟩ : BufTy).Contents (Elt F) → (⟨S100x256, .i1⟩ : BufTy).Contents (Elt F)),
    unary main_v37 main_v235 (broadcastInDim S1x256 ![1] bcast_S256_S1x256_1 : (⟨S256, .i32⟩ : BufTy).Contents (Elt F) → (⟨S1x256, .i32⟩ : BufTy).Contents (Elt F)),
    unary main_v229 main_v236 (broadcastInDim S100x1 ![0] bcast_S100_S100x1_0 : (⟨S100, .i32⟩ : BufTy).Contents (Elt F) → (⟨S100x1, .i32⟩ : BufTy).Contents (Elt F)),
    unary main_v235 main_v237 (broadcastInDim S100x256 ![0, 1] bcast_S1x256_S100x256_0_1 : (⟨S1x256, .i32⟩ : BufTy).Contents (Elt F) → (⟨S100x256, .i32⟩ : BufTy).Contents (Elt F)),
    unary main_v236 main_v238 (broadcastInDim S100x256 ![0, 1] bcast_S100x1_S100x256_0_1 : (⟨S100x1, .i32⟩ : BufTy).Contents (Elt F) → (⟨S100x256, .i32⟩ : BufTy).Contents (Elt F)),
    binary main_v237 main_v238 main_v239 (cmpi .slt : (⟨S100x256, .i32⟩ : BufTy).Contents (Elt F) → (⟨S100x256, .i32⟩ : BufTy).Contents (Elt F) → (⟨S100x256, .i1⟩ : BufTy).Contents (Elt F)),
    binary main_v234 main_v239 main_v240 (andi : (⟨S100x256, .i1⟩ : BufTy).Contents (Elt F) → (⟨S100x256, .i1⟩ : BufTy).Contents (Elt F) → (⟨S100x256, .i1⟩ : BufTy).Contents (Elt F)),
    unary main_v38 main_v241 (broadcastInDim S1x512 ![1] bcast_S512_S1x512_1 : (⟨S512, .i32⟩ : BufTy).Contents (Elt F) → (⟨S1x512, .i32⟩ : BufTy).Contents (Elt F)),
    unary main_v214 main_v242 (broadcastInDim S100x1 ![0] bcast_S100_S100x1_0 : (⟨S100, .i32⟩ : BufTy).Contents (Elt F) → (⟨S100x1, .i32⟩ : BufTy).Contents (Elt F)),
    unary main_v241 main_v243 (broadcastInDim S100x512 ![0, 1] bcast_S1x512_S100x512_0_1 : (⟨S1x512, .i32⟩ : BufTy).Contents (Elt F) → (⟨S100x512, .i32⟩ : BufTy).Contents (Elt F)),
    unary main_v242 main_v244 (broadcastInDim S100x512 ![0, 1] bcast_S100x1_S100x512_0_1 : (⟨S100x1, .i32⟩ : BufTy).Contents (Elt F) → (⟨S100x512, .i32⟩ : BufTy).Contents (Elt F)),
    binary main_v243 main_v244 main_v245 (cmpi .sge : (⟨S100x512, .i32⟩ : BufTy).Contents (Elt F) → (⟨S100x512, .i32⟩ : BufTy).Contents (Elt F) → (⟨S100x512, .i1⟩ : BufTy).Contents (Elt F)),
    unary main_v38 main_v246 (broadcastInDim S1x512 ![1] bcast_S512_S1x512_1 : (⟨S512, .i32⟩ : BufTy).Contents (Elt F) → (⟨S1x512, .i32⟩ : BufTy).Contents (Elt F)),
    unary main_v223 main_v247 (broadcastInDim S100x1 ![0] bcast_S100_S100x1_0 : (⟨S100, .i32⟩ : BufTy).Contents (Elt F) → (⟨S100x1, .i32⟩ : BufTy).Contents (Elt F)),
    unary main_v246 main_v248 (broadcastInDim S100x512 ![0, 1] bcast_S1x512_S100x512_0_1 : (⟨S1x512, .i32⟩ : BufTy).Contents (Elt F) → (⟨S100x512, .i32⟩ : BufTy).Contents (Elt F)),
    unary main_v247 main_v249 (broadcastInDim S100x512 ![0, 1] bcast_S100x1_S100x512_0_1 : (⟨S100x1, .i32⟩ : BufTy).Contents (Elt F) → (⟨S100x512, .i32⟩ : BufTy).Contents (Elt F)),
    binary main_v248 main_v249 main_v250 (cmpi .slt : (⟨S100x512, .i32⟩ : BufTy).Contents (Elt F) → (⟨S100x512, .i32⟩ : BufTy).Contents (Elt F) → (⟨S100x512, .i1⟩ : BufTy).Contents (Elt F)),
    binary main_v245 main_v250 main_v251 (andi : (⟨S100x512, .i1⟩ : BufTy).Contents (Elt F) → (⟨S100x512, .i1⟩ : BufTy).Contents (Elt F) → (⟨S100x512, .i1⟩ : BufTy).Contents (Elt F)),
    nullary main_c_46 (constantI S_ 32 0#32),
    unary main_c_46 main_v252 (broadcastInDim S100 ![] bcast_S_S100 : (⟨S_, .i32⟩ : BufTy).Contents (Elt F) → (⟨S100, .i32⟩ : BufTy).Contents (Elt F)),
    binary main_arg3 main_v252 main_v253 (cmpi .slt : (⟨S100, .i32⟩ : BufTy).Contents (Elt F) → (⟨S100, .i32⟩ : BufTy).Contents (Elt F) → (⟨S100, .i1⟩ : BufTy).Contents (Elt F)),
    nullary main_c_47 (constantI S_ 32 80#32),
    unary main_c_47 main_v254 (broadcastInDim S100 ![] bcast_S_S100 : (⟨S_, .i32⟩ : BufTy).Contents (Elt F) → (⟨S100, .i32⟩ : BufTy).Contents (Elt F)),
    binary main_arg3 main_v254 main_v255 (addi : (⟨S100, .i32⟩ : BufTy).Contents (Elt F) → (⟨S100, .i32⟩ : BufTy).Contents (Elt F) → (⟨S100, .i32⟩ : BufTy).Contents (Elt F)),
    ternary main_v253 main_v255 main_arg3 main_v256 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    unary main_v256 main_v257 (broadcastInDim S100x1 ![0] bcast_S100_S100x1_0 : (⟨S100, .i32⟩ : BufTy).Contents (Elt F) → (⟨S100x1, .i32⟩ : BufTy).Contents (Elt F)),
    binary main_v1 main_v257 main_v258 ((fun x i => Host.gather gather_S80x256x512_S100x1_S100x256x512_12_0_n_n_0_1_1256512 x i) : (⟨S80x256x512, .f32⟩ : BufTy).Contents (Elt F) → (⟨S100x1, .i32⟩ : BufTy).Contents (Elt F) → (⟨S100x256x512, .f32⟩ : BufTy).Contents (Elt F)),
    unary main_v240 main_v259 (broadcastInDim S100x256x1 ![0, 1] bcast_S100x256_S100x256x1_0_1 : (⟨S100x256, .i1⟩ : BufTy).Contents (Elt F) → (⟨S100x256x1, .i1⟩ : BufTy).Contents (Elt F)),
    unary main_v251 main_v260 (broadcastInDim S100x1x512 ![0, 2] bcast_S100x512_S100x1x512_0_2 : (⟨S100x512, .i1⟩ : BufTy).Contents (Elt F) → (⟨S100x1x512, .i1⟩ : BufTy).Contents (Elt F)),
    unary main_v259 main_v261 (broadcastInDim S100x256x512 ![0, 1, 2] bcast_S100x256x1_S100x256x512_0_1_2 : (⟨S100x256x1, .i1⟩ : BufTy).Contents (Elt F) → (⟨S100x256x512, .i1⟩ : BufTy).Contents (Elt F)),
    unary main_v260 main_v262 (broadcastInDim S100x256x512 ![0, 1, 2] bcast_S100x1x512_S100x256x512_0_1_2 : (⟨S100x1x512, .i1⟩ : BufTy).Contents (Elt F) → (⟨S100x256x512, .i1⟩ : BufTy).Contents (Elt F)),
    binary main_v261 main_v262 main_v263 (andi : (⟨S100x256x512, .i1⟩ : BufTy).Contents (Elt F) → (⟨S100x256x512, .i1⟩ : BufTy).Contents (Elt F) → (⟨S100x256x512, .i1⟩ : BufTy).Contents (Elt F)),
    nullary main_cst_48 (constant S_ .f32 0x00000000#32),
    TRef.unary (TRef.of (T := ⟨S_, .f32⟩) main_cst_48) (TRef.of (T := ⟨S_, .f32⟩) main_call5_v0) id,
    TRef.unary (TRef.of (T := ⟨S_, .f32⟩) main_call5_v0) (TRef.of (T := ⟨S100x256x512, .f32⟩) main_call5_v1) (broadcastInDim S100x256x512 ![] bcast_S_S100x256x512),
    TRef.ternary (TRef.of (T := ⟨S100x256x512, .i1⟩) main_v263) (TRef.of (T := ⟨S100x256x512, .f32⟩) main_v258) (TRef.of (T := ⟨S100x256x512, .f32⟩) main_call5_v1) (TRef.of (T := ⟨S100x256x512, .f32⟩) main_v264) select,
    binary main_v209 main_v264 main_v265 (addf : (⟨S100x256x512, .f32⟩ : BufTy).Contents (Elt F) → (⟨S100x256x512, .f32⟩ : BufTy).Contents (Elt F) → (⟨S100x256x512, .f32⟩ : BufTy).Contents (Elt F)),
    unary main_v0 main_v266 (broadcastInDim S1x53x256x512 ![1, 2, 3] bcast_S53x256x512_S1x53x256x512_1_2_3 : (⟨S53x256x512, .f32⟩ : BufTy).Contents (Elt F) → (⟨S1x53x256x512, .f32⟩ : BufTy).Contents (Elt F)),
    unary main_v265 main_v267 (broadcastInDim S1x100x256x512 ![1, 2, 3] bcast_S100x256x512_S1x100x256x512_1_2_3 : (⟨S100x256x512, .f32⟩ : BufTy).Contents (Elt F) → (⟨S1x100x256x512, .f32⟩ : BufTy).Contents (Elt F)) ]

/-- Operations 333 to 333 of the line. -/
def ops9 : List (HloOp τ sig (Elt F)) :=
  [ binary main_v266 main_v267 main_v268 ((fun a b => concatenate S1x153x256x512 1 [⟨S1x53x256x512, a⟩, ⟨S1x100x256x512, b⟩] concatenates_S1x53x256x512_S1x100x256x512_S1x153x256x512_d1) : (⟨S1x53x256x512, .f32⟩ : BufTy).Contents (Elt F) → (⟨S1x100x256x512, .f32⟩ : BufTy).Contents (Elt F) → (⟨S1x153x256x512, .f32⟩ : BufTy).Contents (Elt F)) ]

set_option maxRecDepth 8192 in
/-- Every operation of stretch 0 determines its result. -/
theorem fresh0 : ∀ op ∈ (ops0 (F := F)), op.fresh = ∅ := by
  intro _ h; unfold ops0 at h; (repeat (cases h with | head => rfl | tail _ h => ?_)); exact nomatch h

set_option maxRecDepth 8192 in
/-- Every operation of stretch 1 determines its result. -/
theorem fresh1 : ∀ op ∈ (ops1 (F := F)), op.fresh = ∅ := by
  intro _ h; unfold ops1 at h; (repeat (cases h with | head => rfl | tail _ h => ?_)); exact nomatch h

set_option maxRecDepth 8192 in
/-- Every operation of stretch 2 determines its result. -/
theorem fresh2 : ∀ op ∈ (ops2 (F := F)), op.fresh = ∅ := by
  intro _ h; unfold ops2 at h; (repeat (cases h with | head => rfl | tail _ h => ?_)); exact nomatch h

set_option maxRecDepth 8192 in
/-- Every operation of stretch 3 determines its result. -/
theorem fresh3 : ∀ op ∈ (ops3 (F := F)), op.fresh = ∅ := by
  intro _ h; unfold ops3 at h; (repeat (cases h with | head => rfl | tail _ h => ?_)); exact nomatch h

set_option maxRecDepth 8192 in
/-- Every operation of stretch 4 determines its result. -/
theorem fresh4 : ∀ op ∈ (ops4 (F := F)), op.fresh = ∅ := by
  intro _ h; unfold ops4 at h; (repeat (cases h with | head => rfl | tail _ h => ?_)); exact nomatch h

set_option maxRecDepth 8192 in
/-- Every operation of stretch 5 determines its result. -/
theorem fresh5 : ∀ op ∈ (ops5 (F := F)), op.fresh = ∅ := by
  intro _ h; unfold ops5 at h; (repeat (cases h with | head => rfl | tail _ h => ?_)); exact nomatch h

set_option maxRecDepth 8192 in
/-- Every operation of stretch 6 determines its result. -/
theorem fresh6 : ∀ op ∈ (ops6 (F := F)), op.fresh = ∅ := by
  intro _ h; unfold ops6 at h; (repeat (cases h with | head => rfl | tail _ h => ?_)); exact nomatch h

set_option maxRecDepth 8192 in
/-- Every operation of stretch 7 determines its result. -/
theorem fresh7 : ∀ op ∈ (ops7 (F := F)), op.fresh = ∅ := by
  intro _ h; unfold ops7 at h; (repeat (cases h with | head => rfl | tail _ h => ?_)); exact nomatch h

set_option maxRecDepth 8192 in
/-- Every operation of stretch 8 determines its result. -/
theorem fresh8 : ∀ op ∈ (ops8 (F := F)), op.fresh = ∅ := by
  intro _ h; unfold ops8 at h; (repeat (cases h with | head => rfl | tail _ h => ?_)); exact nomatch h

set_option maxRecDepth 8192 in
/-- Every operation of stretch 9 determines its result. -/
theorem fresh9 : ∀ op ∈ (ops9 (F := F)), op.fresh = ∅ := by
  intro _ h; unfold ops9 at h; (repeat (cases h with | head => rfl | tail _ h => ?_)); exact nomatch h

set_option maxRecDepth 8192 in
set_option maxHeartbeats 40000000 in
/-- The line is its stretches one after the other. -/
theorem ops_eq : ValueP.ops (F := F) = ops0 ++ (ops1 ++ (ops2 ++ (ops3 ++ (ops4 ++ (ops5 ++ (ops6 ++ (ops7 ++ (ops8 ++ (ops9))))))))) := rfl

/-- Every operation of the line determines its result. -/
theorem ops_fresh : ∀ op ∈ (ValueP.ops (F := F)), op.fresh = ∅ := by
  intro op hop
  rw [ops_eq] at hop
  simp only [List.mem_append] at hop
  rcases hop with h | h | h | h | h | h | h | h | h | h
  · exact fresh0 op h
  · exact fresh1 op h
  · exact fresh2 op h
  · exact fresh3 op h
  · exact fresh4 op h
  · exact fresh5 op h
  · exact fresh6 op h
  · exact fresh7 op h
  · exact fresh8 op h
  · exact fresh9 op h

end Cert.ReferenceIdeal.Paste

end
-- ==== Proof.RefRunStep0.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The first stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- The first 19 operations carry the stage values across: the two plane slices, the two wrapped index columns and the four arguments. -/
theorem step0 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv0 W x0 x1 x2 x3) : Inv1 (StableHlo.after (ops0 (F := F)) W) x0 x1 x2 x3 where
  h_main_arg0 := by unfold ops0; after_results_simp; exact h.h_main_arg0
  h_main_arg1 := by unfold ops0; after_results_simp; exact h.h_main_arg1
  h_main_arg2 := by unfold ops0; after_results_simp; exact h.h_main_arg2
  h_main_arg3 := by unfold ops0; after_results_simp; exact h.h_main_arg3
  h_main_v0 := by
    unfold ops0; after_results_simp
    simp only [h.h_main_arg1]
    rfl
  h_main_v1 := by
    unfold ops0; after_results_simp
    simp only [h.h_main_arg1]
    rfl
  h_main_v13 := by
    unfold ops0; after_results_simp
    rfl
  h_main_v14 := by
    unfold ops0; after_results_simp
    simp only [h.h_main_arg3]
    rfl

end Cert.ReferenceIdeal.Paste

end
-- ==== Proof.RefRunStep1.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The second stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 19 to 64 carry the stage values across: they gather each instance's mask at its class and begin the
    arithmetic on the boxes; the buffers read later hold their stages after them if the buffers read from here on did
    before. -/
theorem step1 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv1 W x0 x1 x2 x3) : Inv2 (StableHlo.after (ops1 (F := F)) W) x0 x1 x2 x3 where
  h_main_arg0 := by unfold ops1; after_results_simp; exact h.h_main_arg0
  h_main_arg1 := by unfold ops1; after_results_simp; exact h.h_main_arg1
  h_main_arg2 := by unfold ops1; after_results_simp; exact h.h_main_arg2
  h_main_arg3 := by unfold ops1; after_results_simp; exact h.h_main_arg3
  h_main_v0 := by unfold ops1; after_results_simp; exact h.h_main_v0
  h_main_v1 := by unfold ops1; after_results_simp; exact h.h_main_v1
  h_main_v16 := by
    unfold ops1; after_results_simp
    try rw [h.h_main_v14]
    try rw [h.h_main_v13]
    try rw [h.h_main_arg0]
    all_goals rfl
  h_main_v22 := by
    unfold ops1; after_results_simp
    try rw [h.h_main_arg2]
    all_goals rfl
  h_main_v26 := by
    unfold ops1; after_results_simp
    try rw [h.h_main_arg2]
    all_goals rfl
  h_main_v32 := by
    unfold ops1; after_results_simp
    try rw [h.h_main_arg2]
    all_goals rfl
  h_main_v36 := by
    unfold ops1; after_results_simp
    try rw [h.h_main_arg2]
    all_goals rfl
  h_main_v37 := by
    unfold ops1; after_results_simp
    rfl
  h_main_v38 := by
    unfold ops1; after_results_simp
    rfl
  h_main_v43 := by
    unfold ops1; after_results_simp
    try rw [h.h_main_arg2]
    all_goals rfl
  h_main_v48 := by
    unfold ops1; after_results_simp
    try rw [h.h_main_arg2]
    all_goals rfl
  h_main_v50 := by
    unfold ops1; after_results_simp
    try rw [h.h_main_arg2]
    all_goals rfl
  h_main_v55 := by
    unfold ops1; after_results_simp
    try rw [h.h_main_arg2]
    all_goals rfl

end Cert.ReferenceIdeal.Paste

end
-- ==== Proof.RefRunStep2.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The third stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 65 to 111 of the line carry the stage values across: the buffers read later hold their stages after them if the buffers read from here on did before. -/
theorem step2 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv2 W x0 x1 x2 x3) : Inv3 (StableHlo.after (ops2 (F := F)) W) x0 x1 x2 x3 where
  h_main_arg0 := by unfold ops2; after_results_simp; exact h.h_main_arg0
  h_main_arg1 := by unfold ops2; after_results_simp; exact h.h_main_arg1
  h_main_arg2 := by unfold ops2; after_results_simp; exact h.h_main_arg2
  h_main_arg3 := by unfold ops2; after_results_simp; exact h.h_main_arg3
  h_main_v0 := by unfold ops2; after_results_simp; exact h.h_main_v0
  h_main_v1 := by unfold ops2; after_results_simp; exact h.h_main_v1
  h_main_v16 := by unfold ops2; after_results_simp; exact h.h_main_v16
  h_main_v36 := by unfold ops2; after_results_simp; exact h.h_main_v36
  h_main_v37 := by unfold ops2; after_results_simp; exact h.h_main_v37
  h_main_v38 := by unfold ops2; after_results_simp; exact h.h_main_v38
  h_main_v57 := by
    unfold ops2; after_results_simp
    simp only [h.h_main_v55, h.h_main_v43, h.h_main_v50]
    rfl
  h_main_v66 := by
    unfold ops2; after_results_simp
    simp only [h.h_main_v22, h.h_main_v26, h.h_main_v48]
    rfl
  h_main_v79 := by
    unfold ops2; after_results_simp
    simp only [h.h_main_v32, h.h_main_v43]
    rfl
  h_main_v81 := by
    unfold ops2; after_results_simp
    simp only [h.h_main_v32, h.h_main_v43]
    rfl
  h_main_v85 := by
    unfold ops2; after_results_simp
    simp only [h.h_main_v32, h.h_main_v43]
    rfl
  h_main_v86 := by
    unfold ops2; after_results_simp
    simp only [h.h_main_v48]
    rfl
  h_main_v87 := by
    unfold ops2; after_results_simp
    rfl

end Cert.ReferenceIdeal.Paste

end
-- ==== Proof.RefRunStep3.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The fourth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- The fourth stretch keeps the stage values: the buffers read after it hold their stages if the buffers read in it did. -/
theorem step3 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv3 W x0 x1 x2 x3) : Inv4 (StableHlo.after (ops3 (F := F)) W) x0 x1 x2 x3 where
  h_main_arg0 := by unfold ops3; after_results_simp; exact h.h_main_arg0
  h_main_arg1 := by unfold ops3; after_results_simp; exact h.h_main_arg1
  h_main_arg2 := by unfold ops3; after_results_simp; exact h.h_main_arg2
  h_main_arg3 := by unfold ops3; after_results_simp; exact h.h_main_arg3
  h_main_v0 := by unfold ops3; after_results_simp; exact h.h_main_v0
  h_main_v1 := by unfold ops3; after_results_simp; exact h.h_main_v1
  h_main_v16 := by unfold ops3; after_results_simp; exact h.h_main_v16
  h_main_v37 := by unfold ops3; after_results_simp; exact h.h_main_v37
  h_main_v38 := by unfold ops3; after_results_simp; exact h.h_main_v38
  h_main_v57 := by unfold ops3; after_results_simp; exact h.h_main_v57
  h_main_v66 := by unfold ops3; after_results_simp; exact h.h_main_v66
  h_main_v79 := by unfold ops3; after_results_simp; exact h.h_main_v79
  h_main_v81 := by unfold ops3; after_results_simp; exact h.h_main_v81
  h_main_v85 := by unfold ops3; after_results_simp; exact h.h_main_v85
  h_main_v98 := by
    unfold ops3; after_results_simp
    simp only [h.h_main_v36, h.h_main_v87, h.h_main_v86]
    rfl
  h_main_v100 := by
    unfold ops3; after_results_simp
    simp only [h.h_main_v36, h.h_main_v87, h.h_main_v86]
    rfl
  h_main_v104 := by
    unfold ops3; after_results_simp
    simp only [h.h_main_v36, h.h_main_v87, h.h_main_v86]
    rfl
  h_main_v119 := by
    unfold ops3; after_results_simp
    simp only [h.h_main_v79]
    rfl
  h_main_v120 := by
    unfold ops3; after_results_simp
    simp only [h.h_main_v36, h.h_main_v87, h.h_main_v86]
    rfl

end Cert.ReferenceIdeal.Paste

end
-- ==== Proof.RefRunStep4.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The fifth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 160 to 181 carry the stage values across: they gather the first of each pixel's four corner cells of
    the selected mask and set up the index pair of the second. -/
theorem step4 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv4 W x0 x1 x2 x3) : Inv5 (StableHlo.after (ops4 (F := F)) W) x0 x1 x2 x3 where
  h_main_arg0 := by unfold ops4; after_results_simp; exact h.h_main_arg0
  h_main_arg1 := by unfold ops4; after_results_simp; exact h.h_main_arg1
  h_main_arg2 := by unfold ops4; after_results_simp; exact h.h_main_arg2
  h_main_arg3 := by unfold ops4; after_results_simp; exact h.h_main_arg3
  h_main_v0 := by unfold ops4; after_results_simp; exact h.h_main_v0
  h_main_v1 := by unfold ops4; after_results_simp; exact h.h_main_v1
  h_main_v16 := by unfold ops4; after_results_simp; exact h.h_main_v16
  h_main_v37 := by unfold ops4; after_results_simp; exact h.h_main_v37
  h_main_v38 := by unfold ops4; after_results_simp; exact h.h_main_v38
  h_main_v57 := by unfold ops4; after_results_simp; exact h.h_main_v57
  h_main_v66 := by unfold ops4; after_results_simp; exact h.h_main_v66
  h_main_v81 := by unfold ops4; after_results_simp; exact h.h_main_v81
  h_main_v85 := by unfold ops4; after_results_simp; exact h.h_main_v85
  h_main_v98 := by unfold ops4; after_results_simp; exact h.h_main_v98
  h_main_v100 := by unfold ops4; after_results_simp; exact h.h_main_v100
  h_main_v104 := by unfold ops4; after_results_simp; exact h.h_main_v104
  h_main_v122 := by
    unfold ops4; after_results_simp
    try rw [h.h_main_v120]
    try rw [h.h_main_v119]
    try rw [h.h_main_v16]
    all_goals rfl
  h_main_v137 := by
    unfold ops4; after_results_simp
    try rw [h.h_main_v79]
    all_goals rfl
  h_main_v138 := by
    unfold ops4; after_results_simp
    try rw [h.h_main_v104]
    all_goals rfl

end Cert.ReferenceIdeal.Paste

end
-- ==== Proof.RefRunStep5.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The sixth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 182 to 203 carry the stage values across: they gather the second of each pixel's four corner cells of
    the selected mask and set up the index pair of the third. -/
theorem step5 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv5 W x0 x1 x2 x3) : Inv6 (StableHlo.after (ops5 (F := F)) W) x0 x1 x2 x3 where
  h_main_arg0 := by unfold ops5; after_results_simp; exact h.h_main_arg0
  h_main_arg1 := by unfold ops5; after_results_simp; exact h.h_main_arg1
  h_main_arg2 := by unfold ops5; after_results_simp; exact h.h_main_arg2
  h_main_arg3 := by unfold ops5; after_results_simp; exact h.h_main_arg3
  h_main_v0 := by unfold ops5; after_results_simp; exact h.h_main_v0
  h_main_v1 := by unfold ops5; after_results_simp; exact h.h_main_v1
  h_main_v16 := by unfold ops5; after_results_simp; exact h.h_main_v16
  h_main_v37 := by unfold ops5; after_results_simp; exact h.h_main_v37
  h_main_v38 := by unfold ops5; after_results_simp; exact h.h_main_v38
  h_main_v57 := by unfold ops5; after_results_simp; exact h.h_main_v57
  h_main_v66 := by unfold ops5; after_results_simp; exact h.h_main_v66
  h_main_v81 := by unfold ops5; after_results_simp; exact h.h_main_v81
  h_main_v85 := by unfold ops5; after_results_simp; exact h.h_main_v85
  h_main_v100 := by unfold ops5; after_results_simp; exact h.h_main_v100
  h_main_v104 := by unfold ops5; after_results_simp; exact h.h_main_v104
  h_main_v122 := by unfold ops5; after_results_simp; exact h.h_main_v122
  h_main_v140 := by
    unfold ops5; after_results_simp
    try rw [h.h_main_v138]
    try rw [h.h_main_v137]
    try rw [h.h_main_v16]
    all_goals rfl
  h_main_v155 := by
    unfold ops5; after_results_simp
    try rw [h.h_main_v85]
    all_goals rfl
  h_main_v156 := by
    unfold ops5; after_results_simp
    try rw [h.h_main_v98]
    all_goals rfl

end Cert.ReferenceIdeal.Paste

end
-- ==== Proof.RefRunStep6.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The seventh stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 204 to 225 carry the stage values across: they gather the third of each pixel's four corner cells of
    the selected mask and set up the index pair of the fourth. -/
theorem step6 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv6 W x0 x1 x2 x3) : Inv7 (StableHlo.after (ops6 (F := F)) W) x0 x1 x2 x3 where
  h_main_arg0 := by unfold ops6; after_results_simp; exact h.h_main_arg0
  h_main_arg1 := by unfold ops6; after_results_simp; exact h.h_main_arg1
  h_main_arg2 := by unfold ops6; after_results_simp; exact h.h_main_arg2
  h_main_arg3 := by unfold ops6; after_results_simp; exact h.h_main_arg3
  h_main_v0 := by unfold ops6; after_results_simp; exact h.h_main_v0
  h_main_v1 := by unfold ops6; after_results_simp; exact h.h_main_v1
  h_main_v16 := by unfold ops6; after_results_simp; exact h.h_main_v16
  h_main_v37 := by unfold ops6; after_results_simp; exact h.h_main_v37
  h_main_v38 := by unfold ops6; after_results_simp; exact h.h_main_v38
  h_main_v57 := by unfold ops6; after_results_simp; exact h.h_main_v57
  h_main_v66 := by unfold ops6; after_results_simp; exact h.h_main_v66
  h_main_v81 := by unfold ops6; after_results_simp; exact h.h_main_v81
  h_main_v100 := by unfold ops6; after_results_simp; exact h.h_main_v100
  h_main_v122 := by unfold ops6; after_results_simp; exact h.h_main_v122
  h_main_v140 := by unfold ops6; after_results_simp; exact h.h_main_v140
  h_main_v158 := by
    unfold ops6; after_results_simp
    try rw [h.h_main_v156]
    try rw [h.h_main_v155]
    try rw [h.h_main_v16]
    all_goals rfl
  h_main_v173 := by
    unfold ops6; after_results_simp
    try rw [h.h_main_v85]
    all_goals rfl
  h_main_v174 := by
    unfold ops6; after_results_simp
    try rw [h.h_main_v104]
    all_goals rfl

end Cert.ReferenceIdeal.Paste

end
-- ==== Proof.RefRunStep7.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The eighth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 226 to 279 carry the stage values across: they gather the fourth corner cell, interpolate the four
    cells along the columns and then along the rows, keep the result inside the box, and begin the crop window's
    bounds. -/
theorem step7 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv7 W x0 x1 x2 x3) : Inv8 (StableHlo.after (ops7 (F := F)) W) x0 x1 x2 x3 where
  h_main_arg0 := by unfold ops7; after_results_simp; exact h.h_main_arg0
  h_main_arg1 := by unfold ops7; after_results_simp; exact h.h_main_arg1
  h_main_arg2 := by unfold ops7; after_results_simp; exact h.h_main_arg2
  h_main_arg3 := by unfold ops7; after_results_simp; exact h.h_main_arg3
  h_main_v0 := by unfold ops7; after_results_simp; exact h.h_main_v0
  h_main_v1 := by unfold ops7; after_results_simp; exact h.h_main_v1
  h_main_v37 := by unfold ops7; after_results_simp; exact h.h_main_v37
  h_main_v38 := by unfold ops7; after_results_simp; exact h.h_main_v38
  h_main_v209 := by
    unfold ops7; after_results_simp
    try rw [h.h_main_v174]
    try rw [h.h_main_v173]
    try rw [h.h_main_v16]
    try rw [h.h_main_v100]
    try rw [h.h_main_v158]
    try rw [h.h_main_v81]
    try rw [h.h_main_v140]
    try rw [h.h_main_v122]
    try rw [h.h_main_v66]
    try rw [h.h_main_v57]
    all_goals rfl
  h_main_v211 := by
    unfold ops7; after_results_simp
    try rw [h.h_main_arg2]
    all_goals rfl
  h_main_v214 := by
    unfold ops7; after_results_simp
    try rw [h.h_main_arg2]
    all_goals rfl
  h_main_v217 := by
    unfold ops7; after_results_simp
    try rw [h.h_main_arg2]
    all_goals rfl
  h_main_v221 := by
    unfold ops7; after_results_simp
    try rw [h.h_main_arg2]
    all_goals rfl

end Cert.ReferenceIdeal.Paste

end
-- ==== Proof.RefRunStep8.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The ninth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operations 280 to 332 carry the stage values across: the four arguments are untouched, and the two buffers still
    to be read afterwards hold the semantic planes and the pasted planes, each with a leading unit axis. -/
theorem step8 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv8 W x0 x1 x2 x3) : Inv9 (StableHlo.after (ops8 (F := F)) W) x0 x1 x2 x3 where
  h_main_arg0 := by unfold ops8; after_results_simp; exact h.h_main_arg0
  h_main_arg1 := by unfold ops8; after_results_simp; exact h.h_main_arg1
  h_main_arg2 := by unfold ops8; after_results_simp; exact h.h_main_arg2
  h_main_arg3 := by unfold ops8; after_results_simp; exact h.h_main_arg3
  h_main_v266 := by
    unfold ops8; after_results_simp
    simp only [h.h_main_v0]
    rfl
  h_main_v267 := by
    unfold ops8; after_results_simp
    simp only [h.h_main_arg3, h.h_main_v1, h.h_main_v221, h.h_main_v38, h.h_main_v214, h.h_main_v211, h.h_main_v37, h.h_main_v217, h.h_main_v209]
    rfl

end Cert.ReferenceIdeal.Paste

end
-- ==== Proof.RefRunStep9.lean ====
import proofs.«418239_j16415365005582_2_alg».proof.Proof.RefRunDefs

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The tenth stretch of the reference program's line of host operations carries the stage values across: if the
    buffers still to be read hold their stages before it, they do after it. Each field is one buffer: an operation's
    result is its function of its operands' contents, and a buffer the stretch does not write keeps what it held. -/

set_option maxRecDepth 8192 in
set_option maxHeartbeats 4000000 in
/-- Operation 333, the last, carries the stage values across: it joins the 53 semantic planes and the 100 pasted
    planes along the plane axis into the result, and the four arguments are untouched. -/
theorem step9 (W : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv9 W x0 x1 x2 x3) : Inv10 (StableHlo.after (ops9 (F := F)) W) x0 x1 x2 x3 where
  h_main_arg0 := by unfold ops9; after_results_simp; exact h.h_main_arg0
  h_main_arg1 := by unfold ops9; after_results_simp; exact h.h_main_arg1
  h_main_arg2 := by unfold ops9; after_results_simp; exact h.h_main_arg2
  h_main_arg3 := by unfold ops9; after_results_simp; exact h.h_main_arg3
  h_main_v268 := by
    unfold ops9; after_results_simp
    try rw [h.h_main_v267]
    try rw [h.h_main_v266]
    all_goals rfl

end Cert.ReferenceIdeal.Paste

end
-- ==== Proof.RefRun.lean ====
import proofs.«418239_j16415365005582_2_alg».proof.Proof.RefRunStep0
import proofs.«418239_j16415365005582_2_alg».proof.Proof.RefRunStep1
import proofs.«418239_j16415365005582_2_alg».proof.Proof.RefRunStep2
import proofs.«418239_j16415365005582_2_alg».proof.Proof.RefRunStep3
import proofs.«418239_j16415365005582_2_alg».proof.Proof.RefRunStep4
import proofs.«418239_j16415365005582_2_alg».proof.Proof.RefRunStep5
import proofs.«418239_j16415365005582_2_alg».proof.Proof.RefRunStep6
import proofs.«418239_j16415365005582_2_alg».proof.Proof.RefRunStep7
import proofs.«418239_j16415365005582_2_alg».proof.Proof.RefRunStep8
import proofs.«418239_j16415365005582_2_alg».proof.Proof.RefRunStep9
import Idealize.ShloMosaic.Lib.StableHlo.Run

noncomputable section

namespace Cert.ReferenceIdeal.Paste

open Cert.ReferenceIdeal Cert.ReferenceIdeal.Gen Idealize.ShloMosaic Idealize.ShloMosaic.TcCoe Idealize.SL.Sem Idealize.ShloMosaic.StableHlo

variable {F : FTy → Type} [FloatOps F]

/-! The ten stretches composed: after the whole line the result buffer holds the last stage's value of the four
    argument arrays and the argument buffers are unchanged; hence the program's run and its frame. -/

/-- After the whole line the result buffer holds the last stage's value of the launch contents of the four argument
    buffers, and those four are unchanged. -/
theorem after_ops (V : Valuation τ sig (Elt F)) (x0 : (⟨S100x80x28x28, .f32⟩ : BufTy).Contents (Elt F)) (x1 : (⟨S133x256x512, .f32⟩ : BufTy).Contents (Elt F)) (x2 : (⟨S100x4, .f32⟩ : BufTy).Contents (Elt F)) (x3 : (⟨S100, .i32⟩ : BufTy).Contents (Elt F))
    (h : Inv0 V x0 x1 x2 x3) : Inv10 (StableHlo.after (ValueP.ops (F := F)) V) x0 x1 x2 x3 := by
  rw [ops_eq, after_app, after_app, after_app, after_app, after_app, after_app, after_app, after_app, after_app]
  exact step9 _ x0 x1 x2 x3 (step8 _ x0 x1 x2 x3 (step7 _ x0 x1 x2 x3 (step6 _ x0 x1 x2 x3 (step5 _ x0 x1 x2 x3 (step4 _ x0 x1 x2 x3 (step3 _ x0 x1 x2 x3 (step2 _ x0 x1 x2 x3 (step1 _ x0 x1 x2 x3 (step0 V x0 x1 x2 x3 h)))))))))

/-- On every device, for any float values, from any memory with zero counters: every weakly fair execution of
    the program terminates with the result buffer at the last stage's value of the four argument arrays, and the
    argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v268) = ReadP.val_main_v268 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have I := after_ops (F := F) (launchContents m c) (m ((c.tc : Thread nD τ).loc main_arg0)) (m ((c.tc : Thread nD τ).loc main_arg1)) (m ((c.tc : Thread nD τ).loc main_arg2)) (m ((c.tc : Thread nD τ).loc main_arg3)) ⟨rfl, rfl, rfl, rfl⟩
      ⟨(h c main_v268).trans I.h_main_v268, (h c main_arg0).trans I.h_main_arg0, (h c main_arg1).trans I.h_main_arg1,
        (h c main_arg2).trans I.h_main_arg2, (h c main_arg3).trans I.h_main_arg3⟩)
    (run_seq ValueP.scopedRefs_eq ValueP.scopedSems_eq defs main (fun _ => ValueP.ops) ValueP.main_eq (fun _ => ValueP.ops_sub) m ρ
      (fun _ => ops_fresh))

/-- The same run, read only at the argument buffers: they end as they began. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (run m ρ)

end Cert.ReferenceIdeal.Paste

end
-- ==== Proof.KernelTail.lean ====
import proofs.«418239_j16415365005582_2_alg».proof.Proof.GenP.KernelIdeal.Frame
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

/-! # The program's result from the output array's final contents

After the grid the program's one remaining host operation puts a leading unit axis in front of the [153,256,512] array
the grid wrote. Given what that array holds when the grid ends (the canvas), every run terminates with the result equal
to the canvas read at the three trailing coordinates, and with the four arguments as launched. -/

noncomputable section

namespace Cert.KernelIdeal.Paste

open Idealize.ShloMosaic Idealize.ShloMosaic.TcCoe Idealize.ShloMosaic.ValueIdx
open Idealize.SL Idealize.SL.Sem
open Cert.KernelIdeal Cert.KernelIdeal.Gen

/-- The last host operation, a broadcast of the [153,256,512] canvas to [1,153,256,512], read at an index. -/
theorem bcast_result_apply (x : S153x256x512.Idx → EReal) (i : S1x153x256x512.Idx) :
    broadcastInDim S1x153x256x512 ![1, 2, 3] bcast_S153x256x512_S1x153x256x512_1_2_3 x i = x (ix3 (i 1) (i 2) (i 3)) :=
  broadcastInDim_apply _ bcast_S153x256x512_S1x153x256x512_1_2_3 x i (ix3 (i 1) (i 2) (i 3)) (fun a => match a with
    | ⟨0, _⟩ => by show (i 1).val = if (153 : Nat) = 1 then 0 else (i 1).val; rw [if_neg (by decide)]
    | ⟨1, _⟩ => by show (i 2).val = if (256 : Nat) = 1 then 0 else (i 2).val; rw [if_neg (by decide)]
    | ⟨2, _⟩ => by show (i 3).val = if (512 : Nat) = 1 then 0 else (i 3).val; rw [if_neg (by decide)])

/-- What the result buffer holds after the last host operation, from the output array's final contents. -/
theorem tail_v152 (m : (ℓ : Loc nD τ sig) → Buf (Elt Ideal) ℓ) (hO : GenP.Ok m) (canvas : Dev nD → S153x256x512.Idx → EReal)
    (hfinal : ∀ c : Dev nD, (GenP.dats m hO 0 c).arrAt 4 (GenP.cfgM m hO).N = canvas c) (c : Dev nD) :
    Pipeline.afterTail pcfgs (fun _ => GenP.adm m hO) (GenP.dats m hO) 0 (GenP.V0 m) [hostOps1] c main_v152
      = (fun i => canvas c (ix3 (i 1) (i 2) (i 3))) := by
  unfold Pipeline.afterTail
  simp only [List.flatten_cons, List.flatten_nil, List.append_nil]
  show StableHlo.after hostOps1 _ (Proc.devRef .tc main_v152) = _
  after_results
  refine (congrArg (broadcastInDim S1x153x256x512 ![1, 2, 3] bcast_S153x256x512_S1x153x256x512_1_2_3)
    ((Pipeline.withArrays_arr spec0 (launch0 (F := Ideal)).win.arr_inj c (GenP.V0 m c)
      (fun w => (GenP.dats m hO 0 c).arrAt w (GenP.cfgM m hO).N) 4).trans (hfinal c))).trans ?_
  funext i
  exact bcast_result_apply (canvas c) i

/-- The run with the result named: the result is the canvas the region leaves in its output array with a leading unit
    axis put in front, and the four arguments end as launched. -/
theorem run_of_final (m : (ℓ : Loc nD τ sig) → Buf (Elt Ideal) ℓ) (ρ : Dev nD → PrngReg) (hO : GenP.Ok m)
    (canvas : Dev nD → S153x256x512.Idx → EReal)
    (hfinal : ∀ c : Dev nD, (GenP.dats m hO 0 c).arrAt 4 (GenP.cfgM m hO).N = canvas c) :
    θ_run defs (onTc (τ := τ) (main (F := Ideal))) ⟨m, fun _ => 0, ρ⟩ fun r => ∀ c : Dev nD,
      r.2.mem ((c.tc : Thread nD τ).loc main_v152) = (fun i => canvas c (ix3 (i 1) (i 2) (i 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v152 (by decide : main_v152 ∈ Pipeline.restRefs sig spec0)).trans (tail_v152 m hO canvas hfinal c),
      ((h c).1 0).trans (((GenP.dats m hO 0 c).arrAt_in 0 rfl _).trans ((GenP.A_eq m hO c 0).trans (GenP.V_main_arg0 m c))),
      ((h c).1 3).trans (((GenP.dats m hO 0 c).arrAt_in 3 rfl _).trans ((GenP.A_eq m hO c 3).trans (GenP.V_main_arg1 m c))),
      (((h c).2 main_arg2 (by decide : main_arg2 ∈ Pipeline.restRefs sig spec0)).trans (GenP.W_main_arg2 m hO (GenP.dats m hO) c)),
      (((h c).2 main_arg3 (by decide : main_arg3 ∈ Pipeline.restRefs sig spec0)).trans (GenP.W_main_arg3 m hO (GenP.dats m hO) c))⟩)
    (GenP.run_main m ρ hO)

end Cert.KernelIdeal.Paste
-- ==== Proof.SharedBoxes.lean ====
import proofs.«418239_j16415365005582_2_alg».proof.Proof.GenP.KernelIdeal.Frame.Runs
import proofs.«418239_j16415365005582_2_alg».proof.Proof.GenP.ReferenceIdeal.Read
import Idealize.ShloMosaic.Lib.StableHlo.Run

/-!
# The box-derived arrays are the same functions of `boxes` in both programs

Both programs compute, from the array `boxes : [100, 4]` alone, the same twelve auxiliary arrays: the inside masks
of a box's rows and columns, the two source indices and the interpolation weight along each axis of the 28 x 28
mask (from the sample coordinate `s = clip ((j - lo + 1/2) * 28 / extent - 1/2, 0, 27)`: `i0 = int (floor s)`,
`w = s - i0`, `i1 = min (i0 + 1) 27`), and the four integer bounds of the crop window. Each program applies the
same primitive operations in the same order to `boxes`, so once the kernel side's host operations before the
region are composed into one term over the launch contents of `boxes`, the two terms agree by unfolding
definitions. Everything is stated at an arbitrary float family `F`: no property of the arithmetic is used.

The last section restates the five prefetched tables (the classes and the four crop bounds) as those functions.
-/

set_option maxRecDepth 16384

noncomputable section

namespace Cert.Paste

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc Cert.KernelIdeal.nD Cert.KernelIdeal.τ Cert.KernelIdeal.sig) → Buf (Elt F) ℓ)

/-- Composes the host operations before the region into one term over the launch contents: the valuation at the
    region's entry is the fold of the operations' results over the launch memory; each operation's result is read
    at its own buffer, and every other buffer is passed over. -/
local macro "compose_host" : tactic =>
  `(tactic| (dsimp only [Cert.KernelIdeal.GenP.V, Cert.KernelIdeal.GenP.V0]
             simp only [hostOps0, hostOps0_1, hostOps0_2, hostOps0_3, hostOps0_4, hostOps0_5, hostOps0_6, hostOps0_7,
               hostOps0_8, hostOps0_9, hostOps0_10, hostOps0_11, hostOps0_12, hostOps0_13, hostOps0_14, hostOps0_15,
               hostOps0_16, List.flatten_cons, List.flatten_nil, List.append_nil, List.cons_append, List.nil_append]
             after_results_simp))

/-! ## The twelve arrays -/

set_option maxHeartbeats 4000000 in
/-- The row-inside mask (is output row y inside box n's vertical extent): the kernel program's `main_v40` at the region's entry is the reference's
    stage `val_main_v57` of `boxes`. -/
theorem inY_eq (c : Dev Cert.KernelIdeal.nD) :
    (Cert.KernelIdeal.GenP.V m c main_v40 : Cert.KernelIdeal.S100x256.Idx → BitVec 1)
      = Cert.ReferenceIdeal.ReadP.val_main_v57 (m ((c.tc : Thread _ _).loc main_arg2)) := by
  compose_host
  rfl

set_option maxHeartbeats 4000000 in
/-- The column-inside mask (is output column x inside box n's horizontal extent): the kernel program's `main_v49` at the region's entry is the reference's
    stage `val_main_v66` of `boxes`. -/
theorem inX_eq (c : Dev Cert.KernelIdeal.nD) :
    (Cert.KernelIdeal.GenP.V m c main_v49 : Cert.KernelIdeal.S100x512.Idx → BitVec 1)
      = Cert.ReferenceIdeal.ReadP.val_main_v66 (m ((c.tc : Thread _ _).loc main_arg2)) := by
  compose_host
  rfl

set_option maxHeartbeats 4000000 in
/-- The upper source row index, the integer part of the clipped vertical sample coordinate: the kernel program's `main_v62` at the region's entry is the reference's
    stage `val_main_v79` of `boxes`. -/
theorem yi0_eq (c : Dev Cert.KernelIdeal.nD) :
    (Cert.KernelIdeal.GenP.V m c main_v62 : Cert.KernelIdeal.S100x256.Idx → BitVec 32)
      = Cert.ReferenceIdeal.ReadP.val_main_v79 (m ((c.tc : Thread _ _).loc main_arg2)) := by
  compose_host
  rfl

set_option maxHeartbeats 4000000 in
/-- The vertical interpolation weight, the fractional part of the clipped vertical sample coordinate: the kernel program's `main_v64` at the region's entry is the reference's
    stage `val_main_v81` of `boxes`. -/
theorem wy_eq (c : Dev Cert.KernelIdeal.nD) :
    (Cert.KernelIdeal.GenP.V m c main_v64 : Cert.KernelIdeal.S100x256.Idx → F .f32)
      = Cert.ReferenceIdeal.ReadP.val_main_v81 (m ((c.tc : Thread _ _).loc main_arg2)) := by
  compose_host
  rfl

set_option maxHeartbeats 4000000 in
/-- The lower source row index, min (yi0 + 1) 27: the kernel program's `main_v68` at the region's entry is the reference's
    stage `val_main_v85` of `boxes`. -/
theorem yi1_eq (c : Dev Cert.KernelIdeal.nD) :
    (Cert.KernelIdeal.GenP.V m c main_v68 : Cert.KernelIdeal.S100x256.Idx → BitVec 32)
      = Cert.ReferenceIdeal.ReadP.val_main_v85 (m ((c.tc : Thread _ _).loc main_arg2)) := by
  compose_host
  rfl

set_option maxHeartbeats 4000000 in
/-- The left source column index, the integer part of the clipped horizontal sample coordinate: the kernel program's `main_v81` at the region's entry is the reference's
    stage `val_main_v98` of `boxes`. -/
theorem xi0_eq (c : Dev Cert.KernelIdeal.nD) :
    (Cert.KernelIdeal.GenP.V m c main_v81 : Cert.KernelIdeal.S100x512.Idx → BitVec 32)
      = Cert.ReferenceIdeal.ReadP.val_main_v98 (m ((c.tc : Thread _ _).loc main_arg2)) := by
  compose_host
  rfl

set_option maxHeartbeats 4000000 in
/-- The horizontal interpolation weight, the fractional part of the clipped horizontal sample coordinate: the kernel program's `main_v83` at the region's entry is the reference's
    stage `val_main_v100` of `boxes`. -/
theorem wx_eq (c : Dev Cert.KernelIdeal.nD) :
    (Cert.KernelIdeal.GenP.V m c main_v83 : Cert.KernelIdeal.S100x512.Idx → F .f32)
      = Cert.ReferenceIdeal.ReadP.val_main_v100 (m ((c.tc : Thread _ _).loc main_arg2)) := by
  compose_host
  rfl

set_option maxHeartbeats 4000000 in
/-- The right source column index, min (xi0 + 1) 27: the kernel program's `main_v87` at the region's entry is the reference's
    stage `val_main_v104` of `boxes`. -/
theorem xi1_eq (c : Dev Cert.KernelIdeal.nD) :
    (Cert.KernelIdeal.GenP.V m c main_v87 : Cert.KernelIdeal.S100x512.Idx → BitVec 32)
      = Cert.ReferenceIdeal.ReadP.val_main_v104 (m ((c.tc : Thread _ _).loc main_arg2)) := by
  compose_host
  rfl

set_option maxHeartbeats 4000000 in
/-- The crop window's left bound, int (x1 / 4): the kernel program's `main_v135` at the region's entry is the reference's
    stage `val_main_v214` of `boxes`. -/
theorem cx1_eq (c : Dev Cert.KernelIdeal.nD) :
    (Cert.KernelIdeal.GenP.V m c main_v135 : Cert.KernelIdeal.S100.Idx → BitVec 32)
      = Cert.ReferenceIdeal.ReadP.val_main_v214 (m ((c.tc : Thread _ _).loc main_arg2)) := by
  compose_host
  rfl

set_option maxHeartbeats 4000000 in
/-- The crop window's upper bound, int (y1 / 4): the kernel program's `main_v138` at the region's entry is the reference's
    stage `val_main_v217` of `boxes`. -/
theorem cy1_eq (c : Dev Cert.KernelIdeal.nD) :
    (Cert.KernelIdeal.GenP.V m c main_v138 : Cert.KernelIdeal.S100.Idx → BitVec 32)
      = Cert.ReferenceIdeal.ReadP.val_main_v217 (m ((c.tc : Thread _ _).loc main_arg2)) := by
  compose_host
  rfl

set_option maxHeartbeats 4000000 in
/-- The crop window's right bound, int (round (x2 / 4)) + 1: the kernel program's `main_v144` at the region's entry is the reference's
    stage `val_main_v223` of `boxes`. -/
theorem cx2_eq (c : Dev Cert.KernelIdeal.nD) :
    (Cert.KernelIdeal.GenP.V m c main_v144 : Cert.KernelIdeal.S100.Idx → BitVec 32)
      = Cert.ReferenceIdeal.ReadP.val_main_v223 (m ((c.tc : Thread _ _).loc main_arg2)) := by
  compose_host
  rfl

set_option maxHeartbeats 4000000 in
/-- The crop window's lower bound, int (round (y2 / 4)) + 1: the kernel program's `main_v150` at the region's entry is the reference's
    stage `val_main_v229` of `boxes`. -/
theorem cy2_eq (c : Dev Cert.KernelIdeal.nD) :
    (Cert.KernelIdeal.GenP.V m c main_v150 : Cert.KernelIdeal.S100.Idx → BitVec 32)
      = Cert.ReferenceIdeal.ReadP.val_main_v229 (m ((c.tc : Thread _ _).loc main_arg2)) := by
  compose_host
  rfl

/-! ## The prefetched tables

The region reads five tables of 100 words: the classes, which no host operation writes, and the four crop bounds
above (there is one device, device 0). -/

/-- Table 0 is the launch contents of `classes`. -/
theorem tbl0_eq : Cert.KernelIdeal.GenP.tbl m 0 = m (((0 : Dev Cert.KernelIdeal.nD).tc : Thread _ _).loc main_arg3) :=
  Cert.KernelIdeal.GenP.V_main_arg3 m 0

/-- Table 1 is the crop window's left bound. -/
theorem tbl1_eq : (Cert.KernelIdeal.GenP.tbl m 1 : Cert.KernelIdeal.S100.Idx → BitVec 32)
    = Cert.ReferenceIdeal.ReadP.val_main_v214 (m (((0 : Dev Cert.KernelIdeal.nD).tc : Thread _ _).loc main_arg2)) :=
  cx1_eq m 0

/-- Table 2 is the crop window's upper bound. -/
theorem tbl2_eq : (Cert.KernelIdeal.GenP.tbl m 2 : Cert.KernelIdeal.S100.Idx → BitVec 32)
    = Cert.ReferenceIdeal.ReadP.val_main_v217 (m (((0 : Dev Cert.KernelIdeal.nD).tc : Thread _ _).loc main_arg2)) :=
  cy1_eq m 0

/-- Table 3 is the crop window's right bound. -/
theorem tbl3_eq : (Cert.KernelIdeal.GenP.tbl m 3 : Cert.KernelIdeal.S100.Idx → BitVec 32)
    = Cert.ReferenceIdeal.ReadP.val_main_v223 (m (((0 : Dev Cert.KernelIdeal.nD).tc : Thread _ _).loc main_arg2)) :=
  cx2_eq m 0

/-- Table 4 is the crop window's lower bound. -/
theorem tbl4_eq : (Cert.KernelIdeal.GenP.tbl m 4 : Cert.KernelIdeal.S100.Idx → BitVec 32)
    = Cert.ReferenceIdeal.ReadP.val_main_v229 (m (((0 : Dev Cert.KernelIdeal.nD).tc : Thread _ _).loc main_arg2)) :=
  cy2_eq m 0

end Cert.Paste

end
-- ==== Proof.KernelBody.lean ====
import proofs.«418239_j16415365005582_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The kernel body's arithmetic at one pixel

Both payloads of the body read at the pixel (y, x) of the one plane a grid step writes. The copy payload is two shape
casts that undo each other. The plane payload is the product of the row matrix [256,28], the mask [28,28] and the
column matrix [28,512], read as a double sum over the two contracted coordinates, plus the class plane where the crop
mask holds and zero elsewhere. -/

noncomputable section

namespace Cert.KernelIdeal.Paste

open Idealize.ShloMosaic Idealize.ShloMosaic.ValueIdx Cert.KernelIdeal Cert.KernelIdeal.Gen

/-! ## The two products' operand indices, axis by axis -/

/-- First product: the left operand's row coordinate is the output's row coordinate. -/
theorem lhs1_0 (j : S256x28.Idx) (k : dot_S256x28_S28x28_S256x28_1_0_0_1_n_n.contr.Idx) :
    (dot_S256x28_S28x28_S256x28_1_0_0_1_n_n.lhsIdx j k 0).val = (j 0).val := by
  unfold DotDims.lhsIdx
  rw [dif_neg (show ¬(0 : Fin S256x28.rank) ∈ dot_S256x28_S28x28_S256x28_1_0_0_1_n_n.lhsBatch by decide),
    dif_pos (show (0 : Fin S256x28.rank) ∈ dot_S256x28_S28x28_S256x28_1_0_0_1_n_n.lhsNonContracting by decide)]
  rfl

/-- First product: the left operand's column coordinate is the contracted coordinate. -/
theorem lhs1_1 (j : S256x28.Idx) (k : dot_S256x28_S28x28_S256x28_1_0_0_1_n_n.contr.Idx) :
    (dot_S256x28_S28x28_S256x28_1_0_0_1_n_n.lhsIdx j k 1).val = (k ⟨0, by decide⟩).val :=
  dot_S256x28_S28x28_S256x28_1_0_0_1_n_n.lhsIdx_val_of_single (cl := 1) rfl j k

/-- First product: the right operand's row coordinate is the contracted coordinate. -/
theorem rhs1_0 (j : S256x28.Idx) (k : dot_S256x28_S28x28_S256x28_1_0_0_1_n_n.contr.Idx) :
    (dot_S256x28_S28x28_S256x28_1_0_0_1_n_n.rhsIdx j k 0).val = (k ⟨0, by decide⟩).val :=
  dot_S256x28_S28x28_S256x28_1_0_0_1_n_n.rhsIdx_val_of_single (cr := 0) rfl j k

/-- First product: the right operand's column coordinate is the output's column coordinate. -/
theorem rhs1_1 (j : S256x28.Idx) (k : dot_S256x28_S28x28_S256x28_1_0_0_1_n_n.contr.Idx) :
    (dot_S256x28_S28x28_S256x28_1_0_0_1_n_n.rhsIdx j k 1).val = (j 1).val := by
  unfold DotDims.rhsIdx
  rw [dif_neg (show ¬(1 : Fin S28x28.rank) ∈ dot_S256x28_S28x28_S256x28_1_0_0_1_n_n.rhsBatch by decide),
    dif_pos (show (1 : Fin S28x28.rank) ∈ dot_S256x28_S28x28_S256x28_1_0_0_1_n_n.rhsNonContracting by decide)]
  rfl

/-- The first product, [256,28]·[28,28] into the zero splat, at (y, l): the sum over the contracted coordinate. -/
theorem mm1_apply (A' : FVec Ideal S256x28 .f32) (M' : FVec Ideal S28x28 .f32) (y : Fin 256) (l : Fin 28) :
    FloatOps.matmul dot_S256x28_S28x28_S256x28_1_0_0_1_n_n (some .fp32) A' M' (constant (F := Ideal) S256x28 .f32 0x00000000#32) (ix2 y l)
      = ∑ k : Fin 28, A' (ix2 y k) * M' (ix2 k l) := by
  rw [Ideal.matmul_constant_zero_apply,
    ← Equiv.sum_comp (contrEquiv1 dot_S256x28_S28x28_S256x28_1_0_0_1_n_n 28 rfl rfl).symm]
  refine Finset.sum_congr rfl fun c _ => ?_
  have c2 := contrEquiv1_symm_val dot_S256x28_S28x28_S256x28_1_0_0_1_n_n 28 rfl rfl c
  have l2 : dot_S256x28_S28x28_S256x28_1_0_0_1_n_n.lhsIdx (ix2 y l)
      ((contrEquiv1 dot_S256x28_S28x28_S256x28_1_0_0_1_n_n 28 rfl rfl).symm c) = ix2 y c := by
    funext ax; apply Fin.ext
    match ax with
    | ⟨0, _⟩ => exact lhs1_0 _ _
    | ⟨1, _⟩ => exact (lhs1_1 _ _).trans c2
  have r2 : dot_S256x28_S28x28_S256x28_1_0_0_1_n_n.rhsIdx (ix2 y l)
      ((contrEquiv1 dot_S256x28_S28x28_S256x28_1_0_0_1_n_n 28 rfl rfl).symm c) = ix2 c l := by
    funext ax; apply Fin.ext
    match ax with
    | ⟨0, _⟩ => exact (rhs1_0 _ _).trans c2
    | ⟨1, _⟩ => exact rhs1_1 _ _
  rw [l2, r2]

/-- Second product: the left operand's row coordinate is the output's row coordinate. -/
theorem lhs2_0 (j : S256x512.Idx) (k : dot_S256x28_S28x512_S256x512_1_0_0_1_n_n.contr.Idx) :
    (dot_S256x28_S28x512_S256x512_1_0_0_1_n_n.lhsIdx j k 0).val = (j 0).val := by
  unfold DotDims.lhsIdx
  rw [dif_neg (show ¬(0 : Fin S256x28.rank) ∈ dot_S256x28_S28x512_S256x512_1_0_0_1_n_n.lhsBatch by decide),
    dif_pos (show (0 : Fin S256x28.rank) ∈ dot_S256x28_S28x512_S256x512_1_0_0_1_n_n.lhsNonContracting by decide)]
  rfl

/-- Second product: the left operand's column coordinate is the contracted coordinate. -/
theorem lhs2_1 (j : S256x512.Idx) (k : dot_S256x28_S28x512_S256x512_1_0_0_1_n_n.contr.Idx) :
    (dot_S256x28_S28x512_S256x512_1_0_0_1_n_n.lhsIdx j k 1).val = (k ⟨0, by decide⟩).val :=
  dot_S256x28_S28x512_S256x512_1_0_0_1_n_n.lhsIdx_val_of_single (cl := 1) rfl j k

/-- Second product: the right operand's row coordinate is the contracted coordinate. -/
theorem rhs2_0 (j : S256x512.Idx) (k : dot_S256x28_S28x512_S256x512_1_0_0_1_n_n.contr.Idx) :
    (dot_S256x28_S28x512_S256x512_1_0_0_1_n_n.rhsIdx j k 0).val = (k ⟨0, by decide⟩).val :=
  dot_S256x28_S28x512_S256x512_1_0_0_1_n_n.rhsIdx_val_of_single (cr := 0) rfl j k

/-- Second product: the right operand's column coordinate is the output's column coordinate. -/
theorem rhs2_1 (j : S256x512.Idx) (k : dot_S256x28_S28x512_S256x512_1_0_0_1_n_n.contr.Idx) :
    (dot_S256x28_S28x512_S256x512_1_0_0_1_n_n.rhsIdx j k 1).val = (j 1).val := by
  unfold DotDims.rhsIdx
  rw [dif_neg (show ¬(1 : Fin S28x512.rank) ∈ dot_S256x28_S28x512_S256x512_1_0_0_1_n_n.rhsBatch by decide),
    dif_pos (show (1 : Fin S28x512.rank) ∈ dot_S256x28_S28x512_S256x512_1_0_0_1_n_n.rhsNonContracting by decide)]
  rfl

/-- The second product, [256,28]·[28,512] into the zero splat, at (y, x): the sum over the contracted coordinate. -/
theorem mm2_apply (P' : FVec Ideal S256x28 .f32) (B' : FVec Ideal S28x512 .f32) (y : Fin 256) (x : Fin 512) :
    FloatOps.matmul dot_S256x28_S28x512_S256x512_1_0_0_1_n_n (some .fp32) P' B' (constant (F := Ideal) S256x512 .f32 0x00000000#32) (ix2 y x)
      = ∑ l : Fin 28, P' (ix2 y l) * B' (ix2 l x) := by
  rw [Ideal.matmul_constant_zero_apply,
    ← Equiv.sum_comp (contrEquiv1 dot_S256x28_S28x512_S256x512_1_0_0_1_n_n 28 rfl rfl).symm]
  refine Finset.sum_congr rfl fun c _ => ?_
  have c2 := contrEquiv1_symm_val dot_S256x28_S28x512_S256x512_1_0_0_1_n_n 28 rfl rfl c
  have l2 : dot_S256x28_S28x512_S256x512_1_0_0_1_n_n.lhsIdx (ix2 y x)
      ((contrEquiv1 dot_S256x28_S28x512_S256x512_1_0_0_1_n_n 28 rfl rfl).symm c) = ix2 y c := by
    funext ax; apply Fin.ext
    match ax with
    | ⟨0, _⟩ => exact lhs2_0 _ _
    | ⟨1, _⟩ => exact (lhs2_1 _ _).trans c2
  have r2 : dot_S256x28_S28x512_S256x512_1_0_0_1_n_n.rhsIdx (ix2 y x)
      ((contrEquiv1 dot_S256x28_S28x512_S256x512_1_0_0_1_n_n 28 rfl rfl).symm c) = ix2 c x := by
    funext ax; apply Fin.ext
    match ax with
    | ⟨0, _⟩ => exact (rhs2_0 _ _).trans c2
    | ⟨1, _⟩ => exact rhs2_1 _ _
  rw [l2, r2]

/-! ## The layout operations and the mask at a pixel -/

/-- A `[1, 1, a, b]` array cast to `[a, b]` reads, at `(i, j)`, the operand at `(0, 0, i, j)`. -/
theorem shapeCast_11ab_ab_apply {α : Type} {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp)

/-- The body's mask at the pixel (y, x): row number at or past `cy1` and before `cy2`, column number at or past
    `cx1` and before `cx2`, the numbers as 32-bit words, the comparisons signed. -/
def cropBit (cx1 cy1 cx2 cy2 : BitVec 32) (y : Fin 256) (x : Fin 512) : BitVec 1 :=
  IntOp.andi
    (IntOp.andi
      (IntOp.andi (IntOp.cmpi .sge (BitVec.ofNat 32 y.val) cy1) (IntOp.cmpi .slt (BitVec.ofNat 32 y.val) cy2))
      (IntOp.cmpi .sge (BitVec.ofNat 32 x.val) cx1))
    (IntOp.cmpi .slt (BitVec.ofNat 32 x.val) cx2)

/-- The mask array, built from the row numbers, the column numbers and the four broadcast bounds, read at the pixel
    (y, x), is that bit. -/
theorem mask_apply (cx1 cy1 cx2 cy2 : BitVec 32) (y : Fin 256) (x : Fin 512) :
    andi
        (andi
          (andi (cmpi CmpIPredicate.sge (iota Kind.tc S256x512 32 [0] iota_S256x512_d0_w32) (broadcast S256x512 cy1))
            (cmpi CmpIPredicate.slt (iota Kind.tc S256x512 32 [0] iota_S256x512_d0_w32) (broadcast S256x512 cy2)))
          (cmpi CmpIPredicate.sge (iota Kind.tc S256x512 32 [1] iota_S256x512_d1_w32) (broadcast S256x512 cx1)))
        (cmpi CmpIPredicate.slt (iota Kind.tc S256x512 32 [1] iota_S256x512_d1_w32) (broadcast S256x512 cx2))
        (ix2 y x)
      = cropBit cx1 cy1 cx2 cy2 y x := by
  have h0 : iota Kind.tc S256x512 32 [0] iota_S256x512_d0_w32 (ix2 y x) = BitVec.ofNat 32 y.val :=
    iota_single_apply _ _ _ _ _ _
  have h1 : iota Kind.tc S256x512 32 [1] iota_S256x512_d1_w32 (ix2 y x) = BitVec.ofNat 32 x.val :=
    iota_single_apply _ _ _ _ _ _
  show IntOp.andi
    (IntOp.andi
      (IntOp.andi (IntOp.cmpi .sge (iota Kind.tc S256x512 32 [0] iota_S256x512_d0_w32 (ix2 y x)) cy1)
        (IntOp.cmpi .slt (iota Kind.tc S256x512 32 [0] iota_S256x512_d0_w32 (ix2 y x)) cy2))
      (IntOp.cmpi .sge (iota Kind.tc S256x512 32 [1] iota_S256x512_d1_w32 (ix2 y x)) cx1))
    (IntOp.cmpi .slt (iota Kind.tc S256x512 32 [1] iota_S256x512_d1_w32 (ix2 y x)) cx2) = _
  rw [h0, h1]
  rfl

/-! ## The two payloads at a pixel -/

/-- Two shape casts that undo each other. -/
theorem pay1_apply (v6 : Vec Ideal S1x256x512 .f32) (y : Fin 256) (x : Fin 512) :
    k0_pay1 (F := Ideal) v6 (ix3 0 y x) = v6 (ix3 0 y x) := by
  unfold k0_pay1
  exact congrFun (shapeCast_shapeCast v6 _ _) _

/-- The plane's payload at the pixel (y, x): the row matrix times the mask times the column matrix, plus the class
    plane where the crop mask holds. -/
theorem pay2_apply (cx1 cy1 cx2 cy2 : Elt Ideal .i32) (M : Vec Ideal S1x1x28x28 .f32) (A : Vec Ideal S1x256x28 .f32)
    (B : Vec Ideal S1x28x512 .f32) (S : Vec Ideal S1x256x512 .f32) (y : Fin 256) (x : Fin 512) :
    k0_pay2 (F := Ideal) cx1 cy1 cx2 cy2 M A B S (ix3 0 y x)
      = (∑ l : Fin 28, (∑ k : Fin 28, A (ix3 0 y k) * M (ix4 0 0 k l)) * B (ix3 0 l x))
        + Scalar.select (cropBit cx1 cy1 cx2 cy2 y x) (S (ix3 0 y x)) (0 : EReal) := by
  unfold k0_pay2
  refine (shapeCast_ab_1ab_apply _ _ 0 y x).trans ?_
  refine (addf_apply _ _ _).trans ?_
  refine congrArg₂ (· + ·) ?_ ?_
  · refine (mm2_apply _ _ y x).trans ?_
    refine Finset.sum_congr rfl fun l _ => ?_
    refine congrArg₂ (· * ·) ?_ (shapeCast_1ab_ab_apply B _ l x)
    refine (mm1_apply _ _ y l).trans ?_
    refine Finset.sum_congr rfl fun k _ => ?_
    exact congrArg₂ (· * ·) (shapeCast_1ab_ab_apply A _ y k) (shapeCast_11ab_ab_apply M _ k l)
  · refine (select_apply _ _ _ _).trans ?_
    have hz : broadcast S256x512 (FloatOps.ofBits (F := Ideal) FTy.f32 0x00000000#32) (ix2 y x) = (0 : EReal) :=
      Ideal.ofBits_zero_f32
    rw [mask_apply cx1 cy1 cx2 cy2 y x, shapeCast_1ab_ab_apply S _ y x, hz]

end Cert.KernelIdeal.Paste
-- ==== Proof.KernelCanvas.lean ====
/-
  The kernel's value, from what each grid point leaves to "the output array holds the canvas".

  The grid has 153 points; point t owns plane t of the [153,256,512] output array, and its body depends on that point's
  blocks only (nothing is carried from point to point). Before point 53 the body copies its block of the semantic
  logits through; from point 53 on it stores the pasted plane of instance t - 53: the product of the two interpolation
  matrices with the instance's mask, plus the class plane inside the crop box whose four bounds are the table words at
  offset t - 53. This module reads the one covering store each case leaves as that payload of the point's blocks
  (`plane_stuff`, `plane_thing`), names the array whose plane p is what point p leaves (`canvas`), and shows that the
  output array ends holding it (`final`): every index (p, y, x) lies in point p's block, whose block index is (p, 0, 0).
-/
import proofs.«418239_j16415365005582_2_alg».proof.Proof.GenP.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Paste

open Cert.KernelIdeal Cert.KernelIdeal.Gen

section pieces
variable {F : FTy → Type} [FloatOps F]

/-- The all-zero offset of rank 3, as the constant function. -/
theorem hz3 : (![0, 0, 0] : Fin 3 → Nat) = fun _ => 0 := funext fun a => by fin_cases a <;> rfl
/-- The all-zero offset of rank 4, as the constant function. -/
theorem hz4 : (![0, 0, 0, 0] : Fin 4 → Nat) = fun _ => 0 := funext fun a => by fin_cases a <;> rfl

/-- The word a table of 100 words holds at the point's offset: the one entry the body reads from it. -/
def tword (i : grid0.Coords) (hc1 : GenP.cond0_1 i) (xt : S100.Idx → Elt F .i32) : Elt F .i32 :=
  xt ((Rect.unit (s := S100) (k0_off2 i) S1.size (k0_off2_inb i hc1)).emb (Shape.Idx.first (numel1_S1.symm ▸ Nat.one_pos)))

/-- Before plane 53 the body copies its block of the semantic logits through: the one covering store holds the
    block it loaded. -/
theorem piece_A (c : Dev nD) (i : grid0.Coords) (arg6 : Memref sig .tc .vmem S1x1x28x28 .f32) (harg6 : arg6.IsWhole) (arg7 : Memref sig .tc .vmem S1x256x28 .f32) (harg7 : arg7.IsWhole) (arg8 : Memref sig .tc .vmem S1x28x512 .f32) (harg8 : arg8.IsWhole) (arg9 : Memref sig .tc .vmem S1x256x512 .f32) (harg9 : arg9.IsWhole) (arg10 : Memref sig .tc .vmem S1x256x512 .f32) (harg10 : arg10.IsWhole) (hc0 : GenP.cond0_0 i) (hc1 : ¬GenP.cond0_1 i)
    (x0 : Vec F S1x1x28x28 .f32) (x1 : Vec F S1x256x28 .f32) (x2 : Vec F S1x28x512 .f32) (x3 : Vec F S1x256x512 .f32) (xt0 : GenP.TbBuf0 (F := F) c GenP.tbM0_0) (xt1 : GenP.TbBuf0 (F := F) c GenP.tbM0_1) (xt2 : GenP.TbBuf0 (F := F) c GenP.tbM0_2) (xt3 : GenP.TbBuf0 (F := F) c GenP.tbM0_3) (xt4 : GenP.TbBuf0 (F := F) c GenP.tbM0_4) :
    GenP.out0_A_4 c i arg6 harg6 arg7 harg7 arg8 harg8 arg9 harg9 arg10 harg10 hc0 hc1 x0 x1 x2 x3 xt0 xt1 xt2 xt3 xt4 = k0_pay1 x3 := by
  unfold GenP.out0_A_4
  rw [View.read_writes_eq_canon _ _ _ (GenP.cover0_A_4 c i arg6 harg6 arg7 harg7 arg8 harg8 arg9 harg9 arg10 harg10 hc0 hc1 x0 x1 x2 x3 xt0 xt1 xt2 xt3 xt4)]
  unfold GenP.kernelRun0_A
  dsimp only
  sl_unfold_words
  rw [View.canon_unit_zero hz3]
  simp only [View.readAt_eq_ld, harg9.read_unread, View.ld_unit_zero (S := S1x256x512) hz3]

/-- From plane 53 on the one covering store holds the pasted plane: the payload of the four loaded blocks and of the
    four table words at the point's offset. -/
theorem piece_B (c : Dev nD) (i : grid0.Coords) (arg6 : Memref sig .tc .vmem S1x1x28x28 .f32) (harg6 : arg6.IsWhole) (arg7 : Memref sig .tc .vmem S1x256x28 .f32) (harg7 : arg7.IsWhole) (arg8 : Memref sig .tc .vmem S1x28x512 .f32) (harg8 : arg8.IsWhole) (arg9 : Memref sig .tc .vmem S1x256x512 .f32) (harg9 : arg9.IsWhole) (arg10 : Memref sig .tc .vmem S1x256x512 .f32) (harg10 : arg10.IsWhole) (hc0 : ¬GenP.cond0_0 i) (hc1 : GenP.cond0_1 i)
    (x0 : Vec F S1x1x28x28 .f32) (x1 : Vec F S1x256x28 .f32) (x2 : Vec F S1x28x512 .f32) (x3 : Vec F S1x256x512 .f32) (xt0 : GenP.TbBuf0 (F := F) c GenP.tbM0_0) (xt1 : GenP.TbBuf0 (F := F) c GenP.tbM0_1) (xt2 : GenP.TbBuf0 (F := F) c GenP.tbM0_2) (xt3 : GenP.TbBuf0 (F := F) c GenP.tbM0_3) (xt4 : GenP.TbBuf0 (F := F) c GenP.tbM0_4) :
    GenP.out0_B_4 c i arg6 harg6 arg7 harg7 arg8 harg8 arg9 harg9 arg10 harg10 hc0 hc1 x0 x1 x2 x3 xt0 xt1 xt2 xt3 xt4 = k0_pay2 (tword i hc1 xt1) (tword i hc1 xt2) (tword i hc1 xt3) (tword i hc1 xt4) x0 x1 x2 x3 := by
  unfold GenP.out0_B_4
  rw [View.read_writes_eq_canon _ _ _ (GenP.cover0_B_4 c i arg6 harg6 arg7 harg7 arg8 harg8 arg9 harg9 arg10 harg10 hc0 hc1 x0 x1 x2 x3 xt0 xt1 xt2 xt3 xt4)]
  unfold GenP.kernelRun0_B
  dsimp only
  sl_unfold_words
  rw [View.canon_unit_zero hz3]
  simp only [View.readAt_eq_ld, harg6.read_unread, harg7.read_unread, harg8.read_unread, harg9.read_unread, View.ld_unit_zero (S := S1x256x512) hz3, View.ld_unit_zero (S := S1x256x28) hz3, View.ld_unit_zero (S := S1x28x512) hz3, View.ld_unit_zero (S := S1x1x28x28) hz4]
  rfl

/-- The offset the body reads the tables at, at a point from 53 on: the point less 53. -/
theorem off_at : ∀ t : Fin grid0.N, 53 ≤ t.val → k0_off2 (grid0.coords t) 0 = t.val - 53 := by decide +kernel

/-- At a point from 53 on, the word the body reads from a table is the table's entry at the point less 53. -/
theorem tword_at (t : Fin grid0.N) (h : 53 ≤ t.val) (hc1 : GenP.cond0_1 (grid0.coords t)) (xt : S100.Idx → Elt F .i32) :
    tword (grid0.coords t) hc1 xt = xt (ValueIdx.ix1 ⟨t.val - 53, by have := t.isLt; have := N_0; omega⟩) := by
  unfold tword
  congr 1
  funext a
  match a with
  | ⟨0, _⟩ => exact Fin.ext (by show k0_off2 (grid0.coords t) 0 + 1 * 0 = t.val - 53; rw [off_at t h]; omega)

end pieces

section value
variable (m : (ℓ : Loc nD τ sig) → Buf (Elt Ideal) ℓ)

/-- Entry `n` of prefetched table `j` as the region finds it (tables 1 to 4 are the four crop bounds per instance). -/
abbrev tab1 (n : Fin 100) : Elt Ideal .i32 := (GenP.tbl m 1 : S100.Idx → Elt Ideal .i32) (ValueIdx.ix1 n)
/-- Entry `n` of table 2: the crop window's upper bound for instance `n`. -/
abbrev tab2 (n : Fin 100) : Elt Ideal .i32 := (GenP.tbl m 2 : S100.Idx → Elt Ideal .i32) (ValueIdx.ix1 n)
/-- Entry `n` of table 3: the crop window's right bound for instance `n`. -/
abbrev tab3 (n : Fin 100) : Elt Ideal .i32 := (GenP.tbl m 3 : S100.Idx → Elt Ideal .i32) (ValueIdx.ix1 n)
/-- Entry `n` of table 4: the crop window's lower bound for instance `n`. -/
abbrev tab4 (n : Fin 100) : Elt Ideal .i32 := (GenP.tbl m 4 : S100.Idx → Elt Ideal .i32) (ValueIdx.ix1 n)

/-- The instance a point from 53 on pastes: the point less 53. -/
abbrev inst (hO : GenP.Ok m) (t : Fin (GenP.cfgM m hO).N) (h : 53 ≤ t.val) : Fin 100 :=
  ⟨t.val - 53, by have : t.val < 153 := lt_of_lt_of_eq t.isLt (show (GenP.cfgM m hO).N = 153 from N_0); omega⟩

/-- A point before 53 leaves its block of the semantic logits, passed through. -/
theorem plane_stuff (hO : GenP.Ok m) (c : Dev nD) (t : Fin (GenP.cfgM m hO).N) (h : t.val < 53) :
    GenP.outsAt0 m hO c t.val t.isLt = k0_pay1 (GenP.iblk m hO c 3 t) := by
  rw [GenP.outsAt0_A m hO c t h (by omega)]
  exact piece_A (F := Ideal) c (grid0.coords t) (GenP.ms0_0 m hO t) (GenP.hs0_0 m hO t) (GenP.ms0_1 m hO t) (GenP.hs0_1 m hO t) (GenP.ms0_2 m hO t) (GenP.hs0_2 m hO t) (GenP.ms0_3 m hO t) (GenP.hs0_3 m hO t) (GenP.ms0_4 m hO t) (GenP.hs0_4 m hO t) ((GenP.hcond0_0 t).mpr h) (fun h' => (by omega : ¬53 ≤ t.val) ((GenP.hcond0_1 t).mp h')) (GenP.iblk m hO c 0 t) (GenP.iblk m hO c 1 t) (GenP.iblk m hO c 2 t) (GenP.iblk m hO c 3 t) (GenP.tbl m 0) (GenP.tbl m 1) (GenP.tbl m 2) (GenP.tbl m 3) (GenP.tbl m 4)

/-- A point from 53 on leaves the pasted plane of instance `t - 53`: the payload of the point's four blocks and of the
    four crop bounds of that instance. -/
theorem plane_thing (hO : GenP.Ok m) (c : Dev nD) (t : Fin (GenP.cfgM m hO).N) (h : 53 ≤ t.val) :
    GenP.outsAt0 m hO c t.val t.isLt = k0_pay2 (tab1 m (inst m hO t h)) (tab2 m (inst m hO t h)) (tab3 m (inst m hO t h)) (tab4 m (inst m hO t h)) (GenP.iblk m hO c 0 t) (GenP.iblk m hO c 1 t) (GenP.iblk m hO c 2 t) (GenP.iblk m hO c 3 t) := by
  rw [GenP.outsAt0_B m hO c t (by omega) h]
  refine (piece_B (F := Ideal) c (grid0.coords t) (GenP.ms0_0 m hO t) (GenP.hs0_0 m hO t) (GenP.ms0_1 m hO t) (GenP.hs0_1 m hO t) (GenP.ms0_2 m hO t) (GenP.hs0_2 m hO t) (GenP.ms0_3 m hO t) (GenP.hs0_3 m hO t) (GenP.ms0_4 m hO t) (GenP.hs0_4 m hO t) (fun h' => (by omega : ¬t.val < 53) ((GenP.hcond0_0 t).mp h')) ((GenP.hcond0_1 t).mpr h) (GenP.iblk m hO c 0 t) (GenP.iblk m hO c 1 t) (GenP.iblk m hO c 2 t) (GenP.iblk m hO c 3 t) (GenP.tbl m 0) (GenP.tbl m 1) (GenP.tbl m 2) (GenP.tbl m 3) (GenP.tbl m 4)).trans ?_
  rw [tword_at (F := Ideal) t h ((GenP.hcond0_1 t).mpr h) (GenP.tbl m 1), tword_at (F := Ideal) t h ((GenP.hcond0_1 t).mpr h) (GenP.tbl m 2), tword_at (F := Ideal) t h ((GenP.hcond0_1 t).mpr h) (GenP.tbl m 3), tword_at (F := Ideal) t h ((GenP.hcond0_1 t).mpr h) (GenP.tbl m 4)]

end value

section run
variable (m : (ℓ : Loc nD τ sig) → Buf (Elt Ideal) ℓ)

/-- THE CANVAS: the [153,256,512] array whose plane `p` is what grid point `p` leaves in its [1,256,512] block. -/
def canvas (hO : GenP.Ok m) (c : Dev nD) : S153x256x512.Idx → Elt Ideal .f32 := fun i =>
  GenP.outsAt0 m hO c (i 0).val (lt_of_lt_of_eq (show (i 0).val < 153 from (i 0).isLt) (show 153 = (GenP.cfgM m hO).N from N_0.symm))
    (ValueIdx.ix3 0 (i 1) (i 2))

/-- What a point leaves, read at equal points and equal indices. -/
theorem outsAt_congr (hO : GenP.Ok m) (c : Dev nD) {n n' : ℕ} (hn : n < (GenP.cfgM m hO).N) (hn' : n' < (GenP.cfgM m hO).N) (e : n = n')
    {y y' : S1x256x512.Idx} (ey : y = y') : GenP.outsAt0 m hO c n hn y = GenP.outsAt0 m hO c n' hn' y' := by
  subst e; subst ey; rfl

/-- The output's block index at point `t` is (t, 0, 0): decided over the grid. -/
theorem idx4 (hO : GenP.Ok m) : ∀ t : Fin (GenP.cfgM m hO).N, ((GenP.cfgM m hO).win 4).index t (0 : Fin 3) = t.val
    ∧ ((GenP.cfgM m hO).win 4).index t (1 : Fin 3) = 0 ∧ ((GenP.cfgM m hO).win 4).index t (2 : Fin 3) = 0 :=
  (by decide +kernel : ∀ t : Fin grid0.N, cc0_transform_4 (grid0.coords t) (0 : Fin 3) = t.val
    ∧ cc0_transform_4 (grid0.coords t) (1 : Fin 3) = 0 ∧ cc0_transform_4 (grid0.coords t) (2 : Fin 3) = 0)

/-- WHAT POINT `t` WRITES BACK is block `t` of the canvas: plane `t`, whole. -/
theorem flushed_eq (hO : GenP.Ok m) (c : Dev nD) (t : Fin (GenP.cfgM m hO).N) :
    (GenP.dats m hO 0 c).flushed 4 t = (((GenP.cfgM m hO).win 4).blk t).view.read (Elt Ideal) (canvas m hO c) := by
  show ((GenP.cfgM m hO).win 4).cut (grid0.coords t) ((GenP.dats m hO 0 c).after 4 t) = _
  rw [GenP.after0_4]
  obtain ⟨e0, e1, e2⟩ := idx4 m hO t
  funext (j : S1x256x512.Idx)
  show GenP.outsAt0 m hO c t.val t.isLt (((GenP.cfgM m hO).win 4).xinj (grid0.coords t) j)
    = canvas m hO c ((((GenP.cfgM m hO).win 4).blk t).view.emb j)
  unfold canvas
  have hj0 : (j 0).val < 1 := (j 0).isLt
  refine outsAt_congr m hO c _ _ ?_ ?_
  · show t.val = ((GenP.cfgM m hO).win 4).index t (0 : Fin 3) * 1 + 1 * (j 0).val
    omega
  · funext a
    apply Fin.ext
    match a with
    | ⟨0, _⟩ => show (j 0).val = 0; omega
    | ⟨1, _⟩ => show (j 1).val = ((GenP.cfgM m hO).win 4).index t (1 : Fin 3) * 256 + 1 * (j 1).val; omega
    | ⟨2, _⟩ => show (j 2).val = ((GenP.cfgM m hO).win 4).index t (2 : Fin 3) * 512 + 1 * (j 2).val; omega

/-- Every index (p, y, x) of the array lies in point `p`'s block, so the array ends holding the canvas. -/
theorem final (hO : GenP.Ok m) (c : Dev nD) : (GenP.dats m hO 0 c).arrAt 4 (GenP.cfgM m hO).N = canvas m hO c :=
  (GenP.dats m hO 0 c).arrAt_eq_of_cover 4 (canvas m hO c) (fun t _ => flushed_eq m hO c t) fun (i : S153x256x512.Idx) => by
    have h0 : (i 0 : Nat) < 153 := (i 0).isLt
    have h1 : (i 1 : Nat) < 256 := (i 1).isLt
    have h2 : (i 2 : Nat) < 512 := (i 2).isLt
    refine ⟨⟨(i 0).val, lt_of_lt_of_eq h0 (show 153 = (GenP.cfgM m hO).N from N_0.symm)⟩, flush0_4 (GenP.adm m hO) _, ?_⟩
    obtain ⟨e0, e1, e2⟩ := idx4 m hO ⟨(i 0).val, lt_of_lt_of_eq h0 (show 153 = (GenP.cfgM m hO).N from N_0.symm)⟩
    refine Eq.mpr (congrArg (fun s => i ∈ s) (View.set_slice_whole main_v151 (((GenP.cfgM m hO).win 4).rect ⟨(i 0).val, lt_of_lt_of_eq h0 (show 153 = (GenP.cfgM m hO).N from N_0.symm)⟩))) ?_
    refine Rect.mem_set_unit.mpr ?_
    intro a
    match a with
    | ⟨0, _⟩ =>
      show ((GenP.cfgM m hO).win 4).index ⟨(i 0).val, _⟩ (0 : Fin 3) * 1 ≤ (i 0 : Nat) ∧ (i 0 : Nat) < ((GenP.cfgM m hO).win 4).index ⟨(i 0).val, _⟩ (0 : Fin 3) * 1 + 1
      rw [e0]; dsimp only; omega
    | ⟨1, _⟩ =>
      show ((GenP.cfgM m hO).win 4).index ⟨(i 0).val, _⟩ (1 : Fin 3) * 256 ≤ (i 1 : Nat) ∧ (i 1 : Nat) < ((GenP.cfgM m hO).win 4).index ⟨(i 0).val, _⟩ (1 : Fin 3) * 256 + 256
      rw [e1]; omega
    | ⟨2, _⟩ =>
      show ((GenP.cfgM m hO).win 4).index ⟨(i 0).val, _⟩ (2 : Fin 3) * 512 ≤ (i 2 : Nat) ∧ (i 2 : Nat) < ((GenP.cfgM m hO).win 4).index ⟨(i 0).val, _⟩ (2 : Fin 3) * 512 + 512
      rw [e2]; omega

end run

section planes
variable (m : (ℓ : Loc nD τ sig) → Buf (Elt Ideal) ℓ)

/-- Plane `p` of the canvas as grid point `p`. -/
abbrev pt (hO : GenP.Ok m) (p : Fin 153) : Fin (GenP.cfgM m hO).N :=
  ⟨p.val, lt_of_lt_of_eq p.isLt (show 153 = (GenP.cfgM m hO).N from N_0.symm)⟩

/-- The instance plane `p` pastes, for `p` from 53 on: `p - 53`. -/
abbrev instOf (p : Fin 153) (h : 53 ≤ p.val) : Fin 100 := ⟨p.val - 53, by have := p.isLt; omega⟩

/-- A plane before 53 of the canvas is the semantic logits' block of that point, passed through. -/
theorem canvas_stuff (hO : GenP.Ok m) (c : Dev nD) (p : Fin 153) (h : p.val < 53) (y : Fin 256) (x : Fin 512) :
    canvas m hO c (ValueIdx.ix3 p y x) = k0_pay1 (GenP.iblk m hO c 3 (pt m hO p)) (ValueIdx.ix3 0 y x) :=
  congrFun (plane_stuff m hO c (pt m hO p) h) (ValueIdx.ix3 0 y x)

/-- A plane from 53 on of the canvas is the pasted plane of instance `p - 53`: the payload of that point's four blocks
    and of the instance's four crop bounds. -/
theorem canvas_thing (hO : GenP.Ok m) (c : Dev nD) (p : Fin 153) (h : 53 ≤ p.val) (y : Fin 256) (x : Fin 512) :
    canvas m hO c (ValueIdx.ix3 p y x) = k0_pay2 (tab1 m (instOf p h)) (tab2 m (instOf p h)) (tab3 m (instOf p h)) (tab4 m (instOf p h))
      (GenP.iblk m hO c 0 (pt m hO p)) (GenP.iblk m hO c 1 (pt m hO p)) (GenP.iblk m hO c 2 (pt m hO p)) (GenP.iblk m hO c 3 (pt m hO p)) (ValueIdx.ix3 0 y x) :=
  congrFun (plane_thing m hO c (pt m hO p) h) (ValueIdx.ix3 0 y x)

end planes

end Cert.KernelIdeal.Paste
end
-- ==== Proof.KernelBlocks.lean ====
import proofs.«418239_j16415365005582_2_alg».proof.Proof.GenP.KernelIdeal.Frame.Runs
import Idealize.ShloMosaic.Lib.ValueIdx
import Idealize.ShloMosaic.Lib.Pipeline.Value

set_option maxRecDepth 16384

noncomputable section

namespace Cert.KernelIdeal.Paste

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

/-! # The two table-driven windows' blocks, read back to their arrays

The grid has 153 points. At a point t from 53 on, lane n = t - 53 is pasted: the mask window's block is plane
(n, classes[n]) of the [100, 80, 28, 28] mask logits, and the class-plane window's block is plane 53 + classes[n]
of the [133, 256, 512] semantic logits. Both index maps compute the lane as max(t - 53, 0) in 32-bit signed
words and read the class table at it. Everything structural is proved with the tables' contents a variable;
the launch memory's tables are put in last. -/

/-- The one grid coordinate of point t is t itself. -/
theorem coord_val : ∀ t : Fin grid0.N, ((grid0.coords t) 0).val = t.val := by decide +kernel

/-- The lane word: the point's 32-bit word less 53, clamped below at zero (signed), is the natural difference
    t - 53 (zero before point 53). -/
theorem lane_word : ∀ t : Fin 153, (Scalar.maxsi (Scalar.subi (BitVec.ofNat 32 t.val) 53#32) 0#32).toNat = t.val - 53 := by
  decide +kernel

/-- From point 53 on the signed comparison "t < 53" fails. -/
theorem not_below : ∀ t : Fin 153, 53 ≤ t.val → Scalar.cmpi .slt (BitVec.ofNat 32 t.val) 53#32 = 0#1 := by
  decide +kernel

/-- The class word the two index maps read at grid coordinates i: the class table at lane max(i - 53, 0). -/
def classWord (pf : pre0.Contents (Elt F)) (i : grid0.Coords) : BitVec 32 :=
  pf.at 0 (Rect.unit (s := S100) ![(Scalar.indexCast (Scalar.maxsi (Scalar.subi (BitVec.ofNat 32 (i 0).val) 53#32) 0#32)).toNat] S1.size (Facts₀.k0_off1_inb i)) Facts₀.numel1_S1

/-- A grid point's number is below 153. -/
theorem pt_lt (t : Fin grid0.N) : t.val < 153 := t.isLt

/-- A one-element rectangle of the [100] table at offset n is the table's index n. -/
theorem unit_lane (off : Fin 1 → Nat) (inb : ∀ a, off a + S1.size a ≤ S100.size a)
    (j : (Rect.unit (s := S100) off S1.size inb).shape.Idx) (n : Fin 100) (hn : off 0 = n.val) :
    (Rect.unit (s := S100) off S1.size inb).emb j = ix1 n := by
  funext d
  match d with
  | ⟨0, _⟩ =>
    apply Fin.ext
    show off 0 + 1 * (j 0).val = n.val
    have hj : (j 0).val < 1 := (j 0).isLt
    omega

/-- At point t the class word is the class table's entry at lane t - 53. -/
theorem classWord_eq (pf : pre0.Contents (Elt F)) (t : Fin grid0.N) :
    classWord pf (grid0.coords t) = pf 0 (ix1 ⟨t.val - 53, by have := pt_lt t; omega⟩) := by
  unfold classWord
  show pf 0 _ = pf 0 _
  refine congrArg (pf 0) (unit_lane _ _ _ _ ?_)
  show (Scalar.maxsi (Scalar.subi (BitVec.ofNat 32 ((grid0.coords t) 0).val) 53#32) 0#32).toNat = t.val - 53
  rw [coord_val t]
  exact lane_word ⟨t.val, pt_lt t⟩

/-- Under the pipeline's side condition every class word read is a class: below 80 (the mask window's block
    at it lies inside the [100, 80, 28, 28] array). -/
theorem classWord_lt (pf : pre0.Contents (Elt F)) (hok : ok0 pf) (i : grid0.Coords) : (classWord pf i).toNat < 80 := by
  obtain ⟨h, -⟩ := hok.1 i
  have h1 : ((classWord pf i).toNat + 1) * 1 ≤ 80 := h 1
  omega

/-- Every entry of the class table is a class, below 80: lane n's entry is the class word read at point 53 + n. -/
theorem class_lt_of_ok (pf : pre0.Contents (Elt F)) (hok : ok0 pf) (n : Fin 100) : (pf 0 (ix1 n)).toNat < 80 := by
  have hn := n.isLt
  have h := classWord_lt pf hok (grid0.coords ⟨53 + n.val, by show 53 + n.val < 153; omega⟩)
  rw [classWord_eq] at h
  have e : (⟨(⟨53 + n.val, by show 53 + n.val < 153; omega⟩ : Fin grid0.N).val - 53, by show 53 + n.val - 53 < 100; omega⟩ : Fin 100) = n :=
    Fin.ext (by show 53 + n.val - 53 = n.val; omega)
  rw [e] at h
  exact h

/-- The mask window's block index on the lane axis: t - 53. -/
theorem maskIndex_lane (pf : pre0.Contents (Elt F)) (t : Fin grid0.N) :
    cc0_transform_0 Facts₀.k0_off1_inb Facts₀.numel1_S1 pf (grid0.coords t) (0 : Fin 4) = t.val - 53 := by
  show (Scalar.maxsi (Scalar.subi (BitVec.ofNat 32 ((grid0.coords t) 0).val) 53#32) 0#32).toNat = t.val - 53
  rw [coord_val t]
  exact lane_word ⟨t.val, pt_lt t⟩

/-- The class-plane window's block index at a point from 53 on: plane 53 + the class word (no wrap: the word is below 80). -/
theorem semIndex_high (pf : pre0.Contents (Elt F)) (hok : ok0 pf) (t : Fin grid0.N) (h : 53 ≤ t.val) :
    cc0_transform_3 Facts₀.k0_off1_inb Facts₀.numel1_S1 pf (grid0.coords t) (0 : Fin 3) = 53 + (classWord pf (grid0.coords t)).toNat := by
  show (Scalar.select (Scalar.cmpi .slt (BitVec.ofNat 32 ((grid0.coords t) 0).val) 53#32) (BitVec.ofNat 32 ((grid0.coords t) 0).val)
    (Scalar.addi 53#32 (classWord pf (grid0.coords t)))).toNat = _
  rw [coord_val t, not_below ⟨t.val, pt_lt t⟩ h, select_zero]
  have hc := classWord_lt pf hok (grid0.coords t)
  show (53#32 + classWord pf (grid0.coords t)).toNat = _
  rw [BitVec.toNat_add]
  show (53 + (classWord pf (grid0.coords t)).toNat) % 2 ^ 32 = _
  omega

/-- The mask window's block at point t, read at (0, 0, k, l), is the mask array at (t - 53, classes[t - 53], k, l) —
    for any admissible contents of the tables and any contents of the array. -/
theorem mask_read (a : (pcfg0 (F := F)).Adm) (t : Fin (cfg0 a).N) (f : S100x80x28x28.Idx → Elt F .f32) (k l : Fin 28) :
    (((cfg0 a).win 0).blk t).view.read (Elt F) f (ix4 0 0 k l)
      = f (ix4 ⟨t.val - 53, by have := pt_lt t; omega⟩ ⟨(a.1 0 (ix1 ⟨t.val - 53, by have := pt_lt t; omega⟩)).toNat, class_lt_of_ok a.1 a.2 _⟩ k l) := by
  show f ((((cfg0 a).win 0).blk t).view.emb (ix4 0 0 k l)) = f _
  refine congrArg f ?_
  funext d
  apply Fin.ext
  match d with
  | ⟨0, _⟩ =>
    show ((cfg0 a).win 0).index t (0 : Fin 4) * 1 + 1 * 0 = t.val - 53
    have e : ((cfg0 a).win 0).index t (0 : Fin 4) = t.val - 53 := maskIndex_lane a.1 t
    omega
  | ⟨1, _⟩ =>
    show ((cfg0 a).win 0).index t (1 : Fin 4) * 1 + 1 * 0 = (a.1 0 (ix1 ⟨t.val - 53, _⟩)).toNat
    have e : ((cfg0 a).win 0).index t (1 : Fin 4) = (classWord a.1 (grid0.coords t)).toNat := rfl
    rw [e, classWord_eq]
    omega
  | ⟨2, _⟩ =>
    show ((cfg0 a).win 0).index t (2 : Fin 4) * 28 + 1 * k.val = k.val
    have e : ((cfg0 a).win 0).index t (2 : Fin 4) = 0 := rfl
    omega
  | ⟨3, _⟩ =>
    show ((cfg0 a).win 0).index t (3 : Fin 4) * 28 + 1 * l.val = l.val
    have e : ((cfg0 a).win 0).index t (3 : Fin 4) = 0 := rfl
    omega

/-- The class-plane window's block at a point t from 53 on, read at (0, y, x), is the semantic array at
    (53 + classes[t - 53], y, x) — for any admissible contents of the tables and any contents of the array. -/
theorem sem_read_high (a : (pcfg0 (F := F)).Adm) (t : Fin (cfg0 a).N) (h : 53 ≤ t.val) (f : S133x256x512.Idx → Elt F .f32) (y : Fin 256) (x : Fin 512) :
    (((cfg0 a).win 3).blk t).view.read (Elt F) f (ix3 0 y x)
      = f (ix3 ⟨53 + (a.1 0 (ix1 ⟨t.val - 53, by have := pt_lt t; omega⟩)).toNat, by have := class_lt_of_ok a.1 a.2 ⟨t.val - 53, by have := pt_lt t; omega⟩; omega⟩ y x) := by
  show f ((((cfg0 a).win 3).blk t).view.emb (ix3 0 y x)) = f _
  refine congrArg f ?_
  funext d
  apply Fin.ext
  match d with
  | ⟨0, _⟩ =>
    show ((cfg0 a).win 3).index t (0 : Fin 3) * 1 + 1 * 0 = 53 + (a.1 0 (ix1 ⟨t.val - 53, _⟩)).toNat
    have e : ((cfg0 a).win 3).index t (0 : Fin 3) = 53 + (classWord a.1 (grid0.coords t)).toNat := semIndex_high a.1 a.2 t h
    rw [e, classWord_eq]
    omega
  | ⟨1, _⟩ =>
    show ((cfg0 a).win 3).index t (1 : Fin 3) * 256 + 1 * y.val = y.val
    have e : ((cfg0 a).win 3).index t (1 : Fin 3) = 0 := rfl
    omega
  | ⟨2, _⟩ =>
    show ((cfg0 a).win 3).index t (2 : Fin 3) * 512 + 1 * x.val = x.val
    have e : ((cfg0 a).win 3).index t (2 : Fin 3) = 0 := rfl
    omega

/-! ## At the launch memory's tables -/

/-- Every class the launch memory's class table holds is below 80. -/
theorem class_lt (m : (ℓ : Loc nD τ sig) → Buf (Elt F) ℓ) (hO : GenP.Ok m) (n : Fin 100) : (GenP.tbl m 0 (ix1 n)).toNat < 80 :=
  class_lt_of_ok (GenP.tbl m) hO n

variable (m : (ℓ : Loc nD τ sig) → Buf (Elt F) ℓ) (hO : GenP.Ok m) (c : Dev nD) (t : Fin (GenP.cfgM m hO).N)

/-- The class word the index maps read at point t is the class table's entry at lane t - 53. -/
theorem class_word (h : 53 ≤ t.val) :
    classWord (GenP.tbl m) (grid0.coords t) = GenP.tbl m 0 (ix1 ⟨t.val - 53, by have := pt_lt t; omega⟩) :=
  classWord_eq (GenP.tbl m) t

/-- THE MASK BLOCK at a point t from 53 on: plane (t - 53, classes[t - 53]) of the mask logits. -/
theorem mask_block (h : 53 ≤ t.val) (k l : Fin 28) :
    GenP.iblk m hO c 0 t (ix4 0 0 k l)
      = GenP.V m c main_arg0 (ix4 ⟨t.val - 53, by have := pt_lt t; omega⟩
          ⟨(GenP.tbl m 0 (ix1 ⟨t.val - 53, by have := pt_lt t; omega⟩)).toNat, class_lt m hO _⟩ k l) :=
  mask_read (GenP.adm m hO) t (GenP.V m c main_arg0) k l

/-- THE CLASS PLANE'S BLOCK at a point t from 53 on: plane 53 + classes[t - 53] of the semantic logits. -/
theorem sem_block_thing (h : 53 ≤ t.val) (y : Fin 256) (x : Fin 512) :
    GenP.iblk m hO c 3 t (ix3 0 y x)
      = GenP.V m c main_arg1 (ix3 ⟨53 + (GenP.tbl m 0 (ix1 ⟨t.val - 53, by have := pt_lt t; omega⟩)).toNat,
          by have := class_lt m hO ⟨t.val - 53, by have := pt_lt t; omega⟩; omega⟩ y x) :=
  sem_read_high (GenP.adm m hO) t h (GenP.V m c main_arg1) y x

end Cert.KernelIdeal.Paste

end
-- ==== Proof.KernelBlocks12.lean ====
import proofs.«418239_j16415365005582_2_alg».proof.Proof.GenP.KernelIdeal.Frame.Runs
import Idealize.ShloMosaic.Lib.ValueIdx
import Idealize.ShloMosaic.Lib.Pipeline.Value

/-! # The blocks of the windows whose index maps read no table

The row-interpolation window and the column-interpolation window step with the grid point alone: at a point t from 53
on their block is row t - 53 of the [100, 256, 28] and [100, 28, 512] arrays. Before point 53 the class-plane window's
index map takes the grid coordinate itself, whatever the class table holds, so its block is plane t of the
[133, 256, 512] semantic logits. Each block entry is written as the entry of its array it is. -/

set_option maxRecDepth 16384

noncomputable section

namespace Cert.KernelIdeal.Paste

open Cert.KernelIdeal Cert.KernelIdeal.Gen Cert.KernelIdeal.GenP
open Idealize.ShloMosaic Idealize.ShloMosaic.TcCoe Idealize.SL.Sem

variable {F : FTy → Type} [FloatOps F]

/-! ## The block rows of the table-free windows, in closed form

Windows 1 and 2 (the row and column interpolation matrices) move with the grid coordinate alone: their block row
at grid point t is max(t - 53, 0), which on natural numbers is the truncated difference t - 53. -/

/-- Window 1's block index at grid point t, decided once over the 153 points. -/
theorem index1_closed : ∀ t : Fin grid0.N, cc0_transform_1 (grid0.coords t) = ![t.val - 53, 0, 0] :=
  (by decide +kernel : ∀ t : Fin grid0.N, cc0_transform_1 (grid0.coords t) = ![t.val - 53, 0, 0])

/-- Window 2's block index at grid point t, decided once over the 153 points. -/
theorem index2_closed : ∀ t : Fin grid0.N, cc0_transform_2 (grid0.coords t) = ![t.val - 53, 0, 0] :=
  (by decide +kernel : ∀ t : Fin grid0.N, cc0_transform_2 (grid0.coords t) = ![t.val - 53, 0, 0])

/-- The grid has one axis: a point's coordinate on it is the point's number. -/
theorem coords_val : ∀ t : Fin grid0.N, (grid0.coords t 0).val = t.val :=
  (by decide +kernel : ∀ t : Fin grid0.N, (grid0.coords t 0).val = t.val)

/-- Below 53 the plane window's index map selects the grid coordinate itself, whatever word the table holds:
    the comparison n < 53 on signed 32-bit words answers 1 and the selection takes its first operand. -/
theorem toNat_select_lt (n : Nat) (hn : n < 53) (z : BitVec 32) :
    (Scalar.select (Scalar.cmpi .slt (BitVec.ofNat 32 n) 53#32) (BitVec.ofNat 32 n) z).toNat = n := by
  have hn' : (BitVec.ofNat 32 n).toNat = n := by rw [BitVec.toNat_ofNat]; omega
  have hc : Scalar.cmpi .slt (BitVec.ofNat 32 n) 53#32 = 1#1 := by
    rw [Scalar.cmpi, IntOp.cmpi_slt, BitVec.toInt_eq_toNat_cond, hn', show (53#32 : BitVec 32).toInt = 53 from by decide]
    split <;> omega
  unfold Scalar.select
  split
  · exact hn'
  · rename_i hne
    exact absurd hc hne

/-- Window 3's block index at a grid point below 53, at any contents of the tables: (t, 0, 0). -/
theorem index3_stuff (a : (pcfg0 (F := F)).Adm) (t : Fin (cfg0 a).N) (h : t.val < 53) :
    (((cfg0 a).win 3).index t : Fin 3 → Nat) = ![t.val, 0, 0] := by
  obtain ⟨z, e⟩ : ∃ z : BitVec 32, (((cfg0 a).win 3).index t : Fin 3 → Nat)
      = ![(Scalar.select (Scalar.cmpi .slt (BitVec.ofNat 32 (grid0.coords t 0).val) 53#32)
            (BitVec.ofNat 32 (grid0.coords t 0).val) z).toNat, 0, 0] := ⟨_, rfl⟩
  rw [e, coords_val t, toNat_select_lt t.val h z]

/-! ## Where a block's entries sit in the array

A block's coordinate on an axis is the block index times the block's extent plus the coordinate inside the block. -/

/-- Entry (0, y, k) of window 1's block at a grid point t ≥ 53 is entry (t - 53, y, k) of its array. -/
theorem blk1_emb (a : (pcfg0 (F := F)).Adm) (t : Fin (cfg0 a).N) (h : 53 ≤ t.val) (y : Fin 256) (k : Fin 28) :
    (((cfg0 a).win 1).blk t).view.emb (ValueIdx.ix3 0 y k)
      = ValueIdx.ix3 (⟨t.val - 53, by have ht : t.val < 153 := t.isLt; omega⟩ : Fin 100) y k := by
  have e0 : ((cfg0 a).win 1).index t (0 : Fin 3) = t.val - 53 := congrFun (index1_closed t) 0
  have e1 : ((cfg0 a).win 1).index t (1 : Fin 3) = 0 := congrFun (index1_closed t) 1
  have e2 : ((cfg0 a).win 1).index t (2 : Fin 3) = 0 := congrFun (index1_closed t) 2
  funext d
  apply Fin.ext
  match d with
  | ⟨0, _⟩ =>
    show ((cfg0 a).win 1).index t (0 : Fin 3) * 1 + 1 * ((0 : Fin 1) : Nat) = t.val - 53
    rw [e0]; simp
  | ⟨1, _⟩ =>
    show ((cfg0 a).win 1).index t (1 : Fin 3) * 256 + 1 * y.val = y.val
    rw [e1]; omega
  | ⟨2, _⟩ =>
    show ((cfg0 a).win 1).index t (2 : Fin 3) * 28 + 1 * k.val = k.val
    rw [e2]; omega

/-- Entry (0, l, x) of window 2's block at a grid point t ≥ 53 is entry (t - 53, l, x) of its array. -/
theorem blk2_emb (a : (pcfg0 (F := F)).Adm) (t : Fin (cfg0 a).N) (h : 53 ≤ t.val) (l : Fin 28) (x : Fin 512) :
    (((cfg0 a).win 2).blk t).view.emb (ValueIdx.ix3 0 l x)
      = ValueIdx.ix3 (⟨t.val - 53, by have ht : t.val < 153 := t.isLt; omega⟩ : Fin 100) l x := by
  have e0 : ((cfg0 a).win 2).index t (0 : Fin 3) = t.val - 53 := congrFun (index2_closed t) 0
  have e1 : ((cfg0 a).win 2).index t (1 : Fin 3) = 0 := congrFun (index2_closed t) 1
  have e2 : ((cfg0 a).win 2).index t (2 : Fin 3) = 0 := congrFun (index2_closed t) 2
  funext d
  apply Fin.ext
  match d with
  | ⟨0, _⟩ =>
    show ((cfg0 a).win 2).index t (0 : Fin 3) * 1 + 1 * ((0 : Fin 1) : Nat) = t.val - 53
    rw [e0]; simp
  | ⟨1, _⟩ =>
    show ((cfg0 a).win 2).index t (1 : Fin 3) * 28 + 1 * l.val = l.val
    rw [e1]; omega
  | ⟨2, _⟩ =>
    show ((cfg0 a).win 2).index t (2 : Fin 3) * 512 + 1 * x.val = x.val
    rw [e2]; omega

/-- Entry (0, y, x) of window 3's block at a grid point t < 53 is entry (t, y, x) of its array. -/
theorem blk3_emb_stuff (a : (pcfg0 (F := F)).Adm) (t : Fin (cfg0 a).N) (h : t.val < 53) (y : Fin 256) (x : Fin 512) :
    (((cfg0 a).win 3).blk t).view.emb (ValueIdx.ix3 0 y x) = ValueIdx.ix3 (⟨t.val, by omega⟩ : Fin 133) y x := by
  have e := index3_stuff a t h
  have e0 : ((cfg0 a).win 3).index t (0 : Fin 3) = t.val := congrFun e (0 : Fin 3)
  have e1 : ((cfg0 a).win 3).index t (1 : Fin 3) = 0 := congrFun e (1 : Fin 3)
  have e2 : ((cfg0 a).win 3).index t (2 : Fin 3) = 0 := congrFun e (2 : Fin 3)
  funext d
  apply Fin.ext
  match d with
  | ⟨0, _⟩ =>
    show ((cfg0 a).win 3).index t (0 : Fin 3) * 1 + 1 * ((0 : Fin 1) : Nat) = t.val
    rw [e0]; simp
  | ⟨1, _⟩ =>
    show ((cfg0 a).win 3).index t (1 : Fin 3) * 256 + 1 * y.val = y.val
    rw [e1]; omega
  | ⟨2, _⟩ =>
    show ((cfg0 a).win 3).index t (2 : Fin 3) * 512 + 1 * x.val = x.val
    rw [e2]; omega

/-! ## The blocks the region reads, as entries of their arrays -/

variable (m : (ℓ : Loc nD τ sig) → Buf (Elt F) ℓ)

/-- The row-interpolation block at grid point t ≥ 53 is row t - 53 of the row-interpolation array. -/
theorem ay_block (hO : GenP.Ok m) (c : Dev nD) (t : Fin (GenP.cfgM m hO).N) (h : 53 ≤ t.val) (y : Fin 256) (k : Fin 28) :
    GenP.iblk m hO c 1 t (ValueIdx.ix3 0 y k)
      = GenP.V m c main_v109 (ValueIdx.ix3 (⟨t.val - 53, by have ht : t.val < 153 := t.isLt; omega⟩ : Fin 100) y k) := by
  show GenP.V m c main_v109 ((((cfg0 (GenP.adm m hO)).win 1).blk t).view.emb (ValueIdx.ix3 0 y k)) = _
  exact congrArg (GenP.V m c main_v109) (blk1_emb (GenP.adm m hO) t h y k)

/-- The column-interpolation block at grid point t ≥ 53 is row t - 53 of the column-interpolation array. -/
theorem bx_block (hO : GenP.Ok m) (c : Dev nD) (t : Fin (GenP.cfgM m hO).N) (h : 53 ≤ t.val) (l : Fin 28) (x : Fin 512) :
    GenP.iblk m hO c 2 t (ValueIdx.ix3 0 l x)
      = GenP.V m c main_v130 (ValueIdx.ix3 (⟨t.val - 53, by have ht : t.val < 153 := t.isLt; omega⟩ : Fin 100) l x) := by
  show GenP.V m c main_v130 ((((cfg0 (GenP.adm m hO)).win 2).blk t).view.emb (ValueIdx.ix3 0 l x)) = _
  exact congrArg (GenP.V m c main_v130) (blk2_emb (GenP.adm m hO) t h l x)

/-- The plane block at a grid point t < 53 is plane t of the plane array. -/
theorem sem_block_stuff (hO : GenP.Ok m) (c : Dev nD) (t : Fin (GenP.cfgM m hO).N) (h : t.val < 53) (y : Fin 256) (x : Fin 512) :
    GenP.iblk m hO c 3 t (ValueIdx.ix3 0 y x) = GenP.V m c main_arg1 (ValueIdx.ix3 (⟨t.val, by omega⟩ : Fin 133) y x) := by
  show GenP.V m c main_arg1 ((((cfg0 (GenP.adm m hO)).win 3).blk t).view.emb (ValueIdx.ix3 0 y x)) = _
  exact congrArg (GenP.V m c main_arg1) (blk3_emb_stuff (GenP.adm m hO) t h y x)

end Cert.KernelIdeal.Paste

end
-- ==== Proof.KernelResize.lean ====
import proofs.«418239_j16415365005582_2_alg».proof.Proof.GenP.KernelIdeal.Frame.Runs
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
# The two resize matrices, as the host builds them, read at an index

For each of the 100 boxes the host builds a row matrix `Ay[n] : 256 × 28` and a column matrix
`Bx[n] : 28 × 512`. Row `y` of `Ay[n]` has at most two nonzero entries: `1 - wy[n, y]` in column
`yi0[n, y]` and `wy[n, y]` in column `yi1[n, y]` (they add up where the two columns coincide), and the
whole row is multiplied by the indicator `inY[n, y]` of the box's rows. `Bx[n]` is the same along the
other axis. So `Ay[n] · M · Bx[n]` is the bilinear interpolation of `M` inside the box and `0` outside.

Here: the two arrays as functions of the four arrays they are built from (`ayOf`, `bxOf`), the fact
that the contents the region is entered with are these functions of the contents of the four input
buffers (`ay_array`, `bx_array`), and the entry at an index (`ay_apply`, `bx_apply`).

The first fact is proved by cutting the host's line of operations in five stretches: a buffer keeps the
contents the last stretch that writes it left, so the matrix's buffer is read after the stretch that
builds it, from ANY contents before that stretch, and the four inputs are read before it.
-/

noncomputable section

namespace Cert.KernelIdeal.Paste

open Cert.KernelIdeal Cert.KernelIdeal.Gen
open Idealize.ShloMosaic Idealize.ShloMosaic.TcCoe Idealize.SL.Sem Idealize.ShloMosaic.StableHlo
open Idealize.ShloMosaic.ValueIdx

/-! ## The arrays -/

section Arrays
variable {F : FTy → Type} [FloatOps F]

/-- The index `k` of the 28 source rows, spread over [100, 256, 28] along the last axis. -/
def rowIota (io : IVec S28 32) : IVec S100x256x28 32 :=
  broadcastInDim S100x256x28 ![0, 1, 2] bcast_S1x1x28_S100x256x28_0_1_2
    (broadcastInDim S1x1x28 ![2] bcast_S28_S1x1x28_2 io)

/-- A [100, 256] array repeated along a new last axis of extent 28. -/
def spreadY {α : Type} (x : S100x256.Idx → α) : S100x256x28.Idx → α :=
  broadcastInDim S100x256x28 ![0, 1, 2] bcast_S100x256x1_S100x256x28_0_1_2
    (broadcastInDim S100x256x1 ![0, 1] bcast_S100x256_S100x256x1_0_1 x)

/-- `where(k = idx[n, y], val[n, y], 0)` over [100, 256, 28]. -/
def hotY (idx : IVec S100x256 32) (val : FVec F S100x256 .f32) : FVec F S100x256x28 .f32 :=
  select (cmpi .eq (rowIota (iotaInDim S28 32 0)) (spreadY idx)) (spreadY val)
    (broadcastInDim S100x256x28 ![] bcast_S_S100x256x28 (constant S_ .f32 0x00000000#32))

/-- The row matrices as the host builds them:
    `(where(k = yi0, 1 - wy, 0) + where(k = yi1, wy, 0)) * float(inY)`. -/
def ayOf (yi0 : IVec S100x256 32) (wy : FVec F S100x256 .f32) (yi1 : IVec S100x256 32) (inY : IVec S100x256 1) :
    FVec F S100x256x28 .f32 :=
  mulf (addf (hotY yi0 (subf (broadcastInDim S100x256 ![] bcast_S_S100x256 (constant S_ .f32 0x3F800000#32)) wy)) (hotY yi1 wy))
    (broadcastInDim S100x256x28 ![0, 1, 2] bcast_S100x256x1_S100x256x28_0_1_2
      (uitofp .f32 (broadcastInDim S100x256x1 ![0, 1] bcast_S100x256_S100x256x1_0_1 inY)))

/-- The index `l` of the 28 source columns, spread over [100, 28, 512] along the middle axis. -/
def colIota (io : IVec S28 32) : IVec S100x28x512 32 :=
  broadcastInDim S100x28x512 ![0, 1, 2] bcast_S1x28x1_S100x28x512_0_1_2
    (broadcastInDim S1x28x1 ![1] bcast_S28_S1x28x1_1 io)

/-- A [100, 512] array repeated along a new middle axis of extent 28. -/
def spreadX {α : Type} (x : S100x512.Idx → α) : S100x28x512.Idx → α :=
  broadcastInDim S100x28x512 ![0, 1, 2] bcast_S100x1x512_S100x28x512_0_1_2
    (broadcastInDim S100x1x512 ![0, 2] bcast_S100x512_S100x1x512_0_2 x)

/-- `where(l = idx[n, x], val[n, x], 0)` over [100, 28, 512]. -/
def hotX (io : IVec S28 32) (idx : IVec S100x512 32) (val : FVec F S100x512 .f32) : FVec F S100x28x512 .f32 :=
  select (cmpi .eq (colIota io) (spreadX idx)) (spreadX val)
    (broadcastInDim S100x28x512 ![] bcast_S_S100x28x512 (constant S_ .f32 0x00000000#32))

/-- The column matrices as the host builds them, over the array `io` of the 28 source indices:
    `(where(l = xi0, 1 - wx, 0) + where(l = xi1, wx, 0)) * float(inX)`. -/
def bxOf (io : IVec S28 32) (xi0 : IVec S100x512 32) (wx : FVec F S100x512 .f32) (xi1 : IVec S100x512 32) (inX : IVec S100x512 1) :
    FVec F S100x28x512 .f32 :=
  mulf (addf (hotX io xi0 (subf (broadcastInDim S100x512 ![] bcast_S_S100x512 (constant S_ .f32 0x3F800000#32)) wx)) (hotX io xi1 wx))
    (broadcastInDim S100x28x512 ![0, 1, 2] bcast_S100x1x512_S100x28x512_0_1_2
      (uitofp .f32 (broadcastInDim S100x1x512 ![0, 2] bcast_S100x512_S100x1x512_0_2 inX)))

end Arrays

/-! ## The host's line, cut in five stretches -/

section Frame
variable {F : FTy → Type} [FloatOps F]

/-- The first stretch of the host's line. -/
abbrev opsA : List (HloOp τ sig (Elt F)) := List.flatten [hostOps0, hostOps0_1, hostOps0_2, hostOps0_3]
/-- The second stretch. -/
abbrev opsB : List (HloOp τ sig (Elt F)) := List.flatten [hostOps0_4, hostOps0_5, hostOps0_6, hostOps0_7]
/-- The third stretch. -/
abbrev opsC : List (HloOp τ sig (Elt F)) := hostOps0_8
/-- The fourth stretch. -/
abbrev opsD : List (HloOp τ sig (Elt F)) := List.flatten [hostOps0_9, hostOps0_10, hostOps0_11, hostOps0_12]
/-- The fifth stretch. -/
abbrev opsE : List (HloOp τ sig (Elt F)) := List.flatten [hostOps0_13, hostOps0_14, hostOps0_15, hostOps0_16]

/-- The host's line is its five stretches one after the other. -/
theorem ops_split : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] : List (HloOp τ sig (Elt F)))
    = opsA ++ (opsB ++ (opsC ++ (opsD ++ opsE))) := by
  simp only [opsA, opsB, opsC, opsD, opsE, List.flatten_cons, List.flatten_nil, List.append_nil, List.append_assoc]

/-- A buffer none of a line's operations writes keeps its contents. -/
theorem after_skip {b : DevRef τ sig} (ops : List (HloOp τ sig (Elt F))) (V : Valuation τ sig (Elt F))
    (h : ops.Forall fun op => b ∉ op.writes) : after ops V b = V b :=
  after_of_forall_not_mem ops V (List.forall_iff_forall_mem.mp h)

end Frame

/-! ## The stretch that builds each matrix, run from any contents -/

section Mid
variable {F : FTy → Type} [FloatOps F]

set_option maxHeartbeats 4000000 in
/-- The stretches that hold the row matrices' operations, run from ANY contents `W`: the matrix's buffer ends
    holding `ayOf` of what `W` holds at the four inputs. -/
theorem mid_ay (W : Valuation τ sig (Elt F)) :
    after opsC (after opsB W) (Proc.devRef .tc main_v109)
      = ayOf (F := F) (W (Proc.devRef .tc main_v62)) (W (Proc.devRef .tc main_v64)) (W (Proc.devRef .tc main_v68)) (W (Proc.devRef .tc main_v40)) := by
  simp only [opsB, opsC, List.flatten_cons, List.flatten_nil, List.append_nil, StableHlo.after_append]
  simp only [hostOps0_4, hostOps0_5, hostOps0_6, hostOps0_7, hostOps0_8]
  after_results_simp
  rfl

set_option maxHeartbeats 4000000 in
/-- The same for the column matrices, whose operations read the array of the 28 source indices an earlier
    stretch left. -/
theorem mid_bx (W : Valuation τ sig (Elt F)) :
    after opsD (after opsC W) (Proc.devRef .tc main_v130)
      = bxOf (F := F) (W (Proc.devRef .tc main_v88)) (W (Proc.devRef .tc main_v81)) (W (Proc.devRef .tc main_v83)) (W (Proc.devRef .tc main_v87)) (W (Proc.devRef .tc main_v49)) := by
  simp only [opsC, opsD, List.flatten_cons, List.flatten_nil, List.append_nil, StableHlo.after_append]
  simp only [hostOps0_8, hostOps0_9, hostOps0_10, hostOps0_11, hostOps0_12]
  after_results_simp
  rfl

set_option maxHeartbeats 4000000 in
/-- The array of the 28 source indices, after the stretch that writes it. -/
theorem mid_iota (W : Valuation τ sig (Elt F)) :
    after opsB W (Proc.devRef .tc main_v88) = (iotaInDim S28 32 0 : IVec S28 32) := by
  simp only [opsB, List.flatten_cons, List.flatten_nil, List.append_nil, StableHlo.after_append]
  simp only [hostOps0_4, hostOps0_5, hostOps0_6, hostOps0_7]
  after_results_simp

end Mid

/-! ## The contents the region is entered with -/

section Run
variable {F : FTy → Type} [FloatOps F]

/-- Decides that no operation of a line of literal operations writes a literal buffer. -/
macro "not_written" : tactic => `(tactic| (
  simp only [opsB, opsC, opsD, opsE, hostOps0_4, hostOps0_5, hostOps0_6, hostOps0_7, hostOps0_8, hostOps0_9, hostOps0_10, hostOps0_11, hostOps0_12,
    hostOps0_13, hostOps0_14, hostOps0_15, hostOps0_16, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt F) ℓ) (c : Dev nD)

/-- The contents after the first stretch, and after the second. -/
abbrev SA : Valuation τ sig (Elt F) := after opsA (fun b => m (c, b))
/-- The contents after the second stretch. -/
abbrev SB : Valuation τ sig (Elt F) := after opsB (SA m c)

/-- The contents the region is entered with: the last four stretches run from the contents after the first. -/
theorem V0_A : GenP.V0 m c = after (opsB ++ (opsC ++ (opsD ++ opsE))) (SA m c) := by
  unfold GenP.V0
  rw [ops_split, StableHlo.after_append]
/-- The same contents: the last three stretches run from the contents after the second. -/
theorem V0_B : GenP.V0 m c = after (opsC ++ (opsD ++ opsE)) (SB m c) := by
  rw [V0_A, StableHlo.after_append]
/-- The same contents: the last two stretches run from the contents after the third. -/
theorem V0_C : GenP.V0 m c = after (opsD ++ opsE) (after opsC (SB m c)) := by
  rw [V0_B, StableHlo.after_append]
/-- The same contents: the last stretch run from the contents after the fourth. -/
theorem V0_D : GenP.V0 m c = after opsE (after opsD (after opsC (SB m c))) := by
  rw [V0_C, StableHlo.after_append]

/-- A buffer the last four stretches leave alone is read after the first. -/
theorem V_eq_SA (r : Ref sig .tc)
    (h : (opsB ++ (opsC ++ (opsD ++ opsE)) : List (HloOp τ sig (Elt F))).Forall fun op => Proc.devRef .tc r ∉ op.writes) :
    GenP.V m c r = SA m c (Proc.devRef .tc r) := by
  show GenP.V0 m c (Proc.devRef .tc r) = _
  rw [V0_A, after_skip _ _ h]
/-- A buffer the last three stretches leave alone is read after the second. -/
theorem V_eq_SB (r : Ref sig .tc)
    (h : (opsC ++ (opsD ++ opsE) : List (HloOp τ sig (Elt F))).Forall fun op => Proc.devRef .tc r ∉ op.writes) :
    GenP.V m c r = SB m c (Proc.devRef .tc r) := by
  show GenP.V0 m c (Proc.devRef .tc r) = _
  rw [V0_B, after_skip _ _ h]

set_option maxHeartbeats 4000000 in
/-- The row matrices the region is entered with are `ayOf` of the contents of the four buffers they are built from. -/
theorem ay_array : GenP.V m c main_v109
    = ayOf (F := F) (GenP.V m c main_v62) (GenP.V m c main_v64) (GenP.V m c main_v68) (GenP.V m c main_v40) := by
  have h109 : GenP.V m c main_v109 = after opsC (after opsB (SA m c)) (Proc.devRef .tc main_v109) := by
    show GenP.V0 m c (Proc.devRef .tc main_v109) = _
    rw [V0_C, after_skip _ _ (by not_written)]
  rw [h109, V_eq_SA m c main_v62 (by not_written), V_eq_SA m c main_v64 (by not_written),
    V_eq_SA m c main_v68 (by not_written), V_eq_SA m c main_v40 (by not_written)]
  exact mid_ay (SA m c)

end Run

section RunX
variable {F : FTy → Type} [FloatOps F]
variable (m : (ℓ : Loc nD τ sig) → Buf (Elt F) ℓ) (c : Dev nD)

set_option maxHeartbeats 4000000 in
/-- The array of the 28 source indices the region is entered with. -/
theorem iota_array : GenP.V m c main_v88 = (iotaInDim S28 32 0 : IVec S28 32) := by
  rw [V_eq_SB m c main_v88 (by not_written)]
  exact mid_iota (SA m c)

set_option maxHeartbeats 4000000 in
/-- The column matrices the region is entered with are `bxOf` of the contents of the four buffers they are built from. -/
theorem bx_array : GenP.V m c main_v130
    = bxOf (F := F) (iotaInDim S28 32 0) (GenP.V m c main_v81) (GenP.V m c main_v83) (GenP.V m c main_v87) (GenP.V m c main_v49) := by
  have h130 : GenP.V m c main_v130 = after opsD (after opsC (SB m c)) (Proc.devRef .tc main_v130) := by
    show GenP.V0 m c (Proc.devRef .tc main_v130) = _
    rw [V0_D, after_skip _ _ (by not_written)]
  have h88 : SB m c (Proc.devRef .tc main_v88) = (iotaInDim S28 32 0 : IVec S28 32) := mid_iota (SA m c)
  rw [h130, V_eq_SB m c main_v81 (by not_written), V_eq_SB m c main_v83 (by not_written),
    V_eq_SB m c main_v87 (by not_written), V_eq_SB m c main_v49 (by not_written), ← h88]
  exact mid_bx (SB m c)

end RunX

/-! ## The entries -/

section Index

/-- A scalar spread over a whole shape, read anywhere. -/
theorem splat_apply {α : Type} {t : Shape} (h : S_.BroadcastsInDim t (![] : Fin 0 → Fin t.rank)) (x : S_.Idx → α) (j : t.Idx) :
    broadcastInDim t ![] h x j = x (fun a => a.elim0) :=
  broadcastInDim_apply _ h x j (fun a => a.elim0) (fun a => a.elim0)

/-- The f32 word of 1.0 is the real 1. -/
theorem one_f32 : Ideal.ofBits .f32 0x3F800000#32 = 1 := IdealRules.sign_bit.ideal_onePat .f32

/-! ### Rows -/

/-- A [100, 256, 1] array repeated along its last axis to extent 28, read at (n, y, k): the operand at (n, y, 0). -/
theorem upY_apply {α : Type} (z : S100x256x1.Idx → α) (n : Fin 100) (y : Fin 256) (k : Fin 28) :
    broadcastInDim S100x256x28 ![0, 1, 2] bcast_S100x256x1_S100x256x28_0_1_2 z (ix3 n y k) = z (ix3 n y (0 : Fin 1)) :=
  broadcastInDim_apply _ bcast_S100x256x1_S100x256x28_0_1_2 z (ix3 n y k) (ix3 n y (0 : Fin 1)) (fun a => match a with
    | ⟨0, _⟩ => by show n.val = if (100 : Nat) = 1 then 0 else n.val; exact (if_neg (by decide)).symm
    | ⟨1, _⟩ => by show y.val = if (256 : Nat) = 1 then 0 else y.val; exact (if_neg (by decide)).symm
    | ⟨2, _⟩ => by show (0 : Fin 1).val = if (1 : Nat) = 1 then 0 else k.val; exact (if_pos rfl).symm)

/-- A [100, 256] array given a trailing unit axis, read at (n, y, 0): the operand at (n, y). -/
theorem lowY_apply {α : Type} (x : S100x256.Idx → α) (n : Fin 100) (y : Fin 256) :
    broadcastInDim S100x256x1 ![0, 1] bcast_S100x256_S100x256x1_0_1 x (ix3 n y (0 : Fin 1)) = x (ix2 n y) :=
  broadcastInDim_apply _ bcast_S100x256_S100x256x1_0_1 x (ix3 n y (0 : Fin 1)) (ix2 n y) (fun a => match a with
    | ⟨0, _⟩ => by show n.val = if (100 : Nat) = 1 then 0 else n.val; exact (if_neg (by decide)).symm
    | ⟨1, _⟩ => by show y.val = if (256 : Nat) = 1 then 0 else y.val; exact (if_neg (by decide)).symm)

/-- A [100, 256] array repeated along a new last axis of extent 28, read at (n, y, k): the operand at (n, y). -/
theorem spreadY_apply {α : Type} (x : S100x256.Idx → α) (n : Fin 100) (y : Fin 256) (k : Fin 28) :
    spreadY x (ix3 n y k) = x (ix2 n y) := by
  unfold spreadY
  rw [upY_apply, lowY_apply]

/-- The array of source-row indices spread over [100, 256, 28], read at (n, y, k): its entry k. -/
theorem rowIota_apply (io : IVec S28 32) (n : Fin 100) (y : Fin 256) (k : Fin 28) :
    rowIota io (ix3 n y k) = io (ix1 k) := by
  unfold rowIota
  rw [broadcastInDim_apply _ bcast_S1x1x28_S100x256x28_0_1_2 _ (ix3 n y k) (ix3 (0 : Fin 1) (0 : Fin 1) k) (fun a => match a with
    | ⟨0, _⟩ => by show (0 : Fin 1).val = if (1 : Nat) = 1 then 0 else n.val; exact (if_pos rfl).symm
    | ⟨1, _⟩ => by show (0 : Fin 1).val = if (1 : Nat) = 1 then 0 else y.val; exact (if_pos rfl).symm
    | ⟨2, _⟩ => by show k.val = if (28 : Nat) = 1 then 0 else k.val; exact (if_neg (by decide)).symm)]
  exact broadcastInDim_apply _ bcast_S28_S1x1x28_2 io (ix3 (0 : Fin 1) (0 : Fin 1) k) (ix1 k) (fun a => match a with
    | ⟨0, _⟩ => by show k.val = if (28 : Nat) = 1 then 0 else k.val; exact (if_neg (by decide)).symm)

/-- With the indices 0, 1, …, 27 that entry is the word k. -/
theorem rowIota_iota_apply (n : Fin 100) (y : Fin 256) (k : Fin 28) :
    rowIota (iotaInDim S28 32 0) (ix3 n y k) = BitVec.ofNat 32 k.val :=
  (rowIota_apply _ n y k).trans rfl

/-- `where(k = idx[n, y], val[n, y], 0)` read at (n, y, k): a choice on the word test k = idx[n, y]. -/
theorem hotY_apply (idx : IVec S100x256 32) (val : FVec Ideal S100x256 .f32) (n : Fin 100) (y : Fin 256) (k : Fin 28) :
    hotY idx val (ix3 n y k)
      = Scalar.select (IntOp.cmpi .eq (BitVec.ofNat 32 k.val) (idx (ix2 n y))) (val (ix2 n y)) 0 := by
  unfold hotY
  rw [select_apply]
  show Scalar.select (IntOp.cmpi .eq (rowIota (iotaInDim S28 32 0) (ix3 n y k)) (spreadY idx (ix3 n y k))) (spreadY val (ix3 n y k))
      (broadcastInDim S100x256x28 ![] bcast_S_S100x256x28 (constant (F := Ideal) S_ .f32 0x00000000#32) (ix3 n y k)) = _
  rw [rowIota_iota_apply, spreadY_apply, spreadY_apply, splat_apply, constant_apply, Ideal.ofBits_zero_f32]

/-- An entry of the row matrices. -/
theorem ayOf_apply (yi0 : IVec S100x256 32) (wy : FVec Ideal S100x256 .f32) (yi1 : IVec S100x256 32) (inY : IVec S100x256 1)
    (n : Fin 100) (y : Fin 256) (k : Fin 28) :
    ayOf yi0 wy yi1 inY (ix3 n y k)
      = (Scalar.select (IntOp.cmpi .eq (BitVec.ofNat 32 k.val) (yi0 (ix2 n y))) (1 - wy (ix2 n y)) 0
          + Scalar.select (IntOp.cmpi .eq (BitVec.ofNat 32 k.val) (yi1 (ix2 n y))) (wy (ix2 n y)) 0)
        * FloatOps.uitofp .f32 (inY (ix2 n y)) := by
  unfold ayOf
  rw [mulf_apply, addf_apply, hotY_apply, hotY_apply, subf_apply, splat_apply, constant_apply, one_f32, upY_apply]
  show _ * FloatOps.uitofp .f32 (broadcastInDim S100x256x1 ![0, 1] bcast_S100x256_S100x256x1_0_1 inY (ix3 n y (0 : Fin 1))) = _
  rw [lowY_apply]

end Index

section IndexX

/-! ### Columns -/

/-- A [100, 1, 512] array repeated along its middle axis to extent 28, read at (n, l, x): the operand at (n, 0, x). -/
theorem upX_apply {α : Type} (z : S100x1x512.Idx → α) (n : Fin 100) (l : Fin 28) (x : Fin 512) :
    broadcastInDim S100x28x512 ![0, 1, 2] bcast_S100x1x512_S100x28x512_0_1_2 z (ix3 n l x) = z (ix3 n (0 : Fin 1) x) :=
  broadcastInDim_apply _ bcast_S100x1x512_S100x28x512_0_1_2 z (ix3 n l x) (ix3 n (0 : Fin 1) x) (fun a => match a with
    | ⟨0, _⟩ => by show n.val = if (100 : Nat) = 1 then 0 else n.val; exact (if_neg (by decide)).symm
    | ⟨1, _⟩ => by show (0 : Fin 1).val = if (1 : Nat) = 1 then 0 else l.val; exact (if_pos rfl).symm
    | ⟨2, _⟩ => by show x.val = if (512 : Nat) = 1 then 0 else x.val; exact (if_neg (by decide)).symm)

/-- A [100, 512] array given a middle unit axis, read at (n, 0, x): the operand at (n, x). -/
theorem lowX_apply {α : Type} (v : S100x512.Idx → α) (n : Fin 100) (x : Fin 512) :
    broadcastInDim S100x1x512 ![0, 2] bcast_S100x512_S100x1x512_0_2 v (ix3 n (0 : Fin 1) x) = v (ix2 n x) :=
  broadcastInDim_apply _ bcast_S100x512_S100x1x512_0_2 v (ix3 n (0 : Fin 1) x) (ix2 n x) (fun a => match a with
    | ⟨0, _⟩ => by show n.val = if (100 : Nat) = 1 then 0 else n.val; exact (if_neg (by decide)).symm
    | ⟨1, _⟩ => by show x.val = if (512 : Nat) = 1 then 0 else x.val; exact (if_neg (by decide)).symm)

/-- A [100, 512] array repeated along a new middle axis of extent 28, read at (n, l, x): the operand at (n, x). -/
theorem spreadX_apply {α : Type} (v : S100x512.Idx → α) (n : Fin 100) (l : Fin 28) (x : Fin 512) :
    spreadX v (ix3 n l x) = v (ix2 n x) := by
  unfold spreadX
  rw [upX_apply, lowX_apply]

/-- The array of source-column indices spread over [100, 28, 512], read at (n, l, x): its entry l. -/
theorem colIota_apply (io : IVec S28 32) (n : Fin 100) (l : Fin 28) (x : Fin 512) :
    colIota io (ix3 n l x) = io (ix1 l) := by
  unfold colIota
  rw [broadcastInDim_apply _ bcast_S1x28x1_S100x28x512_0_1_2 _ (ix3 n l x) (ix3 (0 : Fin 1) l (0 : Fin 1)) (fun a => match a with
    | ⟨0, _⟩ => by show (0 : Fin 1).val = if (1 : Nat) = 1 then 0 else n.val; exact (if_pos rfl).symm
    | ⟨1, _⟩ => by show l.val = if (28 : Nat) = 1 then 0 else l.val; exact (if_neg (by decide)).symm
    | ⟨2, _⟩ => by show (0 : Fin 1).val = if (1 : Nat) = 1 then 0 else x.val; exact (if_pos rfl).symm)]
  exact broadcastInDim_apply _ bcast_S28_S1x28x1_1 io (ix3 (0 : Fin 1) l (0 : Fin 1)) (ix1 l) (fun a => match a with
    | ⟨0, _⟩ => by show l.val = if (28 : Nat) = 1 then 0 else l.val; exact (if_neg (by decide)).symm)

/-- With the indices 0, 1, …, 27 that entry is the word l. -/
theorem colIota_iota_apply (n : Fin 100) (l : Fin 28) (x : Fin 512) :
    colIota (iotaInDim S28 32 0) (ix3 n l x) = BitVec.ofNat 32 l.val :=
  (colIota_apply _ n l x).trans rfl

/-- `where(l = idx[n, x], val[n, x], 0)` read at (n, l, x): a choice on the word test l = idx[n, x]. -/
theorem hotX_apply (idx : IVec S100x512 32) (val : FVec Ideal S100x512 .f32) (n : Fin 100) (l : Fin 28) (x : Fin 512) :
    hotX (iotaInDim S28 32 0) idx val (ix3 n l x)
      = Scalar.select (IntOp.cmpi .eq (BitVec.ofNat 32 l.val) (idx (ix2 n x))) (val (ix2 n x)) 0 := by
  unfold hotX
  rw [select_apply]
  show Scalar.select (IntOp.cmpi .eq (colIota (iotaInDim S28 32 0) (ix3 n l x)) (spreadX idx (ix3 n l x))) (spreadX val (ix3 n l x))
      (broadcastInDim S100x28x512 ![] bcast_S_S100x28x512 (constant (F := Ideal) S_ .f32 0x00000000#32) (ix3 n l x)) = _
  rw [colIota_iota_apply, spreadX_apply, spreadX_apply, splat_apply, constant_apply, Ideal.ofBits_zero_f32]

/-- An entry of the column matrices. -/
theorem bxOf_apply (xi0 : IVec S100x512 32) (wx : FVec Ideal S100x512 .f32) (xi1 : IVec S100x512 32) (inX : IVec S100x512 1)
    (n : Fin 100) (l : Fin 28) (x : Fin 512) :
    bxOf (iotaInDim S28 32 0) xi0 wx xi1 inX (ix3 n l x)
      = (Scalar.select (IntOp.cmpi .eq (BitVec.ofNat 32 l.val) (xi0 (ix2 n x))) (1 - wx (ix2 n x)) 0
          + Scalar.select (IntOp.cmpi .eq (BitVec.ofNat 32 l.val) (xi1 (ix2 n x))) (wx (ix2 n x)) 0)
        * FloatOps.uitofp .f32 (inX (ix2 n x)) := by
  unfold bxOf
  rw [mulf_apply, addf_apply, hotX_apply, hotX_apply, subf_apply, splat_apply, constant_apply, one_f32, upX_apply]
  show _ * FloatOps.uitofp .f32 (broadcastInDim S100x1x512 ![0, 2] bcast_S100x512_S100x1x512_0_2 inX (ix3 n (0 : Fin 1) x)) = _
  rw [lowX_apply]

end IndexX

/-! ## The matrices the region is entered with, at an index -/

section Entries

/-- An entry of a resize matrix from the four numbers of its row (column): `1 - w` where the source index is `i0`,
    `w` where it is `i1` (their sum where the two coincide), times the indicator `b`. -/
def hat (k : Fin 28) (i0 : BitVec 32) (w : Ideal .f32) (i1 : BitVec 32) (b : BitVec 1) : Ideal .f32 :=
  (Scalar.select (IntOp.cmpi .eq (BitVec.ofNat 32 k.val) i0) (1 - w) 0
      + Scalar.select (IntOp.cmpi .eq (BitVec.ofNat 32 k.val) i1) w 0)
    * FloatOps.uitofp .f32 b

/-- A choice on an equality test of two words is a choice on their equality. -/
theorem select_cmpi_eq {α : Type} {w : Nat} (a b : BitVec w) (u v : α) :
    Scalar.select (IntOp.cmpi .eq a b) u v = if a = b then u else v := by
  unfold Scalar.select IntOp.cmpi
  by_cases h : a = b
  · subst h
    rw [if_pos rfl, if_pos]
    show BitVec.ofBool (a == a) = 1
    rw [beq_self_eq_true]; rfl
  · rw [if_neg h, if_neg]
    show ¬ BitVec.ofBool (a == b) = 1
    rw [beq_eq_false_iff_ne.mpr h]; decide

/-- A bit as a real number: 1 when set, 0 when not. -/
theorem uitofp_bit (b : BitVec 1) : (FloatOps.uitofp .f32 b : Ideal .f32) = if b = 1 then 1 else 0 := by
  show (((b.toNat : ℝ) : EReal)) = _
  by_cases h : b = 1
  · subst h; rw [if_pos rfl]; show (((1 : ℕ) : ℝ) : EReal) = 1; norm_num
  · have h0 : b = 0 := ValueIdx.eq_zero_of_ne_one h
    subst h0; rw [if_neg (by decide)]; norm_num

/-- The entry with its tests read as equalities. -/
theorem hat_eq (k : Fin 28) (i0 : BitVec 32) (w : Ideal .f32) (i1 : BitVec 32) (b : BitVec 1) :
    hat k i0 w i1 b
      = ((if BitVec.ofNat 32 k.val = i0 then 1 - w else 0) + (if BitVec.ofNat 32 k.val = i1 then w else 0))
        * (if b = 1 then 1 else 0) := by
  unfold hat
  rw [select_cmpi_eq, select_cmpi_eq, uitofp_bit]

variable (m : (ℓ : Loc nD τ sig) → Buf (Elt Ideal) ℓ) (c : Dev nD)

/-- Row `y` of box `n`'s row matrix: `1 - wy` at column `yi0`, `wy` at column `yi1`, times the indicator of the box's rows. -/
theorem ay_apply (n : Fin 100) (y : Fin 256) (k : Fin 28) :
    GenP.V m c main_v109 (ix3 n y k)
      = hat k (GenP.V m c main_v62 (ix2 n y)) (GenP.V m c main_v64 (ix2 n y)) (GenP.V m c main_v68 (ix2 n y))
          (GenP.V m c main_v40 (ix2 n y)) :=
  (congrFun (ay_array m c) (ix3 n y k)).trans (ayOf_apply _ _ _ _ n y k)

/-- Column `x` of box `n`'s column matrix: `1 - wx` at row `xi0`, `wx` at row `xi1`, times the indicator of the box's columns. -/
theorem bx_apply (n : Fin 100) (l : Fin 28) (x : Fin 512) :
    GenP.V m c main_v130 (ix3 n l x)
      = hat l (GenP.V m c main_v81 (ix2 n x)) (GenP.V m c main_v83 (ix2 n x)) (GenP.V m c main_v87 (ix2 n x))
          (GenP.V m c main_v49 (ix2 n x)) :=
  (congrFun (bx_array m c) (ix3 n l x)).trans (bxOf_apply _ _ _ _ n l x)

end Entries

end Cert.KernelIdeal.Paste
-- ==== Proof.RefGathers.lean ====
import proofs.«418239_j16415365005582_2_alg».proof.Proof.GenP.ReferenceIdeal.Read
import Idealize.ShloMosaic.Lib.ValueIdx
import Idealize.ShloMosaic.Lib.Pipeline.Value
import Idealize.ShloMosaic.Lib.StableHlo.Predicate

/-!
# The reference's gathers, read at an index

The reference program reads three kinds of table by index:

* the mask of the instance's own class, `M[n] = mask_logits[n, cls n]`: a gather whose start index is the pair
  `(n, cls n)` and whose slice is one whole 28 × 28 plane;
* the four corners of the bilinear interpolation, `M[n][r, c]` at a row `r` and a column `c` that depend on the
  output pixel: a gather batched over `n` whose start index is the pair `(r, c)` and whose slice is one element;
* the semantic plane of the instance's class, `sem[53 + cls n]`: a gather whose start index is `cls n` and whose
  slice is one whole 256 × 512 plane.

Each start index is read signed and clamped so that the slice fits; an index that is already in range is read as itself.
Before each gather a negative index is wrapped (`i < 0 ? i + extent : i`), the identity on an index that is not negative.
-/

noncomputable section

namespace Cert.ReferenceIdeal.Paste

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-- A 32-bit word holding a number below 2³¹, read signed and then as a natural, is that number. -/
theorem toNat_toInt_ofNat {k : Nat} (hk : k < 2 ^ 31) : (BitVec.ofNat 32 k).toInt.toNat = k := by
  rw [Predicate.toInt_ofNat_small k hk]; rfl

local notation "dC" => gather_S100x28x28_S100x256x512x2_S100x256x512_n_12_0_0_12_3_111

/-- THE BATCHED TWO-COLUMN GATHER AT ONE PIXEL. Result element `(n, y, x)` reads table `n` (the batching axis) at the row
    and the column the index array holds at `(n, y, x, 0)` and `(n, y, x, 1)`; both are below 28, so the clamp into
    `[0, 27]` leaves them as they are. -/
theorem corner_apply {α : Type} (T : S100x28x28.Idx → α) (I : IVec S100x256x512x2 32)
    (n : Fin 100) (y : Fin 256) (x : Fin 512) (r c : Fin 28)
    (hr : I (ix4 n y x 0) = BitVec.ofNat 32 r.val) (hc : I (ix4 n y x 1) = BitVec.ofNat 32 c.val) :
    Host.gather dC T I (ix3 n y x) = T (ix3 n r c) := by
  unfold Host.gather
  congr 1
  funext a
  refine Fin.ext ?_
  match a with
  | ⟨0, _⟩ =>
    show GatherDims.start dC (ix3 n y x) I 0 + GatherDims.batchCoord dC (ix3 n y x) 0 + GatherDims.offCoord dC (ix3 n y x) 0 = n.val
    rw [GatherDims.start_batching dC _ _ _ (List.mem_singleton.mpr rfl),
      GatherDims.offCoord_eq_zero dC _ _ (fun h => ((GatherDims.mem_sKept _ _).mp h).2 (List.mem_singleton.mpr rfl)),
      Nat.zero_add, Nat.add_zero]
    unfold GatherDims.batchCoord
    rw [dif_pos (show (0 : Fin 3) ∈ (dC).operandBatchingDims by decide)]
    rfl
  | ⟨1, _⟩ =>
    show GatherDims.start dC (ix3 n y x) I 1 + GatherDims.batchCoord dC (ix3 n y x) 1 + GatherDims.offCoord dC (ix3 n y x) 1 = r.val
    rw [GatherDims.batchCoord_eq_zero dC _ _ (by decide),
      GatherDims.offCoord_eq_zero dC _ _ (fun h => ((GatherDims.mem_sKept _ _).mp h).1 (by decide))]
    unfold GatherDims.start
    rw [dif_pos (show (1 : Fin 3) ∈ (dC).startIndexMap by decide)]
    have hsi : (dC).siIdx (ix3 n y x) ⟨List.idxOf (1 : Fin 3) (dC).startIndexMap,
        List.idxOf_lt_length_iff.2 (by decide)⟩ = ix4 n y x 0 := by
      funext b; refine Fin.ext ?_
      match b with
      | ⟨0, _⟩ => rfl
      | ⟨1, _⟩ => rfl
      | ⟨2, _⟩ => rfl
      | ⟨3, _⟩ => rfl
    rw [hsi, hr, toNat_toInt_ofNat (by have := r.isLt; omega)]
    show min r.val (28 - 1) + 0 + 0 = r.val
    have := r.isLt; omega
  | ⟨2, _⟩ =>
    show GatherDims.start dC (ix3 n y x) I 2 + GatherDims.batchCoord dC (ix3 n y x) 2 + GatherDims.offCoord dC (ix3 n y x) 2 = c.val
    rw [GatherDims.batchCoord_eq_zero dC _ _ (by decide),
      GatherDims.offCoord_eq_zero dC _ _ (fun h => ((GatherDims.mem_sKept _ _).mp h).1 (by decide))]
    unfold GatherDims.start
    rw [dif_pos (show (2 : Fin 3) ∈ (dC).startIndexMap by decide)]
    have hsi : (dC).siIdx (ix3 n y x) ⟨List.idxOf (2 : Fin 3) (dC).startIndexMap,
        List.idxOf_lt_length_iff.2 (by decide)⟩ = ix4 n y x 1 := by
      funext b; refine Fin.ext ?_
      match b with
      | ⟨0, _⟩ => rfl
      | ⟨1, _⟩ => rfl
      | ⟨2, _⟩ => rfl
      | ⟨3, _⟩ => rfl
    rw [hsi, hc, toNat_toInt_ofNat (by have := c.isLt; omega)]
    show min c.val (28 - 1) + 0 + 0 = c.val
    have := c.isLt; omega

/-- Wrapping a negative index (`i < 0 ? i + extent : i`) leaves an index that is not negative as it is. -/
theorem wrap_of_small (w z a : BitVec 32) (k : Nat) (hk : k < 2 ^ 31) (hw : w = BitVec.ofNat 32 k) (hz : z = 0#32) :
    Scalar.select (IntOp.cmpi .slt w z) a w = BitVec.ofNat 32 k := by
  subst hw hz
  have hlt : (BitVec.ofNat 32 k).slt 0#32 = false := by
    simp only [BitVec.slt, BitVec.toInt_zero, decide_eq_false_iff_not, Int.not_lt]
    rw [Predicate.toInt_ofNat_small k hk]; omega
  show (if BitVec.ofBool ((BitVec.ofNat 32 k).slt 0#32) = 1 then _ else _) = _
  rw [hlt]; rfl

/-- The index array of the gather %122, column 0: the row `r` that %79 holds at `(n, y)`. -/
theorem rows_v121 (x2 : (⟨S100x4, .f32⟩ : BufTy).Contents (Elt F)) (n : Fin 100) (y : Fin 256) (x : Fin 512) (r : Fin 28)
    (hr : ReadP.val_main_v79 (F := F) x2 (ix2 n y) = BitVec.ofNat 32 r.val) :
    ReadP.val_main_v121 (F := F) x2 (ix4 n y x 0) = BitVec.ofNat 32 r.val := by
  unfold ReadP.val_main_v121
  refine (concatenate_pair_apply_left (t := S100x256x512x2) (s₁ := S100x256x512x1) (s₂ := S100x256x512x1) 3 _ _ _
    (ix4 n y x (0 : Fin 2)) rfl (ix4 n y x (0 : Fin 1))
    (fun b => match b with | ⟨0, _⟩ => rfl | ⟨1, _⟩ => rfl | ⟨2, _⟩ => rfl | ⟨3, _⟩ => rfl)).trans ?_
  rw [ReadP.val_main_v119_apply, ReadP.val_main_v117_apply, ReadP.val_main_v111_apply, ReadP.val_main_v108_apply,
    ReadP.val_main_v107_apply, ReadP.val_main_c_23_apply, ReadP.val_main_v105_apply]
  have e : ReadP.idx_main_v105 (ReadP.idx_main_v117 (ReadP.idx_main_v119 (ix4 n y x (0 : Fin 1)))) = ix2 n y := by
    funext b; match b with | ⟨0, _⟩ => rfl | ⟨1, _⟩ => rfl
  rw [e]
  exact wrap_of_small _ _ _ r.val (by have := r.isLt; omega) hr rfl

/-- The index array of the gather %122, column 1: the column `c` that %98 holds at `(n, x)`. -/
theorem cols_v121 (x2 : (⟨S100x4, .f32⟩ : BufTy).Contents (Elt F)) (n : Fin 100) (y : Fin 256) (x : Fin 512) (c : Fin 28)
    (hc : ReadP.val_main_v98 (F := F) x2 (ix2 n x) = BitVec.ofNat 32 c.val) :
    ReadP.val_main_v121 (F := F) x2 (ix4 n y x 1) = BitVec.ofNat 32 c.val := by
  unfold ReadP.val_main_v121
  refine (concatenate_pair_apply_right (t := S100x256x512x2) (s₁ := S100x256x512x1) (s₂ := S100x256x512x1) 3 _ _ _
    (ix4 n y x (1 : Fin 2)) rfl rfl (ix4 n y x (0 : Fin 1))
    (fun b => match b with | ⟨0, _⟩ => (fun _ => rfl) | ⟨1, _⟩ => (fun _ => rfl) | ⟨2, _⟩ => (fun _ => rfl) | ⟨3, _⟩ => (fun h => absurd rfl h)) rfl).trans ?_
  rw [ReadP.val_main_v120_apply, ReadP.val_main_v118_apply, ReadP.val_main_v116_apply, ReadP.val_main_v113_apply,
    ReadP.val_main_v112_apply, ReadP.val_main_c_25_apply, ReadP.val_main_v106_apply]
  have e : ReadP.idx_main_v106 (ReadP.idx_main_v118 (ReadP.idx_main_v120 (ix4 n y x (0 : Fin 1)))) = ix2 n x := by
    funext b; match b with | ⟨0, _⟩ => rfl | ⟨1, _⟩ => rfl
  rw [e]
  exact wrap_of_small _ _ _ c.val (by have := c.isLt; omega) hc rfl

/-- The corner %122 at the pixel `(n, y, x)`: the class mask of instance `n` at the row that %79 holds at `(n, y)` and the column that %98 holds at `(n, x)`. -/
theorem corner122 (x0 : (⟨S100x80x28x28, .f32⟩ : BufTy).Contents (Elt F)) (x2 : (⟨S100x4, .f32⟩ : BufTy).Contents (Elt F))
    (x3 : (⟨S100, .i32⟩ : BufTy).Contents (Elt F)) (n : Fin 100) (y : Fin 256) (x : Fin 512) (r c : Fin 28)
    (hr : ReadP.val_main_v79 (F := F) x2 (ix2 n y) = BitVec.ofNat 32 r.val)
    (hc : ReadP.val_main_v98 (F := F) x2 (ix2 n x) = BitVec.ofNat 32 c.val) :
    ReadP.val_main_v122 (F := F) x0 x2 x3 (ix3 n y x) = ReadP.val_main_v16 (F := F) x0 x3 (ix3 n r c) := by
  unfold ReadP.val_main_v122
  exact corner_apply _ _ n y x r c (rows_v121 x2 n y x r hr) (cols_v121 x2 n y x c hc)

/-- The index array of the gather %140, column 0: the row `r` that %79 holds at `(n, y)`. -/
theorem rows_v139 (x2 : (⟨S100x4, .f32⟩ : BufTy).Contents (Elt F)) (n : Fin 100) (y : Fin 256) (x : Fin 512) (r : Fin 28)
    (hr : ReadP.val_main_v79 (F := F) x2 (ix2 n y) = BitVec.ofNat 32 r.val) :
    ReadP.val_main_v139 (F := F) x2 (ix4 n y x 0) = BitVec.ofNat 32 r.val := by
  unfold ReadP.val_main_v139
  refine (concatenate_pair_apply_left (t := S100x256x512x2) (s₁ := S100x256x512x1) (s₂ := S100x256x512x1) 3 _ _ _
    (ix4 n y x (0 : Fin 2)) rfl (ix4 n y x (0 : Fin 1))
    (fun b => match b with | ⟨0, _⟩ => rfl | ⟨1, _⟩ => rfl | ⟨2, _⟩ => rfl | ⟨3, _⟩ => rfl)).trans ?_
  rw [ReadP.val_main_v137_apply, ReadP.val_main_v135_apply, ReadP.val_main_v129_apply, ReadP.val_main_v126_apply,
    ReadP.val_main_v125_apply, ReadP.val_main_c_27_apply, ReadP.val_main_v123_apply]
  have e : ReadP.idx_main_v123 (ReadP.idx_main_v135 (ReadP.idx_main_v137 (ix4 n y x (0 : Fin 1)))) = ix2 n y := by
    funext b; match b with | ⟨0, _⟩ => rfl | ⟨1, _⟩ => rfl
  rw [e]
  exact wrap_of_small _ _ _ r.val (by have := r.isLt; omega) hr rfl

/-- The index array of the gather %140, column 1: the column `c` that %104 holds at `(n, x)`. -/
theorem cols_v139 (x2 : (⟨S100x4, .f32⟩ : BufTy).Contents (Elt F)) (n : Fin 100) (y : Fin 256) (x : Fin 512) (c : Fin 28)
    (hc : ReadP.val_main_v104 (F := F) x2 (ix2 n x) = BitVec.ofNat 32 c.val) :
    ReadP.val_main_v139 (F := F) x2 (ix4 n y x 1) = BitVec.ofNat 32 c.val := by
  unfold ReadP.val_main_v139
  refine (concatenate_pair_apply_right (t := S100x256x512x2) (s₁ := S100x256x512x1) (s₂ := S100x256x512x1) 3 _ _ _
    (ix4 n y x (1 : Fin 2)) rfl rfl (ix4 n y x (0 : Fin 1))
    (fun b => match b with | ⟨0, _⟩ => (fun _ => rfl) | ⟨1, _⟩ => (fun _ => rfl) | ⟨2, _⟩ => (fun _ => rfl) | ⟨3, _⟩ => (fun h => absurd rfl h)) rfl).trans ?_
  rw [ReadP.val_main_v138_apply, ReadP.val_main_v136_apply, ReadP.val_main_v134_apply, ReadP.val_main_v131_apply,
    ReadP.val_main_v130_apply, ReadP.val_main_c_29_apply, ReadP.val_main_v124_apply]
  have e : ReadP.idx_main_v124 (ReadP.idx_main_v136 (ReadP.idx_main_v138 (ix4 n y x (0 : Fin 1)))) = ix2 n x := by
    funext b; match b with | ⟨0, _⟩ => rfl | ⟨1, _⟩ => rfl
  rw [e]
  exact wrap_of_small _ _ _ c.val (by have := c.isLt; omega) hc rfl

/-- The corner %140 at the pixel `(n, y, x)`: the class mask of instance `n` at the row that %79 holds at `(n, y)` and the column that %104 holds at `(n, x)`. -/
theorem corner140 (x0 : (⟨S100x80x28x28, .f32⟩ : BufTy).Contents (Elt F)) (x2 : (⟨S100x4, .f32⟩ : BufTy).Contents (Elt F))
    (x3 : (⟨S100, .i32⟩ : BufTy).Contents (Elt F)) (n : Fin 100) (y : Fin 256) (x : Fin 512) (r c : Fin 28)
    (hr : ReadP.val_main_v79 (F := F) x2 (ix2 n y) = BitVec.ofNat 32 r.val)
    (hc : ReadP.val_main_v104 (F := F) x2 (ix2 n x) = BitVec.ofNat 32 c.val) :
    ReadP.val_main_v140 (F := F) x0 x2 x3 (ix3 n y x) = ReadP.val_main_v16 (F := F) x0 x3 (ix3 n r c) := by
  unfold ReadP.val_main_v140
  exact corner_apply _ _ n y x r c (rows_v139 x2 n y x r hr) (cols_v139 x2 n y x c hc)

/-- The index array of the gather %158, column 0: the row `r` that %85 holds at `(n, y)`. -/
theorem rows_v157 (x2 : (⟨S100x4, .f32⟩ : BufTy).Contents (Elt F)) (n : Fin 100) (y : Fin 256) (x : Fin 512) (r : Fin 28)
    (hr : ReadP.val_main_v85 (F := F) x2 (ix2 n y) = BitVec.ofNat 32 r.val) :
    ReadP.val_main_v157 (F := F) x2 (ix4 n y x 0) = BitVec.ofNat 32 r.val := by
  unfold ReadP.val_main_v157
  refine (concatenate_pair_apply_left (t := S100x256x512x2) (s₁ := S100x256x512x1) (s₂ := S100x256x512x1) 3 _ _ _
    (ix4 n y x (0 : Fin 2)) rfl (ix4 n y x (0 : Fin 1))
    (fun b => match b with | ⟨0, _⟩ => rfl | ⟨1, _⟩ => rfl | ⟨2, _⟩ => rfl | ⟨3, _⟩ => rfl)).trans ?_
  rw [ReadP.val_main_v155_apply, ReadP.val_main_v153_apply, ReadP.val_main_v147_apply, ReadP.val_main_v144_apply,
    ReadP.val_main_v143_apply, ReadP.val_main_c_31_apply, ReadP.val_main_v141_apply]
  have e : ReadP.idx_main_v141 (ReadP.idx_main_v153 (ReadP.idx_main_v155 (ix4 n y x (0 : Fin 1)))) = ix2 n y := by
    funext b; match b with | ⟨0, _⟩ => rfl | ⟨1, _⟩ => rfl
  rw [e]
  exact wrap_of_small _ _ _ r.val (by have := r.isLt; omega) hr rfl

/-- The index array of the gather %158, column 1: the column `c` that %98 holds at `(n, x)`. -/
theorem cols_v157 (x2 : (⟨S100x4, .f32⟩ : BufTy).Contents (Elt F)) (n : Fin 100) (y : Fin 256) (x : Fin 512) (c : Fin 28)
    (hc : ReadP.val_main_v98 (F := F) x2 (ix2 n x) = BitVec.ofNat 32 c.val) :
    ReadP.val_main_v157 (F := F) x2 (ix4 n y x 1) = BitVec.ofNat 32 c.val := by
  unfold ReadP.val_main_v157
  refine (concatenate_pair_apply_right (t := S100x256x512x2) (s₁ := S100x256x512x1) (s₂ := S100x256x512x1) 3 _ _ _
    (ix4 n y x (1 : Fin 2)) rfl rfl (ix4 n y x (0 : Fin 1))
    (fun b => match b with | ⟨0, _⟩ => (fun _ => rfl) | ⟨1, _⟩ => (fun _ => rfl) | ⟨2, _⟩ => (fun _ => rfl) | ⟨3, _⟩ => (fun h => absurd rfl h)) rfl).trans ?_
  rw [ReadP.val_main_v156_apply, ReadP.val_main_v154_apply, ReadP.val_main_v152_apply, ReadP.val_main_v149_apply,
    ReadP.val_main_v148_apply, ReadP.val_main_c_33_apply, ReadP.val_main_v142_apply]
  have e : ReadP.idx_main_v142 (ReadP.idx_main_v154 (ReadP.idx_main_v156 (ix4 n y x (0 : Fin 1)))) = ix2 n x := by
    funext b; match b with | ⟨0, _⟩ => rfl | ⟨1, _⟩ => rfl
  rw [e]
  exact wrap_of_small _ _ _ c.val (by have := c.isLt; omega) hc rfl

/-- The corner %158 at the pixel `(n, y, x)`: the class mask of instance `n` at the row that %85 holds at `(n, y)` and the column that %98 holds at `(n, x)`. -/
theorem corner158 (x0 : (⟨S100x80x28x28, .f32⟩ : BufTy).Contents (Elt F)) (x2 : (⟨S100x4, .f32⟩ : BufTy).Contents (Elt F))
    (x3 : (⟨S100, .i32⟩ : BufTy).Contents (Elt F)) (n : Fin 100) (y : Fin 256) (x : Fin 512) (r c : Fin 28)
    (hr : ReadP.val_main_v85 (F := F) x2 (ix2 n y) = BitVec.ofNat 32 r.val)
    (hc : ReadP.val_main_v98 (F := F) x2 (ix2 n x) = BitVec.ofNat 32 c.val) :
    ReadP.val_main_v158 (F := F) x0 x2 x3 (ix3 n y x) = ReadP.val_main_v16 (F := F) x0 x3 (ix3 n r c) := by
  unfold ReadP.val_main_v158
  exact corner_apply _ _ n y x r c (rows_v157 x2 n y x r hr) (cols_v157 x2 n y x c hc)

/-- The index array of the gather %176, column 0: the row `r` that %85 holds at `(n, y)`. -/
theorem rows_v175 (x2 : (⟨S100x4, .f32⟩ : BufTy).Contents (Elt F)) (n : Fin 100) (y : Fin 256) (x : Fin 512) (r : Fin 28)
    (hr : ReadP.val_main_v85 (F := F) x2 (ix2 n y) = BitVec.ofNat 32 r.val) :
    ReadP.val_main_v175 (F := F) x2 (ix4 n y x 0) = BitVec.ofNat 32 r.val := by
  unfold ReadP.val_main_v175
  refine (concatenate_pair_apply_left (t := S100x256x512x2) (s₁ := S100x256x512x1) (s₂ := S100x256x512x1) 3 _ _ _
    (ix4 n y x (0 : Fin 2)) rfl (ix4 n y x (0 : Fin 1))
    (fun b => match b with | ⟨0, _⟩ => rfl | ⟨1, _⟩ => rfl | ⟨2, _⟩ => rfl | ⟨3, _⟩ => rfl)).trans ?_
  rw [ReadP.val_main_v173_apply, ReadP.val_main_v171_apply, ReadP.val_main_v165_apply, ReadP.val_main_v162_apply,
    ReadP.val_main_v161_apply, ReadP.val_main_c_35_apply, ReadP.val_main_v159_apply]
  have e : ReadP.idx_main_v159 (ReadP.idx_main_v171 (ReadP.idx_main_v173 (ix4 n y x (0 : Fin 1)))) = ix2 n y := by
    funext b; match b with | ⟨0, _⟩ => rfl | ⟨1, _⟩ => rfl
  rw [e]
  exact wrap_of_small _ _ _ r.val (by have := r.isLt; omega) hr rfl

/-- The index array of the gather %176, column 1: the column `c` that %104 holds at `(n, x)`. -/
theorem cols_v175 (x2 : (⟨S100x4, .f32⟩ : BufTy).Contents (Elt F)) (n : Fin 100) (y : Fin 256) (x : Fin 512) (c : Fin 28)
    (hc : ReadP.val_main_v104 (F := F) x2 (ix2 n x) = BitVec.ofNat 32 c.val) :
    ReadP.val_main_v175 (F := F) x2 (ix4 n y x 1) = BitVec.ofNat 32 c.val := by
  unfold ReadP.val_main_v175
  refine (concatenate_pair_apply_right (t := S100x256x512x2) (s₁ := S100x256x512x1) (s₂ := S100x256x512x1) 3 _ _ _
    (ix4 n y x (1 : Fin 2)) rfl rfl (ix4 n y x (0 : Fin 1))
    (fun b => match b with | ⟨0, _⟩ => (fun _ => rfl) | ⟨1, _⟩ => (fun _ => rfl) | ⟨2, _⟩ => (fun _ => rfl) | ⟨3, _⟩ => (fun h => absurd rfl h)) rfl).trans ?_
  rw [ReadP.val_main_v174_apply, ReadP.val_main_v172_apply, ReadP.val_main_v170_apply, ReadP.val_main_v167_apply,
    ReadP.val_main_v166_apply, ReadP.val_main_c_37_apply, ReadP.val_main_v160_apply]
  have e : ReadP.idx_main_v160 (ReadP.idx_main_v172 (ReadP.idx_main_v174 (ix4 n y x (0 : Fin 1)))) = ix2 n x := by
    funext b; match b with | ⟨0, _⟩ => rfl | ⟨1, _⟩ => rfl
  rw [e]
  exact wrap_of_small _ _ _ c.val (by have := c.isLt; omega) hc rfl

/-- The corner %176 at the pixel `(n, y, x)`: the class mask of instance `n` at the row that %85 holds at `(n, y)` and the column that %104 holds at `(n, x)`. -/
theorem corner176 (x0 : (⟨S100x80x28x28, .f32⟩ : BufTy).Contents (Elt F)) (x2 : (⟨S100x4, .f32⟩ : BufTy).Contents (Elt F))
    (x3 : (⟨S100, .i32⟩ : BufTy).Contents (Elt F)) (n : Fin 100) (y : Fin 256) (x : Fin 512) (r c : Fin 28)
    (hr : ReadP.val_main_v85 (F := F) x2 (ix2 n y) = BitVec.ofNat 32 r.val)
    (hc : ReadP.val_main_v104 (F := F) x2 (ix2 n x) = BitVec.ofNat 32 c.val) :
    ReadP.val_main_v176 (F := F) x0 x2 x3 (ix3 n y x) = ReadP.val_main_v16 (F := F) x0 x3 (ix3 n r c) := by
  unfold ReadP.val_main_v176
  exact corner_apply _ _ n y x r c (rows_v175 x2 n y x r hr) (cols_v175 x2 n y x c hc)

local notation "dM" => gather_S100x80x28x28_S100x2_S100x28x28_12_01_n_n_01_1_112828
local notation "dP" => gather_S80x256x512_S100x1_S100x256x512_12_0_n_n_0_1_1256512

/-- THE GATHER OF ONE 28 × 28 PLANE OF A RANK-FOUR TABLE. Result element `(n, a, b)` reads the table at the pair the
    index array holds in row `n` (here `n` itself and a second coordinate `k`), at `(a, b)` inside the plane; both
    coordinates are in range, so the clamp leaves them as they are. -/
theorem mask_gather_apply {α : Type} (X : S100x80x28x28.Idx → α) (I : IVec S100x2 32)
    (n : Fin 100) (k : Fin 80) (a b : Fin 28)
    (h0 : I (ix2 n 0) = BitVec.ofNat 32 n.val) (h1 : I (ix2 n 1) = BitVec.ofNat 32 k.val) :
    Host.gather dM X I (ix3 n a b) = X (ix4 n k a b) := by
  unfold Host.gather
  congr 1
  funext c
  refine Fin.ext ?_
  match c with
  | ⟨0, _⟩ =>
    show GatherDims.start dM (ix3 n a b) I 0 + GatherDims.batchCoord dM (ix3 n a b) 0 + GatherDims.offCoord dM (ix3 n a b) 0 = n.val
    rw [GatherDims.batchCoord_eq_zero dM _ _ (by decide),
      GatherDims.offCoord_eq_zero dM _ _ (fun h => ((GatherDims.mem_sKept _ _).mp h).1 (by decide))]
    unfold GatherDims.start
    rw [dif_pos (show (0 : Fin 4) ∈ (dM).startIndexMap by decide)]
    have hsi : (dM).siIdx (ix3 n a b) ⟨List.idxOf (0 : Fin 4) (dM).startIndexMap,
        List.idxOf_lt_length_iff.2 (by decide)⟩ = ix2 n 0 := by
      funext e; refine Fin.ext ?_
      match e with
      | ⟨0, _⟩ => rfl
      | ⟨1, _⟩ => rfl
    rw [hsi, h0, toNat_toInt_ofNat (by have := n.isLt; omega)]
    show min n.val (100 - 1) + 0 + 0 = n.val
    have := n.isLt; omega
  | ⟨1, _⟩ =>
    show GatherDims.start dM (ix3 n a b) I 1 + GatherDims.batchCoord dM (ix3 n a b) 1 + GatherDims.offCoord dM (ix3 n a b) 1 = k.val
    rw [GatherDims.batchCoord_eq_zero dM _ _ (by decide),
      GatherDims.offCoord_eq_zero dM _ _ (fun h => ((GatherDims.mem_sKept _ _).mp h).1 (by decide))]
    unfold GatherDims.start
    rw [dif_pos (show (1 : Fin 4) ∈ (dM).startIndexMap by decide)]
    have hsi : (dM).siIdx (ix3 n a b) ⟨List.idxOf (1 : Fin 4) (dM).startIndexMap,
        List.idxOf_lt_length_iff.2 (by decide)⟩ = ix2 n 1 := by
      funext e; refine Fin.ext ?_
      match e with
      | ⟨0, _⟩ => rfl
      | ⟨1, _⟩ => rfl
    rw [hsi, h1, toNat_toInt_ofNat (by have := k.isLt; omega)]
    show min k.val (80 - 1) + 0 + 0 = k.val
    have := k.isLt; omega
  | ⟨2, _⟩ =>
    show GatherDims.start dM (ix3 n a b) I 2 + GatherDims.batchCoord dM (ix3 n a b) 2 + GatherDims.offCoord dM (ix3 n a b) 2 = a.val
    rw [GatherDims.batchCoord_eq_zero dM _ _ (by decide)]
    unfold GatherDims.start
    rw [dif_neg (show (2 : Fin 4) ∉ (dM).startIndexMap by decide)]
    simp only [Nat.zero_add, Nat.add_zero]
    unfold GatherDims.offCoord
    rw [dif_pos (show (2 : Fin 4) ∈ (dM).sKept by decide)]
    rfl
  | ⟨3, _⟩ =>
    show GatherDims.start dM (ix3 n a b) I 3 + GatherDims.batchCoord dM (ix3 n a b) 3 + GatherDims.offCoord dM (ix3 n a b) 3 = b.val
    rw [GatherDims.batchCoord_eq_zero dM _ _ (by decide)]
    unfold GatherDims.start
    rw [dif_neg (show (3 : Fin 4) ∉ (dM).startIndexMap by decide)]
    simp only [Nat.zero_add, Nat.add_zero]
    unfold GatherDims.offCoord
    rw [dif_pos (show (3 : Fin 4) ∈ (dM).sKept by decide)]
    rfl

/-- THE GATHER OF ONE 256 × 512 PLANE OF A RANK-THREE TABLE. Result element `(n, y, x)` reads plane `k`, the number the
    index column holds in row `n`, at `(y, x)`; `k` is in range, so the clamp leaves it as it is. -/
theorem plane_gather_apply {α : Type} (X : S80x256x512.Idx → α) (I : IVec S100x1 32)
    (n : Fin 100) (k : Fin 80) (y : Fin 256) (x : Fin 512)
    (h0 : I (ix2 n 0) = BitVec.ofNat 32 k.val) :
    Host.gather dP X I (ix3 n y x) = X (ix3 k y x) := by
  unfold Host.gather
  congr 1
  funext c
  refine Fin.ext ?_
  match c with
  | ⟨0, _⟩ =>
    show GatherDims.start dP (ix3 n y x) I 0 + GatherDims.batchCoord dP (ix3 n y x) 0 + GatherDims.offCoord dP (ix3 n y x) 0 = k.val
    rw [GatherDims.batchCoord_eq_zero dP _ _ (by decide),
      GatherDims.offCoord_eq_zero dP _ _ (fun h => ((GatherDims.mem_sKept _ _).mp h).1 (by decide))]
    unfold GatherDims.start
    rw [dif_pos (show (0 : Fin 3) ∈ (dP).startIndexMap by decide)]
    have hsi : (dP).siIdx (ix3 n y x) ⟨List.idxOf (0 : Fin 3) (dP).startIndexMap,
        List.idxOf_lt_length_iff.2 (by decide)⟩ = ix2 n 0 := by
      funext e; refine Fin.ext ?_
      match e with
      | ⟨0, _⟩ => rfl
      | ⟨1, _⟩ => rfl
    rw [hsi, h0, toNat_toInt_ofNat (by have := k.isLt; omega)]
    show min k.val (80 - 1) + 0 + 0 = k.val
    have := k.isLt; omega
  | ⟨1, _⟩ =>
    show GatherDims.start dP (ix3 n y x) I 1 + GatherDims.batchCoord dP (ix3 n y x) 1 + GatherDims.offCoord dP (ix3 n y x) 1 = y.val
    rw [GatherDims.batchCoord_eq_zero dP _ _ (by decide)]
    unfold GatherDims.start
    rw [dif_neg (show (1 : Fin 3) ∉ (dP).startIndexMap by decide)]
    simp only [Nat.zero_add, Nat.add_zero]
    unfold GatherDims.offCoord
    rw [dif_pos (show (1 : Fin 3) ∈ (dP).sKept by decide)]
    rfl
  | ⟨2, _⟩ =>
    show GatherDims.start dP (ix3 n y x) I 2 + GatherDims.batchCoord dP (ix3 n y x) 2 + GatherDims.offCoord dP (ix3 n y x) 2 = x.val
    rw [GatherDims.batchCoord_eq_zero dP _ _ (by decide)]
    unfold GatherDims.start
    rw [dif_neg (show (2 : Fin 3) ∉ (dP).startIndexMap by decide)]
    simp only [Nat.zero_add, Nat.add_zero]
    unfold GatherDims.offCoord
    rw [dif_pos (show (2 : Fin 3) ∈ (dP).sKept by decide)]
    rfl

/-- A 32-bit word is the word of its own value. -/
theorem ofNat_toNat32 (w : BitVec 32) : w = BitVec.ofNat 32 w.toNat :=
  BitVec.eq_of_toNat_eq (by rw [BitVec.toNat_ofNat, Nat.mod_eq_of_lt w.isLt])

/-- The start indices of the mask gather, column 0: the instance's own number (an iota, wrapped). -/
theorem v15_col0 (x3 : (⟨S100, .i32⟩ : BufTy).Contents (Elt F)) (n : Fin 100) :
    ReadP.val_main_v15 (F := F) x3 (ix2 n 0) = BitVec.ofNat 32 n.val := by
  unfold ReadP.val_main_v15
  refine (concatenate_pair_apply_left (t := S100x2) (s₁ := S100x1) (s₂ := S100x1) 1 _ _ _
    (ix2 n (0 : Fin 2)) rfl (ix2 n (0 : Fin 1)) (fun b => match b with | ⟨0, _⟩ => rfl | ⟨1, _⟩ => rfl)).trans ?_
  rw [ReadP.val_main_v13_apply, ReadP.val_main_v7_apply, ReadP.val_main_v4_apply, ReadP.val_main_v3_apply,
    ReadP.val_main_c_apply]
  exact wrap_of_small _ _ _ n.val (by have := n.isLt; omega) rfl rfl

/-- The start indices of the mask gather, column 1: the instance's class (wrapped; a class is not negative). -/
theorem v15_col1 (x3 : (⟨S100, .i32⟩ : BufTy).Contents (Elt F)) (n : Fin 100) (h : (x3 (ix1 n)).toNat < 2 ^ 31) :
    ReadP.val_main_v15 (F := F) x3 (ix2 n 1) = BitVec.ofNat 32 (x3 (ix1 n)).toNat := by
  unfold ReadP.val_main_v15
  refine (concatenate_pair_apply_right (t := S100x2) (s₁ := S100x1) (s₂ := S100x1) 1 _ _ _
    (ix2 n (1 : Fin 2)) rfl rfl (ix2 n (0 : Fin 1))
    (fun b => match b with | ⟨0, _⟩ => (fun _ => rfl) | ⟨1, _⟩ => (fun h => absurd rfl h)) rfl).trans ?_
  rw [ReadP.val_main_v14_apply, ReadP.val_main_v12_apply, ReadP.val_main_v9_apply, ReadP.val_main_v8_apply,
    ReadP.val_main_c_1_apply]
  have e : ReadP.idx_main_v14 (ix2 n (0 : Fin 1)) = ix1 n := by
    funext b; match b with | ⟨0, _⟩ => rfl
  rw [e]
  exact wrap_of_small _ _ _ _ h (ofNat_toNat32 _) rfl

/-- THE CLASS MASK: `M[n] = mask_logits[n, cls n]`, for a class in `[0, 80)`. -/
theorem masks_apply (x0 : (⟨S100x80x28x28, .f32⟩ : BufTy).Contents (Elt F)) (x3 : (⟨S100, .i32⟩ : BufTy).Contents (Elt F))
    (hcls : ∀ n : Fin 100, (x3 (ix1 n)).toNat < 80) (n : Fin 100) (a b : Fin 28) :
    ReadP.val_main_v16 (F := F) x0 x3 (ix3 n a b) = x0 (ix4 n ⟨(x3 (ix1 n)).toNat, hcls n⟩ a b) := by
  unfold ReadP.val_main_v16
  exact mask_gather_apply _ _ n ⟨_, hcls n⟩ a b (v15_col0 x3 n) (v15_col1 x3 n (by have := hcls n; omega))

/-- The start index of the class-plane gather: the instance's class (wrapped; a class is not negative). -/
theorem v257_at (x3 : (⟨S100, .i32⟩ : BufTy).Contents (Elt F)) (n : Fin 100) (h : (x3 (ix1 n)).toNat < 2 ^ 31) :
    ReadP.val_main_v257 (F := F) x3 (ix2 n 0) = BitVec.ofNat 32 (x3 (ix1 n)).toNat := by
  rw [ReadP.val_main_v257_apply, ReadP.val_main_v256_apply, ReadP.val_main_v253_apply, ReadP.val_main_v252_apply,
    ReadP.val_main_c_46_apply]
  have e : ReadP.idx_main_v257 (ix2 n (0 : Fin 1)) = ix1 n := by
    funext b; match b with | ⟨0, _⟩ => rfl
  rw [e]
  exact wrap_of_small _ _ _ _ h (ofNat_toNat32 _) rfl

/-- THE CLASS PLANE: `sem[53 + cls n]`, for a class in `[0, 80)`. -/
theorem classPlane_apply (x1 : (⟨S133x256x512, .f32⟩ : BufTy).Contents (Elt F)) (x3 : (⟨S100, .i32⟩ : BufTy).Contents (Elt F))
    (hcls : ∀ n : Fin 100, (x3 (ix1 n)).toNat < 80) (n : Fin 100) (y : Fin 256) (x : Fin 512) :
    ReadP.val_main_v258 (F := F) x1 x3 (ix3 n y x)
      = x1 (ix3 ⟨53 + (x3 (ix1 n)).toNat, by have := hcls n; omega⟩ y x) := by
  unfold ReadP.val_main_v258
  rw [plane_gather_apply _ _ n ⟨_, hcls n⟩ y x (v257_at x3 n (by have := hcls n; omega)), ReadP.val_main_v1_apply]
  congr 1
  funext b; match b with | ⟨0, _⟩ => rfl | ⟨1, _⟩ => rfl | ⟨2, _⟩ => rfl

end Cert.ReferenceIdeal.Paste

end
-- ==== Proof.RefPaste.lean ====
import proofs.«418239_j16415365005582_2_alg».proof.Proof.GenP.ReferenceIdeal.Read
import proofs.«418239_j16415365005582_2_alg».proof.Proof.RefGathers
import Idealize.ShloMosaic.Lib.ValueIdx
import Idealize.ShloMosaic.PureOps.Ideal.Laws

/-!
  The reference's result read at one pixel.

  Planes below 53 are the semantic logits unchanged. Plane 53 + n is the sum of two masked terms: the bilinear
  interpolation of the n-th selected 28 x 28 mask at the pixel's four corner cells, kept where the pixel lies inside
  the n-th box, and the semantic logit of the n-th class plane, kept where the pixel lies inside the n-th crop window.
  Every stage between the arguments and the result is an elementwise operation or a broadcast, so the value at a pixel
  is the same expression over the operands' values at the pixel's coordinates; this file writes that expression out.
-/

noncomputable section

namespace Cert.ReferenceIdeal.Paste

open Cert.ReferenceIdeal Cert.ReferenceIdeal.Gen Idealize.ShloMosaic Idealize.ShloMosaic.TcCoe Idealize.SL.Sem Idealize.ShloMosaic.StableHlo Idealize.ShloMosaic.ValueIdx

/-! ## The column weights, the row weights and the two bits, each broadcast to the pixel grid -/

/-- A pixel's column broadcast: the coordinates (box, column). -/
theorem idx_col (n : Fin 100) (y : Fin 256) (x : Fin 512) :
    ReadP.idx_main_v179 (ReadP.idx_main_v180 (ix3 n y x)) = ix2 n x := by
  funext a; match a with | ⟨0, _⟩ => rfl | ⟨1, _⟩ => rfl

/-- A pixel's row broadcast: the coordinates (box, row). -/
theorem idx_row (n : Fin 100) (y : Fin 256) (x : Fin 512) :
    ReadP.idx_main_v197 (ReadP.idx_main_v198 (ix3 n y x)) = ix2 n y := by
  funext a; match a with | ⟨0, _⟩ => rfl | ⟨1, _⟩ => rfl

variable (x0 : (⟨S100x80x28x28, .f32⟩ : BufTy).Contents (Elt Ideal)) (x1 : (⟨S133x256x512, .f32⟩ : BufTy).Contents (Elt Ideal))
  (x2 : (⟨S100x4, .f32⟩ : BufTy).Contents (Elt Ideal)) (x3 : (⟨S100, .i32⟩ : BufTy).Contents (Elt Ideal))

/-- 1 - wx, first use. -/
theorem v180_apply (n : Fin 100) (y : Fin 256) (x : Fin 512) :
    ReadP.val_main_v180 (F := Ideal) x2 (ix3 n y x) = Ideal.ofBits .f32 0x3F800000#32 - ReadP.val_main_v100 x2 (ix2 n x) := by
  rw [ReadP.val_main_v180_apply, ReadP.val_main_v179_apply, ReadP.val_main_v178_apply, ReadP.val_main_v177_apply,
    ReadP.val_main_cst_39_apply, idx_col]
  rfl

/-- wx, first use. -/
theorem v183_apply (n : Fin 100) (y : Fin 256) (x : Fin 512) :
    ReadP.val_main_v183 (F := Ideal) x2 (ix3 n y x) = ReadP.val_main_v100 x2 (ix2 n x) := by
  rw [ReadP.val_main_v183_apply, ReadP.val_main_v182_apply]
  exact congrArg _ (idx_col n y x)

/-- 1 - wx, second use. -/
theorem v189_apply (n : Fin 100) (y : Fin 256) (x : Fin 512) :
    ReadP.val_main_v189 (F := Ideal) x2 (ix3 n y x) = Ideal.ofBits .f32 0x3F800000#32 - ReadP.val_main_v100 x2 (ix2 n x) := by
  rw [ReadP.val_main_v189_apply, ReadP.val_main_v188_apply, ReadP.val_main_v187_apply, ReadP.val_main_v186_apply,
    ReadP.val_main_cst_40_apply]
  exact congrArg (fun i => Ideal.ofBits .f32 0x3F800000#32 - ReadP.val_main_v100 x2 i) (idx_col n y x)

/-- wx, second use. -/
theorem v192_apply (n : Fin 100) (y : Fin 256) (x : Fin 512) :
    ReadP.val_main_v192 (F := Ideal) x2 (ix3 n y x) = ReadP.val_main_v100 x2 (ix2 n x) := by
  rw [ReadP.val_main_v192_apply, ReadP.val_main_v191_apply]
  exact congrArg _ (idx_col n y x)

/-- 1 - wy. -/
theorem v198_apply (n : Fin 100) (y : Fin 256) (x : Fin 512) :
    ReadP.val_main_v198 (F := Ideal) x2 (ix3 n y x) = Ideal.ofBits .f32 0x3F800000#32 - ReadP.val_main_v81 x2 (ix2 n y) := by
  rw [ReadP.val_main_v198_apply, ReadP.val_main_v197_apply, ReadP.val_main_v196_apply, ReadP.val_main_v195_apply,
    ReadP.val_main_cst_41_apply]
  exact congrArg (fun i => Ideal.ofBits .f32 0x3F800000#32 - ReadP.val_main_v81 x2 i) (idx_row n y x)

/-- wy. -/
theorem v201_apply (n : Fin 100) (y : Fin 256) (x : Fin 512) :
    ReadP.val_main_v201 (F := Ideal) x2 (ix3 n y x) = ReadP.val_main_v81 x2 (ix2 n y) := by
  rw [ReadP.val_main_v201_apply, ReadP.val_main_v200_apply]
  exact congrArg _ (idx_row n y x)

/-- The pixel lies inside the box: the row bit and the column bit. -/
theorem v208_apply (n : Fin 100) (y : Fin 256) (x : Fin 512) :
    ReadP.val_main_v208 (F := Ideal) x2 (ix3 n y x) =
      IntOp.andi (ReadP.val_main_v57 x2 (ix2 n y)) (ReadP.val_main_v66 x2 (ix2 n x)) := by
  rw [ReadP.val_main_v208_apply, ReadP.val_main_v206_apply, ReadP.val_main_v204_apply, ReadP.val_main_v207_apply,
    ReadP.val_main_v205_apply]
  exact congrArg₂ (fun i j => IntOp.andi (ReadP.val_main_v57 x2 i) (ReadP.val_main_v66 x2 j)) (idx_row n y x) (idx_col n y x)

/-! ## The crop window's bit -/

/-- The pixel lies inside the crop window: its row is in [cy1, cy2) and its column in [cx1, cx2), the four bounds being
    the box's scaled corners converted to integers. -/
theorem crop_apply (n : Fin 100) (y : Fin 256) (x : Fin 512) :
    ReadP.val_main_v263 (F := Ideal) x2 (ix3 n y x) =
      IntOp.andi
        (IntOp.andi (IntOp.cmpi .sge (BitVec.ofNat 32 y.val) (ReadP.val_main_v217 x2 (ix1 n)))
          (IntOp.cmpi .slt (BitVec.ofNat 32 y.val) (ReadP.val_main_v229 x2 (ix1 n))))
        (IntOp.andi (IntOp.cmpi .sge (BitVec.ofNat 32 x.val) (ReadP.val_main_v214 x2 (ix1 n)))
          (IntOp.cmpi .slt (BitVec.ofNat 32 x.val) (ReadP.val_main_v223 x2 (ix1 n)))) := by
  rw [ReadP.val_main_v263_apply, ReadP.val_main_v261_apply, ReadP.val_main_v259_apply, ReadP.val_main_v240_apply,
    ReadP.val_main_v234_apply, ReadP.val_main_v232_apply, ReadP.val_main_v230_apply, ReadP.val_main_v37_apply,
    ReadP.val_main_v233_apply, ReadP.val_main_v231_apply,
    ReadP.val_main_v239_apply, ReadP.val_main_v237_apply, ReadP.val_main_v235_apply, ReadP.val_main_v37_apply,
    ReadP.val_main_v238_apply, ReadP.val_main_v236_apply,
    ReadP.val_main_v262_apply, ReadP.val_main_v260_apply, ReadP.val_main_v251_apply,
    ReadP.val_main_v245_apply, ReadP.val_main_v243_apply, ReadP.val_main_v241_apply, ReadP.val_main_v38_apply,
    ReadP.val_main_v244_apply, ReadP.val_main_v242_apply,
    ReadP.val_main_v250_apply, ReadP.val_main_v248_apply, ReadP.val_main_v246_apply, ReadP.val_main_v38_apply,
    ReadP.val_main_v249_apply, ReadP.val_main_v247_apply]
  have e1 : ReadP.idx_main_v231 (ReadP.idx_main_v233 (ReadP.idx_main_v259 (ReadP.idx_main_v261 (ix3 n y x)))) = ix1 n := by
    funext a; match a with | ⟨0, _⟩ => rfl
  have e2 : ReadP.idx_main_v236 (ReadP.idx_main_v238 (ReadP.idx_main_v259 (ReadP.idx_main_v261 (ix3 n y x)))) = ix1 n := by
    funext a; match a with | ⟨0, _⟩ => rfl
  have e3 : ReadP.idx_main_v242 (ReadP.idx_main_v244 (ReadP.idx_main_v260 (ReadP.idx_main_v262 (ix3 n y x)))) = ix1 n := by
    funext a; match a with | ⟨0, _⟩ => rfl
  have e4 : ReadP.idx_main_v247 (ReadP.idx_main_v249 (ReadP.idx_main_v260 (ReadP.idx_main_v262 (ix3 n y x)))) = ix1 n := by
    funext a; match a with | ⟨0, _⟩ => rfl
  rw [e1, e2, e3, e4]

/-! ## Plane 53 + n at a pixel -/

/-- The sum of the two masked terms, the interpolation written over the four corner cells of the selected mask, in the
    program's own order of operations: the two rows are interpolated along the columns first, then the two results
    along the rows. -/
theorem thing_apply (hcls : ∀ n : Fin 100, (x3 (ix1 n)).toNat < 80) (n : Fin 100) (y : Fin 256) (x : Fin 512) (a b c d : Fin 28)
    (ha : ReadP.val_main_v79 x2 (ix2 n y) = BitVec.ofNat 32 a.val) (hb : ReadP.val_main_v85 x2 (ix2 n y) = BitVec.ofNat 32 b.val)
    (hc : ReadP.val_main_v98 x2 (ix2 n x) = BitVec.ofNat 32 c.val) (hd : ReadP.val_main_v104 x2 (ix2 n x) = BitVec.ofNat 32 d.val) :
    ReadP.val_main_v265 (F := Ideal) x0 x1 x2 x3 (ix3 n y x) =
      Scalar.select (IntOp.andi (ReadP.val_main_v57 x2 (ix2 n y)) (ReadP.val_main_v66 x2 (ix2 n x)))
        ((Ideal.ofBits .f32 0x3F800000#32 - ReadP.val_main_v81 x2 (ix2 n y)) *
            ((Ideal.ofBits .f32 0x3F800000#32 - ReadP.val_main_v100 x2 (ix2 n x)) * x0 (ix4 n ⟨(x3 (ix1 n)).toNat, hcls n⟩ a c)
              + ReadP.val_main_v100 x2 (ix2 n x) * x0 (ix4 n ⟨(x3 (ix1 n)).toNat, hcls n⟩ a d))
          + ReadP.val_main_v81 x2 (ix2 n y) *
            ((Ideal.ofBits .f32 0x3F800000#32 - ReadP.val_main_v100 x2 (ix2 n x)) * x0 (ix4 n ⟨(x3 (ix1 n)).toNat, hcls n⟩ b c)
              + ReadP.val_main_v100 x2 (ix2 n x) * x0 (ix4 n ⟨(x3 (ix1 n)).toNat, hcls n⟩ b d)))
        (0 : EReal)
      + Scalar.select (ReadP.val_main_v263 x2 (ix3 n y x))
          (x1 (ix3 ⟨53 + (x3 (ix1 n)).toNat, by have := hcls n; omega⟩ y x)) (0 : EReal) := by
  rw [ReadP.val_main_v265_apply, ReadP.val_main_v209_apply, ReadP.val_main_v264_apply,
    ReadP.val_main_call2_v1_apply, ReadP.val_main_call2_v0_apply, ReadP.val_main_cst_42_apply,
    ReadP.val_main_call5_v1_apply, ReadP.val_main_call5_v0_apply, ReadP.val_main_cst_48_apply,
    v208_apply, classPlane_apply x1 x3 hcls,
    ReadP.val_main_v203_apply, ReadP.val_main_v199_apply, ReadP.val_main_v202_apply,
    ReadP.val_main_v185_apply, ReadP.val_main_v181_apply, ReadP.val_main_v184_apply,
    ReadP.val_main_v194_apply, ReadP.val_main_v190_apply, ReadP.val_main_v193_apply,
    v180_apply, v183_apply, v189_apply, v192_apply, v198_apply, v201_apply,
    corner122 x0 x2 x3 n y x a c ha hc, corner140 x0 x2 x3 n y x a d ha hd,
    corner158 x0 x2 x3 n y x b c hb hc, corner176 x0 x2 x3 n y x b d hb hd,
    masks_apply x0 x3 hcls, masks_apply x0 x3 hcls, masks_apply x0 x3 hcls, masks_apply x0 x3 hcls]
  show Scalar.select _ _ (Ideal.ofBits .f32 0x00000000#32) + Scalar.select _ _ (Ideal.ofBits .f32 0x00000000#32) = _
  rw [Ideal.ofBits_zero_f32]
  rfl

/-! ## The result: the 53 unchanged planes followed by the 100 pasted planes -/

/-- The result at plane p and pixel (y, x): the semantic logits' plane p below 53, and from 53 on the pasted plane of
    instance p - 53. -/
theorem result_apply (p : Fin 153) (y : Fin 256) (x : Fin 512) :
    ReadP.val_main_v268 (F := Ideal) x0 x1 x2 x3 (ix4 (0 : Fin 1) p y x) =
      if h : p.val < 53 then x1 (ix3 (⟨p.val, by omega⟩ : Fin 133) y x)
      else ReadP.val_main_v265 x0 x1 x2 x3 (ix3 (⟨p.val - 53, by have := p.isLt; omega⟩ : Fin 100) y x) := by
  unfold ReadP.val_main_v268
  by_cases h : p.val < 53
  · rw [dif_pos h]
    rw [concatenate_pair_apply_left (t := S1x153x256x512) (s₁ := S1x53x256x512) (s₂ := S1x100x256x512) (1 : Fin 4)
      (ReadP.val_main_v266 (F := Ideal) x1) (ReadP.val_main_v267 (F := Ideal) x0 x1 x2 x3)
      concatenates_S1x53x256x512_S1x100x256x512_S1x153x256x512_d1 (ix4 (0 : Fin 1) p y x) rfl
      (ix4 (0 : Fin 1) (⟨p.val, h⟩ : Fin 53) y x)
      (fun b => match b with | ⟨0, _⟩ => rfl | ⟨1, _⟩ => rfl | ⟨2, _⟩ => rfl | ⟨3, _⟩ => rfl)]
    rw [ReadP.val_main_v266_apply, ReadP.val_main_v0_apply]
    congr 1
    funext e; match e with | ⟨0, _⟩ => rfl | ⟨1, _⟩ => rfl | ⟨2, _⟩ => rfl
  · rw [dif_neg h]
    rw [concatenate_pair_apply_right (t := S1x153x256x512) (s₁ := S1x53x256x512) (s₂ := S1x100x256x512) (1 : Fin 4)
      (ReadP.val_main_v266 (F := Ideal) x1) (ReadP.val_main_v267 (F := Ideal) x0 x1 x2 x3)
      concatenates_S1x53x256x512_S1x100x256x512_S1x153x256x512_d1 (ix4 (0 : Fin 1) p y x) rfl rfl
      (ix4 (0 : Fin 1) (⟨p.val - 53, by have := p.isLt; omega⟩ : Fin 100) y x)
      (fun b hb => match b, hb with
        | ⟨0, _⟩, _ => rfl | ⟨1, _⟩, hb => absurd rfl hb | ⟨2, _⟩, _ => rfl | ⟨3, _⟩, _ => rfl)
      (by show (p.val - 53) + 53 = p.val; omega)]
    rw [ReadP.val_main_v267_apply]
    congr 1
    funext e; match e with | ⟨0, _⟩ => rfl | ⟨1, _⟩ => rfl | ⟨2, _⟩ => rfl

end Cert.ReferenceIdeal.Paste

end
-- ==== Proof.PasteAlgebra.lean ====
/-
  The one algebraic law of this certificate, free of any program.

  Resizing a 28×28 patch `M` to one output pixel by bilinear interpolation reads four of its entries,
  rows `a`, `b` and columns `c`, `d`, with weights `1 - wy, wy` down and `1 - wx, wx` across. The same number
  is the middle entry of a triple product `A · M · B` when row `A` holds the two row weights at positions
  `a` and `b` (ADDED where `a = b`) and column `B` the two column weights at `c` and `d`: a sum over an index
  of `(if k = a then u else 0) · f k` is `u · f a`. Over the reals both are
  `g·h·(v₁(u₁ M a c + u₂ M b c) + v₂(u₁ M a d + u₂ M b d))`, with `g, h` the two 0/1 box-membership factors.
-/
import Mathlib.Algebra.BigOperators.Ring.Finset
import Mathlib.Algebra.BigOperators.Fin
import Mathlib.Data.Real.Basic
import Mathlib.Tactic.Ring

namespace Cert.Paste

open Finset

/-- A sum against a one-hot row picks one term. -/
theorem sum_onehot {n : ℕ} (a : Fin n) (u : ℝ) (f : Fin n → ℝ) :
    ∑ k, (if k = a then u else 0) * f k = u * f a := by
  rw [Finset.sum_eq_single a]
  · rw [if_pos rfl]
  · intro k _ hk; rw [if_neg hk, zero_mul]
  · intro h; exact absurd (Finset.mem_univ a) h

/-- A sum against the SUM of two one-hot rows picks two terms (one entry twice where the positions agree). -/
theorem sum_twohot {n : ℕ} (a b : Fin n) (u₁ u₂ g : ℝ) (f : Fin n → ℝ) :
    ∑ k, (((if k = a then u₁ else 0) + (if k = b then u₂ else 0)) * g) * f k = g * (u₁ * f a + u₂ * f b) := by
  have h : ∀ k, (((if k = a then u₁ else 0) + (if k = b then u₂ else 0)) * g) * f k
      = g * ((if k = a then u₁ else 0) * f k) + g * ((if k = b then u₂ else 0) * f k) := fun k => by ring
  simp only [h, Finset.sum_add_distrib, ← Finset.mul_sum, sum_onehot]
  ring

/-- The triple product against two such rows is the bilinear interpolation of the four entries. -/
theorem triple_twohot {n : ℕ} (a b c d : Fin n) (u₁ u₂ v₁ v₂ g h : ℝ) (M : Fin n → Fin n → ℝ) :
    ∑ l, (∑ k, (((if k = a then u₁ else 0) + (if k = b then u₂ else 0)) * g) * M k l)
        * (((if l = c then v₁ else 0) + (if l = d then v₂ else 0)) * h)
      = g * h * (v₁ * (u₁ * M a c + u₂ * M b c) + v₂ * (u₁ * M a d + u₂ * M b d)) := by
  have h1 : ∀ l, (∑ k, (((if k = a then u₁ else 0) + (if k = b then u₂ else 0)) * g) * M k l)
      = g * (u₁ * M a l + u₂ * M b l) := fun l => sum_twohot a b u₁ u₂ g (fun k => M k l)
  have h2 : ∀ l, (g * (u₁ * M a l + u₂ * M b l)) * (((if l = c then v₁ else 0) + (if l = d then v₂ else 0)) * h)
      = (((if l = c then v₁ else 0) + (if l = d then v₂ else 0)) * h) * (g * (u₁ * M a l + u₂ * M b l)) := fun l => by ring
  simp only [h1, h2]
  rw [sum_twohot c d v₁ v₂ h (fun l => g * (u₁ * M a l + u₂ * M b l))]
  ring

/-- The reference's grouping of the same four terms. -/
theorem bilinear_regroup (u₁ u₂ v₁ v₂ m00 m01 m10 m11 : ℝ) :
    u₁ * (v₁ * m00 + v₂ * m01) + u₂ * (v₁ * m10 + v₂ * m11)
      = v₁ * (u₁ * m00 + u₂ * m10) + v₂ * (u₁ * m01 + u₂ * m11) := by ring

end Cert.Paste
-- ==== Proof.PasteIdeal.lean ====
/-
  The law of Proof/PasteAlgebra.lean on the extended reals, in the spelling the two programs print.

  The kernel's row of weights at output row `y` is, entry by entry over `k : Fin 28`,
  `(select (k = a) (1 - wy) 0 + select (k = b) wy 0) · g` with the equality test a 32-bit word compare of `k` against
  the source index and `g` the 0/1 box-membership bit read as a number; the reference selects on the AND of the two
  membership bits. With the weights and the patch's entries real numbers (the precondition makes the patch finite; a
  weight is the fractional part of a clipped coordinate) every product and sum is a real one, so the triple product
  is the bilinear form, and a membership bit that is 0 kills it on both sides.
-/
import Idealize.ShloMosaic.PureOps.Ideal
import Idealize.ShloMosaic.PureOps.Ideal.Laws
import Idealize.ShloMosaic.Lib.IdealHost
import Idealize.ShloMosaic.Lib.StableHlo.Predicate
import proofs.«418239_j16415365005582_2_alg».proof.Proof.PasteAlgebra

namespace Cert.Paste

open Idealize.ShloMosaic Finset

/-- Small numbers are distinct 32-bit words exactly when they are distinct. -/
theorem eqWord_iff (k a : Fin 28) :
    IntOp.cmpi .eq (BitVec.ofNat 32 k.val) (BitVec.ofNat 32 a.val) = 1#1 ↔ k = a := by
  rw [StableHlo.Predicate.cmpi_eq_iff]
  constructor
  · intro h
    have := congrArg BitVec.toNat h
    simp only [BitVec.toNat_ofNat] at this
    have hk := k.isLt; have ha := a.isLt
    exact Fin.ext (by omega)
  · rintro rfl; rfl

/-- The word test as a case split. -/
theorem select_eqWord (k a : Fin 28) (u : EReal) :
    Scalar.select (IntOp.cmpi .eq (BitVec.ofNat 32 k.val) (BitVec.ofNat 32 a.val)) u 0 = if k = a then u else 0 := by
  unfold Scalar.select
  by_cases h : k = a
  · exact (if_pos ((eqWord_iff k a).2 h)).trans (if_pos h).symm
  · exact (if_neg (fun h' => h ((eqWord_iff k a).1 h'))).trans (if_neg h).symm

/-- A finite sum of real numbers, summed on the extended reals, is their real sum. -/
theorem coe_sum {n : ℕ} (f : Fin n → ℝ) : ∑ k, ((f k : ℝ) : EReal) = ((∑ k, f k : ℝ) : EReal) := by
  induction (Finset.univ : Finset (Fin n)) using Finset.induction_on with
  | empty => simp
  | insert x s hx ih => rw [Finset.sum_insert hx, Finset.sum_insert hx, ih, EReal.coe_add]

/-- A one-bit word is 0 or 1. -/
theorem bit_cases (g : BitVec 1) : g = 0#1 ∨ g = 1#1 := by
  have h := g.isLt
  have : g.toNat = 0 ∨ g.toNat = 1 := by omega
  rcases this with h0 | h1
  · exact Or.inl (BitVec.eq_of_toNat_eq (by simpa using h0))
  · exact Or.inr (BitVec.eq_of_toNat_eq (by simpa using h1))

/-- One entry of a row of weights, as a real number. -/
theorem row_entry (k a b : Fin 28) (w : ℝ) (g : BitVec 1) :
    (Scalar.select (IntOp.cmpi .eq (BitVec.ofNat 32 k.val) (BitVec.ofNat 32 a.val)) ((1 : EReal) - ((w : ℝ) : EReal)) 0
      + Scalar.select (IntOp.cmpi .eq (BitVec.ofNat 32 k.val) (BitVec.ofNat 32 b.val)) ((w : ℝ) : EReal) 0) * ((g.toNat : ℝ) : EReal)
    = (((((if k = a then 1 - w else 0) + (if k = b then w else 0)) * (g.toNat : ℝ) : ℝ)) : EReal) := by
  rw [select_eqWord, select_eqWord]
  have h1 : ((1 : EReal) - ((w : ℝ) : EReal)) = (((1 - w : ℝ)) : EReal) := by
    rw [EReal.coe_sub, EReal.coe_one]
  rw [h1]
  by_cases ha : k = a <;> by_cases hb : k = b
  · simp only [if_pos ha, if_pos hb]
    rw [← EReal.coe_add, ← EReal.coe_mul]
  · simp only [if_pos ha, if_neg hb]
    rw [add_zero, add_zero, ← EReal.coe_mul]
  · simp only [if_neg ha, if_pos hb]
    rw [zero_add, zero_add, ← EReal.coe_mul]
  · simp only [if_neg ha, if_neg hb]
    rw [add_zero, zero_mul, add_zero, zero_mul, EReal.coe_zero]

/-- THE LAW. Row weights `A`, column weights `B`, a real patch: the kernel's triple product at a pixel is the
    reference's masked bilinear interpolation. -/
theorem paste_ideal (a b c d : Fin 28) (wy wx : ℝ) (μ : Fin 28 → Fin 28 → ℝ) (gy gx : BitVec 1)
    (A B : Fin 28 → EReal) (Mv : Fin 28 → Fin 28 → EReal)
    (hM : ∀ k l, Mv k l = ((μ k l : ℝ) : EReal))
    (hA : ∀ k, A k = (Scalar.select (IntOp.cmpi .eq (BitVec.ofNat 32 k.val) (BitVec.ofNat 32 a.val)) ((1 : EReal) - ((wy : ℝ) : EReal)) 0
        + Scalar.select (IntOp.cmpi .eq (BitVec.ofNat 32 k.val) (BitVec.ofNat 32 b.val)) ((wy : ℝ) : EReal) 0) * ((gy.toNat : ℝ) : EReal))
    (hB : ∀ l, B l = (Scalar.select (IntOp.cmpi .eq (BitVec.ofNat 32 l.val) (BitVec.ofNat 32 c.val)) ((1 : EReal) - ((wx : ℝ) : EReal)) 0
        + Scalar.select (IntOp.cmpi .eq (BitVec.ofNat 32 l.val) (BitVec.ofNat 32 d.val)) ((wx : ℝ) : EReal) 0) * ((gx.toNat : ℝ) : EReal)) :
    ∑ l, (∑ k, A k * Mv k l) * B l
      = Scalar.select (IntOp.andi gy gx)
          (((1 : EReal) - ((wy : ℝ) : EReal)) * (((1 : EReal) - ((wx : ℝ) : EReal)) * Mv a c + ((wx : ℝ) : EReal) * Mv a d)
            + ((wy : ℝ) : EReal) * (((1 : EReal) - ((wx : ℝ) : EReal)) * Mv b c + ((wx : ℝ) : EReal) * Mv b d)) 0 := by
  have hL : ∑ l, (∑ k, A k * Mv k l) * B l
      = (((∑ l, (∑ k, (((if k = a then 1 - wy else 0) + (if k = b then wy else 0)) * (gy.toNat : ℝ)) * μ k l)
          * (((if l = c then 1 - wx else 0) + (if l = d then wx else 0)) * (gx.toNat : ℝ)) : ℝ)) : EReal) := by
    rw [← coe_sum]
    refine Finset.sum_congr rfl fun l _ => ?_
    have hAk : ∀ k, A k * Mv k l
        = ((((((if k = a then 1 - wy else 0) + (if k = b then wy else 0)) * (gy.toNat : ℝ)) * μ k l : ℝ)) : EReal) := fun k => by
      rw [(hA k).trans (row_entry k a b wy gy), hM k l, ← EReal.coe_mul]
    rw [(hB l).trans (row_entry l c d wx gx)]
    simp only [hAk]
    rw [coe_sum, ← EReal.coe_mul]
  rw [hL, triple_twohot]
  have h1y : ((1 : EReal) - ((wy : ℝ) : EReal)) = (((1 - wy : ℝ)) : EReal) := by rw [EReal.coe_sub, EReal.coe_one]
  have h1x : ((1 : EReal) - ((wx : ℝ) : EReal)) = (((1 - wx : ℝ)) : EReal) := by rw [EReal.coe_sub, EReal.coe_one]
  rw [h1y, h1x, hM a c, hM a d, hM b c, hM b d]
  simp only [← EReal.coe_mul, ← EReal.coe_add]
  unfold Scalar.select IntOp.andi
  rcases bit_cases gy with rfl | rfl <;> rcases bit_cases gx with rfl | rfl
  · simp
  · simp
  · simp
  · rw [if_pos (by decide)]
    refine congrArg _ ?_
    simp only [BitVec.toNat_ofNat]
    norm_num
    ring

end Cert.Paste
-- ==== Proof.SourceCoords.lean ====
import proofs.«418239_j16415365005582_2_alg».proof.Proof.GenP.ReferenceIdeal.Read
import Idealize.ShloMosaic.PureOps.Ideal
import Idealize.ShloMosaic.Lib.ValueIdx
import Idealize.ShloMosaic.Lib.WordArith

/-!
  The clipped source coordinates, as numbers.

  A sample coordinate is clamped to the interval [0, 27] before it is split into an integer part and a fractional
  part. The clamp of any extended real, an infinity included, is a real number r with 0 ≤ r ≤ 27; so the floor of r,
  converted to a signed 32-bit word, is a natural number below 28, the next index min (⌊r⌋ + 1) 27 is another, and the
  fractional part r - ⌊r⌋ is a real number. This holds along the rows and along the columns for every box, whatever
  the boxes hold.
-/

noncomputable section

namespace Cert.Paste

open Idealize.ShloMosaic Idealize.ShloMosaic.TcCoe Idealize.SL.Sem Idealize.ShloMosaic.StableHlo
open Cert.ReferenceIdeal

/-- The word 0x00000000 is the real number zero. -/
theorem c0_eq : Ideal.ofBits .f32 0x00000000#32 = ((0 : ℝ) : EReal) := by
  simp [Ideal.ofBits, Ideal.ieee]

/-- The word 0x41D80000 is the real number twenty-seven. -/
theorem c27_eq : Ideal.ofBits .f32 0x41D80000#32 = ((27 : ℝ) : EReal) := by
  simp [Ideal.ofBits, Ideal.ieee, -EReal.coe_mul]; norm_num

/-- Clamping any extended real between 0 and 27 gives a real number in [0, 27]. -/
theorem clip_real (u : EReal) :
    ∃ r : ℝ, 0 ≤ r ∧ r ≤ 27 ∧ min ((27 : ℝ) : EReal) (max ((0 : ℝ) : EReal) u) = (r : EReal) := by
  induction u using EReal.rec with
  | bot => exact ⟨0, le_refl _, by norm_num, by simp⟩
  | top => exact ⟨27, by norm_num, le_refl _, by simp⟩
  | coe x =>
    refine ⟨min 27 (max 0 x), le_min (by norm_num) (le_max_left _ _), min_le_left _ _, ?_⟩
    have hm : Monotone (fun t : ℝ => (t : EReal)) := EReal.coe_strictMono.monotone
    have h1 : ((max 0 x : ℝ) : EReal) = max ((0 : ℝ) : EReal) (x : EReal) := hm.map_max
    have h2 : ((min 27 (max 0 x) : ℝ) : EReal) = min ((27 : ℝ) : EReal) ((max 0 x : ℝ) : EReal) := hm.map_min
    rw [h2, h1]

/-- The coordinates read off a clamped source position: the floor as a 32-bit word is a natural number below 28,
    so is the next index capped at 27, and the fractional part is a real number. -/
theorem clip_coords (u : EReal) : ∃ (a b : Fin 28) (w : ℝ),
    Ideal.fptosi 32 (Ideal.liftRound Int.floor
        (min (Ideal.ofBits .f32 0x41D80000#32) (max (Ideal.ofBits .f32 0x00000000#32) u))) = BitVec.ofNat 32 a.val
    ∧ IntOp.minsi (IntOp.addi (Ideal.fptosi 32 (Ideal.liftRound Int.floor
        (min (Ideal.ofBits .f32 0x41D80000#32) (max (Ideal.ofBits .f32 0x00000000#32) u)))) 1#32) 27#32
        = BitVec.ofNat 32 b.val
    ∧ min (Ideal.ofBits .f32 0x41D80000#32) (max (Ideal.ofBits .f32 0x00000000#32) u)
        - (((Ideal.fptosi 32 (Ideal.liftRound Int.floor
            (min (Ideal.ofBits .f32 0x41D80000#32) (max (Ideal.ofBits .f32 0x00000000#32) u)))).toInt : ℝ) : EReal)
        = ((w : ℝ) : EReal) := by
  obtain ⟨r, h0, h27, hr⟩ := clip_real u
  rw [c0_eq, c27_eq, hr, Ideal.liftRound_coe]
  -- the floor of r is a natural number k ≤ 27
  have hf0 : (0 : ℤ) ≤ ⌊r⌋ := Int.floor_nonneg.mpr h0
  have hf27 : ⌊r⌋ ≤ 27 := by
    have : ⌊r⌋ ≤ ⌊(27 : ℝ)⌋ := Int.floor_le_floor h27
    simpa using this
  obtain ⟨k, hk⟩ := Int.eq_ofNat_of_zero_le hf0
  have hk27 : k ≤ 27 := by omega
  have hfp : Ideal.fptosi 32 (((⌊r⌋ : ℤ) : ℝ) : EReal) = BitVec.ofNat 32 k := by
    rw [Ideal.fptosi, Ideal.toIntClamped_coe, if_pos (by exact_mod_cast hf0), Int.floor_intCast, hk]
    have : max (-((2 ^ (32 - 1) : ℕ) : ℤ)) (min (((2 ^ (32 - 1) : ℕ) : ℤ) - 1) (k : ℤ)) = (k : ℤ) := by
      norm_num; omega
    rw [this]; rfl
  rw [hfp]
  refine ⟨⟨k, by omega⟩, ⟨min (k + 1) 27, by omega⟩, r - (k : ℝ), rfl, ?_, ?_⟩
  · apply BitVec.eq_of_toNat_eq
    have ha : (IntOp.addi (BitVec.ofNat 32 k) 1#32).toNat = k + 1 := by
      unfold IntOp.addi
      rw [BitVec.toNat_add, BitVec.toNat_ofNat, BitVec.toNat_ofNat]
      omega
    rw [WordArith.toNat_minsi_of_lt _ _ (by rw [ha]; omega) (by decide), ha, BitVec.toNat_ofNat]
    show min (k + 1) 27 = min (k + 1) 27 % 2 ^ 32
    omega
  · rw [WordArith.toInt_ofNat_small k (by omega), EReal.coe_sub]
    norm_cast

/-- Along the rows: the lower source row, the upper source row (capped at 27) and the interpolation weight of every
    output row of every instance are two natural numbers below 28 and a real number, whatever the boxes hold. -/
theorem ycoords (x2 : (⟨S100x4, .f32⟩ : BufTy).Contents (Elt Ideal)) (n : Fin 100) (y : Fin 256) :
    ∃ (a b : Fin 28) (w : ℝ),
      ReadP.val_main_v79 (F := Ideal) x2 (ValueIdx.ix2 n y) = BitVec.ofNat 32 a.val
      ∧ ReadP.val_main_v85 (F := Ideal) x2 (ValueIdx.ix2 n y) = BitVec.ofNat 32 b.val
      ∧ ReadP.val_main_v81 (F := Ideal) x2 (ValueIdx.ix2 n y) = ((w : ℝ) : EReal) := by
  obtain ⟨a, b, w, ha, hb, hw⟩ := clip_coords (ReadP.val_main_v76 (F := Ideal) x2 (ValueIdx.ix2 n y))
  -- the clamped position: the outlined clamp is min 27 (max 0 ·)
  have hs : ReadP.val_main_v77 (F := Ideal) x2 (ValueIdx.ix2 n y) = (min (Ideal.ofBits .f32 0x41D80000#32) (max (Ideal.ofBits .f32 0x00000000#32) (ReadP.val_main_v76 (F := Ideal) x2 (ValueIdx.ix2 n y)))) := by
    rw [ReadP.val_main_v77_apply, ReadP.val_main_call0_v4_apply, ReadP.val_main_call0_v3_apply,
      ReadP.val_main_cst_13_apply, ReadP.val_main_call0_v2_apply, ReadP.val_main_call0_v1_apply,
      ReadP.val_main_call0_v0_apply, ReadP.val_main_cst_12_apply]
    rfl
  -- the lower index: the floor of the clamped position, converted to a signed word
  have hi : ReadP.val_main_v79 (F := Ideal) x2 (ValueIdx.ix2 n y) = Ideal.fptosi 32 (Ideal.liftRound Int.floor (min (Ideal.ofBits .f32 0x41D80000#32) (max (Ideal.ofBits .f32 0x00000000#32) (ReadP.val_main_v76 (F := Ideal) x2 (ValueIdx.ix2 n y))))) := by
    rw [ReadP.val_main_v79_apply, ReadP.val_main_v78_apply, hs]
    rfl
  refine ⟨a, b, w, ?_, ?_, ?_⟩
  · rw [hi]; exact ha
  · rw [ReadP.val_main_v85_apply, ReadP.val_main_v83_apply, ReadP.val_main_v84_apply,
      ReadP.val_main_c_15_apply, ReadP.val_main_v82_apply, ReadP.val_main_c_14_apply, hi]
    exact hb
  · rw [ReadP.val_main_v81_apply, ReadP.val_main_v80_apply, hi, hs]
    exact hw

/-- Along the columns: the same for the lower and upper source columns and the column weight. -/
theorem xcoords (x2 : (⟨S100x4, .f32⟩ : BufTy).Contents (Elt Ideal)) (n : Fin 100) (x : Fin 512) :
    ∃ (a b : Fin 28) (w : ℝ),
      ReadP.val_main_v98 (F := Ideal) x2 (ValueIdx.ix2 n x) = BitVec.ofNat 32 a.val
      ∧ ReadP.val_main_v104 (F := Ideal) x2 (ValueIdx.ix2 n x) = BitVec.ofNat 32 b.val
      ∧ ReadP.val_main_v100 (F := Ideal) x2 (ValueIdx.ix2 n x) = ((w : ℝ) : EReal) := by
  obtain ⟨a, b, w, ha, hb, hw⟩ := clip_coords (ReadP.val_main_v95 (F := Ideal) x2 (ValueIdx.ix2 n x))
  -- the clamped position: the outlined clamp is min 27 (max 0 ·)
  have hs : ReadP.val_main_v96 (F := Ideal) x2 (ValueIdx.ix2 n x) = (min (Ideal.ofBits .f32 0x41D80000#32) (max (Ideal.ofBits .f32 0x00000000#32) (ReadP.val_main_v95 (F := Ideal) x2 (ValueIdx.ix2 n x)))) := by
    rw [ReadP.val_main_v96_apply, ReadP.val_main_call1_v4_apply, ReadP.val_main_call1_v3_apply,
      ReadP.val_main_cst_20_apply, ReadP.val_main_call1_v2_apply, ReadP.val_main_call1_v1_apply,
      ReadP.val_main_call1_v0_apply, ReadP.val_main_cst_19_apply]
    rfl
  -- the lower index: the floor of the clamped position, converted to a signed word
  have hi : ReadP.val_main_v98 (F := Ideal) x2 (ValueIdx.ix2 n x) = Ideal.fptosi 32 (Ideal.liftRound Int.floor (min (Ideal.ofBits .f32 0x41D80000#32) (max (Ideal.ofBits .f32 0x00000000#32) (ReadP.val_main_v95 (F := Ideal) x2 (ValueIdx.ix2 n x))))) := by
    rw [ReadP.val_main_v98_apply, ReadP.val_main_v97_apply, hs]
    rfl
  refine ⟨a, b, w, ?_, ?_, ?_⟩
  · rw [hi]; exact ha
  · rw [ReadP.val_main_v104_apply, ReadP.val_main_v102_apply, ReadP.val_main_v103_apply,
      ReadP.val_main_c_22_apply, ReadP.val_main_v101_apply, ReadP.val_main_c_21_apply, hi]
    exact hb
  · rw [ReadP.val_main_v100_apply, ReadP.val_main_v99_apply, hi, hs]
    exact hw

end Cert.Paste
-- ==== Proof.ThingPixel.lean ====
import proofs.«418239_j16415365005582_2_alg».proof.Proof.Gen.KernelIdeal.Skeleton
import proofs.«418239_j16415365005582_2_alg».proof.Proof.GenP.ReferenceIdeal.Read
import proofs.«418239_j16415365005582_2_alg».proof.Proof.PasteIdeal
import proofs.«418239_j16415365005582_2_alg».proof.Proof.SourceCoords
import proofs.«418239_j16415365005582_2_alg».proof.Proof.KernelBody
import proofs.«418239_j16415365005582_2_alg».proof.Proof.RefPaste
import Idealize.ShloMosaic.Lib.ValueIdx
import Idealize.ShloMosaic.Lib.IdealHost
import Idealize.ShloMosaic.PureOps.Ideal.Laws

/-!
  One pixel of a pasted plane: the kernel body's value equals the reference's.

  The body multiplies a row of weights, the selected 28 x 28 mask and a column of weights, and adds the class plane
  inside the crop window. A row of weights holds 1 - wy at the lower source row and wy at the upper one, times the
  0/1 bit "this output row is inside the box"; a column likewise. The source rows and columns are natural numbers
  below 28 and the weights are real numbers, so the triple product is the reference's bilinear interpolation of the
  mask at the four corner cells, kept exactly where both bits are 1. The two crop tests are the same four signed
  comparisons, and-ed in two different groupings.
-/

noncomputable section

namespace Cert.Paste

open Idealize.ShloMosaic Idealize.ShloMosaic.ValueIdx Idealize.ShloMosaic.TcCoe Idealize.SL.Sem Idealize.ShloMosaic.StableHlo
open Cert.ReferenceIdeal

/-- At the pixel (y, x) of the plane pasted for instance n, the body's value, computed from the instance's mask, its
    row of weights at y, its column of weights at x, the class plane and the four crop bounds, is the reference's
    value: the masked bilinear interpolation plus the cropped class plane. -/
theorem thing_pixel
    (x0 : (⟨S100x80x28x28, .f32⟩ : BufTy).Contents (Elt Ideal)) (x1 : (⟨S133x256x512, .f32⟩ : BufTy).Contents (Elt Ideal))
    (x2 : (⟨S100x4, .f32⟩ : BufTy).Contents (Elt Ideal)) (x3 : (⟨S100, .i32⟩ : BufTy).Contents (Elt Ideal))
    (hcls : ∀ n : Fin 100, (x3 (ix1 n)).toNat < 80) (hfin : ∀ i, ∃ r : ℝ, x0 i = ((r : ℝ) : EReal))
    (n : Fin 100) (y : Fin 256) (x : Fin 512)
    (w1 w2 w3 w4 : BitVec 32) (Mb : Vec Ideal Cert.KernelIdeal.S1x1x28x28 .f32) (Ab : Vec Ideal Cert.KernelIdeal.S1x256x28 .f32)
    (Bb : Vec Ideal Cert.KernelIdeal.S1x28x512 .f32) (Sb : Vec Ideal Cert.KernelIdeal.S1x256x512 .f32)
    (hw1 : w1 = ReadP.val_main_v214 (F := Ideal) x2 (ix1 n)) (hw2 : w2 = ReadP.val_main_v217 (F := Ideal) x2 (ix1 n))
    (hw3 : w3 = ReadP.val_main_v223 (F := Ideal) x2 (ix1 n)) (hw4 : w4 = ReadP.val_main_v229 (F := Ideal) x2 (ix1 n))
    (hM : ∀ k l : Fin 28, Mb (ix4 0 0 k l) = x0 (ix4 n ⟨(x3 (ix1 n)).toNat, hcls n⟩ k l))
    (hA : ∀ k : Fin 28, Ab (ix3 0 y k) = (Scalar.select (IntOp.cmpi .eq (BitVec.ofNat 32 k.val) (ReadP.val_main_v79 x2 (ix2 n y))) (Ideal.ofBits .f32 0x3F800000#32 - ReadP.val_main_v81 x2 (ix2 n y)) 0
        + Scalar.select (IntOp.cmpi .eq (BitVec.ofNat 32 k.val) (ReadP.val_main_v85 x2 (ix2 n y))) (ReadP.val_main_v81 x2 (ix2 n y)) 0)
        * FloatOps.uitofp (F := Ideal) .f32 (ReadP.val_main_v57 x2 (ix2 n y)))
    (hB : ∀ l : Fin 28, Bb (ix3 0 l x) = (Scalar.select (IntOp.cmpi .eq (BitVec.ofNat 32 l.val) (ReadP.val_main_v98 x2 (ix2 n x))) (Ideal.ofBits .f32 0x3F800000#32 - ReadP.val_main_v100 x2 (ix2 n x)) 0
        + Scalar.select (IntOp.cmpi .eq (BitVec.ofNat 32 l.val) (ReadP.val_main_v104 x2 (ix2 n x))) (ReadP.val_main_v100 x2 (ix2 n x)) 0)
        * FloatOps.uitofp (F := Ideal) .f32 (ReadP.val_main_v66 x2 (ix2 n x)))
    (hS : Sb (ix3 0 y x) = x1 (ix3 ⟨53 + (x3 (ix1 n)).toNat, by have := hcls n; omega⟩ y x)) :
    Cert.KernelIdeal.Gen.k0_pay2 (F := Ideal) w1 w2 w3 w4 Mb Ab Bb Sb (ix3 0 y x)
      = ReadP.val_main_v265 (F := Ideal) x0 x1 x2 x3 (ix3 n y x) := by
  obtain ⟨a, b, wy, ha, hb, hwy⟩ := ycoords x2 n y
  obtain ⟨c, d, wx, hc, hd, hwx⟩ := xcoords x2 n x
  -- the selected mask's entries are real numbers
  choose μ0 hμ0 using hfin
  subst hw1 hw2 hw3 hw4
  -- a 0/1 bit converted to a number is its value
  have hu : ∀ g : BitVec 1, FloatOps.uitofp (F := Ideal) .f32 g = ((g.toNat : ℝ) : EReal) := fun _ => rfl
  rw [Cert.KernelIdeal.Paste.pay2_apply,
    Cert.ReferenceIdeal.Paste.thing_apply x0 x1 x2 x3 hcls n y x a b c d ha hb hc hd,
    Cert.ReferenceIdeal.Paste.crop_apply]
  refine congrArg₂ (· + ·) ?_ ?_
  · -- the triple product is the masked bilinear interpolation
    have hP := paste_ideal a b c d wy wx (fun k l => μ0 (ix4 n ⟨(x3 (ix1 n)).toNat, hcls n⟩ k l))
      (ReadP.val_main_v57 (F := Ideal) x2 (ix2 n y)) (ReadP.val_main_v66 (F := Ideal) x2 (ix2 n x))
      (fun k => Ab (ix3 0 y k)) (fun l => Bb (ix3 0 l x)) (fun k l => Mb (ix4 0 0 k l))
      (fun k l => by
        show Mb (ix4 0 0 k l) = _
        rw [hM k l]; exact hμ0 _)
      (fun k => by
        show Ab (ix3 0 y k) = _
        rw [hA k, ha, hb, hwy, Ideal.ofBits_one_f32, hu])
      (fun l => by
        show Bb (ix3 0 l x) = _
        rw [hB l, hc, hd, hwx, Ideal.ofBits_one_f32, hu])
    refine hP.trans ?_
    show Scalar.select _ (_ * (_ * Mb (ix4 0 0 a c) + _ * Mb (ix4 0 0 a d)) + _ * (_ * Mb (ix4 0 0 b c) + _ * Mb (ix4 0 0 b d))) _ = _
    rw [hM a c, hM a d, hM b c, hM b d, hwy, hwx, Ideal.ofBits_one_f32]
  · -- the crop tests: the same four comparisons, grouped differently
    rw [hS]
    unfold Cert.KernelIdeal.Paste.cropBit IntOp.andi
    rw [BitVec.and_assoc]

end Cert.Paste
-- ==== Proof.Bridge.lean ====
import proofs.«418239_j16415365005582_2_alg».proof.Proof.GenP.KernelIdeal.Frame
import proofs.«418239_j16415365005582_2_alg».proof.Proof.GenP.ReferenceIdeal.Read
import proofs.«418239_j16415365005582_2_alg».proof.Proof.SharedBoxes
import proofs.«418239_j16415365005582_2_alg».proof.Proof.PreFacts
import proofs.«418239_j16415365005582_2_alg».proof.Proof.KernelBody
import proofs.«418239_j16415365005582_2_alg».proof.Proof.KernelCanvas
import proofs.«418239_j16415365005582_2_alg».proof.Proof.KernelTail
import proofs.«418239_j16415365005582_2_alg».proof.Proof.KernelBlocks
import proofs.«418239_j16415365005582_2_alg».proof.Proof.KernelBlocks12
import proofs.«418239_j16415365005582_2_alg».proof.Proof.KernelResize
import proofs.«418239_j16415365005582_2_alg».proof.Proof.RefPaste
import proofs.«418239_j16415365005582_2_alg».proof.Proof.ThingPixel
import Idealize.ShloMosaic.Lib.ValueIdx
import Idealize.ShloMosaic.Lib.IdealHost

/-!
# The kernel program's canvas is the reference's result

The kernel program's grid leaves a [153, 256, 512] array, the canvas, whose plane `p` is what grid point `p` stores.

* For `p < 53` the point stores its block of the semantic logits unchanged, and that block is plane `p` of the
  array: the reference's result has the same plane there (the first operand of its final concatenate).
* For `53 ≤ p`, with `n = p - 53`, the point stores `Ay[n] · M[n] · Bx[n] + where(crop n, sem[53 + cls n], 0)`, read off
  its four blocks and the four crop-bound words of instance `n`. The blocks are rows `n` of the two interpolation
  matrices, plane `(n, cls n)` of the mask logits and plane `53 + cls n` of the semantic logits; the entries of the
  interpolation matrices and the crop bounds are the same functions of `boxes` the reference computes. One pixel of
  that plane is then the reference's pasted pixel: bilinear interpolation of the mask at the two source rows and
  columns, kept where the pixel lies inside the box, plus the class plane inside the crop window.

The precondition supplies the two facts the pixel needs: every class is below 80, and every mask logit is a real
number.
-/

set_option maxRecDepth 16384

noncomputable section

namespace Cert.Paste

open Idealize.ShloMosaic Idealize.ShloMosaic.TcCoe Idealize.ShloMosaic.ValueIdx Idealize.SL Idealize.SL.Sem
open Cert.KernelIdeal Cert.KernelIdeal.Gen Cert.KernelIdeal.Paste

variable (m : (ℓ : Loc nD τ sig) → Buf (Elt Ideal) ℓ)

/-- A plane before 53 of the canvas is that plane of the semantic logits as launched: the point's payload is its block
    of the semantic logits, passed through, and that block is plane `p` of the array. -/
theorem canvas_stuff_eq (hO : GenP.Ok m) (c : Dev nD) (p : Fin 153) (h : p.val < 53) (y : Fin 256) (x : Fin 512) :
    canvas m hO c (ix3 p y x) = (m ((c.tc : Thread nD τ).loc main_arg1) : S133x256x512.Idx → EReal) (ix3 (⟨p.val, by omega⟩ : Fin 133) y x) :=
  (canvas_stuff m hO c p h y x).trans ((pay1_apply (GenP.iblk m hO c 3 (pt m hO p)) y x).trans
    ((sem_block_stuff m hO c (pt m hO p) h y x).trans (congrFun (GenP.V_main_arg1 m c) _)))

/-- An entry of the mask logits read through equal arrays at equal class words. -/
theorem mask_entry_congr (f g : S100x80x28x28.Idx → EReal) (hfg : f = g) (n : Fin 100) (a b : BitVec 32) (hab : a = b)
    (ha : a.toNat < 80) (hb : b.toNat < 80) (k l : Fin 28) :
    f (ix4 n ⟨a.toNat, ha⟩ k l) = g (ix4 n ⟨b.toNat, hb⟩ k l) := by
  subst hfg; subst hab; rfl

/-- An entry of the semantic logits' class plane read through equal arrays at equal class words. -/
theorem sem_entry_congr (f g : S133x256x512.Idx → EReal) (hfg : f = g) (a b : BitVec 32) (hab : a = b)
    (ha : 53 + a.toNat < 133) (hb : 53 + b.toNat < 133) (y : Fin 256) (x : Fin 512) :
    f (ix3 ⟨53 + a.toNat, ha⟩ y x) = g (ix3 ⟨53 + b.toNat, hb⟩ y x) := by
  subst hfg; subst hab; rfl

/-- A plane from 53 on of the canvas is the reference's pasted plane of instance `p - 53`. -/
theorem canvas_thing_eq [Cert.Pre_finite_inputs.Facts] (hO : GenP.Ok m) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (p : Fin 153) (h : 53 ≤ p.val) (y : Fin 256) (x : Fin 512) :
    canvas m hO c (ix3 p y x) = Cert.ReferenceIdeal.ReadP.val_main_v265 (F := Ideal) (m ((c.tc : Thread nD τ).loc main_arg0)) (m ((c.tc : Thread nD τ).loc main_arg1))
      (m ((c.tc : Thread nD τ).loc main_arg2)) (m ((c.tc : Thread nD τ).loc main_arg3)) (ix3 (⟨p.val - 53, by have := p.isLt; omega⟩ : Fin 100) y x) := by
  obtain rfl : c = 0 := Subsingleton.elim _ _
  have hcls : ∀ n : Fin 100, ((m (((0 : Dev nD).tc : Thread nD τ).loc main_arg3) : S100.Idx → BitVec 32) (ix1 n)).toNat < 80 :=
    fun n => classes_lt _ _ _ _ hpre n
  refine (canvas_thing m hO 0 p h y x).trans ?_
  refine thing_pixel _ _ _ _ hcls (fun i => mask_real _ _ _ _ hpre i) (instOf p h) y x _ _ _ _ _ _ _ _
    (congrFun (tbl1_eq m) (ix1 (instOf p h))) (congrFun (tbl2_eq m) (ix1 (instOf p h)))
    (congrFun (tbl3_eq m) (ix1 (instOf p h))) (congrFun (tbl4_eq m) (ix1 (instOf p h))) ?_ ?_ ?_ ?_
  · intro k l
    refine (mask_block m hO 0 (pt m hO p) h k l).trans ?_
    exact mask_entry_congr (GenP.V m 0 main_arg0) (m (((0 : Dev nD).tc : Thread nD τ).loc main_arg0)) (GenP.V_main_arg0 m 0) (instOf p h)
      ((GenP.tbl m 0 : S100.Idx → BitVec 32) (ix1 (instOf p h))) ((m (((0 : Dev nD).tc : Thread nD τ).loc main_arg3) : S100.Idx → BitVec 32) (ix1 (instOf p h)))
      (congrFun (tbl0_eq m) (ix1 (instOf p h))) _ _ k l
  · intro k
    refine (ay_block m hO 0 (pt m hO p) h y k).trans ((ay_apply m 0 (instOf p h) y k).trans ?_)
    rw [congrFun (yi0_eq m 0) (ix2 (instOf p h) y), congrFun (wy_eq m 0) (ix2 (instOf p h) y),
      congrFun (yi1_eq m 0) (ix2 (instOf p h) y), congrFun (inY_eq m 0) (ix2 (instOf p h) y)]
    unfold hat
    rw [Ideal.ofBits_one_f32]
  · intro l
    refine (bx_block m hO 0 (pt m hO p) h l x).trans ((bx_apply m 0 (instOf p h) l x).trans ?_)
    rw [congrFun (xi0_eq m 0) (ix2 (instOf p h) x), congrFun (wx_eq m 0) (ix2 (instOf p h) x),
      congrFun (xi1_eq m 0) (ix2 (instOf p h) x), congrFun (inX_eq m 0) (ix2 (instOf p h) x)]
    unfold hat
    rw [Ideal.ofBits_one_f32]
  · refine (sem_block_thing m hO 0 (pt m hO p) h y x).trans ?_
    exact sem_entry_congr (GenP.V m 0 main_arg1) (m (((0 : Dev nD).tc : Thread nD τ).loc main_arg1)) (GenP.V_main_arg1 m 0)
      ((GenP.tbl m 0 : S100.Idx → BitVec 32) (ix1 (instOf p h))) ((m (((0 : Dev nD).tc : Thread nD τ).loc main_arg3) : S100.Idx → BitVec 32) (ix1 (instOf p h)))
      (congrFun (tbl0_eq m) (ix1 (instOf p h))) _ _ y x

/-- THE CANVAS IS THE REFERENCE'S RESULT: plane by plane, the first 53 the semantic logits, the other 100 the pasted
    instances. -/
theorem canvas_eq [Cert.Pre_finite_inputs.Facts] (hO : GenP.Ok m) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    (fun i : S1x153x256x512.Idx => canvas m hO c (ix3 (i 1) (i 2) (i 3)))
      = Cert.ReferenceIdeal.ReadP.val_main_v268 (F := Ideal) (m ((c.tc : Thread nD τ).loc main_arg0)) (m ((c.tc : Thread nD τ).loc main_arg1))
          (m ((c.tc : Thread nD τ).loc main_arg2)) (m ((c.tc : Thread nD τ).loc main_arg3)) := by
  have key : ∀ (p : Fin 153) (y : Fin 256) (x : Fin 512), canvas m hO c (ix3 p y x)
      = Cert.ReferenceIdeal.ReadP.val_main_v268 (F := Ideal) (m ((c.tc : Thread nD τ).loc main_arg0)) (m ((c.tc : Thread nD τ).loc main_arg1))
          (m ((c.tc : Thread nD τ).loc main_arg2)) (m ((c.tc : Thread nD τ).loc main_arg3)) (ix4 (0 : Fin 1) p y x) := by
    intro p y x
    rw [Cert.ReferenceIdeal.Paste.result_apply]
    by_cases h : p.val < 53
    · rw [dif_pos h]
      exact canvas_stuff_eq m hO c p h y x
    · rw [dif_neg h]
      exact canvas_thing_eq m hO c hpre p (by omega) y x
  funext i
  have hi : i = ix4 (0 : Fin 1) (i 1) (i 2) (i 3) := by
    funext a
    match a with
    | ⟨0, _⟩ => exact Subsingleton.elim (α := Fin 1) _ _
    | ⟨1, _⟩ => rfl
    | ⟨2, _⟩ => rfl
    | ⟨3, _⟩ => rfl
  exact (key (i 1) (i 2) (i 3)).trans (congrArg _ hi.symm)

/-- THE KERNEL PROGRAM'S RUN with its result named: every run ends with the result buffer holding the canvas under a
    leading unit axis, and the four arguments as launched. -/
theorem kernel_run (ρ : Dev nD → PrngReg) (hO : GenP.Ok m) :
    θ_run defs (onTc (τ := τ) (main (F := Ideal))) ⟨m, fun _ => 0, ρ⟩ fun r => ∀ c : Dev nD,
      r.2.mem ((c.tc : Thread nD τ).loc main_v152) = (fun i => canvas m hO c (ix3 (i 1) (i 2) (i 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_of_final m ρ hO (fun c => canvas m hO c) (fun c => final m hO c)

end Cert.Paste

end
-- ==== Proof.lean ====
/-
  Panoptic logits: the 53 "stuff" planes of a semantic-segmentation map copied through, and, per detected instance
  n < 100, the instance's 28×28 mask logit (the channel of its class) resized to its box and pasted on the 256×512
  canvas, plus the class's semantic plane cropped to the box.

  The kernel writes plane p of the [153, 256, 512] canvas at grid point p. For p < 53 it stores the semantic plane
  it was handed. For p = 53 + n it stores  Ay · M · Bx + where(crop, sem, 0):  M the instance's 28×28 patch, fetched
  by an index map that reads the prefetched class table; Ay (256×28) and Bx (28×512) one-hot-pair matrices the host
  builds from the box — row y of Ay holds 1 − wy and wy at the two source rows of y (added where they coincide), times
  the 0/1 bit "row y is inside the box"; Bx likewise by columns. The reference gathers the four neighbouring patch
  entries of every pixel and interpolates, masks by the box, and adds the cropped class plane. Source rows, weights
  and masks are the SAME host arithmetic on the box in both programs, so they are carried as the reference's own
  stages; a source index is ⌊s⌋ for a coordinate s clipped to [0, 27] and a weight its fractional part, a real number;
  the patch is finite by the precondition; so the triple product is a real one and equals the bilinear form
  (Proof/PasteAlgebra.lean, Proof/PasteIdeal.lean). The two crops differ by the grouping of four bit-ands.

  The class of an instance indexes an axis of extent 80 in both programs (the reference gathers with it): the
  statement's precondition carries 0 ≤ classes < 80, which is also what puts every table-indexed block of the kernel
  inside its array (Proof/OkKernel.lean, Proof/OkKernelIdeal.lean), the hypothesis the two frames hold under.
-/
import proofs.«418239_j16415365005582_2_alg».proof.Defs
import proofs.«418239_j16415365005582_2_alg».proof.Proof.Gen.Kernel
import proofs.«418239_j16415365005582_2_alg».proof.Proof.Gen.KernelIdeal
import proofs.«418239_j16415365005582_2_alg».proof.Proof.Gen.ReferenceIdeal
import proofs.«418239_j16415365005582_2_alg».proof.Proof.Gen.Pre_finite_inputs
import proofs.«418239_j16415365005582_2_alg».proof.Proof.GenP.Kernel.Frame
import proofs.«418239_j16415365005582_2_alg».proof.Proof.GenP.KernelIdeal.Frame
import proofs.«418239_j16415365005582_2_alg».proof.Proof.PreFacts
import proofs.«418239_j16415365005582_2_alg».proof.Proof.OkKernel
import proofs.«418239_j16415365005582_2_alg».proof.Proof.OkKernelIdeal
import proofs.«418239_j16415365005582_2_alg».proof.Proof.RefRun
import proofs.«418239_j16415365005582_2_alg».proof.Proof.KernelTail
import proofs.«418239_j16415365005582_2_alg».proof.Proof.Bridge
import Idealize.ShloMosaic.Adequacy
import Idealize.ShloMosaic.Init

noncomputable section

namespace Cert.Proof

open Idealize.ShloMosaic Idealize.SL.Sem

/-- The word-level kernel runs and keeps its arguments: its frame, the class table in range by the precondition. -/
theorem frame_p : Cert.frame_Kernel := fun m ρ h =>
  Cert.Kernel.GenP.frame m ρ (Cert.Kernel.Paste.ok_of_classes m fun n => Cert.Paste.classes_lt _ _ _ _ (h 0) n)

/-- The same of the idealized kernel. -/
theorem frame_pi : Cert.frame_KernelIdeal := fun m ρ h =>
  Cert.KernelIdeal.GenP.frame m ρ (Cert.KernelIdeal.Paste.ok_of_classes m fun n => Cert.Paste.classes_lt _ _ _ _ (h 0) n)

/-- The reference is a straight line of host operations: it runs, and writes none of its arguments. -/
theorem frame_ri : Cert.frame_ReferenceIdeal := fun m ρ _ => Cert.ReferenceIdeal.Paste.frame m ρ

/-- The ideal pass rewrote nothing. -/
theorem preserves : Cert.preserves_Kernel_KernelIdeal := trivial

/-- Both programs end with the reference's last stage of the (agreeing) arguments. -/
theorem algebraic : Cert.algebraic_KernelIdeal_ReferenceIdeal := by
  intro m ρ m' ρ' hpre hagree
  have hcls : ∀ n : Fin 100, ((m (((0 : Dev Cert.KernelIdeal.nD).tc : Thread Cert.KernelIdeal.nD Cert.KernelIdeal.τ).loc Cert.KernelIdeal.main_arg3)) (ValueIdx.ix1 n)).toNat < 80 :=
    fun n => Cert.Paste.classes_lt _ _ _ _ (hpre 0) n
  have hO : Cert.KernelIdeal.GenP.Ok m := Cert.KernelIdeal.Paste.ok_of_classes m hcls
  refine ⟨fun c => Cert.ReferenceIdeal.ReadP.val_main_v268 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Paste.canvas_eq m hO c (hpre c)), (h c).2⟩)
      (Cert.Paste.kernel_run m ρ hO)
  · refine (θ_run Cert.ReferenceIdeal.defs _ _).mono (fun _ h c => ⟨(h c).1.trans ?_, (h c).2⟩)
      (Cert.ReferenceIdeal.Paste.run (F := Ideal) m' ρ')
    rw [(hagree c).1, (hagree c).2.1, (hagree c).2.2.1, (hagree c).2.2.2]

/-- The claim: the four printed modules' facts, the three programs' frames, the idealization that rewrote nothing, and
    the equality of the two results under the precondition. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
